-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v181)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v181) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part3 {F : FTy → Type} [FloatOps F] (main_arg11 : FVec F S3x128 .f32) (main_v48 : IVec S_ 1) (main_v49 : FVec F S3x128 .f32) (main_v50 : FVec F S3x128 .f32) : IVec S_ 1 :=
  let main_v51 : IVec S3x128 1 := cmpf .olt main_v49 main_v50
  let main_c_19 : IVec S_ 1 := constantI S_ 1 1#1
  let main_v52 : IVec S_ 1 := (fun x v => Host.reduce IntOp.andi x v reducesTo_S3x128_S_d0_1 h_S_) main_v51 main_c_19
  let main_v53 : IVec S_ 1 := andi main_v48 main_v52
  let main_v54 : FVec F S3x128 .f32 := Host.absf main_arg11
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  main_v58

def fn_part2 {F : FTy → Type} [FloatOps F] (main_arg7 : FVec F S3x128 .f32) (main_arg8 : FVec F S128x128 .f32) (main_arg9 : FVec F S128 .f32) (main_arg10 : FVec F S3x128 .f32) (main_arg11 : FVec F S3x128 .f32) (main_v33 : IVec S_ 1) : IVec S_ 1 :=
  let main_v34 : FVec F S3x128 .f32 := Host.absf main_arg7
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S3x128 .f32 := Host.absf main_arg10
  let main_cst_18 : FVec F S_ .f32 := constant S_ .f32 0x7F800000#32
  let main_v50 : FVec F S3x128 .f32 := broadcastInDim S3x128 ![] bcast_S_S3x128 main_cst_18
  fn_part3 (F := F) main_arg11 main_v48 main_v49 main_v50

def fn_part1 {F : FTy → Type} [FloatOps F] (main_arg4 : FVec F S128x128 .f32) (main_arg5 : FVec F S128 .f32) (main_arg6 : FVec F S3x128x128 .f32) (main_arg7 : FVec F S3x128 .f32) (main_arg8 : FVec F S128x128 .f32) (main_arg9 : FVec F S128 .f32) (main_arg10 : FVec F S3x128 .f32) (main_arg11 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128x128 .f32 := Host.absf main_arg6
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S100000x128 .f32) (main_arg1 : FVec F S1600000 .f32) (main_arg2 : FVec F S128x128 .f32) (main_arg3 : FVec F S128 .f32) (main_arg4 : FVec F S128x128 .f32) (main_arg5 : FVec F S128 .f32) (main_arg6 : FVec F S3x128x128 .f32) (main_arg7 : FVec F S3x128 .f32) (main_arg8 : FVec F S128x128 .f32) (main_arg9 : FVec F S128 .f32) (main_arg10 : FVec F S3x128 .f32) (main_arg11 : FVec F S3x128 .f32) (main_arg12 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S2x1600000 : Shape := ⟨2, ![2, 1600000]⟩
abbrev S1x128x128 : Shape := ⟨3, ![1, 128, 128]⟩
abbrev S1x128 : Shape := ⟨2, ![1, 128]⟩
abbrev S10000x128 : Shape := ⟨2, ![10000, 128]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S80x128 : Shape := ⟨2, ![80, 128]⟩
abbrev S8x128 : Shape := ⟨2, ![8, 128]⟩
abbrev S10x8x128 : Shape := ⟨3, ![10, 8, 128]⟩
abbrev S10x1x128 : Shape := ⟨3, ![10, 1, 128]⟩
abbrev S10x128 : Shape := ⟨2, ![10, 128]⟩

abbrev nBuf : Space → Nat
  | .hbm => 237
  | .vmem => 65
  | .smem => 0
  | _ => 0

abbrev hbmTy0_0 (i : Nat) : BufTy := match i % 128 with
  | 0 => ⟨S100000x128, .f32⟩
  | 1 => ⟨S1600000, .f32⟩
  | 2 => ⟨S128x128, .f32⟩
  | 3 => ⟨S128, .f32⟩
  | 4 => ⟨S128x128, .f32⟩
  | 5 => ⟨S128, .f32⟩
  | 6 => ⟨S3x128x128, .f32⟩
  | 7 => ⟨S3x128, .f32⟩
  | 8 => ⟨S128x128, .f32⟩
  | 9 => ⟨S128, .f32⟩
  | 10 => ⟨S3x128, .f32⟩
  | 11 => ⟨S3x128, .f32⟩
  | 12 => ⟨S2x1600000, .i32⟩
  | 13 => ⟨S1x128x128, .f32⟩
  | 14 => ⟨S128x128, .f32⟩
  | 15 => ⟨S1x128, .f32⟩
  | 16 => ⟨S1x128, .f32⟩
  | 17 => ⟨S100000x128, .f32⟩
  | 18 => ⟨S100000x128, .f32⟩
  | 19 => ⟨S100000, .i32⟩
  | 20 => ⟨S1x1600000, .i32⟩
  | 21 => ⟨S1600000, .i32⟩
  | 22 => ⟨S1700000, .i32⟩
  | 23 => ⟨S1x1600000, .i32⟩
  | 24 => ⟨S1600000, .i32⟩
  | 25 => ⟨S1700000, .i32⟩
  | 26 => ⟨S_, .f32⟩
  | 27 => ⟨S100000, .f32⟩
  | 28 => ⟨S1700000, .f32⟩
  | 29 => ⟨S_, .f32⟩
  | 30 => ⟨S100000, .f32⟩
  | 31 => ⟨S1700000x1, .i32⟩
  | 32 => ⟨S100000, .f32⟩
  | 33 => ⟨S_, .f32⟩
  | 34 => ⟨S100000, .f32⟩
  | 35 => ⟨S100000, .i1⟩
  | 36 => ⟨S_, .f32⟩
  | 37 => ⟨S100000, .f32⟩
  | 38 => ⟨S100000, .f32⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S1700000, .i32⟩
  | 46 => ⟨S1700000, .i1⟩
  | 47 => ⟨S_, .i32⟩
  | 48 => ⟨S1700000, .i32⟩
  | 49 => ⟨S1700000, .i32⟩
  | 50 => ⟨S1700000, .i32⟩
  | 51 => ⟨S1700000x1, .i32⟩
  | 52 => ⟨S1700000, .f32⟩
  | 53 => ⟨S1700000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S1x128, .f32⟩
  | 65 => ⟨S128, .f32⟩
  | 66 => ⟨S_, .i32⟩
  | 67 => ⟨S1700000, .i32⟩
  | 68 => ⟨S1700000, .i1⟩
  | 69 => ⟨S_, .i32⟩
  | 70 => ⟨S1700000, .i32⟩
  | 71 => ⟨S1700000, .i32⟩
  | 72 => ⟨S1700000, .i32⟩
  | 73 => ⟨S1700000x1, .i32⟩
  | 74 => ⟨S1700000x128, .f32⟩
  | 75 => ⟨S1700000x1, .f32⟩
  | 76 => ⟨S1700000x128, .f32⟩
  | 77 => ⟨S1700000x128, .f32⟩
  | 78 => ⟨S_, .f32⟩
  | 79 => ⟨S100000x128, .f32⟩
  | 80 => ⟨S1700000x1, .i32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S128, .f32⟩
  | 87 => ⟨S_, .f32⟩
  | 88 => ⟨S128, .f32⟩
  | 89 => ⟨S128, .f32⟩
  | 90 => ⟨S1x128, .f32⟩
  | 91 => ⟨S80x128, .f32⟩
  | 92 => ⟨S10x8x128, .f32⟩
  | 93 => ⟨S10x1x128, .f32⟩
  | 94 => ⟨S10x128, .f32⟩
  | 95 => ⟨S_, .f32⟩
  | 96 => ⟨S128, .f32⟩
  | 97 => ⟨S_, .f32⟩
  | 98 => ⟨S128, .f32⟩
  | 99 => ⟨S128, .f32⟩
  | 100 => ⟨S1x128x128, .f32⟩
  | 101 => ⟨S128x128, .f32⟩
  | 102 => ⟨S1x128, .f32⟩
  | 103 => ⟨S128, .f32⟩
  | 104 => ⟨S1x128, .f32⟩
  | 105 => ⟨S128, .f32⟩
  | 106 => ⟨S_, .f32⟩
  | 107 => ⟨S128, .f32⟩
  | 108 => ⟨S128, .f32⟩
  | 109 => ⟨S128, .f32⟩
  | 110 => ⟨S1x128, .f32⟩
  | 111 => ⟨S1x128, .f32⟩
  | 112 => ⟨S1x128, .f32⟩
  | 113 => ⟨S1x128, .f32⟩
  | 114 => ⟨S100000x128, .f32⟩
  | 115 => ⟨S100000x128, .f32⟩
  | 116 => ⟨S1x128, .f32⟩
  | 117 => ⟨S128, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x128, .f32⟩
  | 127 => ⟨S1700000x1, .f32⟩
  | _ => ⟨S100000x128, .f32⟩

abbrev hbmTy0_1 (i : Nat) : BufTy := match i % 128 with
  | 0 => ⟨S1700000x128, .f32⟩
  | 1 => ⟨S1700000x128, .f32⟩
  | 2 => ⟨S_, .f32⟩
  | 3 => ⟨S100000x128, .f32⟩
  | 4 => ⟨S1700000x1, .i32⟩
  | 5 => ⟨S100000x128, .f32⟩
  | 6 => ⟨S1x128, .f32⟩
  | 7 => ⟨S100000x128, .f32⟩
  | 8 => ⟨S100000x128, .f32⟩
  | 9 => ⟨S_, .f32⟩
  | 10 => ⟨S128, .f32⟩
  | 11 => ⟨S_, .f32⟩
  | 12 => ⟨S128, .f32⟩
  | 13 => ⟨S128, .f32⟩
  | 14 => ⟨S1x128, .f32⟩
  | 15 => ⟨S80x128, .f32⟩
  | 16 => ⟨S10x8x128, .f32⟩
  | 17 => ⟨S10x1x128, .f32⟩
  | 18 => ⟨S10x128, .f32⟩
  | 19 => ⟨S_, .f32⟩
  | 20 => ⟨S128, .f32⟩
  | 21 => ⟨S_, .f32⟩
  | 22 => ⟨S128, .f32⟩
  | 23 => ⟨S128, .f32⟩
  | 24 => ⟨S1x128x128, .f32⟩
  | 25 => ⟨S128x128, .f32⟩
  | 26 => ⟨S1x128, .f32⟩
  | 27 => ⟨S128, .f32⟩
  | 28 => ⟨S1x128, .f32⟩
  | 29 => ⟨S128, .f32⟩
  | 30 => ⟨S_, .f32⟩
  | 31 => ⟨S128, .f32⟩
  | 32 => ⟨S128, .f32⟩
  | 33 => ⟨S128, .f32⟩
  | 34 => ⟨S1x128, .f32⟩
  | 35 => ⟨S1x128, .f32⟩
  | 36 => ⟨S1x128, .f32⟩
  | 37 => ⟨S1x128, .f32⟩
  | 38 => ⟨S100000x128, .f32⟩
  | 39 => ⟨S100000x128, .f32⟩
  | 40 => ⟨S1x128, .f32⟩
  | 41 => ⟨S128, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000x128, .f32⟩
  | 51 => ⟨S1700000x1, .f32⟩
  | 52 => ⟨S1700000x128, .f32⟩
  | 53 => ⟨S1700000x128, .f32⟩
  | 54 => ⟨S_, .f32⟩
  | 55 => ⟨S100000x128, .f32⟩
  | 56 => ⟨S1700000x1, .i32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S128, .f32⟩
  | 63 => ⟨S_, .f32⟩
  | 64 => ⟨S128, .f32⟩
  | 65 => ⟨S128, .f32⟩
  | 66 => ⟨S1x128, .f32⟩
  | 67 => ⟨S80x128, .f32⟩
  | 68 => ⟨S10x8x128, .f32⟩
  | 69 => ⟨S10x1x128, .f32⟩
  | 70 => ⟨S10x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S128, .f32⟩
  | 78 => ⟨S1x128, .f32⟩
  | 79 => ⟨S128, .f32⟩
  | 80 => ⟨S_, .f32⟩
  | 81 => ⟨S128, .f32⟩
  | 82 => ⟨S128, .f32⟩
  | 83 => ⟨S128, .f32⟩
  | 84 => ⟨S1x128, .f32⟩
  | 85 => ⟨S1x128, .f32⟩
  | 86 => ⟨S1x128, .f32⟩
  | 87 => ⟨S1x128, .f32⟩
  | 88 => ⟨S100000x128, .f32⟩
  | 89 => ⟨S100000x128, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x128, .f32⟩
  | 99 => ⟨S1700000x1, .f32⟩
  | 100 => ⟨S1700000x128, .f32⟩
  | 101 => ⟨S1700000x128, .f32⟩
  | 102 => ⟨S_, .f32⟩
  | 103 => ⟨S100000x128, .f32⟩
  | 104 => ⟨S1700000x1, .i32⟩
  | 105 => ⟨S100000x128, .f32⟩
  | 106 => ⟨S1x128, .f32⟩
  | 107 => ⟨S100000x128, .f32⟩
  | 108 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S8x128, .f32⟩
  | .local _ .vmem, ⟨15, _⟩ => ⟨S8x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S128x128, .f32⟩
  | .local _ .vmem, ⟨25, _⟩ => ⟨S10000x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S1x128, .f32⟩
  | .local _ .vmem, ⟨32, _⟩ => ⟨S8x128, .f32⟩
  | .local _ .vmem, ⟨33, _⟩ => ⟨S8x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S1x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S128x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S10000x128, .f32⟩
  | .local _ .vmem, ⟨47, _⟩ => ⟨S10000x128, .f32⟩
  | .local _ .vmem, ⟨48, _⟩ => ⟨S10000x128, .f32⟩
  | .local _ .vmem, ⟨49, _⟩ => ⟨S1x128, .f32⟩
  | .local _ .vmem, ⟨50, _⟩ => ⟨S8x128, .f32⟩
  | .local _ .vmem, ⟨51, _⟩ => ⟨S8x128, .f32⟩
  | .local _ .vmem, ⟨52, _⟩ => ⟨S10000x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | .local _ .vmem, ⟨56, _⟩ => ⟨S1x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S128x128, .f32⟩
  | .local _ .vmem, ⟨61, _⟩ => ⟨S10000x128, .f32⟩
  | .local _ .vmem, ⟨62, _⟩ => ⟨S10000x128, .f32⟩
  | .local _ .vmem, ⟨63, _⟩ => ⟨S10000x128, .f32⟩
  | .local _ .vmem, ⟨64, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | _, _ => false

abbrev semScoped : Fin 0 → Bool
  | ⟨_, h⟩ => absurd h (Nat.not_lt_zero _)

abbrev dmaSemScoped : Fin 65 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | _ => false

abbrev sig : RefSig :=
  ofTc nBuf bufTy 0 65 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_7 : Ref sig .tc := ⟨.hbm, 66, rfl⟩
abbrev main_v41 : Ref sig .tc := ⟨.hbm, 67, rfl⟩
abbrev main_v42 : Ref sig .tc := ⟨.hbm, 68, rfl⟩
abbrev main_c_8 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_9 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_10 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81_0 : Ref sig .tc := ⟨.hbm, 114, rfl⟩
abbrev main_v81_1 : Ref sig .tc := ⟨.hbm, 115, rfl⟩
abbrev main_v82 : Ref sig .tc := ⟨.hbm, 116, rfl⟩
abbrev main_v83 : Ref sig .tc := ⟨.hbm, 117, rfl⟩
abbrev main_c_15 : Ref sig .tc := ⟨.hbm, 118, rfl⟩
abbrev main_v84 : Ref sig .tc := ⟨.hbm, 119, rfl⟩
abbrev main_v85 : Ref sig .tc := ⟨.hbm, 120, rfl⟩
abbrev main_c_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_17 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_cst_18 : Ref sig .tc := ⟨.hbm, 137, rfl⟩
abbrev main_v100 : Ref sig .tc := ⟨.hbm, 138, rfl⟩
abbrev main_cst_19 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_20 : Ref sig .tc := ⟨.hbm, 147, rfl⟩
abbrev main_v108 : Ref sig .tc := ⟨.hbm, 148, rfl⟩
abbrev main_cst_21 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_22 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124_0 : Ref sig .tc := ⟨.hbm, 166, rfl⟩
abbrev main_v124_1 : Ref sig .tc := ⟨.hbm, 167, rfl⟩
abbrev main_v125 : Ref sig .tc := ⟨.hbm, 168, rfl⟩
abbrev main_v126 : Ref sig .tc := ⟨.hbm, 169, rfl⟩
abbrev main_c_23 : Ref sig .tc := ⟨.hbm, 170, rfl⟩
abbrev main_v127 : Ref sig .tc := ⟨.hbm, 171, rfl⟩
abbrev main_v128 : Ref sig .tc := ⟨.hbm, 172, rfl⟩
abbrev main_c_24 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_cst_25 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_26 : Ref sig .tc := ⟨.hbm, 189, rfl⟩
abbrev main_v143 : Ref sig .tc := ⟨.hbm, 190, rfl⟩
abbrev main_cst_27 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_28 : Ref sig .tc := ⟨.hbm, 199, rfl⟩
abbrev main_v151 : Ref sig .tc := ⟨.hbm, 200, rfl⟩
abbrev main_cst_29 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_cst_30 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165_0 : Ref sig .tc := ⟨.hbm, 216, rfl⟩
abbrev main_v165_1 : Ref sig .tc := ⟨.hbm, 217, rfl⟩
abbrev main_c_31 : Ref sig .tc := ⟨.hbm, 218, rfl⟩
abbrev main_v166 : Ref sig .tc := ⟨.hbm, 219, rfl⟩
abbrev main_v167 : Ref sig .tc := ⟨.hbm, 220, rfl⟩
abbrev main_c_32 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_cst_33 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg2_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg7_1 : Ref sig .tc := ⟨.vmem, 44, rfl⟩
abbrev cc4_stg8_0 : Ref sig .tc := ⟨.vmem, 45, rfl⟩
abbrev cc4_stg8_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg2_0 : Ref sig .tc := ⟨.vmem, 50, rfl⟩
abbrev cc5_stg2_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg3_0 : Ref sig .tc := ⟨.vmem, 57, rfl⟩
abbrev cc6_stg4_0 : Ref sig .tc := ⟨.vmem, 58, rfl⟩
abbrev cc6_stg5_0 : Ref sig .tc := ⟨.vmem, 59, rfl⟩
abbrev cc6_stg6_0 : Ref sig .tc := ⟨.vmem, 60, rfl⟩
abbrev cc6_stg7_0 : Ref sig .tc := ⟨.vmem, 61, rfl⟩
abbrev cc6_stg7_1 : Ref sig .tc := ⟨.vmem, 62, rfl⟩
abbrev cc6_stg8_0 : Ref sig .tc := ⟨.vmem, 63, rfl⟩
abbrev cc6_stg8_1 : Ref sig .tc := ⟨.vmem, 64, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26
abbrev cc2_sem8_0 : DmaSem sig := 27
abbrev cc2_sem8_1 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem2_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem5_0 : DmaSem sig := 41
abbrev cc4_sem6_0 : DmaSem sig := 42
abbrev cc4_sem7_0 : DmaSem sig := 43
abbrev cc4_sem7_1 : DmaSem sig := 44
abbrev cc4_sem8_0 : DmaSem sig := 45
abbrev cc4_sem8_1 : DmaSem sig := 46
abbrev cc5_sem0_0 : DmaSem sig := 47
abbrev cc5_sem0_1 : DmaSem sig := 48
abbrev cc5_sem1_0 : DmaSem sig := 49
abbrev cc5_sem2_0 : DmaSem sig := 50
abbrev cc5_sem2_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem3_0 : DmaSem sig := 57
abbrev cc6_sem4_0 : DmaSem sig := 58
abbrev cc6_sem5_0 : DmaSem sig := 59
abbrev cc6_sem6_0 : DmaSem sig := 60
abbrev cc6_sem7_0 : DmaSem sig := 61
abbrev cc6_sem7_1 : DmaSem sig := 62
abbrev cc6_sem8_0 : DmaSem sig := 63
abbrev cc6_sem8_1 : DmaSem sig := 64

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S10000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S10000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S10000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S10000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_8 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S10000x128 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev stage6_8 : Fin 2 → Memref sig .tc .vmem S10000x128 .f32 := fun | 0 => Memref.whole cc6_stg8_0 | 1 => Memref.whole cc6_stg8_1 | ⟨_ + 2, h⟩ => absurd h (Nat.not_lt.2 (Nat.le_add_left _ _))
abbrev sem6_8 : Fin 2 → DmaSem sig := fun | 0 => cc6_sem8_0 | 1 => cc6_sem8_1 | ⟨_ + 2, h⟩ => absurd h (Nat.not_lt.2 (Nat.le_add_left _ _))
abbrev reads6_8 : Fin grid6.rank → Bool := ![true]

class Facts₀ : Prop where
  slices_S3x128x128_S1x128x128_0_0_0 : S3x128x128.Slices ![0, 0, 0] S1x128x128
  shapeCasts_S1x128x128_S128x128 : S1x128x128.ShapeCasts S128x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S128x128_S128x128 : S128x128.ShapeCasts S128x128
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  slices_S3x128_S1x128_0_0 : S3x128.Slices ![0, 0] S1x128
  shapeCasts_S1x128_S128 : S1x128.ShapeCasts S128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  shapeCasts_S10000x128_S10000x128 : S10000x128.ShapeCasts S10000x128
  reduces_S10000x128_S128 : S10000x128.Reduces [0] S128
  broadcasts_S1x128_S8x128 : S1x128.Broadcasts S8x128
  inb_S8x128_S8x128_0_0 : ∀ a, (![0, 0] : Fin 2 → Nat) a + S8x128.size a ≤ S8x128.size a
  h_S8x128 : 0 < S8x128.numel
  shapeCasts_S80x128_S10x8x128 : S80x128.ShapeCasts S10x8x128
  slices_S10x8x128_S10x1x128_0_0_0 : S10x8x128.Slices ![0, 0, 0] S10x1x128
  shapeCasts_S10x1x128_S10x128 : S10x1x128.ShapeCasts S10x128
  reducesTo_S10x128_S128_d0 : S10x128.ReducesTo [0] S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S10000x128_S128x128_S10000x128_1_0_0_1_n_n_wf : DotDims.WF S10000x128 S128x128 S10000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .f32 = 32 ∨ (Rect.block (s := S100000x128) S10000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S100000x128.size a
  hwx0_7 : ∀ i : grid0.Coords, EltTy.bits .f32 = 32 ∨ (Rect.block (s := S100000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x128.size a ≤ S80x128.size a
  hwx1_2 : ∀ i : grid1.Coords, EltTy.bits .f32 = 32 ∨ (Rect.block (s := S80x128) S8x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S10000x128.size a ≤ S100000x128.size a
  hwx2_7 : ∀ i : grid2.Coords, EltTy.bits .f32 = 32 ∨ (Rect.block (s := S100000x128) S10000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S10000x128.size a ≤ S100000x128.size a
  hwx2_8 : ∀ i : grid2.Coords, EltTy.bits .f32 = 32 ∨ (Rect.block (s := S100000x128) S10000x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8x128.size a ≤ S80x128.size a
  hwx3_2 : ∀ i : grid3.Coords, EltTy.bits .f32 = 32 ∨ (Rect.block (s := S80x128) S8x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x128.size a ≤ S128x128.size a
  hwx4_6 : ∀ i : grid4.Coords, EltTy.bits .f32 = 32 ∨ (Rect.block (s := S128x128) S128x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S10000x128.size a ≤ S100000x128.size a
  hwx4_7 : ∀ i : grid4.Coords, EltTy.bits .f32 = 32 ∨ (Rect.block (s := S100000x128) S10000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S10000x128.size a ≤ S100000x128.size a
  hwx4_8 : ∀ i : grid4.Coords, EltTy.bits .f32 = 32 ∨ (Rect.block (s := S100000x128) S10000x128.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8x128.size a ≤ S80x128.size a
  hwx5_2 : ∀ i : grid5.Coords, EltTy.bits .f32 = 32 ∨ (Rect.block (s := S80x128) S8x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S100000x128.size a
  hwx6_0 : ∀ i : grid6.Coords, EltTy.bits .f32 = 32 ∨ (Rect.block (s := S100000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S100000x128.size a
  hwx6_1 : ∀ i : grid6.Coords, EltTy.bits .f32 = 32 ∨ (Rect.block (s := S100000x128) S10000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x128.size a ≤ S128x128.size a
  hwx6_6 : ∀ i : grid6.Coords, EltTy.bits .f32 = 32 ∨ (Rect.block (s := S128x128) S128x128.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S10000x128.size a ≤ S100000x128.size a
  hwx6_7 : ∀ i : grid6.Coords, EltTy.bits .f32 = 32 ∨ (Rect.block (s := S100000x128) S10000x128.size (cc6_transform_7 i) (hinb6_7 i)).WholeWords (EltTy.packing .f32)
  hstage6_8 : ∀ j, (stage6_8 j).IsWhole
  nbuf6_8 : grid6.bufCount reads6_8 false = 2
  hreads6_8 : ∀ i i' : grid6.Coords, (∀ a, reads6_8 a = true → i a = i' a) → cc6_transform_8 i = cc6_transform_8 i'
  hinb6_8 : ∀ (i : grid6.Coords) a, (cc6_transform_8 i a + 1) * S10000x128.size a ≤ S100000x128.size a
  hwx6_8 : ∀ i : grid6.Coords, EltTy.bits .f32 = 32 ∨ (Rect.block (s := S100000x128) S10000x128.size (cc6_transform_8 i) (hinb6_8 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S10000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v56) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v60) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v61) S8x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v56) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4_0) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v77) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v79) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v69) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v81_0) S10000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v81_1) S10000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v99) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v103) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v104) S8x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v99) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v81_0) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v120) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v121) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v122) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v123) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v112) S128x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v124_0) S10000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v124_1) S10000x128.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v142) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v146) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v147) S8x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v142) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v124_0) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v161) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v162) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v163) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v164) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg8) S128x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v165_0) S10000x128.size cc6_transform_7 reads6_7 true false 2 stage6_7 sem6_7
    hrank6 hreads6_7 hinb6_7 nbuf6_7 (Memref.isWhole_whole _) hwx6_7 hstage6_7

abbrev win6_8 : Pipeline.Window sig grid6 :=
  Pipeline.Window.ofSpec (Memref.whole main_v165_1) S10000x128.size cc6_transform_8 reads6_8 true false 2 stage6_8 sem6_8
    hrank6 hreads6_8 hinb6_8 nbuf6_8 (Memref.isWhole_whole _) hwx6_8 hstage6_8

abbrev win6 : Fin 9 → Pipeline.Window sig grid6 := fun | 0 => win6_0 | 1 => win6_1 | 2 => win6_2 | 3 => win6_3 | 4 => win6_4 | 5 => win6_5 | 6 => win6_6 | 7 => win6_7 | 8 => win6_8 | ⟨_ + 9, h⟩ => absurd h (Nat.not_lt.2 (Nat.le_add_left _ _))
abbrev spec6 : Fin 9 → Pipeline.WinSpec sig grid6.rank := fun w => (win6 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S2x1600000 : Shape := ⟨2, ![2, 1600000]⟩
abbrev S1x128 : Shape := ⟨2, ![1, 128]⟩
abbrev S_ : Shape := ⟨0, ![]⟩
abbrev S100000 : Shape := ⟨1, ![100000]⟩
abbrev S1x1600000 : Shape := ⟨2, ![1, 1600000]⟩
abbrev S1700000 : Shape := ⟨1, ![1700000]⟩
abbrev S1x128x128 : Shape := ⟨3, ![1, 128, 128]⟩
abbrev S1700000x1 : Shape := ⟨2, ![1700000, 1]⟩
abbrev S1700000x128 : Shape := ⟨2, ![1700000, 128]⟩

abbrev nBuf : Space → Nat
  | .hbm => 380
  | .vmem => 0
  | .smem => 0
  | _ => 0

abbrev hbmTy0_0 (i : Nat) : BufTy := match i % 128 with
  | 0 => ⟨S100000x128, .f32⟩
  | 1 => ⟨S1600000, .f32⟩
  | 2 => ⟨S128x128, .f32⟩
  | 3 => ⟨S128, .f32⟩
  | 4 => ⟨S128x128, .f32⟩
  | 5 => ⟨S128, .f32⟩
  | 6 => ⟨S3x128x128, .f32⟩
  | 7 => ⟨S3x128, .f32⟩
  | 8 => ⟨S128x128, .f32⟩
  | 9 => ⟨S128, .f32⟩
  | 10 => ⟨S3x128, .f32⟩
  | 11 => ⟨S3x128, .f32⟩
  | 12 => ⟨S2x1600000, .i32⟩
  | 13 => ⟨S100000x128, .f32⟩
  | 14 => ⟨S1x128, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S100000, .i32⟩
  | 25 => ⟨S1x1600000, .i32⟩
  | 26 => ⟨S1600000, .i32⟩
  | 27 => ⟨S1700000, .i32⟩
  | 28 => ⟨S1x1600000, .i32⟩
  | 29 => ⟨S1600000, .i32⟩
  | 30 => ⟨S1700000, .i32⟩
  | 31 => ⟨S_, .f32⟩
  | 32 => ⟨S100000, .f32⟩
  | 33 => ⟨S1700000, .f32⟩
  | 34 => ⟨S1x128x128, .f32⟩
  | 35 => ⟨S128x128, .f32⟩
  | 36 => ⟨S1x128, .f32⟩
  | 37 => ⟨S128, .f32⟩
  | 38 => ⟨S100000x128, .f32⟩
  | 39 => ⟨S_, .f32⟩
  | 40 => ⟨S100000, .f32⟩
  | 41 => ⟨S1700000x1, .i32⟩
  | 42 => ⟨S100000, .f32⟩
  | 43 => ⟨S_, .f32⟩
  | 44 => ⟨S100000, .f32⟩
  | 45 => ⟨S100000, .i1⟩
  | 46 => ⟨S_, .f32⟩
  | 47 => ⟨S100000, .f32⟩
  | 48 => ⟨S100000, .f32⟩
  | 49 => ⟨S100000, .f32⟩
  | 50 => ⟨S_, .f32⟩
  | 51 => ⟨S_, .f32⟩
  | 52 => ⟨S100000, .f32⟩
  | 53 => ⟨S100000, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000, .f32⟩
  | 63 => ⟨S1700000, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000, .f32⟩
  | 73 => ⟨S1700000, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000x128, .f32⟩
  | 83 => ⟨S1700000x1, .f32⟩
  | 84 => ⟨S1700000x128, .f32⟩
  | 85 => ⟨S1700000x128, .f32⟩
  | 86 => ⟨S_, .f32⟩
  | 87 => ⟨S100000x128, .f32⟩
  | 88 => ⟨S1700000x1, .i32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S128, .f32⟩
  | 99 => ⟨S_, .f32⟩
  | 100 => ⟨S128, .f32⟩
  | 101 => ⟨S128, .f32⟩
  | 102 => ⟨S1x128, .f32⟩
  | 103 => ⟨S100000x128, .f32⟩
  | 104 => ⟨S100000x128, .f32⟩
  | 105 => ⟨S100000x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S_, .f32⟩
  | 115 => ⟨S128, .f32⟩
  | 116 => ⟨S128, .f32⟩
  | 117 => ⟨S128, .f32⟩
  | 118 => ⟨S1x128, .f32⟩
  | 119 => ⟨S100000x128, .f32⟩
  | 120 => ⟨S100000x128, .f32⟩
  | 121 => ⟨S1x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S100000x128, .f32⟩
  | 1 => ⟨S100000x128, .f32⟩
  | 2 => ⟨S100000x128, .f32⟩
  | 3 => ⟨S1x128x128, .f32⟩
  | 4 => ⟨S128x128, .f32⟩
  | 5 => ⟨S1x128, .f32⟩
  | 6 => ⟨S128, .f32⟩
  | 7 => ⟨S100000x128, .f32⟩
  | 8 => ⟨S_, .f32⟩
  | 9 => ⟨S100000, .f32⟩
  | 10 => ⟨S1700000x1, .i32⟩
  | 11 => ⟨S100000, .f32⟩
  | 12 => ⟨S_, .f32⟩
  | 13 => ⟨S100000, .f32⟩
  | 14 => ⟨S100000, .i1⟩
  | 15 => ⟨S_, .f32⟩
  | 16 => ⟨S100000, .f32⟩
  | 17 => ⟨S100000, .f32⟩
  | 18 => ⟨S100000, .f32⟩
  | 19 => ⟨S_, .f32⟩
  | 20 => ⟨S_, .f32⟩
  | 21 => ⟨S100000, .f32⟩
  | 22 => ⟨S100000, .f32⟩
  | 23 => ⟨S_, .i32⟩
  | 24 => ⟨S1700000, .i32⟩
  | 25 => ⟨S1700000, .i1⟩
  | 26 => ⟨S_, .i32⟩
  | 27 => ⟨S1700000, .i32⟩
  | 28 => ⟨S1700000, .i32⟩
  | 29 => ⟨S1700000, .i32⟩
  | 30 => ⟨S1700000x1, .i32⟩
  | 31 => ⟨S1700000, .f32⟩
  | 32 => ⟨S1700000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000x128, .f32⟩
  | 52 => ⟨S1700000x1, .f32⟩
  | 53 => ⟨S1700000x128, .f32⟩
  | 54 => ⟨S1700000x128, .f32⟩
  | 55 => ⟨S_, .f32⟩
  | 56 => ⟨S100000x128, .f32⟩
  | 57 => ⟨S1700000x1, .i32⟩
  | 58 => ⟨S100000x128, .f32⟩
  | 59 => ⟨S1x128, .f32⟩
  | 60 => ⟨S100000x128, .f32⟩
  | 61 => ⟨S100000x128, .f32⟩
  | 62 => ⟨S1x128, .f32⟩
  | 63 => ⟨S128, .f32⟩
  | 64 => ⟨S1x128, .f32⟩
  | 65 => ⟨S128, .f32⟩
  | 66 => ⟨S_, .f32⟩
  | 67 => ⟨S128, .f32⟩
  | 68 => ⟨S_, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S100000x128, .f32⟩
  | 75 => ⟨S_, .f32⟩
  | 76 => ⟨S128, .f32⟩
  | 77 => ⟨S_, .f32⟩
  | 78 => ⟨S128, .f32⟩
  | 79 => ⟨S128, .f32⟩
  | 80 => ⟨S1x128, .f32⟩
  | 81 => ⟨S100000x128, .f32⟩
  | 82 => ⟨S100000x128, .f32⟩
  | 83 => ⟨S_, .f32⟩
  | 84 => ⟨S128, .f32⟩
  | 85 => ⟨S128, .f32⟩
  | 86 => ⟨S128, .f32⟩
  | 87 => ⟨S1x128, .f32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S1x128x128, .f32⟩
  | 101 => ⟨S128x128, .f32⟩
  | 102 => ⟨S1x128, .f32⟩
  | 103 => ⟨S128, .f32⟩
  | 104 => ⟨S100000x128, .f32⟩
  | 105 => ⟨S_, .f32⟩
  | 106 => ⟨S100000, .f32⟩
  | 107 => ⟨S1700000x1, .i32⟩
  | 108 => ⟨S100000, .f32⟩
  | 109 => ⟨S_, .f32⟩
  | 110 => ⟨S100000, .f32⟩
  | 111 => ⟨S100000, .i1⟩
  | 112 => ⟨S_, .f32⟩
  | 113 => ⟨S100000, .f32⟩
  | 114 => ⟨S100000, .f32⟩
  | 115 => ⟨S100000, .f32⟩
  | 116 => ⟨S_, .f32⟩
  | 117 => ⟨S_, .f32⟩
  | 118 => ⟨S100000, .f32⟩
  | 119 => ⟨S100000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S100000x128, .f32⟩

abbrev hbmTy0_2 (i : Nat) : BufTy := match i % 128 with
  | 0 => ⟨S1700000, .f32⟩
  | 1 => ⟨S1700000, .f32⟩
  | 2 => ⟨S_, .i32⟩
  | 3 => ⟨S1700000, .i32⟩
  | 4 => ⟨S1700000, .i1⟩
  | 5 => ⟨S_, .i32⟩
  | 6 => ⟨S1700000, .i32⟩
  | 7 => ⟨S1700000, .i32⟩
  | 8 => ⟨S1700000, .i32⟩
  | 9 => ⟨S1700000x1, .i32⟩
  | 10 => ⟨S1700000, .f32⟩
  | 11 => ⟨S1700000, .f32⟩
  | 12 => ⟨S_, .i32⟩
  | 13 => ⟨S1700000, .i32⟩
  | 14 => ⟨S1700000, .i1⟩
  | 15 => ⟨S_, .i32⟩
  | 16 => ⟨S1700000, .i32⟩
  | 17 => ⟨S1700000, .i32⟩
  | 18 => ⟨S1700000, .i32⟩
  | 19 => ⟨S1700000x1, .i32⟩
  | 20 => ⟨S1700000x128, .f32⟩
  | 21 => ⟨S1700000x1, .f32⟩
  | 22 => ⟨S1700000x128, .f32⟩
  | 23 => ⟨S1700000x128, .f32⟩
  | 24 => ⟨S_, .f32⟩
  | 25 => ⟨S100000x128, .f32⟩
  | 26 => ⟨S1700000x1, .i32⟩
  | 27 => ⟨S100000x128, .f32⟩
  | 28 => ⟨S1x128, .f32⟩
  | 29 => ⟨S100000x128, .f32⟩
  | 30 => ⟨S100000x128, .f32⟩
  | 31 => ⟨S1x128, .f32⟩
  | 32 => ⟨S128, .f32⟩
  | 33 => ⟨S1x128, .f32⟩
  | 34 => ⟨S128, .f32⟩
  | 35 => ⟨S_, .f32⟩
  | 36 => ⟨S128, .f32⟩
  | 37 => ⟨S_, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S100000x128, .f32⟩
  | 44 => ⟨S_, .f32⟩
  | 45 => ⟨S128, .f32⟩
  | 46 => ⟨S_, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S_, .f32⟩
  | 53 => ⟨S128, .f32⟩
  | 54 => ⟨S128, .f32⟩
  | 55 => ⟨S128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000x128, .f32⟩
  | 70 => ⟨S_, .f32⟩
  | 71 => ⟨S100000, .f32⟩
  | 72 => ⟨S1700000x1, .i32⟩
  | 73 => ⟨S100000, .f32⟩
  | 74 => ⟨S_, .f32⟩
  | 75 => ⟨S100000, .f32⟩
  | 76 => ⟨S100000, .i1⟩
  | 77 => ⟨S_, .f32⟩
  | 78 => ⟨S100000, .f32⟩
  | 79 => ⟨S100000, .f32⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S1700000, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000, .f32⟩
  | 104 => ⟨S1700000, .f32⟩
  | 105 => ⟨S_, .i32⟩
  | 106 => ⟨S1700000, .i32⟩
  | 107 => ⟨S1700000, .i1⟩
  | 108 => ⟨S_, .i32⟩
  | 109 => ⟨S1700000, .i32⟩
  | 110 => ⟨S1700000, .i32⟩
  | 111 => ⟨S1700000, .i32⟩
  | 112 => ⟨S1700000x1, .i32⟩
  | 113 => ⟨S1700000x128, .f32⟩
  | 114 => ⟨S1700000x1, .f32⟩
  | 115 => ⟨S1700000x128, .f32⟩
  | 116 => ⟨S1700000x128, .f32⟩
  | 117 => ⟨S_, .f32⟩
  | 118 => ⟨S100000x128, .f32⟩
  | 119 => ⟨S1700000x1, .i32⟩
  | 120 => ⟨S100000x128, .f32⟩
  | 121 => ⟨S1x128, .f32⟩
  | 122 => ⟨S100000x128, .f32⟩
  | 123 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_cst : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_1 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v31 : Ref sig .tc := ⟨.hbm, 53, rfl⟩
abbrev main_c : Ref sig .tc := ⟨.hbm, 54, rfl⟩
abbrev main_v32 : Ref sig .tc := ⟨.hbm, 55, rfl⟩
abbrev main_v33 : Ref sig .tc := ⟨.hbm, 56, rfl⟩
abbrev main_c_4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_5 : Ref sig .tc := ⟨.hbm, 64, rfl⟩
abbrev main_v40 : Ref sig .tc := ⟨.hbm, 65, rfl⟩
abbrev main_v41 : Ref sig .tc := ⟨.hbm, 66, rfl⟩
abbrev main_c_6 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_7 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_9 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_10 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_14 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_call2_cst : Ref sig .tc := ⟨.hbm, 127, rfl⟩
abbrev main_call2_v0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_15 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_cst_16 : Ref sig .tc := ⟨.hbm, 140, rfl⟩
abbrev main_v103 : Ref sig .tc := ⟨.hbm, 141, rfl⟩
abbrev main_v104 : Ref sig .tc := ⟨.hbm, 142, rfl⟩
abbrev main_cst_17 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_cst_18 : Ref sig .tc := ⟨.hbm, 147, rfl⟩
abbrev main_call3_v0 : Ref sig .tc := ⟨.hbm, 148, rfl⟩
abbrev main_call3_v1 : Ref sig .tc := ⟨.hbm, 149, rfl⟩
abbrev main_v108 : Ref sig .tc := ⟨.hbm, 150, rfl⟩
abbrev main_c_19 : Ref sig .tc := ⟨.hbm, 151, rfl⟩
abbrev main_v109 : Ref sig .tc := ⟨.hbm, 152, rfl⟩
abbrev main_v110 : Ref sig .tc := ⟨.hbm, 153, rfl⟩
abbrev main_c_20 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_c_21 : Ref sig .tc := ⟨.hbm, 161, rfl⟩
abbrev main_v117 : Ref sig .tc := ⟨.hbm, 162, rfl⟩
abbrev main_v118 : Ref sig .tc := ⟨.hbm, 163, rfl⟩
abbrev main_c_22 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_c_23 : Ref sig .tc := ⟨.hbm, 171, rfl⟩
abbrev main_v125 : Ref sig .tc := ⟨.hbm, 172, rfl⟩
abbrev main_v126 : Ref sig .tc := ⟨.hbm, 173, rfl⟩
abbrev main_c_24 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_cst_25 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_26 : Ref sig .tc := ⟨.hbm, 194, rfl⟩
abbrev main_v145 : Ref sig .tc := ⟨.hbm, 195, rfl⟩
abbrev main_cst_27 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_28 : Ref sig .tc := ⟨.hbm, 203, rfl⟩
abbrev main_v152 : Ref sig .tc := ⟨.hbm, 204, rfl⟩
abbrev main_cst_29 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_cst_30 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_call4_cst : Ref sig .tc := ⟨.hbm, 224, rfl⟩
abbrev main_call4_v0 : Ref sig .tc := ⟨.hbm, 225, rfl⟩
abbrev main_v170 : Ref sig .tc := ⟨.hbm, 226, rfl⟩
abbrev main_v171 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_cst_31 : Ref sig .tc := ⟨.hbm, 233, rfl⟩
abbrev main_v177 : Ref sig .tc := ⟨.hbm, 234, rfl⟩
abbrev main_v178 : Ref sig .tc := ⟨.hbm, 235, rfl⟩
abbrev main_v179 : Ref sig .tc := ⟨.hbm, 236, rfl⟩
abbrev main_cst_32 : Ref sig .tc := ⟨.hbm, 237, rfl⟩
abbrev main_v180 : Ref sig .tc := ⟨.hbm, 238, rfl⟩
abbrev main_v181 : Ref sig .tc := ⟨.hbm, 239, rfl⟩
abbrev main_cst_33 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_cst_34 : Ref sig .tc := ⟨.hbm, 244, rfl⟩
abbrev main_call5_v0 : Ref sig .tc := ⟨.hbm, 245, rfl⟩
abbrev main_call5_v1 : Ref sig .tc := ⟨.hbm, 246, rfl⟩
abbrev main_v185 : Ref sig .tc := ⟨.hbm, 247, rfl⟩
abbrev main_c_35 : Ref sig .tc := ⟨.hbm, 248, rfl⟩
abbrev main_v186 : Ref sig .tc := ⟨.hbm, 249, rfl⟩
abbrev main_v187 : Ref sig .tc := ⟨.hbm, 250, rfl⟩
abbrev main_c_36 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_c_37 : Ref sig .tc := ⟨.hbm, 258, rfl⟩
abbrev main_v194 : Ref sig .tc := ⟨.hbm, 259, rfl⟩
abbrev main_v195 : Ref sig .tc := ⟨.hbm, 260, rfl⟩
abbrev main_c_38 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_c_39 : Ref sig .tc := ⟨.hbm, 268, rfl⟩
abbrev main_v202 : Ref sig .tc := ⟨.hbm, 269, rfl⟩
abbrev main_v203 : Ref sig .tc := ⟨.hbm, 270, rfl⟩
abbrev main_c_40 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_cst_41 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_v221 : Ref sig .tc := ⟨.hbm, 290, rfl⟩
abbrev main_cst_42 : Ref sig .tc := ⟨.hbm, 291, rfl⟩
abbrev main_v222 : Ref sig .tc := ⟨.hbm, 292, rfl⟩
abbrev main_cst_43 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_cst_44 : Ref sig .tc := ⟨.hbm, 300, rfl⟩
abbrev main_v229 : Ref sig .tc := ⟨.hbm, 301, rfl⟩
abbrev main_cst_45 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_cst_46 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_v238 : Ref sig .tc := ⟨.hbm, 312, rfl⟩
abbrev main_v239 : Ref sig .tc := ⟨.hbm, 313, rfl⟩
abbrev main_v240 : Ref sig .tc := ⟨.hbm, 314, rfl⟩
abbrev main_v241 : Ref sig .tc := ⟨.hbm, 315, rfl⟩
abbrev main_v242 : Ref sig .tc := ⟨.hbm, 316, rfl⟩
abbrev main_v243 : Ref sig .tc := ⟨.hbm, 317, rfl⟩
abbrev main_v244 : Ref sig .tc := ⟨.hbm, 318, rfl⟩
abbrev main_v245 : Ref sig .tc := ⟨.hbm, 319, rfl⟩
abbrev main_v246 : Ref sig .tc := ⟨.hbm, 320, rfl⟩
abbrev main_call6_cst : Ref sig .tc := ⟨.hbm, 321, rfl⟩
abbrev main_call6_v0 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_cst_47 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_cst_48 : Ref sig .tc := ⟨.hbm, 330, rfl⟩
abbrev main_v253 : Ref sig .tc := ⟨.hbm, 331, rfl⟩
abbrev main_v254 : Ref sig .tc := ⟨.hbm, 332, rfl⟩
abbrev main_cst_49 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_cst_50 : Ref sig .tc := ⟨.hbm, 337, rfl⟩
abbrev main_call7_v0 : Ref sig .tc := ⟨.hbm, 338, rfl⟩
abbrev main_call7_v1 : Ref sig .tc := ⟨.hbm, 339, rfl⟩
abbrev main_v258 : Ref sig .tc := ⟨.hbm, 340, rfl⟩
abbrev main_c_51 : Ref sig .tc := ⟨.hbm, 341, rfl⟩
abbrev main_v259 : Ref sig .tc := ⟨.hbm, 342, rfl⟩
abbrev main_v260 : Ref sig .tc := ⟨.hbm, 343, rfl⟩
abbrev main_c_52 : Ref sig .tc := ⟨.hbm, 344, rfl⟩
abbrev main_v261 : Ref sig .tc := ⟨.hbm, 345, rfl⟩
abbrev main_v262 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_c_53 : Ref sig .tc := ⟨.hbm, 351, rfl⟩
abbrev main_v267 : Ref sig .tc := ⟨.hbm, 352, rfl⟩
abbrev main_v268 : Ref sig .tc := ⟨.hbm, 353, rfl⟩
abbrev main_c_54 : Ref sig .tc := ⟨.hbm, 354, rfl⟩
abbrev main_v269 : Ref sig .tc := ⟨.hbm, 355, rfl⟩
abbrev main_v270 : Ref sig .tc := ⟨.hbm, 356, rfl⟩
abbrev main_v271 : Ref sig .tc := ⟨.hbm, 357, rfl⟩
abbrev main_v272 : Ref sig .tc := ⟨.hbm, 358, rfl⟩
abbrev main_v273 : Ref sig .tc := ⟨.hbm, 359, rfl⟩
abbrev main_v274 : Ref sig .tc := ⟨.hbm, 360, rfl⟩
abbrev main_c_55 : Ref sig .tc := ⟨.hbm, 361, rfl⟩
abbrev main_v275 : Ref sig .tc := ⟨.hbm, 362, rfl⟩
abbrev main_v276 : Ref sig .tc := ⟨.hbm, 363, rfl⟩
abbrev main_c_56 : Ref sig .tc := ⟨.hbm, 364, rfl⟩
abbrev main_v277 : Ref sig .tc := ⟨.hbm, 365, rfl⟩
abbrev main_v278 : Ref sig .tc := ⟨.hbm, 366, rfl⟩
abbrev main_v279 : Ref sig .tc := ⟨.hbm, 367, rfl⟩
abbrev main_v280 : Ref sig .tc := ⟨.hbm, 368, rfl⟩
abbrev main_v281 : Ref sig .tc := ⟨.hbm, 369, rfl⟩
abbrev main_v282 : Ref sig .tc := ⟨.hbm, 370, rfl⟩
abbrev main_v283 : Ref sig .tc := ⟨.hbm, 371, rfl⟩
abbrev main_v284 : Ref sig .tc := ⟨.hbm, 372, rfl⟩
abbrev main_cst_57 : Ref sig .tc := ⟨.hbm, 373, rfl⟩
abbrev main_v285 : Ref sig .tc := ⟨.hbm, 374, rfl⟩
abbrev main_v286 : Ref sig .tc := ⟨.hbm, 375, rfl⟩
abbrev main_v287 : Ref sig .tc := ⟨.hbm, 376, rfl⟩
abbrev main_v288 : Ref sig .tc := ⟨.hbm, 377, rfl⟩
abbrev main_v289 : Ref sig .tc := ⟨.hbm, 378, rfl⟩
abbrev main_v290 : Ref sig .tc := ⟨.hbm, 379, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  reducesTo_S100000x128_S128_d0 : S100000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Stages.lean ====
/-
  The stages of the network as functions of their operand arrays, written with the host operations the reference
  applies: a vector of 128 entries laid along each of the 100000 rows; the product of an activation array with a
  128×128 weight; the affine map x·w + b; max(·, 0); the two affine layers before the first convolution; the mean of
  every column; an array less its column means; the mean of the squares of that; one normalisation layer,
  ((h − mean)·invstd·g + b, clipped at 0 from below, plus the carried activation); the edge list with a self-loop per
  node; the symmetric normalisation of the edges; one aggregation over the graph; and the network composed of them.
  Each is defined for any float family, and then taken at the exact extended reals.
-/
import proofs.«430702_j48747878810191_4_alg».proof.Proof.Gen.ReferenceIdeal
import Idealize.ShloMosaic.PureOps.Ideal

noncomputable section

namespace Cert.StageF

open Idealize.ShloMosaic Cert.ReferenceIdeal Cert.ReferenceIdeal.Gen

variable {F : FTy → Type} [FloatOps F]

/-- An activation array: 100000 rows of 128 features. -/
abbrev Act (F : FTy → Type) := FVec F S100000x128 .f32
/-- A 128×128 weight. -/
abbrev Wt (F : FTy → Type) := FVec F S128x128 .f32
/-- A vector of 128 entries: a bias, a column mean, a scale. -/
abbrev Vc (F : FTy → Type) := FVec F S128 .f32
/-- One entry per edge and per appended self-loop: 1600000 + 100000. -/
abbrev Edge (F : FTy → Type) := FVec F S1700000 .f32
/-- A node number per edge and per self-loop. -/
abbrev EdgeIx := IVec S1700000 32
/-- One entry per node. -/
abbrev Node (F : FTy → Type) := FVec F S100000 .f32

/-- The vector laid along every row: entry (r, c) is v c. -/
def rows (v : Vc F) : Act F :=
  broadcastInDim S100000x128 ![0, 1] bcast_S1x128_S100000x128_0_1 (broadcastInDim S1x128 ![1] bcast_S128_S1x128_1 v)

/-- The array of zeros. -/
def zeros : Act F := broadcastInDim S100000x128 ![] bcast_S_S100000x128 (constant (F := F) S_ .f32 0x00000000#32)

/-- max(x, 0), entry by entry. -/
def relu (x : Act F) : Act F := maximumf x (zeros (F := F))

/-- x·w: entry (r, c) is the sum over k of x (r, k) · w (k, c). -/
def lin (x : Act F) (w : Wt F) : Act F := Host.dotGeneral (F := F) dot_S100000x128_S128x128_S100000x128_1_0_0_1_n_n none x w

/-- x·w + b, the bias along every row. -/
def affine (x : Act F) (w : Wt F) (b : Vc F) : Act F := addf (lin x w) (rows b)

/-- The two layers before the first convolution: max(x·w1 + b1, 0)·w2 + b2. -/
def preSkip (x : Act F) (w1 : Wt F) (b1 : Vc F) (w2 : Wt F) (b2 : Vc F) : Act F := affine (relu (affine x w1 b1)) w2 b2

/-- The mean of every column: the column's sum over the 100000 rows, divided by 100000. -/
def colMean (h : Act F) : Vc F :=
  Host.divf (F := F) (Host.reduceAdd (F := F) h (constant (F := F) S_ .f32 0x00000000#32) reducesTo_S100000x128_S128_d0 h_S_)
    (broadcastInDim S128 ![] bcast_S_S128 (constant (F := F) S_ .f32 0x47C35000#32))

/-- The array less a vector along every row: entry (r, c) is h (r, c) − mean c. -/
def centered (h : Act F) (mean : Vc F) : Act F := subf h (rows mean)

/-- The mean over the rows of (h − mean)², column by column. -/
def colVar (h : Act F) (mean : Vc F) : Vc F := colMean (mulf (centered h mean) (centered h mean))

/-- One normalisation layer: max((h − mean)·invstd·g + b, 0) + skip. -/
def bnReluRes (h skip : Act F) (mean invstd g b : Vc F) : Act F :=
  addf (relu (addf (mulf (mulf (centered h mean) (rows invstd)) (rows g)) (rows b))) skip

/-- The edges' sources: row 0 of the edge list, then the nodes 0 … 99999 (the self-loops). -/
def srcOf (ei : IVec S2x1600000 32) : EdgeIx :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The edges' destinations: row 1 of the edge list, then the nodes 0 … 99999. -/
def dstOf (ei : IVec S2x1600000 32) : EdgeIx :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- The edge weights, then weight 1 for every self-loop. -/
def weightsOf (ew : FVec F S1600000 .f32) : Edge F :=
  concatenate S1700000 0 [⟨S1600000, ew⟩, ⟨S100000, (broadcastInDim S100000 ![] bcast_S_S100000 (constant (F := F) S_ .f32 0x3F800000#32))⟩] concatenates_S1600000_S100000_S1700000_d0

/-- A node number as a gather reads it: a negative number has 100000 added; one column of start indices. -/
def wrap (ix : EdgeIx) : IVec S1700000x1 32 :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- Every node's weighted in-degree: the weights summed into their destinations. -/
def degree (dst : EdgeIx) (w : Edge F) : Node F :=
  Host.scatterAdd (F := F) scatter_S100000_S1700000x1_S1700000_n_0_0_1
    (broadcastInDim S100000 ![] bcast_S_S100000 (constant (F := F) S_ .f32 0x00000000#32))
    (broadcastInDim S1700000x1 ![0] bcast_S1700000_S1700000x1_0 dst) w

/-- deg^(-1/2) where the degree is positive (the degree clipped below at 1e-12 first), else 0. -/
def invSqrtDeg (deg : Node F) : Node F :=
  select (cmpf (F := F) .ogt deg (broadcastInDim S100000 ![] bcast_S_S100000 (constant (F := F) S_ .f32 0x00000000#32)))
    (Host.rsqrt (F := F) (maximumf deg (broadcastInDim S100000 ![] bcast_S_S100000 (constant (F := F) S_ .f32 0x2B8CBCCC#32))))
    (broadcastInDim S100000 ![] bcast_S_S100000 (id (constant (F := F) S_ .f32 0x00000000#32)))

/-- The symmetric normalisation of every edge: dinv[src] · weight · dinv[dst]. -/
def normOf (src dst : EdgeIx) (w : Edge F) : Edge F :=
  mulf (mulf (Host.gather gather_S100000_S1700000x1_S1700000_n_0_n_n_0_1_1 (invSqrtDeg (degree dst w)) (wrap src)) w)
    (Host.gather gather_S100000_S1700000x1_S1700000_n_0_n_n_0_1_1 (invSqrtDeg (degree dst w)) (wrap dst))

/-- One aggregation: every edge carries its source's row scaled by the edge's normalisation into its destination's
    row, the rows summed; then the bias along every row. -/
def aggOf (hlin : Act F) (bias : Vc F) (src dst : EdgeIx) (nrm : Edge F) : Act F :=
  addf (Host.scatterAdd (F := F) scatter_S100000x128_S1700000x1_S1700000x128_1_0_0_1 (zeros (F := F))
      (broadcastInDim S1700000x1 ![0] bcast_S1700000_S1700000x1_0 dst)
      (mulf (Host.gather gather_S100000x128_S1700000x1_S1700000x128_1_0_n_n_0_1_1128 hlin (wrap src))
        (broadcastInDim S1700000x128 ![0, 1] bcast_S1700000x1_S1700000x128_0_1 (broadcastInDim S1700000x1 ![0] bcast_S1700000_S1700000x1_0 nrm))))
    (rows bias)

/-- (var + 1e-5)^(-1/2), column by column. -/
def invstdOf (var : Vc F) : Vc F :=
  Host.rsqrt (F := F) (addf var (broadcastInDim S128 ![] bcast_S_S128 (constant (F := F) S_ .f32 0x3727C5AC#32)))

def weightAt0 (cw : FVec F S3x128x128 .f32) : Wt F := shapeCast _ (extractStridedSlice S1x128x128 ![0, 0, 0] cw slices_S3x128x128_S1x128x128_0_0_0) shapeCasts_S1x128x128_S128x128
def weightAt1 (cw : FVec F S3x128x128 .f32) : Wt F := shapeCast _ (extractStridedSlice S1x128x128 ![1, 0, 0] cw slices_S3x128x128_S1x128x128_1_0_0) shapeCasts_S1x128x128_S128x128
def weightAt2 (cw : FVec F S3x128x128 .f32) : Wt F := shapeCast _ (extractStridedSlice S1x128x128 ![2, 0, 0] cw slices_S3x128x128_S1x128x128_2_0_0) shapeCasts_S1x128x128_S128x128
def rowAt0 (x : FVec F S3x128 .f32) : Vc F := shapeCast _ (extractStridedSlice S1x128 ![0, 0] x slices_S3x128_S1x128_0_0) shapeCasts_S1x128_S128
def rowAt1 (x : FVec F S3x128 .f32) : Vc F := shapeCast _ (extractStridedSlice S1x128 ![1, 0] x slices_S3x128_S1x128_1_0) shapeCasts_S1x128_S128
def rowAt2 (x : FVec F S3x128 .f32) : Vc F := shapeCast _ (extractStridedSlice S1x128 ![2, 0] x slices_S3x128_S1x128_2_0) shapeCasts_S1x128_S128

/-- One normalisation layer over the convolution's result `a`, its statistics taken over the 100000 rows. -/
def layer (a skip : Act F) (g b : Vc F) : Act F :=
  bnReluRes a skip (colMean a) (invstdOf (colVar a (colMean a))) g b

end Cert.StageF

namespace Cert.Stage

open Idealize.ShloMosaic Cert.ReferenceIdeal Cert.ReferenceIdeal.Gen

/-- An activation array at the exact extended reals: 100000 rows of 128 features. -/
abbrev Act := FVec Ideal S100000x128 .f32
/-- A 128×128 weight. -/
abbrev Wt := FVec Ideal S128x128 .f32
/-- A vector of 128 entries. -/
abbrev Vc := FVec Ideal S128 .f32
/-- One entry per edge and per appended self-loop. -/
abbrev Edge := FVec Ideal S1700000 .f32
/-- A node number per edge and per self-loop. -/
abbrev EdgeIx := IVec S1700000 32
/-- One entry per node. -/
abbrev Node := FVec Ideal S100000 .f32

/-! Each stage at the exact extended reals is the stage at any float family, taken there. -/

def rows (v : Vc) : Act := Cert.StageF.rows (F := Ideal) v
def zeros : Act := Cert.StageF.zeros (F := Ideal)
def relu (x : Act) : Act := Cert.StageF.relu (F := Ideal) x
def lin (x : Act) (w : Wt) : Act := Cert.StageF.lin (F := Ideal) x w
def affine (x : Act) (w : Wt) (b : Vc) : Act := Cert.StageF.affine (F := Ideal) x w b
def preSkip (x : Act) (w1 : Wt) (b1 : Vc) (w2 : Wt) (b2 : Vc) : Act := Cert.StageF.preSkip (F := Ideal) x w1 b1 w2 b2
def colMean (h : Act) : Vc := Cert.StageF.colMean (F := Ideal) h
def centered (h : Act) (mean : Vc) : Act := Cert.StageF.centered (F := Ideal) h mean
def colVar (h : Act) (mean : Vc) : Vc := Cert.StageF.colVar (F := Ideal) h mean
def bnReluRes (h skip : Act) (mean invstd g b : Vc) : Act := Cert.StageF.bnReluRes (F := Ideal) h skip mean invstd g b
def srcOf (ei : IVec S2x1600000 32) : EdgeIx := Cert.StageF.srcOf ei
def dstOf (ei : IVec S2x1600000 32) : EdgeIx := Cert.StageF.dstOf ei
def weightsOf (ew : FVec Ideal S1600000 .f32) : Edge := Cert.StageF.weightsOf (F := Ideal) ew
def wrap (ix : EdgeIx) : IVec S1700000x1 32 := Cert.StageF.wrap ix
def degree (dst : EdgeIx) (w : Edge) : Node := Cert.StageF.degree (F := Ideal) dst w
def invSqrtDeg (deg : Node) : Node := Cert.StageF.invSqrtDeg (F := Ideal) deg
def normOf (src dst : EdgeIx) (w : Edge) : Edge := Cert.StageF.normOf (F := Ideal) src dst w
def aggOf (hlin : Act) (bias : Vc) (src dst : EdgeIx) (nrm : Edge) : Act := Cert.StageF.aggOf (F := Ideal) hlin bias src dst nrm
def invstdOf (var : Vc) : Vc := Cert.StageF.invstdOf (F := Ideal) var
def weightAt0 (cw : FVec Ideal S3x128x128 .f32) : Wt := Cert.StageF.weightAt0 (F := Ideal) cw
def weightAt1 (cw : FVec Ideal S3x128x128 .f32) : Wt := Cert.StageF.weightAt1 (F := Ideal) cw
def weightAt2 (cw : FVec Ideal S3x128x128 .f32) : Wt := Cert.StageF.weightAt2 (F := Ideal) cw
def rowAt0 (x : FVec Ideal S3x128 .f32) : Vc := Cert.StageF.rowAt0 (F := Ideal) x
def rowAt1 (x : FVec Ideal S3x128 .f32) : Vc := Cert.StageF.rowAt1 (F := Ideal) x
def rowAt2 (x : FVec Ideal S3x128 .f32) : Vc := Cert.StageF.rowAt2 (F := Ideal) x
def layer (a skip : Act) (g b : Vc) : Act := Cert.StageF.layer (F := Ideal) a skip g b

/-! ## The network -/

/-- One convolution: the linear map, then the aggregation over the normalised graph. -/
def conv (h : Act) (w : Wt) (bias : Vc) (ei : IVec S2x1600000 32) (ew : FVec Ideal S1600000 .f32) : Act :=
  aggOf (lin h w) bias (srcOf ei) (dstOf ei) (normOf (srcOf ei) (dstOf ei) (weightsOf ew))

/-- The three hidden activations, and the result: a fourth convolution with the last weight and bias. -/
def hidden0 (x : Act) (w1 : Wt) (b1 : Vc) (w2 : Wt) (b2 : Vc) : Act := preSkip x w1 b1 w2 b2
def hidden1 (x : Act) (ew : FVec Ideal S1600000 .f32) (w1 : Wt) (b1 : Vc) (w2 : Wt) (b2 : Vc) (cw : FVec Ideal S3x128x128 .f32)
    (cb g b : FVec Ideal S3x128 .f32) (ei : IVec S2x1600000 32) : Act :=
  layer (conv (hidden0 x w1 b1 w2 b2) (weightAt0 cw) (rowAt0 cb) ei ew) (hidden0 x w1 b1 w2 b2) (rowAt0 g) (rowAt0 b)
def hidden2 (x : Act) (ew : FVec Ideal S1600000 .f32) (w1 : Wt) (b1 : Vc) (w2 : Wt) (b2 : Vc) (cw : FVec Ideal S3x128x128 .f32)
    (cb g b : FVec Ideal S3x128 .f32) (ei : IVec S2x1600000 32) : Act :=
  layer (conv (hidden1 x ew w1 b1 w2 b2 cw cb g b ei) (weightAt1 cw) (rowAt1 cb) ei ew) (hidden1 x ew w1 b1 w2 b2 cw cb g b ei) (rowAt1 g) (rowAt1 b)
def hidden3 (x : Act) (ew : FVec Ideal S1600000 .f32) (w1 : Wt) (b1 : Vc) (w2 : Wt) (b2 : Vc) (cw : FVec Ideal S3x128x128 .f32)
    (cb g b : FVec Ideal S3x128 .f32) (ei : IVec S2x1600000 32) : Act :=
  layer (conv (hidden2 x ew w1 b1 w2 b2 cw cb g b ei) (weightAt2 cw) (rowAt2 cb) ei ew) (hidden2 x ew w1 b1 w2 b2 cw cb g b ei) (rowAt2 g) (rowAt2 b)
def network (x : Act) (ew : FVec Ideal S1600000 .f32) (w1 : Wt) (b1 : Vc) (w2 : Wt) (b2 : Vc) (cw : FVec Ideal S3x128x128 .f32)
    (cb : FVec Ideal S3x128 .f32) (lw : Wt) (lb : Vc) (g b : FVec Ideal S3x128 .f32) (ei : IVec S2x1600000 32) : Act :=
  conv (hidden3 x ew w1 b1 w2 b2 cw cb g b ei) lw lb ei ew

end Cert.Stage

end
-- ==== Proof.KernelStages.lean ====
/-
  What the host does with a variance region's 80×128 result: the array seen as ten tiles of eight rows, row 0 of every
  tile taken (ten rows of 128), those ten rows summed column by column, the sums divided by 100000.
-/
import proofs.«430702_j48747878810191_4_alg».proof.Proof.Gen.KernelIdeal
import Idealize.ShloMosaic.PureOps.Ideal

noncomputable section

namespace Cert.KStageF

open Idealize.ShloMosaic Cert.KernelIdeal Cert.KernelIdeal.Gen

variable {F : FTy → Type} [FloatOps F]

/-- Row 0 of each of the ten 8-row tiles, summed over the tiles, divided by 100000: one entry per column. -/
def varFinish (t : FVec F S80x128 .f32) : FVec F S128 .f32 :=
  Host.divf (F := F)
    (Host.reduceAdd (F := F)
      (shapeCast S10x128 (extractStridedSlice S10x1x128 ![0, 0, 0] (shapeCast S10x8x128 t shapeCasts_S80x128_S10x8x128) slices_S10x8x128_S10x1x128_0_0_0) shapeCasts_S10x1x128_S10x128)
      (constant (F := F) S_ .f32 0x00000000#32) reducesTo_S10x128_S128_d0 h_S_)
    (broadcastInDim S128 ![] bcast_S_S128 (constant (F := F) S_ .f32 0x47C35000#32))

end Cert.KStageF

namespace Cert.KStage

open Idealize.ShloMosaic Cert.KernelIdeal Cert.KernelIdeal.Gen

/-- The same at the exact extended reals. -/
def varFinish (t : FVec Ideal S80x128 .f32) : FVec Ideal S128 .f32 := Cert.KStageF.varFinish (F := Ideal) t

end Cert.KStage

end
-- ==== Proof.KernelHost.lean ====
/-
  The host side of the kernel's @main, one stretch of operations at a time: what a stretch leaves in each buffer that a
  later region or stretch reads, as a stage function of what the stretch found (any contents X, at any float family: the two sides are the same
  operations, and stating them abstractly keeps their comparison short), and, for the buffers
  a stretch does not write but that are read later, that it leaves them as they were.
-/
import proofs.«430702_j48747878810191_4_alg».proof.Proof.Gen.KernelIdeal.Launch
import proofs.«430702_j48747878810191_4_alg».proof.Proof.Stages
import proofs.«430702_j48747878810191_4_alg».proof.Proof.KernelStages
import Idealize.ShloMosaic.Lib.StableHlo.Run

noncomputable section

namespace Cert.KernelIdeal.Host

open Cert.KernelIdeal Cert.KernelIdeal.Gen Idealize.ShloMosaic Idealize.ShloMosaic.TcCoe Idealize.SL.Sem Idealize.ShloMosaic.StableHlo

variable {F : FTy → Type} [FloatOps F]

/-- One aggregation over the graph built from the edge list and the edge weights: the normalisation is a function of
    those two alone. -/
def convAgg (hl : Cert.StageF.Act F) (bias : Cert.StageF.Vc F) (ei : IVec S2x1600000 32) (ew : FVec F S1600000 .f32) : Cert.StageF.Act F :=
  Cert.StageF.aggOf hl bias (Cert.StageF.srcOf ei) (Cert.StageF.dstOf ei) (Cert.StageF.normOf (Cert.StageF.srcOf ei) (Cert.StageF.dstOf ei) (Cert.StageF.weightsOf ew))

/-- The three stretches between region 0 and region 1, in order. -/
abbrev after1 (X : Valuation τ sig (Elt F)) : Valuation τ sig (Elt F) :=
  after (hostOps1_2 (F := F)) (after (hostOps1_1 (F := F)) (after (hostOps1 (F := F)) X))

/-! ## Before region 0 -/

/-- Layer 0's weight. -/
theorem h0_v1 (X : Valuation τ sig (Elt F)) :
    after (hostOps0 (F := F)) X (Proc.devRef .tc main_v1) = Cert.StageF.weightAt0 (X (Proc.devRef .tc main_arg6)) := by
  after_results_simp
  rfl
/-- The first bias as one row. -/
theorem h0_v2 (X : Valuation τ sig (Elt F)) :
    after (hostOps0 (F := F)) X (Proc.devRef .tc main_v2) = shapeCast S1x128 (X (Proc.devRef .tc main_arg3)) shapeCasts_S128_S1x128 := by
  after_results_simp
  rfl
/-- The second bias as one row. -/
theorem h0_v3 (X : Valuation τ sig (Elt F)) :
    after (hostOps0 (F := F)) X (Proc.devRef .tc main_v3) = shapeCast S1x128 (X (Proc.devRef .tc main_arg5)) shapeCasts_S128_S1x128 := by
  after_results_simp
  rfl
theorem h0_keep_arg0 (X : Valuation τ sig (Elt F)) : after (hostOps0 (F := F)) X (Proc.devRef .tc main_arg0) = X (Proc.devRef .tc main_arg0) := by after_results_simp
theorem h0_keep_arg1 (X : Valuation τ sig (Elt F)) : after (hostOps0 (F := F)) X (Proc.devRef .tc main_arg1) = X (Proc.devRef .tc main_arg1) := by after_results_simp
theorem h0_keep_arg2 (X : Valuation τ sig (Elt F)) : after (hostOps0 (F := F)) X (Proc.devRef .tc main_arg2) = X (Proc.devRef .tc main_arg2) := by after_results_simp
theorem h0_keep_arg4 (X : Valuation τ sig (Elt F)) : after (hostOps0 (F := F)) X (Proc.devRef .tc main_arg4) = X (Proc.devRef .tc main_arg4) := by after_results_simp
theorem h0_keep_arg6 (X : Valuation τ sig (Elt F)) : after (hostOps0 (F := F)) X (Proc.devRef .tc main_arg6) = X (Proc.devRef .tc main_arg6) := by after_results_simp
theorem h0_keep_arg7 (X : Valuation τ sig (Elt F)) : after (hostOps0 (F := F)) X (Proc.devRef .tc main_arg7) = X (Proc.devRef .tc main_arg7) := by after_results_simp
theorem h0_keep_arg8 (X : Valuation τ sig (Elt F)) : after (hostOps0 (F := F)) X (Proc.devRef .tc main_arg8) = X (Proc.devRef .tc main_arg8) := by after_results_simp
theorem h0_keep_arg9 (X : Valuation τ sig (Elt F)) : after (hostOps0 (F := F)) X (Proc.devRef .tc main_arg9) = X (Proc.devRef .tc main_arg9) := by after_results_simp
theorem h0_keep_arg10 (X : Valuation τ sig (Elt F)) : after (hostOps0 (F := F)) X (Proc.devRef .tc main_arg10) = X (Proc.devRef .tc main_arg10) := by after_results_simp
theorem h0_keep_arg11 (X : Valuation τ sig (Elt F)) : after (hostOps0 (F := F)) X (Proc.devRef .tc main_arg11) = X (Proc.devRef .tc main_arg11) := by after_results_simp
theorem h0_keep_arg12 (X : Valuation τ sig (Elt F)) : after (hostOps0 (F := F)) X (Proc.devRef .tc main_arg12) = X (Proc.devRef .tc main_arg12) := by after_results_simp

/-! ## Between region 0 and region 1: the graph, the first aggregation, its column means -/

/-- The edges' sources. -/
theorem h1_v8 (X : Valuation τ sig (Elt F)) :
    after1 X (Proc.devRef .tc main_v8) = Cert.StageF.srcOf (X (Proc.devRef .tc main_arg12)) := by
  after_results_simp
  rfl
/-- The edges' destinations. -/
theorem h1_v11 (X : Valuation τ sig (Elt F)) :
    after1 X (Proc.devRef .tc main_v11) = Cert.StageF.dstOf (X (Proc.devRef .tc main_arg12)) := by
  after_results_simp
  rfl
set_option maxHeartbeats 2000000 in
set_option maxRecDepth 200000 in
/-- The edges' normalisation. -/
theorem h1_v38 (X : Valuation τ sig (Elt F)) :
    after1 X (Proc.devRef .tc main_v38) = Cert.StageF.normOf (Cert.StageF.srcOf (X (Proc.devRef .tc main_arg12))) (Cert.StageF.dstOf (X (Proc.devRef .tc main_arg12))) (Cert.StageF.weightsOf (X (Proc.devRef .tc main_arg1))) := by
  after_results_simp
  rfl
set_option maxHeartbeats 4000000 in
set_option maxRecDepth 200000 in
/-- The first aggregation, of region 0's second output. -/
theorem h1_v56 (X : Valuation τ sig (Elt F)) :
    after1 X (Proc.devRef .tc main_v56) = (convAgg (X (Proc.devRef .tc main_v4_1)) (Cert.StageF.rowAt0 (X (Proc.devRef .tc main_arg7))) (X (Proc.devRef .tc main_arg12)) (X (Proc.devRef .tc main_arg1))) := by
  after_results_simp
  rfl
set_option maxHeartbeats 4000000 in
set_option maxRecDepth 200000 in
/-- Its column means. -/
theorem h1_v59 (X : Valuation τ sig (Elt F)) :
    after1 X (Proc.devRef .tc main_v59) = Cert.StageF.colMean (convAgg (X (Proc.devRef .tc main_v4_1)) (Cert.StageF.rowAt0 (X (Proc.devRef .tc main_arg7))) (X (Proc.devRef .tc main_arg12)) (X (Proc.devRef .tc main_arg1))) := by
  after_results_simp
  rfl
set_option maxHeartbeats 4000000 in
set_option maxRecDepth 200000 in
/-- The means as one row. -/
theorem h1_v60 (X : Valuation τ sig (Elt F)) :
    after1 X (Proc.devRef .tc main_v60) = shapeCast S1x128 (Cert.StageF.colMean (convAgg (X (Proc.devRef .tc main_v4_1)) (Cert.StageF.rowAt0 (X (Proc.devRef .tc main_arg7))) (X (Proc.devRef .tc main_arg12)) (X (Proc.devRef .tc main_arg1)))) shapeCasts_S128_S1x128 := by
  after_results_simp
  rfl
theorem h1_keep_v4_0 (X : Valuation τ sig (Elt F)) : after1 X (Proc.devRef .tc main_v4_0) = X (Proc.devRef .tc main_v4_0) := by after_results_simp
theorem h1_keep_arg6 (X : Valuation τ sig (Elt F)) : after1 X (Proc.devRef .tc main_arg6) = X (Proc.devRef .tc main_arg6) := by after_results_simp
theorem h1_keep_arg7 (X : Valuation τ sig (Elt F)) : after1 X (Proc.devRef .tc main_arg7) = X (Proc.devRef .tc main_arg7) := by after_results_simp
theorem h1_keep_arg8 (X : Valuation τ sig (Elt F)) : after1 X (Proc.devRef .tc main_arg8) = X (Proc.devRef .tc main_arg8) := by after_results_simp
theorem h1_keep_arg9 (X : Valuation τ sig (Elt F)) : after1 X (Proc.devRef .tc main_arg9) = X (Proc.devRef .tc main_arg9) := by after_results_simp
theorem h1_keep_arg10 (X : Valuation τ sig (Elt F)) : after1 X (Proc.devRef .tc main_arg10) = X (Proc.devRef .tc main_arg10) := by after_results_simp
theorem h1_keep_arg11 (X : Valuation τ sig (Elt F)) : after1 X (Proc.devRef .tc main_arg11) = X (Proc.devRef .tc main_arg11) := by after_results_simp

/-! ## After variance region 1: the variance, the inverse standard deviation, the next region's one-row operands -/

/-- The next layer's weight. -/
theorem h2_v69 (X : Valuation τ sig (Elt F)) :
    after (hostOps2 (F := F)) X (Proc.devRef .tc main_v69) = Cert.StageF.weightAt1 (X (Proc.devRef .tc main_arg6)) := by
  after_results_simp
  rfl
/-- The column means as one row. -/
theorem h2_v77 (X : Valuation τ sig (Elt F)) :
    after (hostOps2 (F := F)) X (Proc.devRef .tc main_v77) = shapeCast S1x128 (X (Proc.devRef .tc main_v59)) shapeCasts_S128_S1x128 := by
  after_results_simp
  rfl
/-- The inverse standard deviation as one row. -/
theorem h2_v78 (X : Valuation τ sig (Elt F)) :
    after (hostOps2 (F := F)) X (Proc.devRef .tc main_v78) = shapeCast S1x128 (Cert.StageF.invstdOf (Cert.KStageF.varFinish (X (Proc.devRef .tc main_v61)))) shapeCasts_S128_S1x128 := by
  after_results_simp
  rfl
/-- The layer's scale as one row. -/
theorem h2_v79 (X : Valuation τ sig (Elt F)) :
    after (hostOps2 (F := F)) X (Proc.devRef .tc main_v79) = shapeCast S1x128 (Cert.StageF.rowAt0 (X (Proc.devRef .tc main_arg10))) shapeCasts_S128_S1x128 := by
  after_results_simp
  rfl
/-- The layer's shift as one row. -/
theorem h2_v80 (X : Valuation τ sig (Elt F)) :
    after (hostOps2 (F := F)) X (Proc.devRef .tc main_v80) = shapeCast S1x128 (Cert.StageF.rowAt0 (X (Proc.devRef .tc main_arg11))) shapeCasts_S128_S1x128 := by
  after_results_simp
  rfl
theorem h2_keep_v56 (X : Valuation τ sig (Elt F)) : after (hostOps2 (F := F)) X (Proc.devRef .tc main_v56) = X (Proc.devRef .tc main_v56) := by after_results_simp
theorem h2_keep_v4_0 (X : Valuation τ sig (Elt F)) : after (hostOps2 (F := F)) X (Proc.devRef .tc main_v4_0) = X (Proc.devRef .tc main_v4_0) := by after_results_simp
theorem h2_keep_v8 (X : Valuation τ sig (Elt F)) : after (hostOps2 (F := F)) X (Proc.devRef .tc main_v8) = X (Proc.devRef .tc main_v8) := by after_results_simp
theorem h2_keep_v11 (X : Valuation τ sig (Elt F)) : after (hostOps2 (F := F)) X (Proc.devRef .tc main_v11) = X (Proc.devRef .tc main_v11) := by after_results_simp
theorem h2_keep_v38 (X : Valuation τ sig (Elt F)) : after (hostOps2 (F := F)) X (Proc.devRef .tc main_v38) = X (Proc.devRef .tc main_v38) := by after_results_simp
theorem h2_keep_arg6 (X : Valuation τ sig (Elt F)) : after (hostOps2 (F := F)) X (Proc.devRef .tc main_arg6) = X (Proc.devRef .tc main_arg6) := by after_results_simp
theorem h2_keep_arg7 (X : Valuation τ sig (Elt F)) : after (hostOps2 (F := F)) X (Proc.devRef .tc main_arg7) = X (Proc.devRef .tc main_arg7) := by after_results_simp
theorem h2_keep_arg8 (X : Valuation τ sig (Elt F)) : after (hostOps2 (F := F)) X (Proc.devRef .tc main_arg8) = X (Proc.devRef .tc main_arg8) := by after_results_simp
theorem h2_keep_arg9 (X : Valuation τ sig (Elt F)) : after (hostOps2 (F := F)) X (Proc.devRef .tc main_arg9) = X (Proc.devRef .tc main_arg9) := by after_results_simp
theorem h2_keep_arg10 (X : Valuation τ sig (Elt F)) : after (hostOps2 (F := F)) X (Proc.devRef .tc main_arg10) = X (Proc.devRef .tc main_arg10) := by after_results_simp
theorem h2_keep_arg11 (X : Valuation τ sig (Elt F)) : after (hostOps2 (F := F)) X (Proc.devRef .tc main_arg11) = X (Proc.devRef .tc main_arg11) := by after_results_simp

/-! ## After normalisation region 2: the next aggregation and its column means -/

set_option maxHeartbeats 2000000 in
set_option maxRecDepth 200000 in
/-- The aggregation of the region's second output. -/
theorem h3_v99 (X : Valuation τ sig (Elt F)) :
    after (hostOps3 (F := F)) X (Proc.devRef .tc main_v99) = (Cert.StageF.aggOf (X (Proc.devRef .tc main_v81_1)) (Cert.StageF.rowAt1 (X (Proc.devRef .tc main_arg7))) (X (Proc.devRef .tc main_v8)) (X (Proc.devRef .tc main_v11)) (X (Proc.devRef .tc main_v38))) := by
  after_results_simp
  rfl
set_option maxHeartbeats 2000000 in
set_option maxRecDepth 200000 in
/-- Its column means. -/
theorem h3_v102 (X : Valuation τ sig (Elt F)) :
    after (hostOps3 (F := F)) X (Proc.devRef .tc main_v102) = Cert.StageF.colMean (Cert.StageF.aggOf (X (Proc.devRef .tc main_v81_1)) (Cert.StageF.rowAt1 (X (Proc.devRef .tc main_arg7))) (X (Proc.devRef .tc main_v8)) (X (Proc.devRef .tc main_v11)) (X (Proc.devRef .tc main_v38))) := by
  after_results_simp
  rfl
set_option maxHeartbeats 2000000 in
set_option maxRecDepth 200000 in
/-- The means as one row. -/
theorem h3_v103 (X : Valuation τ sig (Elt F)) :
    after (hostOps3 (F := F)) X (Proc.devRef .tc main_v103) = shapeCast S1x128 (Cert.StageF.colMean (Cert.StageF.aggOf (X (Proc.devRef .tc main_v81_1)) (Cert.StageF.rowAt1 (X (Proc.devRef .tc main_arg7))) (X (Proc.devRef .tc main_v8)) (X (Proc.devRef .tc main_v11)) (X (Proc.devRef .tc main_v38)))) shapeCasts_S128_S1x128 := by
  after_results_simp
  rfl
theorem h3_keep_v81_0 (X : Valuation τ sig (Elt F)) : after (hostOps3 (F := F)) X (Proc.devRef .tc main_v81_0) = X (Proc.devRef .tc main_v81_0) := by after_results_simp
theorem h3_keep_v8 (X : Valuation τ sig (Elt F)) : after (hostOps3 (F := F)) X (Proc.devRef .tc main_v8) = X (Proc.devRef .tc main_v8) := by after_results_simp
theorem h3_keep_v11 (X : Valuation τ sig (Elt F)) : after (hostOps3 (F := F)) X (Proc.devRef .tc main_v11) = X (Proc.devRef .tc main_v11) := by after_results_simp
theorem h3_keep_v38 (X : Valuation τ sig (Elt F)) : after (hostOps3 (F := F)) X (Proc.devRef .tc main_v38) = X (Proc.devRef .tc main_v38) := by after_results_simp
theorem h3_keep_arg6 (X : Valuation τ sig (Elt F)) : after (hostOps3 (F := F)) X (Proc.devRef .tc main_arg6) = X (Proc.devRef .tc main_arg6) := by after_results_simp
theorem h3_keep_arg7 (X : Valuation τ sig (Elt F)) : after (hostOps3 (F := F)) X (Proc.devRef .tc main_arg7) = X (Proc.devRef .tc main_arg7) := by after_results_simp
theorem h3_keep_arg8 (X : Valuation τ sig (Elt F)) : after (hostOps3 (F := F)) X (Proc.devRef .tc main_arg8) = X (Proc.devRef .tc main_arg8) := by after_results_simp
theorem h3_keep_arg9 (X : Valuation τ sig (Elt F)) : after (hostOps3 (F := F)) X (Proc.devRef .tc main_arg9) = X (Proc.devRef .tc main_arg9) := by after_results_simp
theorem h3_keep_arg10 (X : Valuation τ sig (Elt F)) : after (hostOps3 (F := F)) X (Proc.devRef .tc main_arg10) = X (Proc.devRef .tc main_arg10) := by after_results_simp
theorem h3_keep_arg11 (X : Valuation τ sig (Elt F)) : after (hostOps3 (F := F)) X (Proc.devRef .tc main_arg11) = X (Proc.devRef .tc main_arg11) := by after_results_simp

/-! ## After variance region 3: the variance, the inverse standard deviation, the next region's one-row operands -/

/-- The next layer's weight. -/
theorem h4_v112 (X : Valuation τ sig (Elt F)) :
    after (hostOps4 (F := F)) X (Proc.devRef .tc main_v112) = Cert.StageF.weightAt2 (X (Proc.devRef .tc main_arg6)) := by
  after_results_simp
  rfl
/-- The column means as one row. -/
theorem h4_v120 (X : Valuation τ sig (Elt F)) :
    after (hostOps4 (F := F)) X (Proc.devRef .tc main_v120) = shapeCast S1x128 (X (Proc.devRef .tc main_v102)) shapeCasts_S128_S1x128 := by
  after_results_simp
  rfl
/-- The inverse standard deviation as one row. -/
theorem h4_v121 (X : Valuation τ sig (Elt F)) :
    after (hostOps4 (F := F)) X (Proc.devRef .tc main_v121) = shapeCast S1x128 (Cert.StageF.invstdOf (Cert.KStageF.varFinish (X (Proc.devRef .tc main_v104)))) shapeCasts_S128_S1x128 := by
  after_results_simp
  rfl
/-- The layer's scale as one row. -/
theorem h4_v122 (X : Valuation τ sig (Elt F)) :
    after (hostOps4 (F := F)) X (Proc.devRef .tc main_v122) = shapeCast S1x128 (Cert.StageF.rowAt1 (X (Proc.devRef .tc main_arg10))) shapeCasts_S128_S1x128 := by
  after_results_simp
  rfl
/-- The layer's shift as one row. -/
theorem h4_v123 (X : Valuation τ sig (Elt F)) :
    after (hostOps4 (F := F)) X (Proc.devRef .tc main_v123) = shapeCast S1x128 (Cert.StageF.rowAt1 (X (Proc.devRef .tc main_arg11))) shapeCasts_S128_S1x128 := by
  after_results_simp
  rfl
theorem h4_keep_v99 (X : Valuation τ sig (Elt F)) : after (hostOps4 (F := F)) X (Proc.devRef .tc main_v99) = X (Proc.devRef .tc main_v99) := by after_results_simp
theorem h4_keep_v81_0 (X : Valuation τ sig (Elt F)) : after (hostOps4 (F := F)) X (Proc.devRef .tc main_v81_0) = X (Proc.devRef .tc main_v81_0) := by after_results_simp
theorem h4_keep_v8 (X : Valuation τ sig (Elt F)) : after (hostOps4 (F := F)) X (Proc.devRef .tc main_v8) = X (Proc.devRef .tc main_v8) := by after_results_simp
theorem h4_keep_v11 (X : Valuation τ sig (Elt F)) : after (hostOps4 (F := F)) X (Proc.devRef .tc main_v11) = X (Proc.devRef .tc main_v11) := by after_results_simp
theorem h4_keep_v38 (X : Valuation τ sig (Elt F)) : after (hostOps4 (F := F)) X (Proc.devRef .tc main_v38) = X (Proc.devRef .tc main_v38) := by after_results_simp
theorem h4_keep_arg7 (X : Valuation τ sig (Elt F)) : after (hostOps4 (F := F)) X (Proc.devRef .tc main_arg7) = X (Proc.devRef .tc main_arg7) := by after_results_simp
theorem h4_keep_arg8 (X : Valuation τ sig (Elt F)) : after (hostOps4 (F := F)) X (Proc.devRef .tc main_arg8) = X (Proc.devRef .tc main_arg8) := by after_results_simp
theorem h4_keep_arg9 (X : Valuation τ sig (Elt F)) : after (hostOps4 (F := F)) X (Proc.devRef .tc main_arg9) = X (Proc.devRef .tc main_arg9) := by after_results_simp
theorem h4_keep_arg10 (X : Valuation τ sig (Elt F)) : after (hostOps4 (F := F)) X (Proc.devRef .tc main_arg10) = X (Proc.devRef .tc main_arg10) := by after_results_simp
theorem h4_keep_arg11 (X : Valuation τ sig (Elt F)) : after (hostOps4 (F := F)) X (Proc.devRef .tc main_arg11) = X (Proc.devRef .tc main_arg11) := by after_results_simp

/-! ## After normalisation region 4: the next aggregation and its column means -/

set_option maxHeartbeats 2000000 in
set_option maxRecDepth 200000 in
/-- The aggregation of the region's second output. -/
theorem h5_v142 (X : Valuation τ sig (Elt F)) :
    after (hostOps5 (F := F)) X (Proc.devRef .tc main_v142) = (Cert.StageF.aggOf (X (Proc.devRef .tc main_v124_1)) (Cert.StageF.rowAt2 (X (Proc.devRef .tc main_arg7))) (X (Proc.devRef .tc main_v8)) (X (Proc.devRef .tc main_v11)) (X (Proc.devRef .tc main_v38))) := by
  after_results_simp
  rfl
set_option maxHeartbeats 2000000 in
set_option maxRecDepth 200000 in
/-- Its column means. -/
theorem h5_v145 (X : Valuation τ sig (Elt F)) :
    after (hostOps5 (F := F)) X (Proc.devRef .tc main_v145) = Cert.StageF.colMean (Cert.StageF.aggOf (X (Proc.devRef .tc main_v124_1)) (Cert.StageF.rowAt2 (X (Proc.devRef .tc main_arg7))) (X (Proc.devRef .tc main_v8)) (X (Proc.devRef .tc main_v11)) (X (Proc.devRef .tc main_v38))) := by
  after_results_simp
  rfl
set_option maxHeartbeats 2000000 in
set_option maxRecDepth 200000 in
/-- The means as one row. -/
theorem h5_v146 (X : Valuation τ sig (Elt F)) :
    after (hostOps5 (F := F)) X (Proc.devRef .tc main_v146) = shapeCast S1x128 (Cert.StageF.colMean (Cert.StageF.aggOf (X (Proc.devRef .tc main_v124_1)) (Cert.StageF.rowAt2 (X (Proc.devRef .tc main_arg7))) (X (Proc.devRef .tc main_v8)) (X (Proc.devRef .tc main_v11)) (X (Proc.devRef .tc main_v38)))) shapeCasts_S128_S1x128 := by
  after_results_simp
  rfl
theorem h5_keep_v124_0 (X : Valuation τ sig (Elt F)) : after (hostOps5 (F := F)) X (Proc.devRef .tc main_v124_0) = X (Proc.devRef .tc main_v124_0) := by after_results_simp
theorem h5_keep_v8 (X : Valuation τ sig (Elt F)) : after (hostOps5 (F := F)) X (Proc.devRef .tc main_v8) = X (Proc.devRef .tc main_v8) := by after_results_simp
theorem h5_keep_v11 (X : Valuation τ sig (Elt F)) : after (hostOps5 (F := F)) X (Proc.devRef .tc main_v11) = X (Proc.devRef .tc main_v11) := by after_results_simp
theorem h5_keep_v38 (X : Valuation τ sig (Elt F)) : after (hostOps5 (F := F)) X (Proc.devRef .tc main_v38) = X (Proc.devRef .tc main_v38) := by after_results_simp
theorem h5_keep_arg8 (X : Valuation τ sig (Elt F)) : after (hostOps5 (F := F)) X (Proc.devRef .tc main_arg8) = X (Proc.devRef .tc main_arg8) := by after_results_simp
theorem h5_keep_arg9 (X : Valuation τ sig (Elt F)) : after (hostOps5 (F := F)) X (Proc.devRef .tc main_arg9) = X (Proc.devRef .tc main_arg9) := by after_results_simp
theorem h5_keep_arg10 (X : Valuation τ sig (Elt F)) : after (hostOps5 (F := F)) X (Proc.devRef .tc main_arg10) = X (Proc.devRef .tc main_arg10) := by after_results_simp
theorem h5_keep_arg11 (X : Valuation τ sig (Elt F)) : after (hostOps5 (F := F)) X (Proc.devRef .tc main_arg11) = X (Proc.devRef .tc main_arg11) := by after_results_simp

/-! ## After variance region 5: the variance, the inverse standard deviation, the next region's one-row operands -/

/-- The column means as one row. -/
theorem h6_v161 (X : Valuation τ sig (Elt F)) :
    after (hostOps6 (F := F)) X (Proc.devRef .tc main_v161) = shapeCast S1x128 (X (Proc.devRef .tc main_v145)) shapeCasts_S128_S1x128 := by
  after_results_simp
  rfl
/-- The inverse standard deviation as one row. -/
theorem h6_v162 (X : Valuation τ sig (Elt F)) :
    after (hostOps6 (F := F)) X (Proc.devRef .tc main_v162) = shapeCast S1x128 (Cert.StageF.invstdOf (Cert.KStageF.varFinish (X (Proc.devRef .tc main_v147)))) shapeCasts_S128_S1x128 := by
  after_results_simp
  rfl
/-- The layer's scale as one row. -/
theorem h6_v163 (X : Valuation τ sig (Elt F)) :
    after (hostOps6 (F := F)) X (Proc.devRef .tc main_v163) = shapeCast S1x128 (Cert.StageF.rowAt2 (X (Proc.devRef .tc main_arg10))) shapeCasts_S128_S1x128 := by
  after_results_simp
  rfl
/-- The layer's shift as one row. -/
theorem h6_v164 (X : Valuation τ sig (Elt F)) :
    after (hostOps6 (F := F)) X (Proc.devRef .tc main_v164) = shapeCast S1x128 (Cert.StageF.rowAt2 (X (Proc.devRef .tc main_arg11))) shapeCasts_S128_S1x128 := by
  after_results_simp
  rfl
theorem h6_keep_v142 (X : Valuation τ sig (Elt F)) : after (hostOps6 (F := F)) X (Proc.devRef .tc main_v142) = X (Proc.devRef .tc main_v142) := by after_results_simp
theorem h6_keep_v124_0 (X : Valuation τ sig (Elt F)) : after (hostOps6 (F := F)) X (Proc.devRef .tc main_v124_0) = X (Proc.devRef .tc main_v124_0) := by after_results_simp
theorem h6_keep_v8 (X : Valuation τ sig (Elt F)) : after (hostOps6 (F := F)) X (Proc.devRef .tc main_v8) = X (Proc.devRef .tc main_v8) := by after_results_simp
theorem h6_keep_v11 (X : Valuation τ sig (Elt F)) : after (hostOps6 (F := F)) X (Proc.devRef .tc main_v11) = X (Proc.devRef .tc main_v11) := by after_results_simp
theorem h6_keep_v38 (X : Valuation τ sig (Elt F)) : after (hostOps6 (F := F)) X (Proc.devRef .tc main_v38) = X (Proc.devRef .tc main_v38) := by after_results_simp
theorem h6_keep_arg8 (X : Valuation τ sig (Elt F)) : after (hostOps6 (F := F)) X (Proc.devRef .tc main_arg8) = X (Proc.devRef .tc main_arg8) := by after_results_simp
theorem h6_keep_arg9 (X : Valuation τ sig (Elt F)) : after (hostOps6 (F := F)) X (Proc.devRef .tc main_arg9) = X (Proc.devRef .tc main_arg9) := by after_results_simp

/-! ## After region 6: the last aggregation, the result -/

set_option maxHeartbeats 2000000 in
set_option maxRecDepth 200000 in
/-- The result: the aggregation of region 6's second output with the last bias. -/
theorem h7_v181 (X : Valuation τ sig (Elt F)) :
    after (hostOps7 (F := F)) X (Proc.devRef .tc main_v181) = (Cert.StageF.aggOf (X (Proc.devRef .tc main_v165_1)) (X (Proc.devRef .tc main_arg9)) (X (Proc.devRef .tc main_v8)) (X (Proc.devRef .tc main_v11)) (X (Proc.devRef .tc main_v38))) := by
  after_results_simp
  rfl

end Cert.KernelIdeal.Host

end
-- ==== Proof.Region0.lean ====
/-
  Region 0, the two layers before the first convolution and the first linear map, as whole arrays: the ten blocks of
  10000 rows that the grid's points write back are the blocks of ONE function of the argument arrays, because every
  row of the result depends on the same row of x only.
-/
import proofs.«430702_j48747878810191_4_alg».proof.Proof.Gen.KernelIdeal.Frame
import proofs.«430702_j48747878810191_4_alg».proof.Proof.Stages
import proofs.«430702_j48747878810191_4_alg».proof.Proof.KernelStages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

namespace Cert.KernelIdeal.Region0

open Cert.KernelIdeal Cert.KernelIdeal.Gen Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The two products at an index

The block's product (a matrix product accumulated into the zero splat) and the whole array's product (the host's
product, no accumulator) are, at the exact extended reals, the same sum over the 128 contracted entries: entry (p, q)
is the sum over k of a (p, k) · w (k, q). The operand indices of each record are read axis by axis. -/

theorem lhsK_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsK_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsK_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsK_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's product at (p, q). -/
theorem blockProduct_apply (a : FVec Ideal S10000x128 .f32) (w : FVec Ideal S128x128 .f32) (p : Fin 10000) (q : Fin 128) :
    matmul dot_S10000x128_S128x128_S10000x128_1_0_0_1_n_n none a w (constant S10000x128 .f32 0x00000000#32) (ix2 p q)
      = ∑ k : Fin 128, a (ix2 p k) * w (ix2 k q) := by
  show FloatOps.matmul dot_S10000x128_S128x128_S10000x128_1_0_0_1_n_n none a w (constant S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhsK_0 _ _
    | ⟨1, _⟩ => exact (lhsK_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhsK_0 _ _).trans hk
    | ⟨1, _⟩ => exact rhsK_1 _ _)
  rw [el, er]

theorem lhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The whole array's product at (r, q). -/
theorem lin_apply (x : Cert.Stage.Act) (w : Cert.Stage.Wt) (r : Fin 100000) (q : Fin 128) :
    Cert.Stage.lin x w (ix2 r q) = ∑ k : Fin 128, x (ix2 r k) * w (ix2 k q) := by
  show FloatOps.dotGeneral Cert.ReferenceIdeal.dot_S100000x128_S128x128_S100000x128_1_0_0_1_n_n none _ x w (ix2 r q) = _
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact lhsR_0 _ _
    | ⟨1, _⟩ => exact (lhsR_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rhsR_0 _ _).trans hk
    | ⟨1, _⟩ => exact rhsR_1 _ _)
  rw [el, er]

/-! ## A vector laid along every row

The block broadcasts a one-row array down its 10000 rows; the whole-array function broadcasts the vector along axis 1
of the 100000 rows. Either way entry (row, q) is the vector's entry q. -/

/-- The block's one-row operand broadcast down the rows, at (p, q): the row's entry q. -/
theorem blockRow_apply (v : FVec Ideal S1x128 .f32) (p : Fin 10000) (q : Fin 128) :
    broadcastTo S10000x128 (shapeCast S1x128 v shapeCasts_S1x128_S1x128) broadcasts_S1x128_S10000x128 (ix2 p q)
      = v (ix2 (0 : Fin 1) q) := by
  rw [shapeCast_self]
  refine broadcastTo_apply v broadcasts_S1x128_S10000x128 (ix2 p q) (ix2 (0 : Fin 1) q) ?_
  intro a
  match a with
  | ⟨0, _⟩ => rfl
  | ⟨1, _⟩ => rfl

/-- The vector along every row of the whole array, at (r, q): the vector's entry q. -/
theorem rows_apply (v : Cert.Stage.Vc) (r : Fin 100000) (q : Fin 128) : Cert.Stage.rows v (ix2 r q) = v (ix1 q) := by
  show broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 v) (ix2 r q) = _
  refine (broadcastInDim_oneRow_apply (m := 100000) (n := 128) _ _ r q).trans ?_
  refine broadcastInDim_apply ![1] _ v (ix2 (0 : Fin 1) q) (ix1 q) ?_
  intro a
  match a with
  | ⟨0, _⟩ => rfl

/-- A vector reshaped to one row, at (0, q): the vector's entry q. -/
theorem oneRow_apply (b : Cert.Stage.Vc) (q : Fin 128) :
    shapeCast S1x128 b shapeCasts_S128_S1x128 (ix2 (0 : Fin 1) q) = b (ix1 q) :=
  shapeCast_apply b shapeCasts_S128_S1x128 (ix2 (0 : Fin 1) q) (ix1 q) (by
    rw [Shape.rowMajor_val_two, Shape.rowMajor_val_one]; show q.val = 0 * 128 + q.val; omega)

/-! ## The body's two stored values and the whole-array functions, at an index -/

/-- The first stored value at (p, q): the sum over k of max((the sum over j of v0 (p, j) · v1 (j, k)) + v3 (0, k), 0) · v9 (k, q),
    plus v11 (0, q). -/
theorem pay1_apply (v0 : Vec Ideal S10000x128 .f32) (v1 : Vec Ideal S128x128 .f32) (v3 : Vec Ideal S1x128 .f32)
    (v9 : Vec Ideal S128x128 .f32) (v11 : Vec Ideal S1x128 .f32) (p : Fin 10000) (q : Fin 128) :
    k0_pay1 v0 v1 v3 v9 v11 (ix2 p q)
      = (∑ k : Fin 128, max ((∑ j : Fin 128, v0 (ix2 p j) * v1 (ix2 j k)) + v3 (ix2 (0 : Fin 1) k)) (Ideal.ofBits .f32 0x00000000#32) * v9 (ix2 k q))
        + v11 (ix2 (0 : Fin 1) q) := by
  unfold k0_pay1
  rw [addf_apply, blockProduct_apply, blockRow_apply]
  refine congrArg (· + v11 (ix2 (0 : Fin 1) q)) (Finset.sum_congr rfl fun k _ => ?_)
  rw [maximumf_apply, addf_apply, blockProduct_apply, blockRow_apply, broadcast_apply]
  rfl

/-- The two layers before the first convolution at (r, q): the same sums over the whole array's row r. -/
theorem preSkip_apply (x : Cert.Stage.Act) (w1 : Cert.Stage.Wt) (b1 : Cert.Stage.Vc) (w2 : Cert.Stage.Wt) (b2 : Cert.Stage.Vc)
    (r : Fin 100000) (q : Fin 128) :
    Cert.Stage.preSkip x w1 b1 w2 b2 (ix2 r q)
      = (∑ k : Fin 128, max ((∑ j : Fin 128, x (ix2 r j) * w1 (ix2 j k)) + b1 (ix1 k)) (Ideal.ofBits .f32 0x00000000#32) * w2 (ix2 k q))
        + b2 (ix1 q) := by
  show addf (Cert.Stage.lin (maximumf (addf (Cert.Stage.lin x w1) (Cert.Stage.rows b1)) Cert.Stage.zeros) w2) (Cert.Stage.rows b2) (ix2 r q) = _
  rw [addf_apply, lin_apply, rows_apply]
  refine congrArg (· + b2 (ix1 q)) (Finset.sum_congr rfl fun k _ => ?_)
  rw [maximumf_apply, addf_apply, lin_apply, rows_apply]
  rfl

/-! ## The blocks the ten points read

The printed index maps, decided once over the grid: at point t the blocks of x and of the two outputs are block
(t, 0), and the five small arrays are always block (0, 0), which is the whole array. A block's coordinate in its array
is index × size + 1 × the coordinate inside the block. -/

theorem zero_offsets : (![0, 0] : Fin 2 → Nat) = fun _ => 0 := funext fun a => by fin_cases a <;> rfl

theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Block t of x: entry y of the block is entry i of the array, whenever i is row 10000·t + (y's row), same column. -/
theorem xblock_apply (c : Dev nD) (t : Fin cfg0.N) (y : S10000x128.Idx) (i : S100000x128.Idx)
    (hi0 : (i 0).val = 10000 * t.val + (y 0).val) (hi1 : (i 1).val = (y 1).val) :
    (iblk0 V c 0 t : Vec Ideal S10000x128 .f32) y = (V c main_arg0 : S100000x128.Idx → Elt Ideal .f32) i := by
  obtain ⟨e0, e1, -⟩ := block_indices t
  unfold iblk0
  rw [View.read_apply]
  show V c main_arg0 _ = V c main_arg0 _
  congr 1
  funext a
  apply Fin.ext
  match a with
  | ⟨0, _⟩ => show win0_0.index t 0 * 10000 + 1 * (y 0).val = (i 0).val; rw [e0, hi0]; omega
  | ⟨1, _⟩ => show win0_0.index t 1 * 128 + 1 * (y 1).val = (i 1).val; rw [e1, hi1]; omega

/-- The block of w1 at any point is w1. -/
theorem w1block_eq (c : Dev nD) (t : Fin cfg0.N) : (iblk0 V c 1 t : Vec Ideal S128x128 .f32) = V c main_arg2 := by
  obtain ⟨-, -, e0, e1, -⟩ := block_indices t
  funext y
  unfold iblk0
  rw [View.read_apply]
  show V c main_arg2 _ = V c main_arg2 _
  congr 1
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The block of the one-row b1 at any point is that row. -/
theorem b1block_eq (c : Dev nD) (t : Fin cfg0.N) : (iblk0 V c 2 t : Vec Ideal S1x128 .f32) = V c main_v2 := by
  obtain ⟨-, -, -, -, e0, e1, -⟩ := block_indices t
  funext y
  unfold iblk0
  rw [View.read_apply]
  show V c main_v2 _ = V c main_v2 _
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- The block of w2 at any point is w2. -/
theorem w2block_eq (c : Dev nD) (t : Fin cfg0.N) : (iblk0 V c 3 t : Vec Ideal S128x128 .f32) = V c main_arg4 := by
  obtain ⟨-, -, -, -, -, -, e0, e1, -⟩ := block_indices t
  funext y
  unfold iblk0
  rw [View.read_apply]
  show V c main_arg4 _ = V c main_arg4 _
  congr 1
  funext a
  apply Fin.ext
  match a with
  | ⟨0, _⟩ => show win0_3.index t 0 * 128 + 1 * (y 0).val = (y 0).val; rw [e0]; omega
  | ⟨1, _⟩ => show win0_3.index t 1 * 128 + 1 * (y 1).val = (y 1).val; rw [e1]; omega

/-- The block of the one-row b2 at any point is that row. -/
theorem b2block_eq (c : Dev nD) (t : Fin cfg0.N) : (iblk0 V c 4 t : Vec Ideal S1x128 .f32) = V c main_v3 := by
  obtain ⟨-, -, -, -, -, -, -, -, e0, e1, -⟩ := block_indices t
  funext y
  unfold iblk0
  rw [View.read_apply]
  show V c main_v3 _ = V c main_v3 _
  congr 1
  funext a
  apply Fin.ext
  match a with
  | ⟨0, _⟩ => show win0_4.index t 0 * 1 + 1 * (y 0).val = (y 0).val; rw [e0]; omega
  | ⟨1, _⟩ => show win0_4.index t 1 * 128 + 1 * (y 1).val = (y 1).val; rw [e1]; omega

/-- The block of layer 0's weight at any point is that weight. -/
theorem w0block_eq (c : Dev nD) (t : Fin cfg0.N) : (iblk0 V c 5 t : Vec Ideal S128x128 .f32) = V c main_v1 := by
  obtain ⟨-, -, -, -, -, -, -, -, -, -, e0, e1, -⟩ := block_indices t
  funext y
  unfold iblk0
  rw [View.read_apply]
  show V c main_v1 _ = V c main_v1 _
  congr 1
  funext a
  apply Fin.ext
  match a with
  | ⟨0, _⟩ => show win0_5.index t 0 * 128 + 1 * (y 0).val = (y 0).val; rw [e0]; omega
  | ⟨1, _⟩ => show win0_5.index t 1 * 128 + 1 * (y 1).val = (y 1).val; rw [e1]; omega

/-! ## One point's stored values are rows of the whole-array functions

Stated over variables: a block v0 holding rows 10000·n … of x, the small operands being the whole arrays, and the
one-row operands being the biases' reshapes. Every entry of the stored value depends on the same row of the block
only, so it is the whole-array function's entry in row 10000·n + (the block's row). -/

theorem pay1_rows (x : Cert.Stage.Act) (w1 : Cert.Stage.Wt) (b1 : Cert.Stage.Vc) (w2 : Cert.Stage.Wt) (b2 : Cert.Stage.Vc)
    (v0 : Vec Ideal S10000x128 .f32) (v3 v11 : Vec Ideal S1x128 .f32) (n : Nat)
    (h0 : ∀ (y : S10000x128.Idx) (i : S100000x128.Idx), (i 0).val = 10000 * n + (y 0).val → (i 1).val = (y 1).val → v0 y = x i)
    (h3 : v3 = shapeCast S1x128 b1 shapeCasts_S128_S1x128) (h11 : v11 = shapeCast S1x128 b2 shapeCasts_S128_S1x128)
    (y : S10000x128.Idx) (i : S100000x128.Idx) (hi0 : (i 0).val = 10000 * n + (y 0).val) (hi1 : (i 1).val = (y 1).val) :
    k0_pay1 v0 w1 v3 w2 v11 y = Cert.Stage.preSkip x w1 b1 w2 b2 i := by
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  have hx : ∀ j : Fin 128, v0 (ix2 p j) = x (ix2 r j) := fun j => h0 (ix2 p j) (ix2 r j) hi0 rfl
  subst h3 h11
  rw [pay1_apply, preSkip_apply]
  simp only [hx, oneRow_apply]

theorem pay2_apply (v0 : Vec Ideal S10000x128 .f32) (v1 : Vec Ideal S128x128 .f32) (v3 : Vec Ideal S1x128 .f32)
    (v9 : Vec Ideal S128x128 .f32) (v11 : Vec Ideal S1x128 .f32) (v16 : Vec Ideal S128x128 .f32) (p : Fin 10000) (q : Fin 128) :
    k0_pay2 v0 v1 v3 v9 v11 v16 (ix2 p q) = ∑ k : Fin 128, k0_pay1 v0 v1 v3 v9 v11 (ix2 p k) * v16 (ix2 k q) := by
  unfold k0_pay2
  rw [shapeCast_self]
  exact blockProduct_apply _ _ p q

theorem pay2_rows (x : Cert.Stage.Act) (w1 : Cert.Stage.Wt) (b1 : Cert.Stage.Vc) (w2 : Cert.Stage.Wt) (b2 : Cert.Stage.Vc) (w0 : Cert.Stage.Wt)
    (v0 : Vec Ideal S10000x128 .f32) (v3 v11 : Vec Ideal S1x128 .f32) (n : Nat)
    (h0 : ∀ (y : S10000x128.Idx) (i : S100000x128.Idx), (i 0).val = 10000 * n + (y 0).val → (i 1).val = (y 1).val → v0 y = x i)
    (h3 : v3 = shapeCast S1x128 b1 shapeCasts_S128_S1x128) (h11 : v11 = shapeCast S1x128 b2 shapeCasts_S128_S1x128)
    (y : S10000x128.Idx) (i : S100000x128.Idx) (hi0 : (i 0).val = 10000 * n + (y 0).val) (hi1 : (i 1).val = (y 1).val) :
    k0_pay2 v0 w1 v3 w2 v11 w0 y = Cert.Stage.lin (Cert.Stage.preSkip x w1 b1 w2 b2) w0 i := by
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  rw [pay2_apply, lin_apply]
  refine Finset.sum_congr rfl fun k _ => ?_
  rw [pay1_rows x w1 b1 w2 b2 v0 v3 v11 n h0 h3 h11 (ix2 p k) (ix2 r k) hi0 rfl]

/-! ## From the ten blocks to the arrays -/

/-- What point t writes back into the first output is block t of the whole-array function. -/
theorem flushed6_eq (c : Dev nD) (b1 b2 : Cert.Stage.Vc)
    (h2 : V c main_v2 = shapeCast S1x128 b1 shapeCasts_S128_S1x128)
    (h3 : V c main_v3 = shapeCast S1x128 b2 shapeCasts_S128_S1x128) (t : Fin cfg0.N) :
    (dat0 (F := Ideal) V c).flushed 6 t
      = ((cfg0.win 6).blk t).view.read (Elt Ideal) (Cert.Stage.preSkip (V c main_arg0) (V c main_arg2) b1 (V c main_arg4) b2) := by
  show (cfg0.win 6).cut (grid0.coords t) ((dat0 V c).after 6 t) = _
  rw [after0_6]
  unfold out0_6
  rw [View.canon_unit_zero zero_offsets]
  simp only [View.ld_unit_zero (S := S10000x128) zero_offsets, View.ld_unit_zero (S := S128x128) zero_offsets, View.ld_unit_zero (S := S1x128) zero_offsets]
  rw [w1block_eq, w2block_eq]
  obtain ⟨-, -, -, -, -, -, -, -, -, -, -, -, e0, e1, -⟩ := block_indices t
  funext y
  refine pay1_rows (V c main_arg0) (V c main_arg2) b1 (V c main_arg4) b2 _ _ _ t.val (xblock_apply V c t)
    ((b1block_eq V c t).trans h2) ((b2block_eq V c t).trans h3) y _ ?_ ?_
  · show win0_6.index t 0 * 10000 + 1 * (y 0).val = 10000 * t.val + (y 0).val; rw [e0]; omega
  · show win0_6.index t 1 * 128 + 1 * (y 1).val = (y 1).val; rw [e1]; omega

/-- What point t writes back into the second output is block t of the whole-array function. -/
theorem flushed7_eq (c : Dev nD) (b1 b2 : Cert.Stage.Vc)
    (h2 : V c main_v2 = shapeCast S1x128 b1 shapeCasts_S128_S1x128)
    (h3 : V c main_v3 = shapeCast S1x128 b2 shapeCasts_S128_S1x128) (t : Fin cfg0.N) :
    (dat0 (F := Ideal) V c).flushed 7 t
      = ((cfg0.win 7).blk t).view.read (Elt Ideal)
          (Cert.Stage.lin (Cert.Stage.preSkip (V c main_arg0) (V c main_arg2) b1 (V c main_arg4) b2) (V c main_v1)) := by
  show (cfg0.win 7).cut (grid0.coords t) ((dat0 V c).after 7 t) = _
  rw [after0_7]
  unfold out0_7
  rw [View.canon_unit_zero zero_offsets]
  simp only [View.ld_unit_zero (S := S10000x128) zero_offsets, View.ld_unit_zero (S := S128x128) zero_offsets, View.ld_unit_zero (S := S1x128) zero_offsets]
  rw [w1block_eq, w2block_eq, w0block_eq]
  obtain ⟨-, -, -, -, -, -, -, -, -, -, -, -, -, -, e0, e1⟩ := block_indices t
  funext y
  refine pay2_rows (V c main_arg0) (V c main_arg2) b1 (V c main_arg4) b2 (V c main_v1) _ _ _ t.val (xblock_apply V c t)
    ((b1block_eq V c t).trans h2) ((b2block_eq V c t).trans h3) y _ ?_ ?_
  · show win0_7.index t 0 * 10000 + 1 * (y 0).val = 10000 * t.val + (y 0).val; rw [e0]; omega
  · show win0_7.index t 1 * 128 + 1 * (y 1).val = (y 1).val; rw [e1]; omega

/-- An index of the first output is in point t's block iff each coordinate is in the block's range on its axis. -/
theorem mem_blk6 (t : Fin cfg0.N) (i : S100000x128.Idx) :
    i ∈ ((cfg0.win 6).blk t).view.set ↔ ∀ a : Fin 2, win0_6.index t a * S10000x128.size a ≤ (i a).val ∧ (i a).val < win0_6.index t a * S10000x128.size a + S10000x128.size a := by
  show i ∈ ((View.whole main_v4_0).slice (win0_6.rect t)).set ↔ _
  rw [View.set_slice_whole, Rect.mem_set_unit]
  exact Iff.rfl

/-- The same of the second output. -/
theorem mem_blk7 (t : Fin cfg0.N) (i : S100000x128.Idx) :
    i ∈ ((cfg0.win 7).blk t).view.set ↔ ∀ a : Fin 2, win0_7.index t a * S10000x128.size a ≤ (i a).val ∧ (i a).val < win0_7.index t a * S10000x128.size a + S10000x128.size a := by
  show i ∈ ((View.whole main_v4_1).slice (win0_7.rect t)).set ↔ _
  rw [View.set_slice_whole, Rect.mem_set_unit]
  exact Iff.rfl

/-- Row r lies in the block of point r / 10000, which writes back. -/
theorem cover6 (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, -, -, -, -, -, -, e0, e1, -⟩ := block_indices t
  refine ⟨t, flush0_6 t, ?_⟩
  rw [mem_blk6]
  intro a
  match a with
  | ⟨0, _⟩ => show win0_6.index t 0 * 10000 ≤ (i 0).val ∧ (i 0).val < win0_6.index t 0 * 10000 + 10000; rw [e0, ht]; omega
  | ⟨1, _⟩ => show win0_6.index t 1 * 128 ≤ (i 1).val ∧ (i 1).val < win0_6.index t 1 * 128 + 128; rw [e1]; omega

theorem cover7 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by omega⟩, rfl⟩
  obtain ⟨-, -, -, -, -, -, -, -, -, -, -, -, -, -, e0, e1⟩ := block_indices t
  refine ⟨t, flush0_7 t, ?_⟩
  rw [mem_blk7]
  intro a
  match a with
  | ⟨0, _⟩ => show win0_7.index t 0 * 10000 ≤ (i 0).val ∧ (i 0).val < win0_7.index t 0 * 10000 + 10000; rw [e0, ht]; omega
  | ⟨1, _⟩ => show win0_7.index t 1 * 128 ≤ (i 1).val ∧ (i 1).val < win0_7.index t 1 * 128 + 128; rw [e1]; omega

/-- The first output array, after the region: max(x·w1 + b1, 0)·w2 + b2, the two biases entering as one-row arrays. -/
theorem skip_eq (c : Dev nD) (b1 b2 : Cert.Stage.Vc)
    (h2 : V c main_v2 = shapeCast S1x128 b1 shapeCasts_S128_S1x128)
    (h3 : V c main_v3 = shapeCast S1x128 b2 shapeCasts_S128_S1x128) :
    (dat0 (F := Ideal) V c).arrAt 6 cfg0.N = Cert.Stage.preSkip (V c main_arg0) (V c main_arg2) b1 (V c main_arg4) b2 :=
  (dat0 (F := Ideal) V c).arrAt_eq_of_cover 6 (Cert.Stage.preSkip (V c main_arg0) (V c main_arg2) b1 (V c main_arg4) b2)
    (fun t _ => flushed6_eq V c b1 b2 h2 h3 t) cover6

/-- The second output array: the first one times layer 0's weight. -/
theorem lin_eq (c : Dev nD) (b1 b2 : Cert.Stage.Vc)
    (h2 : V c main_v2 = shapeCast S1x128 b1 shapeCasts_S128_S1x128)
    (h3 : V c main_v3 = shapeCast S1x128 b2 shapeCasts_S128_S1x128) :
    (dat0 (F := Ideal) V c).arrAt 7 cfg0.N
      = Cert.Stage.lin (Cert.Stage.preSkip (V c main_arg0) (V c main_arg2) b1 (V c main_arg4) b2) (V c main_v1) :=
  (dat0 (F := Ideal) V c).arrAt_eq_of_cover 7
    (Cert.Stage.lin (Cert.Stage.preSkip (V c main_arg0) (V c main_arg2) b1 (V c main_arg4) b2) (V c main_v1))
    (fun t _ => flushed7_eq V c b1 b2 h2 h3 t) cover7

end Cert.KernelIdeal.Region0

end
-- ==== Proof.LibBlockSum.lean ====
/-
  A sum over the rows of a table, taken block by block.

  A table of `nb * bs` rows is cut into `nb` consecutive blocks of `bs` rows.  A running sum that starts from a
  zeroed accumulator and adds one block's partial sum at each step holds, after the last step, the sum over all the
  rows.  The file states the running sum as a sequence, identifies it with a finite sum over the steps, re-indexes a
  double sum over (block, row in block) as one sum over the rows, and joins the two for 20 blocks of 5000 rows.
-/
import Mathlib.Algebra.BigOperators.Fin
import Mathlib.Logic.Equiv.Fin.Basic

namespace Cert.LibBlockSum

open Finset

variable {M : Type*} [AddCommMonoid M]

/-- A running sum started from a zeroed accumulator: step `0` adds `b 0` to zero, step `t + 1` adds `b (t + 1)`
    to what step `t` left. -/
def accSeq (b : ℕ → M) : ℕ → M
  | 0 => 0 + b 0
  | (t + 1) => accSeq b t + b (t + 1)

/-- After step `t` the running sum is the sum of the terms `b 0, …, b t`. -/
theorem accSeq_eq_sum (b : ℕ → M) (t : ℕ) : accSeq b t = ∑ s ∈ Finset.range (t + 1), b s := by
  induction t with
  | zero => simp [accSeq]
  | succ t ih => rw [accSeq, ih, Finset.sum_range_succ _ (t + 1)]

/-- The running sum depends only on the terms it has added so far. -/
theorem accSeq_congr {b b' : ℕ → M} (t : ℕ) (h : ∀ s, s ≤ t → b s = b' s) : accSeq b t = accSeq b' t := by
  rw [accSeq_eq_sum, accSeq_eq_sum]
  refine Finset.sum_congr rfl (fun s hs => h s ?_)
  have := Finset.mem_range.mp hs
  omega

/-- A double sum over (block, row in the block) is one sum over all `nb * bs` rows: row `r` of block `s` is row
    `r + bs * s` of the table, and that pairing is a bijection. -/
theorem sum_blocks (nb bs : ℕ) (f : Fin (nb * bs) → M) :
    ∑ s : Fin nb, ∑ r : Fin bs, f (finProdFinEquiv (s, r)) = ∑ i : Fin (nb * bs), f i := by
  rw [← Fintype.sum_prod_type']
  exact Fintype.sum_equiv finProdFinEquiv _ _ (fun _ => rfl)

/-- Twenty blocks of 5000 rows: the sum over the blocks of each block's sum is the sum over the 100000 rows. -/
theorem sum_rows_blocks (f : Fin 100000 → M) :
    ∑ s : Fin 20, ∑ r : Fin 5000, f ⟨s.val * 5000 + r.val, by omega⟩ = ∑ i : Fin 100000, f i := by
  rw [← Fintype.sum_prod_type']
  refine Fintype.sum_equiv (finProdFinEquiv.trans (finCongr (show 20 * 5000 = 100000 from rfl))) _ _ ?_
  rintro ⟨s, r⟩
  refine congrArg f (Fin.ext ?_)
  simp only [Equiv.trans_apply, finProdFinEquiv_apply_val, finCongr_apply, Fin.val_cast]
  omega

/-- The same with the blocks counted by natural numbers below 20 (the form a sum over `Finset.range 20` takes). -/
theorem sum_rows_blocks_range (f : Fin 100000 → M) :
    ∑ s ∈ Finset.range 20, (if h : s < 20 then ∑ r : Fin 5000, f ⟨s * 5000 + r.val, by omega⟩ else 0)
      = ∑ i : Fin 100000, f i := by
  rw [Finset.sum_range, ← sum_rows_blocks f]
  exact Finset.sum_congr rfl (fun s _ => dif_pos s.isLt)

/-- A running sum whose step `s`, for each `s < 20`, adds the sum of block `s` (rows `5000 s, …, 5000 s + 4999`)
    holds after step 19 the sum over all 100000 rows. -/
theorem accSeq_blocks_of (f : Fin 100000 → M) (b : ℕ → M)
    (hb : ∀ s (h : s < 20), b s = ∑ r : Fin 5000, f ⟨s * 5000 + r.val, by omega⟩) :
    accSeq b 19 = ∑ i : Fin 100000, f i := by
  rw [accSeq_eq_sum, ← sum_rows_blocks_range f]
  refine Finset.sum_congr rfl (fun s hs => ?_)
  have hs' : s < 20 := Finset.mem_range.mp hs
  rw [hb s hs', dif_pos hs']

/-- The running sum of the twenty block sums, after its last step, is the sum over all the rows. -/
theorem accSeq_blocks (f : Fin 100000 → M) :
    accSeq (fun s => if h : s < 20 then ∑ r : Fin 5000, f ⟨s * 5000 + r.val, by omega⟩ else 0) 19
      = ∑ i : Fin 100000, f i :=
  accSeq_blocks_of f _ (fun s h => dif_pos h)

end Cert.LibBlockSum
-- ==== Proof.RegionVar1.lean ====
/-
  Region 1, the variance's partial sums: point t sums (h − mean)² over its 10000 rows, column by column, and writes
  that one row into all eight rows of tile t. Row 0 of the ten tiles, summed, is the sum over all 100000 rows: a sum
  regrouped, which needs no finiteness.
-/
import proofs.«430702_j48747878810191_4_alg».proof.Proof.Gen.KernelIdeal.Frame
import proofs.«430702_j48747878810191_4_alg».proof.Proof.Stages
import proofs.«430702_j48747878810191_4_alg».proof.Proof.KernelStages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import proofs.«430702_j48747878810191_4_alg».proof.Proof.LibBlockSum

set_option maxRecDepth 16384

noncomputable section

namespace Cert.KernelIdeal.RegionVar1

open Cert.KernelIdeal Cert.KernelIdeal.Gen Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The kernel's payload at an entry -/

/-- The squared deviation at one entry of the block: the block's entry less the mean row's entry in the same column,
    times itself (the two shape casts are identities; the one-row array is read at row 0 whatever the block row). -/
theorem sqdev_apply (x0 : FVec Ideal S10000x128 .f32) (x1 : FVec Ideal S1x128 .f32) (p : Fin 10000) (col : Fin 128) :
    mulf (subf (shapeCast S10000x128 x0 shapeCasts_S10000x128_S10000x128)
          (broadcastTo S10000x128 (shapeCast S1x128 x1 shapeCasts_S1x128_S1x128) broadcasts_S1x128_S10000x128))
        (subf (shapeCast S10000x128 x0 shapeCasts_S10000x128_S10000x128)
          (broadcastTo S10000x128 (shapeCast S1x128 x1 shapeCasts_S1x128_S1x128) broadcasts_S1x128_S10000x128)) (ix2 p col)
      = (x0 (ix2 p col) - x1 (ix2 (0 : Fin 1) col)) * (x0 (ix2 p col) - x1 (ix2 (0 : Fin 1) col)) := by
  have e : broadcastTo S10000x128 (shapeCast S1x128 x1 shapeCasts_S1x128_S1x128) broadcasts_S1x128_S10000x128 (ix2 p col)
      = x1 (ix2 (0 : Fin 1) col) := by
    rw [shapeCast_self]
    refine broadcastTo_apply x1 broadcasts_S1x128_S10000x128 (ix2 p col) (ix2 (0 : Fin 1) col) fun a => ?_
    match a with
    | ⟨0, _⟩ => rfl
    | ⟨1, _⟩ => rfl
  show (shapeCast S10000x128 x0 shapeCasts_S10000x128_S10000x128 (ix2 p col) - _) * (shapeCast S10000x128 x0 shapeCasts_S10000x128_S10000x128 (ix2 p col) - _) = _
  rw [e, shapeCast_self]

/-- The kernel's payload at an entry of the tile: whatever the tile row, the sum over the block's 10000 rows of the
    squared deviations in that column. -/
theorem pay_apply (x0 : Vec Ideal S10000x128 .f32) (x1 : Vec Ideal S1x128 .f32) (r : Fin 8) (col : Fin 128) :
    k1_pay1 (F := Ideal) x0 x1 (ix2 r col)
      = ∑ p : Fin 10000, (x0 (ix2 p col) - x1 (ix2 (0 : Fin 1) col)) * (x0 (ix2 p col) - x1 (ix2 (0 : Fin 1) col)) := by
  unfold k1_pay1
  refine (broadcastTo_apply _ broadcasts_S1x128_S8x128 (ix2 r col) (ix2 (0 : Fin 1) col) fun a => ?_).trans ?_
  · match a with
    | ⟨0, _⟩ => rfl
    | ⟨1, _⟩ => rfl
  refine (congrFun (shapeCast_self _ shapeCasts_S1x128_S1x128) (ix2 (0 : Fin 1) col)).trans ?_
  refine (shapeCast_apply _ shapeCasts_S128_S1x128 (ix2 (0 : Fin 1) col) (ix1 col) ?_).trans ?_
  · rw [Shape.rowMajor_val_one, Shape.rowMajor_val_two]
    show col.val = 0 * 128 + col.val
    omega
  refine (Ideal.multiReduction_add_single _ 0x00000000#32 reduces_S10000x128_S128 _ _ (ix1 col)).trans ?_
  show ∑ p : Fin 10000, _ = _
  refine Finset.sum_congr rfl fun p _ => ?_
  have e : reduces_S10000x128_S128.lift (ix1 col) p = ix2 p col :=
    funext fun a => Fin.ext (by match a with | ⟨0, _⟩ => rfl | ⟨1, _⟩ => rfl)
  refine (congrArg _ e).trans ?_
  exact sqdev_apply x0 x1 p col

/-! ## The region's result as one array -/

/-- Entry (q, col) of the region's result: the sum, over the 10000 rows of block q / 8 of h, of the squared deviations
    in column col. The eight rows of a tile hold the same sums. -/
def tileSum (h : Cert.Stage.Act) (mean : Cert.Stage.Vc) (q : Fin 80) (col : Fin 128) : Ideal .f32 :=
  ∑ p : Fin 10000, (h (ix2 (⟨10000 * (q.val / 8) + p.val, by omega⟩ : Fin 100000) col) - mean (ix1 col))
    * (h (ix2 (⟨10000 * (q.val / 8) + p.val, by omega⟩ : Fin 100000) col) - mean (ix1 col))

/-- The 80×128 array of those sums. -/
def tiles (h : Cert.Stage.Act) (mean : Cert.Stage.Vc) : FVec Ideal S80x128 .f32 := fun i => tileSum h mean (i 0) (i 1)

theorem tiles_apply (h : Cert.Stage.Act) (mean : Cert.Stage.Vc) (q : Fin 80) (col : Fin 128) :
    tiles h mean (ix2 q col) = tileSum h mean q col := rfl

/-- A tile entry computed from a block x0 that is rows 10000·tv … 10000·tv + 9999 of h and a one-row array x1 that
    is the mean: the payload at (r, col) is entry (8·tv + r, col) of the array of sums. -/
theorem point_eq (h : Cert.Stage.Act) (mean : Cert.Stage.Vc) (x0 : Vec Ideal S10000x128 .f32) (x1 : Vec Ideal S1x128 .f32)
    (tv : Nat) (htv : tv < 10)
    (hx0 : ∀ (p : Fin 10000) (col : Fin 128), x0 (ix2 p col) = h (ix2 (⟨10000 * tv + p.val, by omega⟩ : Fin 100000) col))
    (hx1 : ∀ col : Fin 128, x1 (ix2 (0 : Fin 1) col) = mean (ix1 col))
    (j : S8x128.Idx) (i : S80x128.Idx) (hi0 : (i 0).val = 8 * tv + (j 0).val) (hi1 : (i 1).val = (j 1).val) :
    k1_pay1 (F := Ideal) x0 x1 j = tiles h mean i := by
  obtain ⟨r, col, rfl⟩ : ∃ (r : Fin 8) (col : Fin 128), j = ix2 r col := ⟨j 0, j 1, eq_ix2 j⟩
  obtain ⟨q, col', rfl⟩ : ∃ (q : Fin 80) (col' : Fin 128), i = ix2 q col' := ⟨i 0, i 1, eq_ix2 i⟩
  have hq : q.val = 8 * tv + r.val := hi0
  obtain rfl : col' = col := Fin.ext hi1
  rw [pay_apply, tiles_apply]
  unfold tileSum
  refine Finset.sum_congr rfl fun p _ => ?_
  have e : (⟨10000 * (q.val / 8) + p.val, by omega⟩ : Fin 100000) = ⟨10000 * tv + p.val, by omega⟩ :=
    Fin.ext (by show 10000 * (q.val / 8) + p.val = 10000 * tv + p.val; omega)
  rw [hx0, hx1, e]

/-! ## From the blocks to the array -/

/-- The zero offsets of a whole-buffer access, as a constant function. -/
theorem hz : (![0, 0] : Fin 2 → Nat) = fun _ => 0 := funext fun a => by fin_cases a <;> rfl

/-- The printed index maps over the grid: h's block and the result's tile move with the point along the rows, the
    mean's one block stays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is tile t of the array of sums, for the mean held as one row. -/
theorem flushed_eq (c : Dev nD) (mean : Cert.Stage.Vc)
    (hmean : V c main_v60 = shapeCast S1x128 mean shapeCasts_S128_S1x128) (t : Fin cfg1.N) :
    (dat1 (F := Ideal) V c).flushed 2 t = ((cfg1.win 2).blk t).view.read (Elt Ideal) (tiles (V c main_v56) mean) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e00, e01, e10, e11, e20, e21⟩ := idx_facts t
  have ht : t.val < 10 := t.isLt
  funext j
  show k1_pay1 (F := Ideal) (iblk1 V c 0 t) (iblk1 V c 1 t) j = tiles (V c main_v56) mean (((cfg1.win 2).blk t).view.emb j)
  refine point_eq (V c main_v56) mean (iblk1 V c 0 t) (iblk1 V c 1 t) t.val ht ?_ ?_ j (((cfg1.win 2).blk t).view.emb j) ?_ ?_
  · intro p col
    show V c main_v56 (((cfg1.win 0).blk t).view.emb (ix2 p col)) = V c main_v56 (ix2 (⟨10000 * t.val + p.val, by omega⟩ : Fin 100000) col)
    refine congrArg (V c main_v56) (funext fun a => Fin.ext ?_)
    match a with
    | ⟨0, _⟩ => show win1_0.index t (0 : Fin 2) * 10000 + 1 * p.val = 10000 * t.val + p.val; rw [e00]; omega
    | ⟨1, _⟩ => show win1_0.index t (1 : Fin 2) * 128 + 1 * col.val = col.val; rw [e01]; omega
  · intro col
    show V c main_v60 (((cfg1.win 1).blk t).view.emb (ix2 (0 : Fin 1) col)) = mean (ix1 col)
    rw [hmean]
    refine shapeCast_apply mean shapeCasts_S128_S1x128 _ (ix1 col) ?_
    rw [Shape.rowMajor_val_one, Shape.rowMajor_val_two]
    show col.val = (win1_1.index t (0 : Fin 2) * 1 + 1 * 0) * 128 + (win1_1.index t (1 : Fin 2) * 128 + 1 * col.val)
    rw [e10, e11]; omega
  · show win1_2.index t (0 : Fin 2) * 8 + 1 * (j 0).val = 8 * t.val + (j 0).val
    rw [e20]; omega
  · show win1_2.index t (1 : Fin 2) * 128 + 1 * (j 1).val = (j 1).val
    rw [e21]; omega

/-- An index of the 80×128 array is in point t's tile iff each coordinate is in the tile's range on its axis. -/
theorem mem_blk (t : Fin cfg1.N) (i : S80x128.Idx) :
    i ∈ ((cfg1.win 2).blk t).view.set ↔ ∀ a : Fin 2, win1_2.index t a * S8x128.size a ≤ (i a).val ∧ (i a).val < win1_2.index t a * S8x128.size a + S8x128.size a := by
  show i ∈ ((View.whole main_v61).slice (win1_2.rect t)).set ↔ _
  rw [View.set_slice_whole, Rect.mem_set_unit]
  exact Iff.rfl

/-- Row q of the array lies in tile q / 8. -/
theorem cover (i : S80x128.Idx) : ∃ t : Fin cfg1.N, (cfg1.win 2).flush t = true ∧ i ∈ ((cfg1.win 2).blk t).view.set := by
  have hi0 : (i 0).val < 80 := (i 0).isLt
  have hi1 : (i 1).val < 128 := (i 1).isLt
  obtain ⟨t, ht⟩ : ∃ t : Fin cfg1.N, t.val = (i 0).val / 8 := ⟨⟨(i 0).val / 8, by show _ < 10; omega⟩, rfl⟩
  obtain ⟨-, -, -, -, e20, e21⟩ := idx_facts t
  refine ⟨t, flush1_2 t, ?_⟩
  rw [mem_blk]
  intro a
  match a with
  | ⟨0, _⟩ => show win1_2.index t (0 : Fin 2) * 8 ≤ (i 0).val ∧ (i 0).val < win1_2.index t (0 : Fin 2) * 8 + 8; rw [e20, ht]; omega
  | ⟨1, _⟩ => show win1_2.index t (1 : Fin 2) * 128 ≤ (i 1).val ∧ (i 1).val < win1_2.index t (1 : Fin 2) * 128 + 128; rw [e21]; omega

/-- So the region leaves the array of sums. -/
theorem tiles_final (c : Dev nD) (mean : Cert.Stage.Vc)
    (hmean : V c main_v60 = shapeCast S1x128 mean shapeCasts_S128_S1x128) :
    (dat1 (F := Ideal) V c).arrAt 2 cfg1.N = tiles (V c main_v56) mean :=
  (dat1 (F := Ideal) V c).arrAt_eq_of_cover 2 (tiles (V c main_v56) mean) (fun t _ => flushed_eq V c mean hmean t) cover

/-! ## The host's finishing -/

/-- Row t of the ten rows the host keeps is row 8·t of the array: row 0 of tile t. -/
theorem keptRow_apply (T : FVec Ideal S80x128 .f32) (t : Fin 10) (col : Fin 128) :
    shapeCast S10x128 (extractStridedSlice S10x1x128 ![0, 0, 0] (shapeCast S10x8x128 T shapeCasts_S80x128_S10x8x128) slices_S10x8x128_S10x1x128_0_0_0) shapeCasts_S10x1x128_S10x128 (ix2 t col)
      = T (ix2 (⟨8 * t.val, by omega⟩ : Fin 80) col) := by
  refine (shapeCast_apply _ shapeCasts_S10x1x128_S10x128 (ix2 t col) (ix3 t (0 : Fin 1) col) ?_).trans ?_
  · rw [Shape.rowMajor_val_three, Shape.rowMajor_val_two]
    show (t.val * 1 + 0) * 128 + col.val = t.val * 128 + col.val
    omega
  refine (extractStridedSlice_apply ![0, 0, 0] _ slices_S10x8x128_S10x1x128_0_0_0 (ix3 t (0 : Fin 1) col) (ix3 t (0 : Fin 8) col) fun a => ?_).trans ?_
  · match a with
    | ⟨0, _⟩ => show t.val = 0 + t.val; omega
    | ⟨1, _⟩ => show 0 = 0 + 0; rfl
    | ⟨2, _⟩ => show col.val = 0 + col.val; omega
  refine shapeCast_apply T shapeCasts_S80x128_S10x8x128 (ix3 t (0 : Fin 8) col) (ix2 (⟨8 * t.val, by omega⟩ : Fin 80) col) ?_
  rw [Shape.rowMajor_val_two, Shape.rowMajor_val_three]
  show 8 * t.val * 128 + col.val = (t.val * 8 + 0) * 128 + col.val
  omega

/-- The mean laid along every row reads the mean's entry of the column. -/
theorem rows_apply (mean : Cert.Stage.Vc) (r : Fin 100000) (col : Fin 128) : Cert.Stage.rows mean (ix2 r col) = mean (ix1 col) := by
  unfold Cert.Stage.rows Cert.StageF.rows
  refine (broadcastInDim_oneRow_apply _ _ r col).trans ?_
  refine broadcastInDim_apply ![1] _ mean (ix2 (0 : Fin 1) col) (ix1 col) fun a => ?_
  match a with
  | ⟨0, _⟩ => rfl

/-- Row 0 of the ten tiles, summed and divided by 100000, is the mean over the 100000 rows of (h − mean)²: the ten
    block sums regroup into the sum over all the rows, and the division is the same on both sides. -/
theorem varFinish_tiles (h : Cert.Stage.Act) (mean : Cert.Stage.Vc) :
    Cert.KStage.varFinish (tiles h mean) = Cert.Stage.colVar h mean := by
  unfold Cert.KStage.varFinish Cert.KStageF.varFinish Cert.Stage.colVar Cert.StageF.colVar Cert.StageF.colMean
  refine congrArg (fun s => Host.divf (F := Ideal) s (broadcastInDim S128 ![] bcast_S_S128 (constant (F := Ideal) S_ .f32 0x47C35000#32))) ?_
  funext j
  obtain ⟨col, rfl⟩ : ∃ col : Fin 128, j = ix1 col := ⟨j 0, eq_ix1 j⟩
  show Ideal.hostReduceAdd _ _ _ (ix1 col) = Ideal.hostReduceAdd _ _ _ (ix1 col)
  rw [Ideal.hostReduceAdd_single _ (by decide : S10x128.Reduces [0] S128),
    Ideal.hostReduceAdd_single _ (by decide : S100000x128.Reduces [0] S128)]
  refine congrArg (_ + ·) ?_
  show ∑ t : Fin 10, _ = ∑ r : Fin 100000, _
  refine Eq.trans ?_ (Cert.LibBlockSum.sum_blocks 10 10000 (fun r : Fin 100000 =>
    (h (ix2 r col) - mean (ix1 col)) * (h (ix2 r col) - mean (ix1 col)))) |>.trans ?_
  · -- the kernel's side: kept row t is the sum over block t, whose row p is row 10000·t + p of h
    refine Finset.sum_congr rfl fun t _ => ?_
    have e : ∀ hR : S10x128.Reduces [0] S128, hR.lift (ix1 col) t = ix2 t col := fun hR =>
      funext fun a => Fin.ext (by match a with | ⟨0, _⟩ => rfl | ⟨1, _⟩ => rfl)
    refine (congrArg _ (e _)).trans ?_
    refine (keptRow_apply (tiles h mean) t col).trans ?_
    rw [tiles_apply]
    unfold tileSum
    refine Finset.sum_congr rfl fun p _ => ?_
    have e2 : (⟨10000 * ((⟨8 * t.val, by omega⟩ : Fin 80).val / 8) + p.val, by show 10000 * (8 * t.val / 8) + p.val < 100000; omega⟩ : Fin 100000)
        = finProdFinEquiv (t, p) :=
      Fin.ext (by show 10000 * (8 * t.val / 8) + p.val = p.val + 10000 * t.val; omega)
    exact congrArg (fun r : Fin 100000 => (h (ix2 r col) - mean (ix1 col)) * (h (ix2 r col) - mean (ix1 col))) e2
  · -- the reference's side: entry (r, col) of (h − mean)², the mean laid along the rows
    refine Finset.sum_congr rfl fun r _ => Eq.symm ?_
    have e : ∀ hR : S100000x128.Reduces [0] S128, hR.lift (ix1 col) r = ix2 r col := fun hR =>
      funext fun a => Fin.ext (by match a with | ⟨0, _⟩ => rfl | ⟨1, _⟩ => rfl)
    refine (congrArg _ (e _)).trans ?_
    show (h (ix2 r col) - Cert.Stage.rows mean (ix2 r col)) * (h (ix2 r col) - Cert.Stage.rows mean (ix2 r col)) = _
    rw [rows_apply]

/-- The host's finishing of the region's result is the mean over the 100000 rows of (h − mean)². -/
theorem var_eq (c : Dev nD) (mean : Cert.Stage.Vc)
    (hmean : V c main_v60 = shapeCast S1x128 mean shapeCasts_S128_S1x128) :
    Cert.KStage.varFinish ((dat1 (F := Ideal) V c).arrAt 2 cfg1.N) = Cert.Stage.colVar (V c main_v56) mean := by
  exact (congrArg Cert.KStage.varFinish (tiles_final V c mean hmean)).trans (varFinish_tiles (V c main_v56) mean)

end Cert.KernelIdeal.RegionVar1

end
-- ==== Proof.RegionVar3.lean ====
/-
  Region 3, the variance's partial sums: point t sums (h − mean)² over its 10000 rows, column by column, and writes
  that one row into all eight rows of tile t. Row 0 of the ten tiles, summed, is the sum over all 100000 rows: a sum
  regrouped, which needs no finiteness.
-/
import proofs.«430702_j48747878810191_4_alg».proof.Proof.Gen.KernelIdeal.Frame
import proofs.«430702_j48747878810191_4_alg».proof.Proof.Stages
import proofs.«430702_j48747878810191_4_alg».proof.Proof.KernelStages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import proofs.«430702_j48747878810191_4_alg».proof.Proof.LibBlockSum

set_option maxRecDepth 16384

noncomputable section

namespace Cert.KernelIdeal.RegionVar3

open Cert.KernelIdeal Cert.KernelIdeal.Gen Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The kernel's payload at an entry -/

/-- The squared deviation at one entry of the block: the block's entry less the mean row's entry in the same column,
    times itself (the two shape casts are identities; the one-row array is read at row 0 whatever the block row). -/
theorem sqdev_apply (x0 : FVec Ideal S10000x128 .f32) (x1 : FVec Ideal S1x128 .f32) (p : Fin 10000) (col : Fin 128) :
    mulf (subf (shapeCast S10000x128 x0 shapeCasts_S10000x128_S10000x128)
          (broadcastTo S10000x128 (shapeCast S1x128 x1 shapeCasts_S1x128_S1x128) broadcasts_S1x128_S10000x128))
        (subf (shapeCast S10000x128 x0 shapeCasts_S10000x128_S10000x128)
          (broadcastTo S10000x128 (shapeCast S1x128 x1 shapeCasts_S1x128_S1x128) broadcasts_S1x128_S10000x128)) (ix2 p col)
      = (x0 (ix2 p col) - x1 (ix2 (0 : Fin 1) col)) * (x0 (ix2 p col) - x1 (ix2 (0 : Fin 1) col)) := by
  have e : broadcastTo S10000x128 (shapeCast S1x128 x1 shapeCasts_S1x128_S1x128) broadcasts_S1x128_S10000x128 (ix2 p col)
      = x1 (ix2 (0 : Fin 1) col) := by
    rw [shapeCast_self]
    refine broadcastTo_apply x1 broadcasts_S1x128_S10000x128 (ix2 p col) (ix2 (0 : Fin 1) col) fun a => ?_
    match a with
    | ⟨0, _⟩ => rfl
    | ⟨1, _⟩ => rfl
  show (shapeCast S10000x128 x0 shapeCasts_S10000x128_S10000x128 (ix2 p col) - _) * (shapeCast S10000x128 x0 shapeCasts_S10000x128_S10000x128 (ix2 p col) - _) = _
  rw [e, shapeCast_self]

/-- The kernel's payload at an entry of the tile: whatever the tile row, the sum over the block's 10000 rows of the
    squared deviations in that column. -/
theorem pay_apply (x0 : Vec Ideal S10000x128 .f32) (x1 : Vec Ideal S1x128 .f32) (r : Fin 8) (col : Fin 128) :
    k3_pay1 (F := Ideal) x0 x1 (ix2 r col)
      = ∑ p : Fin 10000, (x0 (ix2 p col) - x1 (ix2 (0 : Fin 1) col)) * (x0 (ix2 p col) - x1 (ix2 (0 : Fin 1) col)) := by
  unfold k3_pay1
  refine (broadcastTo_apply _ broadcasts_S1x128_S8x128 (ix2 r col) (ix2 (0 : Fin 1) col) fun a => ?_).trans ?_
  · match a with
    | ⟨0, _⟩ => rfl
    | ⟨1, _⟩ => rfl
  refine (congrFun (shapeCast_self _ shapeCasts_S1x128_S1x128) (ix2 (0 : Fin 1) col)).trans ?_
  refine (shapeCast_apply _ shapeCasts_S128_S1x128 (ix2 (0 : Fin 1) col) (ix1 col) ?_).trans ?_
  · rw [Shape.rowMajor_val_one, Shape.rowMajor_val_two]
    show col.val = 0 * 128 + col.val
    omega
  refine (Ideal.multiReduction_add_single _ 0x00000000#32 reduces_S10000x128_S128 _ _ (ix1 col)).trans ?_
  show ∑ p : Fin 10000, _ = _
  refine Finset.sum_congr rfl fun p _ => ?_
  have e : reduces_S10000x128_S128.lift (ix1 col) p = ix2 p col :=
    funext fun a => Fin.ext (by match a with | ⟨0, _⟩ => rfl | ⟨1, _⟩ => rfl)
  refine (congrArg _ e).trans ?_
  exact sqdev_apply x0 x1 p col

/-! ## The region's result as one array -/

/-- Entry (q, col) of the region's result: the sum, over the 10000 rows of block q / 8 of h, of the squared deviations
    in column col. The eight rows of a tile hold the same sums. -/
def tileSum (h : Cert.Stage.Act) (mean : Cert.Stage.Vc) (q : Fin 80) (col : Fin 128) : Ideal .f32 :=
  ∑ p : Fin 10000, (h (ix2 (⟨10000 * (q.val / 8) + p.val, by omega⟩ : Fin 100000) col) - mean (ix1 col))
    * (h (ix2 (⟨10000 * (q.val / 8) + p.val, by omega⟩ : Fin 100000) col) - mean (ix1 col))

/-- The 80×128 array of those sums. -/
def tiles (h : Cert.Stage.Act) (mean : Cert.Stage.Vc) : FVec Ideal S80x128 .f32 := fun i => tileSum h mean (i 0) (i 1)

theorem tiles_apply (h : Cert.Stage.Act) (mean : Cert.Stage.Vc) (q : Fin 80) (col : Fin 128) :
    tiles h mean (ix2 q col) = tileSum h mean q col := rfl

/-- A tile entry computed from a block x0 that is rows 10000·tv … 10000·tv + 9999 of h and a one-row array x1 that
    is the mean: the payload at (r, col) is entry (8·tv + r, col) of the array of sums. -/
theorem point_eq (h : Cert.Stage.Act) (mean : Cert.Stage.Vc) (x0 : Vec Ideal S10000x128 .f32) (x1 : Vec Ideal S1x128 .f32)
    (tv : Nat) (htv : tv < 10)
    (hx0 : ∀ (p : Fin 10000) (col : Fin 128), x0 (ix2 p col) = h (ix2 (⟨10000 * tv + p.val, by omega⟩ : Fin 100000) col))
    (hx1 : ∀ col : Fin 128, x1 (ix2 (0 : Fin 1) col) = mean (ix1 col))
    (j : S8x128.Idx) (i : S80x128.Idx) (hi0 : (i 0).val = 8 * tv + (j 0).val) (hi1 : (i 1).val = (j 1).val) :
    k3_pay1 (F := Ideal) x0 x1 j = tiles h mean i := by
  obtain ⟨r, col, rfl⟩ : ∃ (r : Fin 8) (col : Fin 128), j = ix2 r col := ⟨j 0, j 1, eq_ix2 j⟩
  obtain ⟨q, col', rfl⟩ : ∃ (q : Fin 80) (col' : Fin 128), i = ix2 q col' := ⟨i 0, i 1, eq_ix2 i⟩
  have hq : q.val = 8 * tv + r.val := hi0
  obtain rfl : col' = col := Fin.ext hi1
  rw [pay_apply, tiles_apply]
  unfold tileSum
  refine Finset.sum_congr rfl fun p _ => ?_
  have e : (⟨10000 * (q.val / 8) + p.val, by omega⟩ : Fin 100000) = ⟨10000 * tv + p.val, by omega⟩ :=
    Fin.ext (by show 10000 * (q.val / 8) + p.val = 10000 * tv + p.val; omega)
  rw [hx0, hx1, e]

/-! ## From the blocks to the array -/

/-- The zero offsets of a whole-buffer access, as a constant function. -/
theorem hz : (![0, 0] : Fin 2 → Nat) = fun _ => 0 := funext fun a => by fin_cases a <;> rfl

/-- The printed index maps over the grid: h's block and the result's tile move with the point along the rows, the
    mean's one block stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is tile t of the array of sums, for the mean held as one row. -/
theorem flushed_eq (c : Dev nD) (mean : Cert.Stage.Vc)
    (hmean : V c main_v103 = shapeCast S1x128 mean shapeCasts_S128_S1x128) (t : Fin cfg3.N) :
    (dat3 (F := Ideal) V c).flushed 2 t = ((cfg3.win 2).blk t).view.read (Elt Ideal) (tiles (V c main_v99) mean) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  obtain ⟨e00, e01, e10, e11, e20, e21⟩ := idx_facts t
  have ht : t.val < 10 := t.isLt
  funext j
  show k3_pay1 (F := Ideal) (iblk3 V c 0 t) (iblk3 V c 1 t) j = tiles (V c main_v99) mean (((cfg3.win 2).blk t).view.emb j)
  refine point_eq (V c main_v99) mean (iblk3 V c 0 t) (iblk3 V c 1 t) t.val ht ?_ ?_ j (((cfg3.win 2).blk t).view.emb j) ?_ ?_
  · intro p col
    show V c main_v99 (((cfg3.win 0).blk t).view.emb (ix2 p col)) = V c main_v99 (ix2 (⟨10000 * t.val + p.val, by omega⟩ : Fin 100000) col)
    refine congrArg (V c main_v99) (funext fun a => Fin.ext ?_)
    match a with
    | ⟨0, _⟩ => show win3_0.index t (0 : Fin 2) * 10000 + 1 * p.val = 10000 * t.val + p.val; rw [e00]; omega
    | ⟨1, _⟩ => show win3_0.index t (1 : Fin 2) * 128 + 1 * col.val = col.val; rw [e01]; omega
  · intro col
    show V c main_v103 (((cfg3.win 1).blk t).view.emb (ix2 (0 : Fin 1) col)) = mean (ix1 col)
    rw [hmean]
    refine shapeCast_apply mean shapeCasts_S128_S1x128 _ (ix1 col) ?_
    rw [Shape.rowMajor_val_one, Shape.rowMajor_val_two]
    show col.val = (win3_1.index t (0 : Fin 2) * 1 + 1 * 0) * 128 + (win3_1.index t (1 : Fin 2) * 128 + 1 * col.val)
    rw [e10, e11]; omega
  · show win3_2.index t (0 : Fin 2) * 8 + 1 * (j 0).val = 8 * t.val + (j 0).val
    rw [e20]; omega
  · show win3_2.index t (1 : Fin 2) * 128 + 1 * (j 1).val = (j 1).val
    rw [e21]; omega

/-- An index of the 80×128 array is in point t's tile iff each coordinate is in the tile's range on its axis. -/
theorem mem_blk (t : Fin cfg3.N) (i : S80x128.Idx) :
    i ∈ ((cfg3.win 2).blk t).view.set ↔ ∀ a : Fin 2, win3_2.index t a * S8x128.size a ≤ (i a).val ∧ (i a).val < win3_2.index t a * S8x128.size a + S8x128.size a := by
  show i ∈ ((View.whole main_v104).slice (win3_2.rect t)).set ↔ _
  rw [View.set_slice_whole, Rect.mem_set_unit]
  exact Iff.rfl

/-- Row q of the array lies in tile q / 8. -/
theorem cover (i : S80x128.Idx) : ∃ t : Fin cfg3.N, (cfg3.win 2).flush t = true ∧ i ∈ ((cfg3.win 2).blk t).view.set := by
  have hi0 : (i 0).val < 80 := (i 0).isLt
  have hi1 : (i 1).val < 128 := (i 1).isLt
  obtain ⟨t, ht⟩ : ∃ t : Fin cfg3.N, t.val = (i 0).val / 8 := ⟨⟨(i 0).val / 8, by show _ < 10; omega⟩, rfl⟩
  obtain ⟨-, -, -, -, e20, e21⟩ := idx_facts t
  refine ⟨t, flush3_2 t, ?_⟩
  rw [mem_blk]
  intro a
  match a with
  | ⟨0, _⟩ => show win3_2.index t (0 : Fin 2) * 8 ≤ (i 0).val ∧ (i 0).val < win3_2.index t (0 : Fin 2) * 8 + 8; rw [e20, ht]; omega
  | ⟨1, _⟩ => show win3_2.index t (1 : Fin 2) * 128 ≤ (i 1).val ∧ (i 1).val < win3_2.index t (1 : Fin 2) * 128 + 128; rw [e21]; omega

/-- So the region leaves the array of sums. -/
theorem tiles_final (c : Dev nD) (mean : Cert.Stage.Vc)
    (hmean : V c main_v103 = shapeCast S1x128 mean shapeCasts_S128_S1x128) :
    (dat3 (F := Ideal) V c).arrAt 2 cfg3.N = tiles (V c main_v99) mean :=
  (dat3 (F := Ideal) V c).arrAt_eq_of_cover 2 (tiles (V c main_v99) mean) (fun t _ => flushed_eq V c mean hmean t) cover

/-! ## The host's finishing -/

/-- Row t of the ten rows the host keeps is row 8·t of the array: row 0 of tile t. -/
theorem keptRow_apply (T : FVec Ideal S80x128 .f32) (t : Fin 10) (col : Fin 128) :
    shapeCast S10x128 (extractStridedSlice S10x1x128 ![0, 0, 0] (shapeCast S10x8x128 T shapeCasts_S80x128_S10x8x128) slices_S10x8x128_S10x1x128_0_0_0) shapeCasts_S10x1x128_S10x128 (ix2 t col)
      = T (ix2 (⟨8 * t.val, by omega⟩ : Fin 80) col) := by
  refine (shapeCast_apply _ shapeCasts_S10x1x128_S10x128 (ix2 t col) (ix3 t (0 : Fin 1) col) ?_).trans ?_
  · rw [Shape.rowMajor_val_three, Shape.rowMajor_val_two]
    show (t.val * 1 + 0) * 128 + col.val = t.val * 128 + col.val
    omega
  refine (extractStridedSlice_apply ![0, 0, 0] _ slices_S10x8x128_S10x1x128_0_0_0 (ix3 t (0 : Fin 1) col) (ix3 t (0 : Fin 8) col) fun a => ?_).trans ?_
  · match a with
    | ⟨0, _⟩ => show t.val = 0 + t.val; omega
    | ⟨1, _⟩ => show 0 = 0 + 0; rfl
    | ⟨2, _⟩ => show col.val = 0 + col.val; omega
  refine shapeCast_apply T shapeCasts_S80x128_S10x8x128 (ix3 t (0 : Fin 8) col) (ix2 (⟨8 * t.val, by omega⟩ : Fin 80) col) ?_
  rw [Shape.rowMajor_val_two, Shape.rowMajor_val_three]
  show 8 * t.val * 128 + col.val = (t.val * 8 + 0) * 128 + col.val
  omega

/-- The mean laid along every row reads the mean's entry of the column. -/
theorem rows_apply (mean : Cert.Stage.Vc) (r : Fin 100000) (col : Fin 128) : Cert.Stage.rows mean (ix2 r col) = mean (ix1 col) := by
  unfold Cert.Stage.rows Cert.StageF.rows
  refine (broadcastInDim_oneRow_apply _ _ r col).trans ?_
  refine broadcastInDim_apply ![1] _ mean (ix2 (0 : Fin 1) col) (ix1 col) fun a => ?_
  match a with
  | ⟨0, _⟩ => rfl

/-- Row 0 of the ten tiles, summed and divided by 100000, is the mean over the 100000 rows of (h − mean)²: the ten
    block sums regroup into the sum over all the rows, and the division is the same on both sides. -/
theorem varFinish_tiles (h : Cert.Stage.Act) (mean : Cert.Stage.Vc) :
    Cert.KStage.varFinish (tiles h mean) = Cert.Stage.colVar h mean := by
  unfold Cert.KStage.varFinish Cert.KStageF.varFinish Cert.Stage.colVar Cert.StageF.colVar Cert.StageF.colMean
  refine congrArg (fun s => Host.divf (F := Ideal) s (broadcastInDim S128 ![] bcast_S_S128 (constant (F := Ideal) S_ .f32 0x47C35000#32))) ?_
  funext j
  obtain ⟨col, rfl⟩ : ∃ col : Fin 128, j = ix1 col := ⟨j 0, eq_ix1 j⟩
  show Ideal.hostReduceAdd _ _ _ (ix1 col) = Ideal.hostReduceAdd _ _ _ (ix1 col)
  rw [Ideal.hostReduceAdd_single _ (by decide : S10x128.Reduces [0] S128),
    Ideal.hostReduceAdd_single _ (by decide : S100000x128.Reduces [0] S128)]
  refine congrArg (_ + ·) ?_
  show ∑ t : Fin 10, _ = ∑ r : Fin 100000, _
  refine Eq.trans ?_ (Cert.LibBlockSum.sum_blocks 10 10000 (fun r : Fin 100000 =>
    (h (ix2 r col) - mean (ix1 col)) * (h (ix2 r col) - mean (ix1 col)))) |>.trans ?_
  · -- the kernel's side: kept row t is the sum over block t, whose row p is row 10000·t + p of h
    refine Finset.sum_congr rfl fun t _ => ?_
    have e : ∀ hR : S10x128.Reduces [0] S128, hR.lift (ix1 col) t = ix2 t col := fun hR =>
      funext fun a => Fin.ext (by match a with | ⟨0, _⟩ => rfl | ⟨1, _⟩ => rfl)
    refine (congrArg _ (e _)).trans ?_
    refine (keptRow_apply (tiles h mean) t col).trans ?_
    rw [tiles_apply]
    unfold tileSum
    refine Finset.sum_congr rfl fun p _ => ?_
    have e2 : (⟨10000 * ((⟨8 * t.val, by omega⟩ : Fin 80).val / 8) + p.val, by show 10000 * (8 * t.val / 8) + p.val < 100000; omega⟩ : Fin 100000)
        = finProdFinEquiv (t, p) :=
      Fin.ext (by show 10000 * (8 * t.val / 8) + p.val = p.val + 10000 * t.val; omega)
    exact congrArg (fun r : Fin 100000 => (h (ix2 r col) - mean (ix1 col)) * (h (ix2 r col) - mean (ix1 col))) e2
  · -- the reference's side: entry (r, col) of (h − mean)², the mean laid along the rows
    refine Finset.sum_congr rfl fun r _ => Eq.symm ?_
    have e : ∀ hR : S100000x128.Reduces [0] S128, hR.lift (ix1 col) r = ix2 r col := fun hR =>
      funext fun a => Fin.ext (by match a with | ⟨0, _⟩ => rfl | ⟨1, _⟩ => rfl)
    refine (congrArg _ (e _)).trans ?_
    show (h (ix2 r col) - Cert.Stage.rows mean (ix2 r col)) * (h (ix2 r col) - Cert.Stage.rows mean (ix2 r col)) = _
    rw [rows_apply]

/-- The host's finishing of the region's result is the mean over the 100000 rows of (h − mean)². -/
theorem var_eq (c : Dev nD) (mean : Cert.Stage.Vc)
    (hmean : V c main_v103 = shapeCast S1x128 mean shapeCasts_S128_S1x128) :
    Cert.KStage.varFinish ((dat3 (F := Ideal) V c).arrAt 2 cfg3.N) = Cert.Stage.colVar (V c main_v99) mean := by
  exact (congrArg Cert.KStage.varFinish (tiles_final V c mean hmean)).trans (varFinish_tiles (V c main_v99) mean)

end Cert.KernelIdeal.RegionVar3

end
-- ==== Proof.RegionVar5.lean ====
/-
  Region 5, the variance's partial sums: point t sums (h − mean)² over its 10000 rows, column by column, and writes
  that one row into all eight rows of tile t. Row 0 of the ten tiles, summed, is the sum over all 100000 rows: a sum
  regrouped, which needs no finiteness.
-/
import proofs.«430702_j48747878810191_4_alg».proof.Proof.Gen.KernelIdeal.Frame
import proofs.«430702_j48747878810191_4_alg».proof.Proof.Stages
import proofs.«430702_j48747878810191_4_alg».proof.Proof.KernelStages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost
import proofs.«430702_j48747878810191_4_alg».proof.Proof.LibBlockSum

set_option maxRecDepth 16384

noncomputable section

namespace Cert.KernelIdeal.RegionVar5

open Cert.KernelIdeal Cert.KernelIdeal.Gen Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The kernel's payload at an entry -/

/-- The squared deviation at one entry of the block: the block's entry less the mean row's entry in the same column,
    times itself (the two shape casts are identities; the one-row array is read at row 0 whatever the block row). -/
theorem sqdev_apply (x0 : FVec Ideal S10000x128 .f32) (x1 : FVec Ideal S1x128 .f32) (p : Fin 10000) (col : Fin 128) :
    mulf (subf (shapeCast S10000x128 x0 shapeCasts_S10000x128_S10000x128)
          (broadcastTo S10000x128 (shapeCast S1x128 x1 shapeCasts_S1x128_S1x128) broadcasts_S1x128_S10000x128))
        (subf (shapeCast S10000x128 x0 shapeCasts_S10000x128_S10000x128)
          (broadcastTo S10000x128 (shapeCast S1x128 x1 shapeCasts_S1x128_S1x128) broadcasts_S1x128_S10000x128)) (ix2 p col)
      = (x0 (ix2 p col) - x1 (ix2 (0 : Fin 1) col)) * (x0 (ix2 p col) - x1 (ix2 (0 : Fin 1) col)) := by
  have e : broadcastTo S10000x128 (shapeCast S1x128 x1 shapeCasts_S1x128_S1x128) broadcasts_S1x128_S10000x128 (ix2 p col)
      = x1 (ix2 (0 : Fin 1) col) := by
    rw [shapeCast_self]
    refine broadcastTo_apply x1 broadcasts_S1x128_S10000x128 (ix2 p col) (ix2 (0 : Fin 1) col) fun a => ?_
    match a with
    | ⟨0, _⟩ => rfl
    | ⟨1, _⟩ => rfl
  show (shapeCast S10000x128 x0 shapeCasts_S10000x128_S10000x128 (ix2 p col) - _) * (shapeCast S10000x128 x0 shapeCasts_S10000x128_S10000x128 (ix2 p col) - _) = _
  rw [e, shapeCast_self]

/-- The kernel's payload at an entry of the tile: whatever the tile row, the sum over the block's 10000 rows of the
    squared deviations in that column. -/
theorem pay_apply (x0 : Vec Ideal S10000x128 .f32) (x1 : Vec Ideal S1x128 .f32) (r : Fin 8) (col : Fin 128) :
    k5_pay1 (F := Ideal) x0 x1 (ix2 r col)
      = ∑ p : Fin 10000, (x0 (ix2 p col) - x1 (ix2 (0 : Fin 1) col)) * (x0 (ix2 p col) - x1 (ix2 (0 : Fin 1) col)) := by
  unfold k5_pay1
  refine (broadcastTo_apply _ broadcasts_S1x128_S8x128 (ix2 r col) (ix2 (0 : Fin 1) col) fun a => ?_).trans ?_
  · match a with
    | ⟨0, _⟩ => rfl
    | ⟨1, _⟩ => rfl
  refine (congrFun (shapeCast_self _ shapeCasts_S1x128_S1x128) (ix2 (0 : Fin 1) col)).trans ?_
  refine (shapeCast_apply _ shapeCasts_S128_S1x128 (ix2 (0 : Fin 1) col) (ix1 col) ?_).trans ?_
  · rw [Shape.rowMajor_val_one, Shape.rowMajor_val_two]
    show col.val = 0 * 128 + col.val
    omega
  refine (Ideal.multiReduction_add_single _ 0x00000000#32 reduces_S10000x128_S128 _ _ (ix1 col)).trans ?_
  show ∑ p : Fin 10000, _ = _
  refine Finset.sum_congr rfl fun p _ => ?_
  have e : reduces_S10000x128_S128.lift (ix1 col) p = ix2 p col :=
    funext fun a => Fin.ext (by match a with | ⟨0, _⟩ => rfl | ⟨1, _⟩ => rfl)
  refine (congrArg _ e).trans ?_
  exact sqdev_apply x0 x1 p col

/-! ## The region's result as one array -/

/-- Entry (q, col) of the region's result: the sum, over the 10000 rows of block q / 8 of h, of the squared deviations
    in column col. The eight rows of a tile hold the same sums. -/
def tileSum (h : Cert.Stage.Act) (mean : Cert.Stage.Vc) (q : Fin 80) (col : Fin 128) : Ideal .f32 :=
  ∑ p : Fin 10000, (h (ix2 (⟨10000 * (q.val / 8) + p.val, by omega⟩ : Fin 100000) col) - mean (ix1 col))
    * (h (ix2 (⟨10000 * (q.val / 8) + p.val, by omega⟩ : Fin 100000) col) - mean (ix1 col))

/-- The 80×128 array of those sums. -/
def tiles (h : Cert.Stage.Act) (mean : Cert.Stage.Vc) : FVec Ideal S80x128 .f32 := fun i => tileSum h mean (i 0) (i 1)

theorem tiles_apply (h : Cert.Stage.Act) (mean : Cert.Stage.Vc) (q : Fin 80) (col : Fin 128) :
    tiles h mean (ix2 q col) = tileSum h mean q col := rfl

/-- A tile entry computed from a block x0 that is rows 10000·tv … 10000·tv + 9999 of h and a one-row array x1 that
    is the mean: the payload at (r, col) is entry (8·tv + r, col) of the array of sums. -/
theorem point_eq (h : Cert.Stage.Act) (mean : Cert.Stage.Vc) (x0 : Vec Ideal S10000x128 .f32) (x1 : Vec Ideal S1x128 .f32)
    (tv : Nat) (htv : tv < 10)
    (hx0 : ∀ (p : Fin 10000) (col : Fin 128), x0 (ix2 p col) = h (ix2 (⟨10000 * tv + p.val, by omega⟩ : Fin 100000) col))
    (hx1 : ∀ col : Fin 128, x1 (ix2 (0 : Fin 1) col) = mean (ix1 col))
    (j : S8x128.Idx) (i : S80x128.Idx) (hi0 : (i 0).val = 8 * tv + (j 0).val) (hi1 : (i 1).val = (j 1).val) :
    k5_pay1 (F := Ideal) x0 x1 j = tiles h mean i := by
  obtain ⟨r, col, rfl⟩ : ∃ (r : Fin 8) (col : Fin 128), j = ix2 r col := ⟨j 0, j 1, eq_ix2 j⟩
  obtain ⟨q, col', rfl⟩ : ∃ (q : Fin 80) (col' : Fin 128), i = ix2 q col' := ⟨i 0, i 1, eq_ix2 i⟩
  have hq : q.val = 8 * tv + r.val := hi0
  obtain rfl : col' = col := Fin.ext hi1
  rw [pay_apply, tiles_apply]
  unfold tileSum
  refine Finset.sum_congr rfl fun p _ => ?_
  have e : (⟨10000 * (q.val / 8) + p.val, by omega⟩ : Fin 100000) = ⟨10000 * tv + p.val, by omega⟩ :=
    Fin.ext (by show 10000 * (q.val / 8) + p.val = 10000 * tv + p.val; omega)
  rw [hx0, hx1, e]

/-! ## From the blocks to the array -/

/-- The zero offsets of a whole-buffer access, as a constant function. -/
theorem hz : (![0, 0] : Fin 2 → Nat) = fun _ => 0 := funext fun a => by fin_cases a <;> rfl

/-- The printed index maps over the grid: h's block and the result's tile move with the point along the rows, the
    mean's one block stays. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is tile t of the array of sums, for the mean held as one row. -/
theorem flushed_eq (c : Dev nD) (mean : Cert.Stage.Vc)
    (hmean : V c main_v146 = shapeCast S1x128 mean shapeCasts_S128_S1x128) (t : Fin cfg5.N) :
    (dat5 (F := Ideal) V c).flushed 2 t = ((cfg5.win 2).blk t).view.read (Elt Ideal) (tiles (V c main_v142) mean) := by
  show (cfg5.win 2).cut (grid5.coords t) ((dat5 V c).after 2 t) = _
  rw [after5_2]
  unfold out5_2
  rw [View.canon_unit_zero hz]
  simp only [View.ld_unit_zero (S := S10000x128) hz, View.ld_unit_zero (S := S1x128) hz]
  obtain ⟨e00, e01, e10, e11, e20, e21⟩ := idx_facts t
  have ht : t.val < 10 := t.isLt
  funext j
  show k5_pay1 (F := Ideal) (iblk5 V c 0 t) (iblk5 V c 1 t) j = tiles (V c main_v142) mean (((cfg5.win 2).blk t).view.emb j)
  refine point_eq (V c main_v142) mean (iblk5 V c 0 t) (iblk5 V c 1 t) t.val ht ?_ ?_ j (((cfg5.win 2).blk t).view.emb j) ?_ ?_
  · intro p col
    show V c main_v142 (((cfg5.win 0).blk t).view.emb (ix2 p col)) = V c main_v142 (ix2 (⟨10000 * t.val + p.val, by omega⟩ : Fin 100000) col)
    refine congrArg (V c main_v142) (funext fun a => Fin.ext ?_)
    match a with
    | ⟨0, _⟩ => show win5_0.index t (0 : Fin 2) * 10000 + 1 * p.val = 10000 * t.val + p.val; rw [e00]; omega
    | ⟨1, _⟩ => show win5_0.index t (1 : Fin 2) * 128 + 1 * col.val = col.val; rw [e01]; omega
  · intro col
    show V c main_v146 (((cfg5.win 1).blk t).view.emb (ix2 (0 : Fin 1) col)) = mean (ix1 col)
    rw [hmean]
    refine shapeCast_apply mean shapeCasts_S128_S1x128 _ (ix1 col) ?_
    rw [Shape.rowMajor_val_one, Shape.rowMajor_val_two]
    show col.val = (win5_1.index t (0 : Fin 2) * 1 + 1 * 0) * 128 + (win5_1.index t (1 : Fin 2) * 128 + 1 * col.val)
    rw [e10, e11]; omega
  · show win5_2.index t (0 : Fin 2) * 8 + 1 * (j 0).val = 8 * t.val + (j 0).val
    rw [e20]; omega
  · show win5_2.index t (1 : Fin 2) * 128 + 1 * (j 1).val = (j 1).val
    rw [e21]; omega

/-- An index of the 80×128 array is in point t's tile iff each coordinate is in the tile's range on its axis. -/
theorem mem_blk (t : Fin cfg5.N) (i : S80x128.Idx) :
    i ∈ ((cfg5.win 2).blk t).view.set ↔ ∀ a : Fin 2, win5_2.index t a * S8x128.size a ≤ (i a).val ∧ (i a).val < win5_2.index t a * S8x128.size a + S8x128.size a := by
  show i ∈ ((View.whole main_v147).slice (win5_2.rect t)).set ↔ _
  rw [View.set_slice_whole, Rect.mem_set_unit]
  exact Iff.rfl

/-- Row q of the array lies in tile q / 8. -/
theorem cover (i : S80x128.Idx) : ∃ t : Fin cfg5.N, (cfg5.win 2).flush t = true ∧ i ∈ ((cfg5.win 2).blk t).view.set := by
  have hi0 : (i 0).val < 80 := (i 0).isLt
  have hi1 : (i 1).val < 128 := (i 1).isLt
  obtain ⟨t, ht⟩ : ∃ t : Fin cfg5.N, t.val = (i 0).val / 8 := ⟨⟨(i 0).val / 8, by show _ < 10; omega⟩, rfl⟩
  obtain ⟨-, -, -, -, e20, e21⟩ := idx_facts t
  refine ⟨t, flush5_2 t, ?_⟩
  rw [mem_blk]
  intro a
  match a with
  | ⟨0, _⟩ => show win5_2.index t (0 : Fin 2) * 8 ≤ (i 0).val ∧ (i 0).val < win5_2.index t (0 : Fin 2) * 8 + 8; rw [e20, ht]; omega
  | ⟨1, _⟩ => show win5_2.index t (1 : Fin 2) * 128 ≤ (i 1).val ∧ (i 1).val < win5_2.index t (1 : Fin 2) * 128 + 128; rw [e21]; omega

/-- So the region leaves the array of sums. -/
theorem tiles_final (c : Dev nD) (mean : Cert.Stage.Vc)
    (hmean : V c main_v146 = shapeCast S1x128 mean shapeCasts_S128_S1x128) :
    (dat5 (F := Ideal) V c).arrAt 2 cfg5.N = tiles (V c main_v142) mean :=
  (dat5 (F := Ideal) V c).arrAt_eq_of_cover 2 (tiles (V c main_v142) mean) (fun t _ => flushed_eq V c mean hmean t) cover

/-! ## The host's finishing -/

/-- Row t of the ten rows the host keeps is row 8·t of the array: row 0 of tile t. -/
theorem keptRow_apply (T : FVec Ideal S80x128 .f32) (t : Fin 10) (col : Fin 128) :
    shapeCast S10x128 (extractStridedSlice S10x1x128 ![0, 0, 0] (shapeCast S10x8x128 T shapeCasts_S80x128_S10x8x128) slices_S10x8x128_S10x1x128_0_0_0) shapeCasts_S10x1x128_S10x128 (ix2 t col)
      = T (ix2 (⟨8 * t.val, by omega⟩ : Fin 80) col) := by
  refine (shapeCast_apply _ shapeCasts_S10x1x128_S10x128 (ix2 t col) (ix3 t (0 : Fin 1) col) ?_).trans ?_
  · rw [Shape.rowMajor_val_three, Shape.rowMajor_val_two]
    show (t.val * 1 + 0) * 128 + col.val = t.val * 128 + col.val
    omega
  refine (extractStridedSlice_apply ![0, 0, 0] _ slices_S10x8x128_S10x1x128_0_0_0 (ix3 t (0 : Fin 1) col) (ix3 t (0 : Fin 8) col) fun a => ?_).trans ?_
  · match a with
    | ⟨0, _⟩ => show t.val = 0 + t.val; omega
    | ⟨1, _⟩ => show 0 = 0 + 0; rfl
    | ⟨2, _⟩ => show col.val = 0 + col.val; omega
  refine shapeCast_apply T shapeCasts_S80x128_S10x8x128 (ix3 t (0 : Fin 8) col) (ix2 (⟨8 * t.val, by omega⟩ : Fin 80) col) ?_
  rw [Shape.rowMajor_val_two, Shape.rowMajor_val_three]
  show 8 * t.val * 128 + col.val = (t.val * 8 + 0) * 128 + col.val
  omega

/-- The mean laid along every row reads the mean's entry of the column. -/
theorem rows_apply (mean : Cert.Stage.Vc) (r : Fin 100000) (col : Fin 128) : Cert.Stage.rows mean (ix2 r col) = mean (ix1 col) := by
  unfold Cert.Stage.rows Cert.StageF.rows
  refine (broadcastInDim_oneRow_apply _ _ r col).trans ?_
  refine broadcastInDim_apply ![1] _ mean (ix2 (0 : Fin 1) col) (ix1 col) fun a => ?_
  match a with
  | ⟨0, _⟩ => rfl

/-- Row 0 of the ten tiles, summed and divided by 100000, is the mean over the 100000 rows of (h − mean)²: the ten
    block sums regroup into the sum over all the rows, and the division is the same on both sides. -/
theorem varFinish_tiles (h : Cert.Stage.Act) (mean : Cert.Stage.Vc) :
    Cert.KStage.varFinish (tiles h mean) = Cert.Stage.colVar h mean := by
  unfold Cert.KStage.varFinish Cert.KStageF.varFinish Cert.Stage.colVar Cert.StageF.colVar Cert.StageF.colMean
  refine congrArg (fun s => Host.divf (F := Ideal) s (broadcastInDim S128 ![] bcast_S_S128 (constant (F := Ideal) S_ .f32 0x47C35000#32))) ?_
  funext j
  obtain ⟨col, rfl⟩ : ∃ col : Fin 128, j = ix1 col := ⟨j 0, eq_ix1 j⟩
  show Ideal.hostReduceAdd _ _ _ (ix1 col) = Ideal.hostReduceAdd _ _ _ (ix1 col)
  rw [Ideal.hostReduceAdd_single _ (by decide : S10x128.Reduces [0] S128),
    Ideal.hostReduceAdd_single _ (by decide : S100000x128.Reduces [0] S128)]
  refine congrArg (_ + ·) ?_
  show ∑ t : Fin 10, _ = ∑ r : Fin 100000, _
  refine Eq.trans ?_ (Cert.LibBlockSum.sum_blocks 10 10000 (fun r : Fin 100000 =>
    (h (ix2 r col) - mean (ix1 col)) * (h (ix2 r col) - mean (ix1 col)))) |>.trans ?_
  · -- the kernel's side: kept row t is the sum over block t, whose row p is row 10000·t + p of h
    refine Finset.sum_congr rfl fun t _ => ?_
    have e : ∀ hR : S10x128.Reduces [0] S128, hR.lift (ix1 col) t = ix2 t col := fun hR =>
      funext fun a => Fin.ext (by match a with | ⟨0, _⟩ => rfl | ⟨1, _⟩ => rfl)
    refine (congrArg _ (e _)).trans ?_
    refine (keptRow_apply (tiles h mean) t col).trans ?_
    rw [tiles_apply]
    unfold tileSum
    refine Finset.sum_congr rfl fun p _ => ?_
    have e2 : (⟨10000 * ((⟨8 * t.val, by omega⟩ : Fin 80).val / 8) + p.val, by show 10000 * (8 * t.val / 8) + p.val < 100000; omega⟩ : Fin 100000)
        = finProdFinEquiv (t, p) :=
      Fin.ext (by show 10000 * (8 * t.val / 8) + p.val = p.val + 10000 * t.val; omega)
    exact congrArg (fun r : Fin 100000 => (h (ix2 r col) - mean (ix1 col)) * (h (ix2 r col) - mean (ix1 col))) e2
  · -- the reference's side: entry (r, col) of (h − mean)², the mean laid along the rows
    refine Finset.sum_congr rfl fun r _ => Eq.symm ?_
    have e : ∀ hR : S100000x128.Reduces [0] S128, hR.lift (ix1 col) r = ix2 r col := fun hR =>
      funext fun a => Fin.ext (by match a with | ⟨0, _⟩ => rfl | ⟨1, _⟩ => rfl)
    refine (congrArg _ (e _)).trans ?_
    show (h (ix2 r col) - Cert.Stage.rows mean (ix2 r col)) * (h (ix2 r col) - Cert.Stage.rows mean (ix2 r col)) = _
    rw [rows_apply]

/-- The host's finishing of the region's result is the mean over the 100000 rows of (h − mean)². -/
theorem var_eq (c : Dev nD) (mean : Cert.Stage.Vc)
    (hmean : V c main_v146 = shapeCast S1x128 mean shapeCasts_S128_S1x128) :
    Cert.KStage.varFinish ((dat5 (F := Ideal) V c).arrAt 2 cfg5.N) = Cert.Stage.colVar (V c main_v142) mean := by
  exact (congrArg Cert.KStage.varFinish (tiles_final V c mean hmean)).trans (varFinish_tiles (V c main_v142) mean)

end Cert.KernelIdeal.RegionVar5

end
-- ==== Proof.RegionBn2.lean ====
/-
  Region 2, one normalisation layer and the next linear map, as whole arrays: every row of the result depends on the
  same row of h and of the carried activation only, so the ten blocks are the blocks of ONE function.
-/
import proofs.«430702_j48747878810191_4_alg».proof.Proof.Gen.KernelIdeal.Frame
import proofs.«430702_j48747878810191_4_alg».proof.Proof.Stages
import proofs.«430702_j48747878810191_4_alg».proof.Proof.KernelStages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

namespace Cert.KernelIdeal.RegionBn2

open Cert.KernelIdeal Cert.KernelIdeal.Gen Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The whole-array layer and the body's first result, read at an index -/

/-- A vector laid along every row, read at (r, q): the vector's entry q. -/
theorem rows_apply (v : Cert.Stage.Vc) (r : Fin 100000) (q : Fin 128) :
    Cert.StageF.rows (F := Ideal) v (ix2 r q) = v (ix1 q) := by
  unfold Cert.StageF.rows
  refine (broadcastInDim_oneRow_apply (m := 100000) (n := 128) _ _ r q).trans ?_
  refine broadcastInDim_apply ![1] _ v (ix2 (0 : Fin 1) q) (ix1 q) ?_
  intro a
  match a with
  | ⟨0, _⟩ => rfl

/-- One normalisation layer read at (r, q): it depends on row r of h and of the carried activation, and on entry q of
    the four vectors. -/
theorem bnReluRes_apply (h skip : Cert.Stage.Act) (mean invstd g b : Cert.Stage.Vc) (r : Fin 100000) (q : Fin 128) :
    Cert.Stage.bnReluRes h skip mean invstd g b (ix2 r q)
      = max ((h (ix2 r q) - mean (ix1 q)) * invstd (ix1 q) * g (ix1 q) + b (ix1 q)) (Ideal.ofBits .f32 0x00000000#32)
        + skip (ix2 r q) := by
  unfold Cert.Stage.bnReluRes Cert.StageF.bnReluRes Cert.StageF.relu Cert.StageF.centered
  rw [addf_apply, maximumf_apply, addf_apply, mulf_apply, mulf_apply, subf_apply, rows_apply, rows_apply, rows_apply,
    rows_apply]
  rfl

/-- A one-row array broadcast down the 10000 rows of a block, read at (p, q): the row's entry q. -/
theorem rowDown_apply (x : Vec Ideal S1x128 .f32) (p : Fin 10000) (q : Fin 128) :
    broadcastTo S10000x128 x broadcasts_S1x128_S10000x128 (ix2 p q) = x (ix2 (0 : Fin 1) q) := by
  refine broadcastTo_apply x _ (ix2 p q) (ix2 (0 : Fin 1) q) ?_
  intro a
  match a with
  | ⟨0, _⟩ => rfl
  | ⟨1, _⟩ => rfl

/-- The body's first result on a block, read at (p, q): the same expression of the block's row p and of entry q of the
    four one-row arrays (the casts to the same shape are the identity). -/
theorem pay1_apply (x0 x20 : Vec Ideal S10000x128 .f32) (x2 x6 x10 x14 : Vec Ideal S1x128 .f32) (p : Fin 10000)
    (q : Fin 128) :
    k2_pay1 (F := Ideal) x0 x2 x6 x10 x14 x20 (ix2 p q)
      = max ((x0 (ix2 p q) - x2 (ix2 (0 : Fin 1) q)) * x6 (ix2 (0 : Fin 1) q) * x10 (ix2 (0 : Fin 1) q)
          + x14 (ix2 (0 : Fin 1) q)) (Ideal.ofBits .f32 0x00000000#32) + x20 (ix2 p q) := by
  unfold k2_pay1
  simp only [shapeCast_self]
  rw [addf_apply, maximumf_apply, addf_apply, mulf_apply, mulf_apply, subf_apply, rowDown_apply, rowDown_apply,
    rowDown_apply, rowDown_apply]
  rfl

/-- A vector of 128 entries cast to one row, read at (0, q): the vector's entry q (the same row-major position). -/
theorem oneRow_apply (v : Cert.Stage.Vc) (q : Fin 128) :
    shapeCast S1x128 v shapeCasts_S128_S1x128 (ix2 (0 : Fin 1) q) = v (ix1 q) := by
  refine shapeCast_apply v _ (ix2 (0 : Fin 1) q) (ix1 q) ?_
  rw [Shape.rowMajor_val_two, Shape.rowMajor_val_one]
  show q.val = 0 * 128 + q.val
  omega

/-- The body's first result on blocks cut from whole arrays: where row p of the two big blocks is row r of h and of the
    carried activation, and the four one-row blocks are the four vectors, entry (p, q) of the result is entry (r, q) of
    the whole-array layer. -/
theorem pay1_rows (h skip : Cert.Stage.Act) (mean invstd g b : Cert.Stage.Vc)
    (x0 x20 : Vec Ideal S10000x128 .f32) (x2 x6 x10 x14 : Vec Ideal S1x128 .f32)
    (p : Fin 10000) (q : Fin 128) (r : Fin 100000)
    (h0 : x0 (ix2 p q) = h (ix2 r q)) (h20 : x20 (ix2 p q) = skip (ix2 r q))
    (h2 : x2 (ix2 (0 : Fin 1) q) = mean (ix1 q)) (h6 : x6 (ix2 (0 : Fin 1) q) = invstd (ix1 q))
    (h10 : x10 (ix2 (0 : Fin 1) q) = g (ix1 q)) (h14 : x14 (ix2 (0 : Fin 1) q) = b (ix1 q)) :
    k2_pay1 (F := Ideal) x0 x2 x6 x10 x14 x20 (ix2 p q) = Cert.Stage.bnReluRes h skip mean invstd g b (ix2 r q) := by
  rw [pay1_apply, bnReluRes_apply, h0, h20, h2, h6, h10, h14]

/-! ## The windows' blocks as rows of their arrays -/

/-- The body loads and stores its whole staging buffers: offsets (0, 0). -/
theorem zeroOffsets : (![0, 0] : Fin 2 → Nat) = fun _ => 0 := funext fun a => by fin_cases a <;> rfl

/-- The block indices over the ten grid points: the two big inputs and the two outputs are at block (t, 0) at point t,
    one block of 10000 rows per point; the four one-row arrays and the weight stay at block (0, 0). -/
theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- Block t of h is rows t·10000 … t·10000 + 9999 of the array: a block's coordinate is index × size + the coordinate
    inside the block. -/
theorem hBlock_apply (c : Dev nD) (t : Fin cfg2.N) (p : Fin 10000) (q : Fin 128) (r : Fin 100000)
    (hr : r.val = t.val * 10000 + p.val) :
    (iblk2 V c 0 t : Vec Ideal S10000x128 .f32) (ix2 p q) = (V c main_v56 : S100000x128.Idx → Ideal .f32) (ix2 r q) := by
  obtain ⟨e0, e1, -⟩ := blockIndex t
  unfold iblk2
  rw [View.read_apply]
  show V c main_v56 _ = V c main_v56 _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 128 + 1 * q.val = q.val; rw [e1]; omega

/-- Block t of the carried activation is the same rows of its array. -/
theorem skipBlock_apply (c : Dev nD) (t : Fin cfg2.N) (p : Fin 10000) (q : Fin 128) (r : Fin 100000)
    (hr : r.val = t.val * 10000 + p.val) :
    (iblk2 V c 1 t : Vec Ideal S10000x128 .f32) (ix2 p q) = (V c main_v4_0 : S100000x128.Idx → Ideal .f32) (ix2 r q) := by
  obtain ⟨-, -, e0, e1, -⟩ := blockIndex t
  unfold iblk2
  rw [View.read_apply]
  show V c main_v4_0 _ = V c main_v4_0 _
  congr 1
  funext a
  apply Fin.ext
  match a with
  | ⟨0, _⟩ => show win2_1.index t (0 : Fin 2) * 10000 + 1 * p.val = r.val; rw [e0, hr]; omega
  | ⟨1, _⟩ => show win2_1.index t (1 : Fin 2) * 128 + 1 * q.val = q.val; rw [e1]; omega

/-- The one block of the mean's one-row array is the array, at every point. -/
theorem meanRow_apply (c : Dev nD) (t : Fin cfg2.N) (q : Fin 128) :
    (iblk2 V c 2 t : Vec Ideal S1x128 .f32) (ix2 (0 : Fin 1) q) = (V c main_v77 : S1x128.Idx → Ideal .f32) (ix2 (0 : Fin 1) q) := by
  obtain ⟨-, -, -, -, e0, e1, -⟩ := blockIndex t
  unfold iblk2
  rw [View.read_apply]
  show V c main_v77 _ = V c main_v77 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- The same of the inverse deviation's one-row array. -/
theorem invstdRow_apply (c : Dev nD) (t : Fin cfg2.N) (q : Fin 128) :
    (iblk2 V c 3 t : Vec Ideal S1x128 .f32) (ix2 (0 : Fin 1) q) = (V c main_v78 : S1x128.Idx → Ideal .f32) (ix2 (0 : Fin 1) q) := by
  obtain ⟨-, -, -, -, -, -, e0, e1, -⟩ := blockIndex t
  unfold iblk2
  rw [View.read_apply]
  show V c main_v78 _ = V c main_v78 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- The same of the scale's one-row array. -/
theorem scaleRow_apply (c : Dev nD) (t : Fin cfg2.N) (q : Fin 128) :
    (iblk2 V c 4 t : Vec Ideal S1x128 .f32) (ix2 (0 : Fin 1) q) = (V c main_v79 : S1x128.Idx → Ideal .f32) (ix2 (0 : Fin 1) q) := by
  obtain ⟨-, -, -, -, -, -, -, -, e0, e1, -⟩ := blockIndex t
  unfold iblk2
  rw [View.read_apply]
  show V c main_v79 _ = V c main_v79 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-- The same of the shift's one-row array. -/
theorem shiftRow_apply (c : Dev nD) (t : Fin cfg2.N) (q : Fin 128) :
    (iblk2 V c 5 t : Vec Ideal S1x128 .f32) (ix2 (0 : Fin 1) q) = (V c main_v80 : S1x128.Idx → Ideal .f32) (ix2 (0 : Fin 1) q) := by
  obtain ⟨-, -, -, -, -, -, -, -, -, -, e0, e1, -⟩ := blockIndex t
  unfold iblk2
  rw [View.read_apply]
  show V c main_v80 _ = V c main_v80 _
  congr 1
  funext a
  apply Fin.ext
  match a with
  | ⟨0, _⟩ => show win2_5.index t (0 : Fin 2) * 1 + 1 * 0 = 0; rw [e0]
  | ⟨1, _⟩ => show win2_5.index t (1 : Fin 2) * 128 + 1 * q.val = q.val; rw [e1]; omega

/-! ## The first output: from blocks to the array -/

/-- WHAT POINT t WRITES BACK to the first output is block t of the whole-array layer: entry (p, q) of the block is
    entry (t·10000 + p, q) of the array, and the body's result there reads the same rows of h and of the carried
    activation. -/
theorem out_writtenBack (c : Dev nD) (mean invstd g b : Cert.Stage.Vc)
    (hm : V c main_v77 = shapeCast S1x128 mean shapeCasts_S128_S1x128)
    (hi : V c main_v78 = shapeCast S1x128 invstd shapeCasts_S128_S1x128)
    (hg : V c main_v79 = shapeCast S1x128 g shapeCasts_S128_S1x128)
    (hb : V c main_v80 = shapeCast S1x128 b shapeCasts_S128_S1x128) (t : Fin cfg2.N) :
    (dat2 (F := Ideal) V c).flushed 7 t
      = ((cfg2.win 7).blk t).view.read (Elt Ideal)
          (Cert.Stage.bnReluRes (V c main_v56) (V c main_v4_0) mean invstd g b) := by
  show (cfg2.win 7).cut (grid2.coords t) ((dat2 V c).after 7 t) = _
  rw [after2_7]
  unfold out2_7
  rw [View.canon_unit_zero zeroOffsets]
  simp only [View.ld_unit_zero (S := S10000x128) zeroOffsets, View.ld_unit_zero (S := S1x128) zeroOffsets]
  funext j
  obtain ⟨p, q, rfl⟩ : ∃ (p : Fin 10000) (q : Fin 128), j = ix2 p q := ⟨j 0, j 1, eq_ix2 j⟩
  have hN : cfg2.N = 10 := N_2
  have hr : t.val * 10000 + p.val < 100000 := by have := t.isLt; have := p.isLt; omega
  obtain ⟨-, -, -, -, -, -, -, -, -, -, -, -, -, -, e0, e1, -⟩ := blockIndex t
  have hemb : ((cfg2.win 7).blk t).view.emb (ix2 p q)
      = (ix2 (⟨t.val * 10000 + p.val, hr⟩ : Fin 100000) q : S100000x128.Idx) := by
    funext a
    apply Fin.ext
    match a with
    | ⟨0, _⟩ => show win2_7.index t (0 : Fin 2) * 10000 + 1 * p.val = t.val * 10000 + p.val; rw [e0]; omega
    | ⟨1, _⟩ => show win2_7.index t (1 : Fin 2) * 128 + 1 * q.val = q.val; rw [e1]; omega
  rw [View.read_apply, hemb]
  refine pay1_rows (V c main_v56) (V c main_v4_0) mean invstd g b _ _ _ _ _ _ p q ⟨t.val * 10000 + p.val, hr⟩
    (hBlock_apply V c t p q _ rfl) (skipBlock_apply V c t p q _ rfl) ?_ ?_ ?_ ?_
  · rw [meanRow_apply, hm, oneRow_apply]
  · rw [invstdRow_apply, hi, oneRow_apply]
  · rw [scaleRow_apply, hg, oneRow_apply]
  · rw [shiftRow_apply, hb, oneRow_apply]

/-- An index of the first output array is in point t's block iff each coordinate is in the block's range on its axis. -/
theorem mem_outBlock (t : Fin cfg2.N) (i : S100000x128.Idx) :
    i ∈ ((cfg2.win 7).blk t).view.set ↔ ∀ a : Fin 2, win2_7.index t a * S10000x128.size a ≤ (i a).val
      ∧ (i a).val < win2_7.index t a * S10000x128.size a + S10000x128.size a := by
  show i ∈ ((View.whole main_v81_0).slice (win2_7.rect t)).set ↔ _
  rw [View.set_slice_whole, Rect.mem_set_unit]
  exact Iff.rfl

/-- Every row of the first output lies in a block that is written back: row r in block r / 10000. -/
theorem out_covered (i : S100000x128.Idx) :
    ∃ t : Fin cfg2.N, (cfg2.win 7).flush t = true ∧ i ∈ ((cfg2.win 7).blk t).view.set := by
  have hN : cfg2.N = 10 := N_2
  have hi0 : (i 0).val < 100000 := (i 0).isLt
  have hi1 : (i 1).val < 128 := (i 1).isLt
  obtain ⟨t, ht⟩ : ∃ t : Fin cfg2.N, t.val = (i 0).val / 10000 := ⟨⟨(i 0).val / 10000, by rw [hN]; omega⟩, rfl⟩
  refine ⟨t, flush2_7 t, ?_⟩
  rw [mem_outBlock]
  obtain ⟨-, -, -, -, -, -, -, -, -, -, -, -, -, -, e0, e1, -⟩ := blockIndex t
  intro a
  match a with
  | ⟨0, _⟩ =>
    show win2_7.index t (0 : Fin 2) * 10000 ≤ (i 0).val ∧ (i 0).val < win2_7.index t (0 : Fin 2) * 10000 + 10000
    rw [e0, ht]; omega
  | ⟨1, _⟩ =>
    show win2_7.index t (1 : Fin 2) * 128 ≤ (i 1).val ∧ (i 1).val < win2_7.index t (1 : Fin 2) * 128 + 128
    rw [e1]; omega

/-- The first output array: max((h − mean)·invstd·g + b, 0) + skip, the four vectors entering as one-row arrays. -/
theorem out_eq (c : Dev nD) (mean invstd g b : Cert.Stage.Vc)
    (hm : V c main_v77 = shapeCast S1x128 mean shapeCasts_S128_S1x128)
    (hi : V c main_v78 = shapeCast S1x128 invstd shapeCasts_S128_S1x128)
    (hg : V c main_v79 = shapeCast S1x128 g shapeCasts_S128_S1x128)
    (hb : V c main_v80 = shapeCast S1x128 b shapeCasts_S128_S1x128) :
    (dat2 (F := Ideal) V c).arrAt 7 cfg2.N = Cert.Stage.bnReluRes (V c main_v56) (V c main_v4_0) mean invstd g b := by
  exact (dat2 (F := Ideal) V c).arrAt_eq_of_cover 7 _ (fun t _ => out_writtenBack V c mean invstd g b hm hi hg hb t) out_covered

/-! ## The second output: the first one times the weight -/

/-- The block product's operand indices at result index i and contraction position k: the left operand's row is i's
    row, its column the contraction coordinate; the right operand's row is the contraction coordinate, its column i's. -/
theorem blockDot_lhs_0 (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem blockDot_lhs_1 (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
theorem blockDot_rhs_0 (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
theorem blockDot_rhs_1 (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The body's product of a block with a weight, accumulated into the zero splat, read at (p, q): the sum over k of the
    block at (p, k) times the weight at (k, q) — 0 + x = x and the contraction index is its one coordinate. -/
theorem blockMatmul_apply (X : FVec Ideal S10000x128 .f32) (w : FVec Ideal S128x128 .f32) (p : Fin 10000) (q : Fin 128) :
    matmul dot_S10000x128_S128x128_S10000x128_1_0_0_1_n_n none X w
        (constant (F := Ideal) S10000x128 .f32 0x00000000#32) (ix2 p q)
      = ∑ k : Fin 128, X (ix2 p k) * w (ix2 k q) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact blockDot_lhs_0 _ _
      | ⟨1, _⟩ => exact (blockDot_lhs_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (blockDot_rhs_0 _ _).trans hk
      | ⟨1, _⟩ => exact blockDot_rhs_1 _ _)
  rw [el, er]

/-- The body's second result on a block, read at (p, q): row p of the first result times column q of the weight. -/
theorem pay2_apply (x0 x20 : Vec Ideal S10000x128 .f32) (x2 x6 x10 x14 : Vec Ideal S1x128 .f32)
    (x24 : Vec Ideal S128x128 .f32) (p : Fin 10000) (q : Fin 128) :
    k2_pay2 (F := Ideal) x0 x2 x6 x10 x14 x20 x24 (ix2 p q)
      = ∑ k : Fin 128, k2_pay1 (F := Ideal) x0 x2 x6 x10 x14 x20 (ix2 p k) * x24 (ix2 k q) := by
  unfold k2_pay2
  simp only [shapeCast_self]
  exact blockMatmul_apply _ _ p q

/-- The whole-array product's operand indices, as the block product's. -/
theorem arrayDot_lhs_0 (i : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.lhsIdx i k 0).val = (i 0).val := by
  unfold DotDims.lhsIdx
  rw [dif_neg (show ¬(0 : Fin Cert.ReferenceIdeal.S100000x128.rank)
      ∈ Cert.ReferenceIdeal.dot_S100000x128_S128x128_S100000x128_1_0_0_1_n_n.lhsBatch by decide),
    dif_pos (show (0 : Fin Cert.ReferenceIdeal.S100000x128.rank)
      ∈ Cert.ReferenceIdeal.dot_S100000x128_S128x128_S100000x128_1_0_0_1_n_n.lhsNonContracting by decide)]
  rfl
theorem arrayDot_lhs_1 (i : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.lhsIdx i k 1).val = (k ⟨0, by decide⟩).val :=
  Cert.ReferenceIdeal.dot_S100000x128_S128x128_S100000x128_1_0_0_1_n_n.lhsIdx_val_of_single rfl i k
theorem arrayDot_rhs_0 (i : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.rhsIdx i k 0).val = (k ⟨0, by decide⟩).val :=
  Cert.ReferenceIdeal.dot_S100000x128_S128x128_S100000x128_1_0_0_1_n_n.rhsIdx_val_of_single rfl i k
theorem arrayDot_rhs_1 (i : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.rhsIdx i k 1).val = (i 1).val := by
  unfold DotDims.rhsIdx
  rw [dif_neg (show ¬(1 : Fin Cert.ReferenceIdeal.S128x128.rank)
      ∈ Cert.ReferenceIdeal.dot_S100000x128_S128x128_S100000x128_1_0_0_1_n_n.rhsBatch by decide),
    dif_pos (show (1 : Fin Cert.ReferenceIdeal.S128x128.rank)
      ∈ Cert.ReferenceIdeal.dot_S100000x128_S128x128_S100000x128_1_0_0_1_n_n.rhsNonContracting by decide)]
  rfl

/-- The whole-array product read at (r, q): the sum over k of the array at (r, k) times the weight at (k, q). -/
theorem lin_apply (X : Cert.Stage.Act) (w : Cert.Stage.Wt) (r : Fin 100000) (q : Fin 128) :
    Cert.Stage.lin X w (ix2 r q) = ∑ k : Fin 128, X (ix2 r k) * w (ix2 k q) := by
  unfold Cert.Stage.lin Cert.StageF.lin
  simp only [Host.dotGeneral]
  rw [Ideal.dotGeneral_apply,
    ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q)
      ((contrEquiv1 Cert.ReferenceIdeal.dot_S100000x128_S128x128_S100000x128_1_0_0_1_n_n 128 rfl rfl).symm k) = ix2 r k :=
    funext fun a => Fin.ext (by
      match a with
      | ⟨0, _⟩ => exact arrayDot_lhs_0 _ _
      | ⟨1, _⟩ => exact (arrayDot_lhs_1 _ _).trans hk)
  have er : Cert.ReferenceIdeal.dot_S100000x128_S128x128_S100000x128_1_0_0_1_n_n.rhsIdx (ix2 r q)
      ((contrEquiv1 Cert.ReferenceIdeal.dot_S100000x128_S128x128_S100000x128_1_0_0_1_n_n 128 rfl rfl).symm k) = ix2 k q :=
    funext fun a => Fin.ext (by
      match a with
      | ⟨0, _⟩ => exact (arrayDot_rhs_0 _ _).trans hk
      | ⟨1, _⟩ => exact arrayDot_rhs_1 _ _)
  rw [el, er]

/-- The body's second result on blocks cut from whole arrays: entry (p, q) is entry (r, q) of the whole-array product —
    the same sum over k of the same products, row p of the block being row r of the arrays and the weight whole. -/
theorem pay2_rows (h skip : Cert.Stage.Act) (mean invstd g b : Cert.Stage.Vc) (w : Cert.Stage.Wt)
    (x0 x20 : Vec Ideal S10000x128 .f32) (x2 x6 x10 x14 : Vec Ideal S1x128 .f32) (x24 : Vec Ideal S128x128 .f32)
    (p : Fin 10000) (q : Fin 128) (r : Fin 100000)
    (h0 : ∀ k : Fin 128, x0 (ix2 p k) = h (ix2 r k)) (h20 : ∀ k : Fin 128, x20 (ix2 p k) = skip (ix2 r k))
    (h2 : ∀ k : Fin 128, x2 (ix2 (0 : Fin 1) k) = mean (ix1 k))
    (h6 : ∀ k : Fin 128, x6 (ix2 (0 : Fin 1) k) = invstd (ix1 k))
    (h10 : ∀ k : Fin 128, x10 (ix2 (0 : Fin 1) k) = g (ix1 k))
    (h14 : ∀ k : Fin 128, x14 (ix2 (0 : Fin 1) k) = b (ix1 k))
    (h24 : ∀ k : Fin 128, x24 (ix2 k q) = w (ix2 k q)) :
    k2_pay2 (F := Ideal) x0 x2 x6 x10 x14 x20 x24 (ix2 p q)
      = Cert.Stage.lin (Cert.Stage.bnReluRes h skip mean invstd g b) w (ix2 r q) := by
  rw [pay2_apply, lin_apply]
  refine Finset.sum_congr rfl fun k _ => ?_
  rw [pay1_rows h skip mean invstd g b x0 x20 x2 x6 x10 x14 p k r (h0 k) (h20 k) (h2 k) (h6 k) (h10 k) (h14 k), h24 k]

/-- The one block of the weight is the weight, at every point. -/
theorem weightBlock_apply (c : Dev nD) (t : Fin cfg2.N) (k q : Fin 128) :
    (iblk2 V c 6 t : Vec Ideal S128x128 .f32) (ix2 k q) = (V c main_v69 : S128x128.Idx → Ideal .f32) (ix2 k q) := by
  obtain ⟨-, -, -, -, -, -, -, -, -, -, -, -, e0, e1, -⟩ := blockIndex t
  unfold iblk2
  rw [View.read_apply]
  show V c main_v69 _ = V c main_v69 _
  congr 1
  funext a
  apply Fin.ext
  match a with
  | ⟨0, _⟩ => show win2_6.index t (0 : Fin 2) * 128 + 1 * k.val = k.val; rw [e0]; omega
  | ⟨1, _⟩ => show win2_6.index t (1 : Fin 2) * 128 + 1 * q.val = q.val; rw [e1]; omega

/-- WHAT POINT t WRITES BACK to the second output is block t of the whole-array product. -/
theorem lin_writtenBack (c : Dev nD) (mean invstd g b : Cert.Stage.Vc)
    (hm : V c main_v77 = shapeCast S1x128 mean shapeCasts_S128_S1x128)
    (hi : V c main_v78 = shapeCast S1x128 invstd shapeCasts_S128_S1x128)
    (hg : V c main_v79 = shapeCast S1x128 g shapeCasts_S128_S1x128)
    (hb : V c main_v80 = shapeCast S1x128 b shapeCasts_S128_S1x128) (t : Fin cfg2.N) :
    (dat2 (F := Ideal) V c).flushed 8 t
      = ((cfg2.win 8).blk t).view.read (Elt Ideal)
          (Cert.Stage.lin (Cert.Stage.bnReluRes (V c main_v56) (V c main_v4_0) mean invstd g b) (V c main_v69)) := by
  show (cfg2.win 8).cut (grid2.coords t) ((dat2 V c).after 8 t) = _
  rw [after2_8]
  unfold out2_8
  rw [View.canon_unit_zero zeroOffsets]
  simp only [View.ld_unit_zero (S := S10000x128) zeroOffsets, View.ld_unit_zero (S := S1x128) zeroOffsets,
    View.ld_unit_zero (S := S128x128) zeroOffsets]
  funext j
  obtain ⟨p, q, rfl⟩ : ∃ (p : Fin 10000) (q : Fin 128), j = ix2 p q := ⟨j 0, j 1, eq_ix2 j⟩
  have hN : cfg2.N = 10 := N_2
  have hr : t.val * 10000 + p.val < 100000 := by have := t.isLt; have := p.isLt; omega
  obtain ⟨-, -, -, -, -, -, -, -, -, -, -, -, -, -, -, -, e0, e1⟩ := blockIndex t
  have hemb : ((cfg2.win 8).blk t).view.emb (ix2 p q)
      = (ix2 (⟨t.val * 10000 + p.val, hr⟩ : Fin 100000) q : S100000x128.Idx) := by
    funext a
    apply Fin.ext
    match a with
    | ⟨0, _⟩ => show win2_8.index t (0 : Fin 2) * 10000 + 1 * p.val = t.val * 10000 + p.val; rw [e0]; omega
    | ⟨1, _⟩ => show win2_8.index t (1 : Fin 2) * 128 + 1 * q.val = q.val; rw [e1]; omega
  rw [View.read_apply, hemb]
  refine pay2_rows (V c main_v56) (V c main_v4_0) mean invstd g b (V c main_v69) _ _ _ _ _ _ _ p q
    ⟨t.val * 10000 + p.val, hr⟩
    (fun k => hBlock_apply V c t p k _ rfl) (fun k => skipBlock_apply V c t p k _ rfl)
    (fun k => ?_) (fun k => ?_) (fun k => ?_) (fun k => ?_) (fun k => weightBlock_apply V c t k q)
  · rw [meanRow_apply, hm, oneRow_apply]
  · rw [invstdRow_apply, hi, oneRow_apply]
  · rw [scaleRow_apply, hg, oneRow_apply]
  · rw [shiftRow_apply, hb, oneRow_apply]

/-- An index of the second output array is in point t's block iff each coordinate is in the block's range on its axis. -/
theorem mem_linBlock (t : Fin cfg2.N) (i : S100000x128.Idx) :
    i ∈ ((cfg2.win 8).blk t).view.set ↔ ∀ a : Fin 2, win2_8.index t a * S10000x128.size a ≤ (i a).val
      ∧ (i a).val < win2_8.index t a * S10000x128.size a + S10000x128.size a := by
  show i ∈ ((View.whole main_v81_1).slice (win2_8.rect t)).set ↔ _
  rw [View.set_slice_whole, Rect.mem_set_unit]
  exact Iff.rfl

/-- Every row of the second output lies in a block that is written back: row r in block r / 10000. -/
theorem lin_covered (i : S100000x128.Idx) :
    ∃ t : Fin cfg2.N, (cfg2.win 8).flush t = true ∧ i ∈ ((cfg2.win 8).blk t).view.set := by
  have hN : cfg2.N = 10 := N_2
  have hi0 : (i 0).val < 100000 := (i 0).isLt
  have hi1 : (i 1).val < 128 := (i 1).isLt
  obtain ⟨t, ht⟩ : ∃ t : Fin cfg2.N, t.val = (i 0).val / 10000 := ⟨⟨(i 0).val / 10000, by rw [hN]; omega⟩, rfl⟩
  refine ⟨t, flush2_8 t, ?_⟩
  rw [mem_linBlock]
  obtain ⟨-, -, -, -, -, -, -, -, -, -, -, -, -, -, -, -, e0, e1⟩ := blockIndex t
  intro a
  match a with
  | ⟨0, _⟩ =>
    show win2_8.index t (0 : Fin 2) * 10000 ≤ (i 0).val ∧ (i 0).val < win2_8.index t (0 : Fin 2) * 10000 + 10000
    rw [e0, ht]; omega
  | ⟨1, _⟩ =>
    show win2_8.index t (1 : Fin 2) * 128 ≤ (i 1).val ∧ (i 1).val < win2_8.index t (1 : Fin 2) * 128 + 128
    rw [e1]; omega

/-- The second output array: the first one times the next layer's weight. -/
theorem lin_eq (c : Dev nD) (mean invstd g b : Cert.Stage.Vc)
    (hm : V c main_v77 = shapeCast S1x128 mean shapeCasts_S128_S1x128)
    (hi : V c main_v78 = shapeCast S1x128 invstd shapeCasts_S128_S1x128)
    (hg : V c main_v79 = shapeCast S1x128 g shapeCasts_S128_S1x128)
    (hb : V c main_v80 = shapeCast S1x128 b shapeCasts_S128_S1x128) :
    (dat2 (F := Ideal) V c).arrAt 8 cfg2.N
      = Cert.Stage.lin (Cert.Stage.bnReluRes (V c main_v56) (V c main_v4_0) mean invstd g b) (V c main_v69) := by
  exact (dat2 (F := Ideal) V c).arrAt_eq_of_cover 8 _ (fun t _ => lin_writtenBack V c mean invstd g b hm hi hg hb t) lin_covered

end Cert.KernelIdeal.RegionBn2

end
-- ==== Proof.RegionBn4.lean ====
/-
  Region 4, one normalisation layer and the next linear map, as whole arrays: every row of the result depends on the
  same row of h and of the carried activation only, so the ten blocks are the blocks of ONE function.
-/
import proofs.«430702_j48747878810191_4_alg».proof.Proof.Gen.KernelIdeal.Frame
import proofs.«430702_j48747878810191_4_alg».proof.Proof.Stages
import proofs.«430702_j48747878810191_4_alg».proof.Proof.KernelStages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

namespace Cert.KernelIdeal.RegionBn4

open Cert.KernelIdeal Cert.KernelIdeal.Gen Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The whole-array layer and the body's first result, read at an index -/

/-- A vector laid along every row, read at (r, q): the vector's entry q. -/
theorem rows_apply (v : Cert.Stage.Vc) (r : Fin 100000) (q : Fin 128) :
    Cert.StageF.rows (F := Ideal) v (ix2 r q) = v (ix1 q) := by
  unfold Cert.StageF.rows
  refine (broadcastInDim_oneRow_apply (m := 100000) (n := 128) _ _ r q).trans ?_
  refine broadcastInDim_apply ![1] _ v (ix2 (0 : Fin 1) q) (ix1 q) ?_
  intro a
  match a with
  | ⟨0, _⟩ => rfl

/-- One normalisation layer read at (r, q): it depends on row r of h and of the carried activation, and on entry q of
    the four vectors. -/
theorem bnReluRes_apply (h skip : Cert.Stage.Act) (mean invstd g b : Cert.Stage.Vc) (r : Fin 100000) (q : Fin 128) :
    Cert.Stage.bnReluRes h skip mean invstd g b (ix2 r q)
      = max ((h (ix2 r q) - mean (ix1 q)) * invstd (ix1 q) * g (ix1 q) + b (ix1 q)) (Ideal.ofBits .f32 0x00000000#32)
        + skip (ix2 r q) := by
  unfold Cert.Stage.bnReluRes Cert.StageF.bnReluRes Cert.StageF.relu Cert.StageF.centered
  rw [addf_apply, maximumf_apply, addf_apply, mulf_apply, mulf_apply, subf_apply, rows_apply, rows_apply, rows_apply,
    rows_apply]
  rfl

/-- A one-row array broadcast down the 10000 rows of a block, read at (p, q): the row's entry q. -/
theorem rowDown_apply (x : Vec Ideal S1x128 .f32) (p : Fin 10000) (q : Fin 128) :
    broadcastTo S10000x128 x broadcasts_S1x128_S10000x128 (ix2 p q) = x (ix2 (0 : Fin 1) q) := by
  refine broadcastTo_apply x _ (ix2 p q) (ix2 (0 : Fin 1) q) ?_
  intro a
  match a with
  | ⟨0, _⟩ => rfl
  | ⟨1, _⟩ => rfl

/-- The body's first result on a block, read at (p, q): the same expression of the block's row p and of entry q of the
    four one-row arrays (the casts to the same shape are the identity). -/
theorem pay1_apply (x0 x20 : Vec Ideal S10000x128 .f32) (x2 x6 x10 x14 : Vec Ideal S1x128 .f32) (p : Fin 10000)
    (q : Fin 128) :
    k4_pay1 (F := Ideal) x0 x2 x6 x10 x14 x20 (ix2 p q)
      = max ((x0 (ix2 p q) - x2 (ix2 (0 : Fin 1) q)) * x6 (ix2 (0 : Fin 1) q) * x10 (ix2 (0 : Fin 1) q)
          + x14 (ix2 (0 : Fin 1) q)) (Ideal.ofBits .f32 0x00000000#32) + x20 (ix2 p q) := by
  unfold k4_pay1
  simp only [shapeCast_self]
  rw [addf_apply, maximumf_apply, addf_apply, mulf_apply, mulf_apply, subf_apply, rowDown_apply, rowDown_apply,
    rowDown_apply, rowDown_apply]
  rfl

/-- A vector of 128 entries cast to one row, read at (0, q): the vector's entry q (the same row-major position). -/
theorem oneRow_apply (v : Cert.Stage.Vc) (q : Fin 128) :
    shapeCast S1x128 v shapeCasts_S128_S1x128 (ix2 (0 : Fin 1) q) = v (ix1 q) := by
  refine shapeCast_apply v _ (ix2 (0 : Fin 1) q) (ix1 q) ?_
  rw [Shape.rowMajor_val_two, Shape.rowMajor_val_one]
  show q.val = 0 * 128 + q.val
  omega

/-- The body's first result on blocks cut from whole arrays: where row p of the two big blocks is row r of h and of the
    carried activation, and the four one-row blocks are the four vectors, entry (p, q) of the result is entry (r, q) of
    the whole-array layer. -/
theorem pay1_rows (h skip : Cert.Stage.Act) (mean invstd g b : Cert.Stage.Vc)
    (x0 x20 : Vec Ideal S10000x128 .f32) (x2 x6 x10 x14 : Vec Ideal S1x128 .f32)
    (p : Fin 10000) (q : Fin 128) (r : Fin 100000)
    (h0 : x0 (ix2 p q) = h (ix2 r q)) (h20 : x20 (ix2 p q) = skip (ix2 r q))
    (h2 : x2 (ix2 (0 : Fin 1) q) = mean (ix1 q)) (h6 : x6 (ix2 (0 : Fin 1) q) = invstd (ix1 q))
    (h10 : x10 (ix2 (0 : Fin 1) q) = g (ix1 q)) (h14 : x14 (ix2 (0 : Fin 1) q) = b (ix1 q)) :
    k4_pay1 (F := Ideal) x0 x2 x6 x10 x14 x20 (ix2 p q) = Cert.Stage.bnReluRes h skip mean invstd g b (ix2 r q) := by
  rw [pay1_apply, bnReluRes_apply, h0, h20, h2, h6, h10, h14]

/-! ## The windows' blocks as rows of their arrays -/

/-- The body loads and stores its whole staging buffers: offsets (0, 0). -/
theorem zeroOffsets : (![0, 0] : Fin 2 → Nat) = fun _ => 0 := funext fun a => by fin_cases a <;> rfl

/-- The block indices over the ten grid points: the two big inputs and the two outputs are at block (t, 0) at point t,
    one block of 10000 rows per point; the four one-row arrays and the weight stay at block (0, 0). -/
theorem blockIndex : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- Block t of h is rows t·10000 … t·10000 + 9999 of the array: a block's coordinate is index × size + the coordinate
    inside the block. -/
theorem hBlock_apply (c : Dev nD) (t : Fin cfg4.N) (p : Fin 10000) (q : Fin 128) (r : Fin 100000)
    (hr : r.val = t.val * 10000 + p.val) :
    (iblk4 V c 0 t : Vec Ideal S10000x128 .f32) (ix2 p q) = (V c main_v99 : S100000x128.Idx → Ideal .f32) (ix2 r q) := by
  obtain ⟨e0, e1, -⟩ := blockIndex t
  unfold iblk4
  rw [View.read_apply]
  show V c main_v99 _ = V c main_v99 _
  congr 1
  funext a
  apply Fin.ext
  match a with
  | ⟨0, _⟩ => show win4_0.index t (0 : Fin 2) * 10000 + 1 * p.val = r.val; rw [e0, hr]; omega
  | ⟨1, _⟩ => show win4_0.index t (1 : Fin 2) * 128 + 1 * q.val = q.val; rw [e1]; omega

/-- Block t of the carried activation is the same rows of its array. -/
theorem skipBlock_apply (c : Dev nD) (t : Fin cfg4.N) (p : Fin 10000) (q : Fin 128) (r : Fin 100000)
    (hr : r.val = t.val * 10000 + p.val) :
    (iblk4 V c 1 t : Vec Ideal S10000x128 .f32) (ix2 p q) = (V c main_v81_0 : S100000x128.Idx → Ideal .f32) (ix2 r q) := by
  obtain ⟨-, -, e0, e1, -⟩ := blockIndex t
  unfold iblk4
  rw [View.read_apply]
  show V c main_v81_0 _ = V c main_v81_0 _
  congr 1
  funext a
  apply Fin.ext
  match a with
  | ⟨0, _⟩ => show win4_1.index t (0 : Fin 2) * 10000 + 1 * p.val = r.val; rw [e0, hr]; omega
  | ⟨1, _⟩ => show win4_1.index t (1 : Fin 2) * 128 + 1 * q.val = q.val; rw [e1]; omega

/-- The one block of the mean's one-row array is the array, at every point. -/
theorem meanRow_apply (c : Dev nD) (t : Fin cfg4.N) (q : Fin 128) :
    (iblk4 V c 2 t : Vec Ideal S1x128 .f32) (ix2 (0 : Fin 1) q) = (V c main_v120 : S1x128.Idx → Ideal .f32) (ix2 (0 : Fin 1) q) := by
  obtain ⟨-, -, -, -, e0, e1, -⟩ := blockIndex t
  unfold iblk4
  rw [View.read_apply]
  show V c main_v120 _ = V c main_v120 _
  congr 1
  funext a
  apply Fin.ext
  match a with
  | ⟨0, _⟩ => show win4_2.index t (0 : Fin 2) * 1 + 1 * 0 = 0; rw [e0]
  | ⟨1, _⟩ => show win4_2.index t (1 : Fin 2) * 128 + 1 * q.val = q.val; rw [e1]; omega

/-- The same of the inverse deviation's one-row array. -/
theorem invstdRow_apply (c : Dev nD) (t : Fin cfg4.N) (q : Fin 128) :
    (iblk4 V c 3 t : Vec Ideal S1x128 .f32) (ix2 (0 : Fin 1) q) = (V c main_v121 : S1x128.Idx → Ideal .f32) (ix2 (0 : Fin 1) q) := by
  obtain ⟨-, -, -, -, -, -, e0, e1, -⟩ := blockIndex t
  unfold iblk4
  rw [View.read_apply]
  show V c main_v121 _ = V c main_v121 _
  congr 1
  funext a
  apply Fin.ext
  match a with
  | ⟨0, _⟩ => show win4_3.index t (0 : Fin 2) * 1 + 1 * 0 = 0; rw [e0]
  | ⟨1, _⟩ => show win4_3.index t (1 : Fin 2) * 128 + 1 * q.val = q.val; rw [e1]; omega

/-- The same of the scale's one-row array. -/
theorem scaleRow_apply (c : Dev nD) (t : Fin cfg4.N) (q : Fin 128) :
    (iblk4 V c 4 t : Vec Ideal S1x128 .f32) (ix2 (0 : Fin 1) q) = (V c main_v122 : S1x128.Idx → Ideal .f32) (ix2 (0 : Fin 1) q) := by
  obtain ⟨-, -, -, -, -, -, -, -, e0, e1, -⟩ := blockIndex t
  unfold iblk4
  rw [View.read_apply]
  show V c main_v122 _ = V c main_v122 _
  congr 1
  funext a
  apply Fin.ext
  match a with
  | ⟨0, _⟩ => show win4_4.index t (0 : Fin 2) * 1 + 1 * 0 = 0; rw [e0]
  | ⟨1, _⟩ => show win4_4.index t (1 : Fin 2) * 128 + 1 * q.val = q.val; rw [e1]; omega

/-- The same of the shift's one-row array. -/
theorem shiftRow_apply (c : Dev nD) (t : Fin cfg4.N) (q : Fin 128) :
    (iblk4 V c 5 t : Vec Ideal S1x128 .f32) (ix2 (0 : Fin 1) q) = (V c main_v123 : S1x128.Idx → Ideal .f32) (ix2 (0 : Fin 1) q) := by
  obtain ⟨-, -, -, -, -, -, -, -, -, -, e0, e1, -⟩ := blockIndex t
  unfold iblk4
  rw [View.read_apply]
  show V c main_v123 _ = V c main_v123 _
  congr 1
  funext a
  apply Fin.ext
  match a with
  | ⟨0, _⟩ => show win4_5.index t (0 : Fin 2) * 1 + 1 * 0 = 0; rw [e0]
  | ⟨1, _⟩ => show win4_5.index t (1 : Fin 2) * 128 + 1 * q.val = q.val; rw [e1]; omega

/-! ## The first output: from blocks to the array -/

/-- WHAT POINT t WRITES BACK to the first output is block t of the whole-array layer: entry (p, q) of the block is
    entry (t·10000 + p, q) of the array, and the body's result there reads the same rows of h and of the carried
    activation. -/
theorem out_writtenBack (c : Dev nD) (mean invstd g b : Cert.Stage.Vc)
    (hm : V c main_v120 = shapeCast S1x128 mean shapeCasts_S128_S1x128)
    (hi : V c main_v121 = shapeCast S1x128 invstd shapeCasts_S128_S1x128)
    (hg : V c main_v122 = shapeCast S1x128 g shapeCasts_S128_S1x128)
    (hb : V c main_v123 = shapeCast S1x128 b shapeCasts_S128_S1x128) (t : Fin cfg4.N) :
    (dat4 (F := Ideal) V c).flushed 7 t
      = ((cfg4.win 7).blk t).view.read (Elt Ideal)
          (Cert.Stage.bnReluRes (V c main_v99) (V c main_v81_0) mean invstd g b) := by
  show (cfg4.win 7).cut (grid4.coords t) ((dat4 V c).after 7 t) = _
  rw [after4_7]
  unfold out4_7
  rw [View.canon_unit_zero zeroOffsets]
  simp only [View.ld_unit_zero (S := S10000x128) zeroOffsets, View.ld_unit_zero (S := S1x128) zeroOffsets]
  funext j
  obtain ⟨p, q, rfl⟩ : ∃ (p : Fin 10000) (q : Fin 128), j = ix2 p q := ⟨j 0, j 1, eq_ix2 j⟩
  have hN : cfg4.N = 10 := N_4
  have hr : t.val * 10000 + p.val < 100000 := by have := t.isLt; have := p.isLt; omega
  obtain ⟨-, -, -, -, -, -, -, -, -, -, -, -, -, -, e0, e1, -⟩ := blockIndex t
  have hemb : ((cfg4.win 7).blk t).view.emb (ix2 p q)
      = (ix2 (⟨t.val * 10000 + p.val, hr⟩ : Fin 100000) q : S100000x128.Idx) := by
    funext a
    apply Fin.ext
    match a with
    | ⟨0, _⟩ => show win4_7.index t (0 : Fin 2) * 10000 + 1 * p.val = t.val * 10000 + p.val; rw [e0]; omega
    | ⟨1, _⟩ => show win4_7.index t (1 : Fin 2) * 128 + 1 * q.val = q.val; rw [e1]; omega
  rw [View.read_apply, hemb]
  refine pay1_rows (V c main_v99) (V c main_v81_0) mean invstd g b _ _ _ _ _ _ p q ⟨t.val * 10000 + p.val, hr⟩
    (hBlock_apply V c t p q _ rfl) (skipBlock_apply V c t p q _ rfl) ?_ ?_ ?_ ?_
  · rw [meanRow_apply, hm, oneRow_apply]
  · rw [invstdRow_apply, hi, oneRow_apply]
  · rw [scaleRow_apply, hg, oneRow_apply]
  · rw [shiftRow_apply, hb, oneRow_apply]

/-- An index of the first output array is in point t's block iff each coordinate is in the block's range on its axis. -/
theorem mem_outBlock (t : Fin cfg4.N) (i : S100000x128.Idx) :
    i ∈ ((cfg4.win 7).blk t).view.set ↔ ∀ a : Fin 2, win4_7.index t a * S10000x128.size a ≤ (i a).val
      ∧ (i a).val < win4_7.index t a * S10000x128.size a + S10000x128.size a := by
  show i ∈ ((View.whole main_v124_0).slice (win4_7.rect t)).set ↔ _
  rw [View.set_slice_whole, Rect.mem_set_unit]
  exact Iff.rfl

/-- Every row of the first output lies in a block that is written back: row r in block r / 10000. -/
theorem out_covered (i : S100000x128.Idx) :
    ∃ t : Fin cfg4.N, (cfg4.win 7).flush t = true ∧ i ∈ ((cfg4.win 7).blk t).view.set := by
  have hN : cfg4.N = 10 := N_4
  have hi0 : (i 0).val < 100000 := (i 0).isLt
  have hi1 : (i 1).val < 128 := (i 1).isLt
  obtain ⟨t, ht⟩ : ∃ t : Fin cfg4.N, t.val = (i 0).val / 10000 := ⟨⟨(i 0).val / 10000, by rw [hN]; omega⟩, rfl⟩
  refine ⟨t, flush4_7 t, ?_⟩
  rw [mem_outBlock]
  obtain ⟨-, -, -, -, -, -, -, -, -, -, -, -, -, -, e0, e1, -⟩ := blockIndex t
  intro a
  match a with
  | ⟨0, _⟩ =>
    show win4_7.index t (0 : Fin 2) * 10000 ≤ (i 0).val ∧ (i 0).val < win4_7.index t (0 : Fin 2) * 10000 + 10000
    rw [e0, ht]; omega
  | ⟨1, _⟩ =>
    show win4_7.index t (1 : Fin 2) * 128 ≤ (i 1).val ∧ (i 1).val < win4_7.index t (1 : Fin 2) * 128 + 128
    rw [e1]; omega

/-- The first output array: max((h − mean)·invstd·g + b, 0) + skip, the four vectors entering as one-row arrays. -/
theorem out_eq (c : Dev nD) (mean invstd g b : Cert.Stage.Vc)
    (hm : V c main_v120 = shapeCast S1x128 mean shapeCasts_S128_S1x128)
    (hi : V c main_v121 = shapeCast S1x128 invstd shapeCasts_S128_S1x128)
    (hg : V c main_v122 = shapeCast S1x128 g shapeCasts_S128_S1x128)
    (hb : V c main_v123 = shapeCast S1x128 b shapeCasts_S128_S1x128) :
    (dat4 (F := Ideal) V c).arrAt 7 cfg4.N = Cert.Stage.bnReluRes (V c main_v99) (V c main_v81_0) mean invstd g b := by
  exact (dat4 (F := Ideal) V c).arrAt_eq_of_cover 7 _ (fun t _ => out_writtenBack V c mean invstd g b hm hi hg hb t) out_covered

/-! ## The second output: the first one times the weight -/

/-- The block product's operand indices at result index i and contraction position k: the left operand's row is i's
    row, its column the contraction coordinate; the right operand's row is the contraction coordinate, its column i's. -/
theorem blockDot_lhs_0 (i : S10000x128.Idx) (k : dot_S10000x128_S128x128_S10000x128_1_0_0_1_n_n.contr.Idx) :
    (dot_S10000x128_S128x128_S10000x128_1_0_0_1_n_n.lhsIdx i k 0).val = (i 0).val := by
  unfold DotDims.lhsIdx
  rw [dif_neg (show ¬(0 : Fin S10000x128.rank) ∈ dot_S10000x128_S128x128_S10000x128_1_0_0_1_n_n.lhsBatch by decide),
    dif_pos (show (0 : Fin S10000x128.rank) ∈ dot_S10000x128_S128x128_S10000x128_1_0_0_1_n_n.lhsNonContracting by decide)]
  rfl
theorem blockDot_lhs_1 (i : S10000x128.Idx) (k : dot_S10000x128_S128x128_S10000x128_1_0_0_1_n_n.contr.Idx) :
    (dot_S10000x128_S128x128_S10000x128_1_0_0_1_n_n.lhsIdx i k 1).val = (k ⟨0, by decide⟩).val :=
  dot_S10000x128_S128x128_S10000x128_1_0_0_1_n_n.lhsIdx_val_of_single rfl i k
theorem blockDot_rhs_0 (i : S10000x128.Idx) (k : dot_S10000x128_S128x128_S10000x128_1_0_0_1_n_n.contr.Idx) :
    (dot_S10000x128_S128x128_S10000x128_1_0_0_1_n_n.rhsIdx i k 0).val = (k ⟨0, by decide⟩).val :=
  dot_S10000x128_S128x128_S10000x128_1_0_0_1_n_n.rhsIdx_val_of_single rfl i k
theorem blockDot_rhs_1 (i : S10000x128.Idx) (k : dot_S10000x128_S128x128_S10000x128_1_0_0_1_n_n.contr.Idx) :
    (dot_S10000x128_S128x128_S10000x128_1_0_0_1_n_n.rhsIdx i k 1).val = (i 1).val := by
  unfold DotDims.rhsIdx
  rw [dif_neg (show ¬(1 : Fin S128x128.rank) ∈ dot_S10000x128_S128x128_S10000x128_1_0_0_1_n_n.rhsBatch by decide),
    dif_pos (show (1 : Fin S128x128.rank) ∈ dot_S10000x128_S128x128_S10000x128_1_0_0_1_n_n.rhsNonContracting by decide)]
  rfl

/-- The body's product of a block with a weight, accumulated into the zero splat, read at (p, q): the sum over k of the
    block at (p, k) times the weight at (k, q) — 0 + x = x and the contraction index is its one coordinate. -/
theorem blockMatmul_apply (X : FVec Ideal S10000x128 .f32) (w : FVec Ideal S128x128 .f32) (p : Fin 10000) (q : Fin 128) :
    matmul dot_S10000x128_S128x128_S10000x128_1_0_0_1_n_n none X w
        (constant (F := Ideal) S10000x128 .f32 0x00000000#32) (ix2 p q)
      = ∑ k : Fin 128, X (ix2 p k) * w (ix2 k q) := by
  simp only [matmul]
  rw [Ideal.matmul_constant_zero_apply,
    ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q)
      ((contrEquiv1 dot_S10000x128_S128x128_S10000x128_1_0_0_1_n_n 128 rfl rfl).symm k) = ix2 p k :=
    funext fun a => Fin.ext (by
      match a with
      | ⟨0, _⟩ => exact blockDot_lhs_0 _ _
      | ⟨1, _⟩ => exact (blockDot_lhs_1 _ _).trans hk)
  have er : dot_S10000x128_S128x128_S10000x128_1_0_0_1_n_n.rhsIdx (ix2 p q)
      ((contrEquiv1 dot_S10000x128_S128x128_S10000x128_1_0_0_1_n_n 128 rfl rfl).symm k) = ix2 k q :=
    funext fun a => Fin.ext (by
      match a with
      | ⟨0, _⟩ => exact (blockDot_rhs_0 _ _).trans hk
      | ⟨1, _⟩ => exact blockDot_rhs_1 _ _)
  rw [el, er]

/-- The body's second result on a block, read at (p, q): row p of the first result times column q of the weight. -/
theorem pay2_apply (x0 x20 : Vec Ideal S10000x128 .f32) (x2 x6 x10 x14 : Vec Ideal S1x128 .f32)
    (x24 : Vec Ideal S128x128 .f32) (p : Fin 10000) (q : Fin 128) :
    k4_pay2 (F := Ideal) x0 x2 x6 x10 x14 x20 x24 (ix2 p q)
      = ∑ k : Fin 128, k4_pay1 (F := Ideal) x0 x2 x6 x10 x14 x20 (ix2 p k) * x24 (ix2 k q) := by
  unfold k4_pay2
  simp only [shapeCast_self]
  exact blockMatmul_apply _ _ p q

/-- The whole-array product's operand indices, as the block product's. -/
theorem arrayDot_lhs_0 (i : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.lhsIdx i k 0).val = (i 0).val := by
  unfold DotDims.lhsIdx
  rw [dif_neg (show ¬(0 : Fin Cert.ReferenceIdeal.S100000x128.rank)
      ∈ Cert.ReferenceIdeal.dot_S100000x128_S128x128_S100000x128_1_0_0_1_n_n.lhsBatch by decide),
    dif_pos (show (0 : Fin Cert.ReferenceIdeal.S100000x128.rank)
      ∈ Cert.ReferenceIdeal.dot_S100000x128_S128x128_S100000x128_1_0_0_1_n_n.lhsNonContracting by decide)]
  rfl
theorem arrayDot_lhs_1 (i : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.lhsIdx i k 1).val = (k ⟨0, by decide⟩).val :=
  Cert.ReferenceIdeal.dot_S100000x128_S128x128_S100000x128_1_0_0_1_n_n.lhsIdx_val_of_single rfl i k
theorem arrayDot_rhs_0 (i : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.rhsIdx i k 0).val = (k ⟨0, by decide⟩).val :=
  Cert.ReferenceIdeal.dot_S100000x128_S128x128_S100000x128_1_0_0_1_n_n.rhsIdx_val_of_single rfl i k
theorem arrayDot_rhs_1 (i : Cert.ReferenceIdeal.S100000x128.Idx)
    (k : Cert.ReferenceIdeal.dot_S100000x128_S128x128_S100000x128_1_0_0_1_n_n.contr.Idx) :
    (Cert.ReferenceIdeal.dot_S100000x128_S128x128_S100000x128_1_0_0_1_n_n.rhsIdx i k 1).val = (i 1).val := by
  unfold DotDims.rhsIdx
  rw [dif_neg (show ¬(1 : Fin Cert.ReferenceIdeal.S128x128.rank)
      ∈ Cert.ReferenceIdeal.dot_S100000x128_S128x128_S100000x128_1_0_0_1_n_n.rhsBatch by decide),
    dif_pos (show (1 : Fin Cert.ReferenceIdeal.S128x128.rank)
      ∈ Cert.ReferenceIdeal.dot_S100000x128_S128x128_S100000x128_1_0_0_1_n_n.rhsNonContracting by decide)]
  rfl

/-- The whole-array product read at (r, q): the sum over k of the array at (r, k) times the weight at (k, q). -/
theorem lin_apply (X : Cert.Stage.Act) (w : Cert.Stage.Wt) (r : Fin 100000) (q : Fin 128) :
    Cert.Stage.lin X w (ix2 r q) = ∑ k : Fin 128, X (ix2 r k) * w (ix2 k q) := by
  unfold Cert.Stage.lin Cert.StageF.lin
  simp only [Host.dotGeneral]
  rw [Ideal.dotGeneral_apply,
    ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q)
      ((contrEquiv1 Cert.ReferenceIdeal.dot_S100000x128_S128x128_S100000x128_1_0_0_1_n_n 128 rfl rfl).symm k) = ix2 r k :=
    funext fun a => Fin.ext (by
      match a with
      | ⟨0, _⟩ => exact arrayDot_lhs_0 _ _
      | ⟨1, _⟩ => exact (arrayDot_lhs_1 _ _).trans hk)
  have er : Cert.ReferenceIdeal.dot_S100000x128_S128x128_S100000x128_1_0_0_1_n_n.rhsIdx (ix2 r q)
      ((contrEquiv1 Cert.ReferenceIdeal.dot_S100000x128_S128x128_S100000x128_1_0_0_1_n_n 128 rfl rfl).symm k) = ix2 k q :=
    funext fun a => Fin.ext (by
      match a with
      | ⟨0, _⟩ => exact (arrayDot_rhs_0 _ _).trans hk
      | ⟨1, _⟩ => exact arrayDot_rhs_1 _ _)
  rw [el, er]

/-- The body's second result on blocks cut from whole arrays: entry (p, q) is entry (r, q) of the whole-array product —
    the same sum over k of the same products, row p of the block being row r of the arrays and the weight whole. -/
theorem pay2_rows (h skip : Cert.Stage.Act) (mean invstd g b : Cert.Stage.Vc) (w : Cert.Stage.Wt)
    (x0 x20 : Vec Ideal S10000x128 .f32) (x2 x6 x10 x14 : Vec Ideal S1x128 .f32) (x24 : Vec Ideal S128x128 .f32)
    (p : Fin 10000) (q : Fin 128) (r : Fin 100000)
    (h0 : ∀ k : Fin 128, x0 (ix2 p k) = h (ix2 r k)) (h20 : ∀ k : Fin 128, x20 (ix2 p k) = skip (ix2 r k))
    (h2 : ∀ k : Fin 128, x2 (ix2 (0 : Fin 1) k) = mean (ix1 k))
    (h6 : ∀ k : Fin 128, x6 (ix2 (0 : Fin 1) k) = invstd (ix1 k))
    (h10 : ∀ k : Fin 128, x10 (ix2 (0 : Fin 1) k) = g (ix1 k))
    (h14 : ∀ k : Fin 128, x14 (ix2 (0 : Fin 1) k) = b (ix1 k))
    (h24 : ∀ k : Fin 128, x24 (ix2 k q) = w (ix2 k q)) :
    k4_pay2 (F := Ideal) x0 x2 x6 x10 x14 x20 x24 (ix2 p q)
      = Cert.Stage.lin (Cert.Stage.bnReluRes h skip mean invstd g b) w (ix2 r q) := by
  rw [pay2_apply, lin_apply]
  refine Finset.sum_congr rfl fun k _ => ?_
  rw [pay1_rows h skip mean invstd g b x0 x20 x2 x6 x10 x14 p k r (h0 k) (h20 k) (h2 k) (h6 k) (h10 k) (h14 k), h24 k]

/-- The one block of the weight is the weight, at every point. -/
theorem weightBlock_apply (c : Dev nD) (t : Fin cfg4.N) (k q : Fin 128) :
    (iblk4 V c 6 t : Vec Ideal S128x128 .f32) (ix2 k q) = (V c main_v112 : S128x128.Idx → Ideal .f32) (ix2 k q) := by
  obtain ⟨-, -, -, -, -, -, -, -, -, -, -, -, e0, e1, -⟩ := blockIndex t
  unfold iblk4
  rw [View.read_apply]
  show V c main_v112 _ = V c main_v112 _
  congr 1
  funext a
  apply Fin.ext
  match a with
  | ⟨0, _⟩ => show win4_6.index t (0 : Fin 2) * 128 + 1 * k.val = k.val; rw [e0]; omega
  | ⟨1, _⟩ => show win4_6.index t (1 : Fin 2) * 128 + 1 * q.val = q.val; rw [e1]; omega

/-- WHAT POINT t WRITES BACK to the second output is block t of the whole-array product. -/
theorem lin_writtenBack (c : Dev nD) (mean invstd g b : Cert.Stage.Vc)
    (hm : V c main_v120 = shapeCast S1x128 mean shapeCasts_S128_S1x128)
    (hi : V c main_v121 = shapeCast S1x128 invstd shapeCasts_S128_S1x128)
    (hg : V c main_v122 = shapeCast S1x128 g shapeCasts_S128_S1x128)
    (hb : V c main_v123 = shapeCast S1x128 b shapeCasts_S128_S1x128) (t : Fin cfg4.N) :
    (dat4 (F := Ideal) V c).flushed 8 t
      = ((cfg4.win 8).blk t).view.read (Elt Ideal)
          (Cert.Stage.lin (Cert.Stage.bnReluRes (V c main_v99) (V c main_v81_0) mean invstd g b) (V c main_v112)) := by
  show (cfg4.win 8).cut (grid4.coords t) ((dat4 V c).after 8 t) = _
  rw [after4_8]
  unfold out4_8
  rw [View.canon_unit_zero zeroOffsets]
  simp only [View.ld_unit_zero (S := S10000x128) zeroOffsets, View.ld_unit_zero (S := S1x128) zeroOffsets,
    View.ld_unit_zero (S := S128x128) zeroOffsets]
  funext j
  obtain ⟨p, q, rfl⟩ : ∃ (p : Fin 10000) (q : Fin 128), j = ix2 p q := ⟨j 0, j 1, eq_ix2 j⟩
  have hN : cfg4.N = 10 := N_4
  have hr : t.val * 10000 + p.val < 100000 := by have := t.isLt; have := p.isLt; omega
  obtain ⟨-, -, -, -, -, -, -, -, -, -, -, -, -, -, -, -, e0, e1⟩ := blockIndex t
  have hemb : ((cfg4.win 8).blk t).view.emb (ix2 p q)
      = (ix2 (⟨t.val * 10000 + p.val, hr⟩ : Fin 100000) q : S100000x128.Idx) := by
    funext a
    apply Fin.ext
    match a with
    | ⟨0, _⟩ => show win4_8.index t (0 : Fin 2) * 10000 + 1 * p.val = t.val * 10000 + p.val; rw [e0]; omega
    | ⟨1, _⟩ => show win4_8.index t (1 : Fin 2) * 128 + 1 * q.val = q.val; rw [e1]; omega
  rw [View.read_apply, hemb]
  refine pay2_rows (V c main_v99) (V c main_v81_0) mean invstd g b (V c main_v112) _ _ _ _ _ _ _ p q
    ⟨t.val * 10000 + p.val, hr⟩
    (fun k => hBlock_apply V c t p k _ rfl) (fun k => skipBlock_apply V c t p k _ rfl)
    (fun k => ?_) (fun k => ?_) (fun k => ?_) (fun k => ?_) (fun k => weightBlock_apply V c t k q)
  · rw [meanRow_apply, hm, oneRow_apply]
  · rw [invstdRow_apply, hi, oneRow_apply]
  · rw [scaleRow_apply, hg, oneRow_apply]
  · rw [shiftRow_apply, hb, oneRow_apply]

/-- An index of the second output array is in point t's block iff each coordinate is in the block's range on its axis. -/
theorem mem_linBlock (t : Fin cfg4.N) (i : S100000x128.Idx) :
    i ∈ ((cfg4.win 8).blk t).view.set ↔ ∀ a : Fin 2, win4_8.index t a * S10000x128.size a ≤ (i a).val
      ∧ (i a).val < win4_8.index t a * S10000x128.size a + S10000x128.size a := by
  show i ∈ ((View.whole main_v124_1).slice (win4_8.rect t)).set ↔ _
  rw [View.set_slice_whole, Rect.mem_set_unit]
  exact Iff.rfl

/-- Every row of the second output lies in a block that is written back: row r in block r / 10000. -/
theorem lin_covered (i : S100000x128.Idx) :
    ∃ t : Fin cfg4.N, (cfg4.win 8).flush t = true ∧ i ∈ ((cfg4.win 8).blk t).view.set := by
  have hN : cfg4.N = 10 := N_4
  have hi0 : (i 0).val < 100000 := (i 0).isLt
  have hi1 : (i 1).val < 128 := (i 1).isLt
  obtain ⟨t, ht⟩ : ∃ t : Fin cfg4.N, t.val = (i 0).val / 10000 := ⟨⟨(i 0).val / 10000, by rw [hN]; omega⟩, rfl⟩
  refine ⟨t, flush4_8 t, ?_⟩
  rw [mem_linBlock]
  obtain ⟨-, -, -, -, -, -, -, -, -, -, -, -, -, -, -, -, e0, e1⟩ := blockIndex t
  intro a
  match a with
  | ⟨0, _⟩ =>
    show win4_8.index t (0 : Fin 2) * 10000 ≤ (i 0).val ∧ (i 0).val < win4_8.index t (0 : Fin 2) * 10000 + 10000
    rw [e0, ht]; omega
  | ⟨1, _⟩ =>
    show win4_8.index t (1 : Fin 2) * 128 ≤ (i 1).val ∧ (i 1).val < win4_8.index t (1 : Fin 2) * 128 + 128
    rw [e1]; omega

/-- The second output array: the first one times the next layer's weight. -/
theorem lin_eq (c : Dev nD) (mean invstd g b : Cert.Stage.Vc)
    (hm : V c main_v120 = shapeCast S1x128 mean shapeCasts_S128_S1x128)
    (hi : V c main_v121 = shapeCast S1x128 invstd shapeCasts_S128_S1x128)
    (hg : V c main_v122 = shapeCast S1x128 g shapeCasts_S128_S1x128)
    (hb : V c main_v123 = shapeCast S1x128 b shapeCasts_S128_S1x128) :
    (dat4 (F := Ideal) V c).arrAt 8 cfg4.N
      = Cert.Stage.lin (Cert.Stage.bnReluRes (V c main_v99) (V c main_v81_0) mean invstd g b) (V c main_v112) := by
  exact (dat4 (F := Ideal) V c).arrAt_eq_of_cover 8 _ (fun t _ => lin_writtenBack V c mean invstd g b hm hi hg hb t) lin_covered

end Cert.KernelIdeal.RegionBn4

end
-- ==== Proof.RegionBn6.lean ====
/-
  Region 6, one normalisation layer and the next linear map, as whole arrays: every row of the result depends on the
  same row of h and of the carried activation only, so the ten blocks are the blocks of ONE function.
-/
import proofs.«430702_j48747878810191_4_alg».proof.Proof.Gen.KernelIdeal.Frame
import proofs.«430702_j48747878810191_4_alg».proof.Proof.Stages
import proofs.«430702_j48747878810191_4_alg».proof.Proof.KernelStages
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

set_option maxRecDepth 16384

noncomputable section

namespace Cert.KernelIdeal.RegionBn6

open Cert.KernelIdeal Cert.KernelIdeal.Gen Idealize.ShloMosaic Idealize.ShloMosaic.TcCoe Idealize.SL.Sem Idealize.ShloMosaic.ValueIdx
open Idealize.ShloMosaic.Pipeline (Dat Cfg Window)

-- the TensorCore's buffer contents when the region is entered: any
variable (V : (c : Dev nD) → (b : Ref sig .tc) → Buf (Elt Ideal) ((c : Thread nD τ).loc b))

/-! ## The two products at an index

The block's product (a matrix product accumulated into the zero splat) and the whole array's product (the host's
product, no accumulator) are, at the exact extended reals, the same sum over the 128 contracted entries: entry (p, q)
is the sum over k of a (p, k) · w (k, q). The operand indices of each record are read axis by axis. -/

theorem lhsK_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhsK_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhsK_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhsK_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block's product at (p, q). -/
theorem blockProduct_apply (a : FVec Ideal S10000x128 .f32) (w : FVec Ideal S128x128 .f32) (p : Fin 10000) (q : Fin 128) :
    matmul dot_S10000x128_S128x128_S10000x128_1_0_0_1_n_n none a w (constant S10000x128 .f32 0x00000000#32) (ix2 p q)
      = ∑ k : Fin 128, a (ix2 p k) * w (ix2 k q) := by
  show FloatOps.matmul dot_S10000x128_S128x128_S10000x128_1_0_0_1_n_n none a w (constant S10000x128 .f32 0x00000000#32) (ix2 p q) = _
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhsK_0 _ _
    | ⟨1, _⟩ => exact (lhsK_1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhsK_0 _ _).trans hk
    | ⟨1, _⟩ => exact rhsK_1 _ _)
  rw [el, er]

theorem lhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem lhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem rhsR_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem rhsR_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- The whole array's product at (r, q). -/
theorem lin_apply (x : Cert.Stage.Act) (w : Cert.Stage.Wt) (r : Fin 100000) (q : Fin 128) :
    Cert.Stage.lin x w (ix2 r q) = ∑ k : Fin 128, x (ix2 r k) * w (ix2 k q) := by
  show FloatOps.dotGeneral Cert.ReferenceIdeal.dot_S100000x128_S128x128_S100000x128_1_0_0_1_n_n none _ x w (ix2 r q) = _
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact lhsR_0 _ _
    | ⟨1, _⟩ => exact (lhsR_1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (rhsR_0 _ _).trans hk
    | ⟨1, _⟩ => exact rhsR_1 _ _)
  rw [el, er]

/-! ## A vector laid along every row

The block broadcasts a one-row array down its 10000 rows; the whole-array function broadcasts the vector along axis 1
of the 100000 rows. Either way entry (row, q) is the vector's entry q. -/

/-- A one-row operand broadcast down the block's rows, at (p, q): the row's entry q. -/
theorem blockRow_apply (v : FVec Ideal S1x128 .f32) (p : Fin 10000) (q : Fin 128) :
    broadcastTo S10000x128 v broadcasts_S1x128_S10000x128 (ix2 p q) = v (ix2 (0 : Fin 1) q) := by
  refine broadcastTo_apply v broadcasts_S1x128_S10000x128 (ix2 p q) (ix2 (0 : Fin 1) q) ?_
  intro a
  match a with
  | ⟨0, _⟩ => rfl
  | ⟨1, _⟩ => rfl

/-- The vector along every row of the whole array, at (r, q): the vector's entry q. -/
theorem rows_apply (v : Cert.Stage.Vc) (r : Fin 100000) (q : Fin 128) : Cert.Stage.rows v (ix2 r q) = v (ix1 q) := by
  show broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 v) (ix2 r q) = _
  refine (broadcastInDim_oneRow_apply (m := 100000) (n := 128) _ _ r q).trans ?_
  refine broadcastInDim_apply ![1] _ v (ix2 (0 : Fin 1) q) (ix1 q) ?_
  intro a
  match a with
  | ⟨0, _⟩ => rfl

/-- A vector reshaped to one row, at (0, q): the vector's entry q. -/
theorem oneRow_apply (b : Cert.Stage.Vc) (q : Fin 128) :
    shapeCast S1x128 b shapeCasts_S128_S1x128 (ix2 (0 : Fin 1) q) = b (ix1 q) :=
  shapeCast_apply b shapeCasts_S128_S1x128 (ix2 (0 : Fin 1) q) (ix1 q) (by
    rw [Shape.rowMajor_val_two, Shape.rowMajor_val_one]; show q.val = 0 * 128 + q.val; omega)

/-! ## The body's two stored values and the whole-array functions, at an index -/

/-- The first stored value at (p, q): max(((v0 (p, q) − v2 (0, q)) · v6 (0, q)) · v10 (0, q) + v14 (0, q), 0) + v20 (p, q). -/
theorem pay1_apply (v0 : Vec Ideal S10000x128 .f32) (v2 v6 v10 v14 : Vec Ideal S1x128 .f32) (v20 : Vec Ideal S10000x128 .f32)
    (p : Fin 10000) (q : Fin 128) :
    k6_pay1 v0 v2 v6 v10 v14 v20 (ix2 p q)
      = max ((v0 (ix2 p q) - v2 (ix2 (0 : Fin 1) q)) * v6 (ix2 (0 : Fin 1) q) * v10 (ix2 (0 : Fin 1) q) + v14 (ix2 (0 : Fin 1) q))
          (Ideal.ofBits .f32 0x00000000#32) + v20 (ix2 p q) := by
  unfold k6_pay1
  simp only [shapeCast_self, addf_apply, maximumf_apply, mulf_apply, subf_apply, blockRow_apply, broadcast_apply]
  try rfl

/-- One normalisation layer at (r, q): the same expression of row r of h and of the carried activation. -/
theorem bnReluRes_apply (h skip : Cert.Stage.Act) (mean invstd g b : Cert.Stage.Vc) (r : Fin 100000) (q : Fin 128) :
    Cert.Stage.bnReluRes h skip mean invstd g b (ix2 r q)
      = max ((h (ix2 r q) - mean (ix1 q)) * invstd (ix1 q) * g (ix1 q) + b (ix1 q)) (Ideal.ofBits .f32 0x00000000#32) + skip (ix2 r q) := by
  show addf (maximumf (addf (mulf (mulf (subf h (Cert.Stage.rows mean)) (Cert.Stage.rows invstd)) (Cert.Stage.rows g)) (Cert.Stage.rows b)) Cert.Stage.zeros) skip (ix2 r q) = _
  simp only [addf_apply, maximumf_apply, mulf_apply, subf_apply, rows_apply]
  try rfl

/-- The second stored value at (p, q): the sum over k of the first one at (p, k) times v24 (k, q). -/
theorem pay2_apply (v0 : Vec Ideal S10000x128 .f32) (v2 v6 v10 v14 : Vec Ideal S1x128 .f32) (v20 : Vec Ideal S10000x128 .f32)
    (v24 : Vec Ideal S128x128 .f32) (p : Fin 10000) (q : Fin 128) :
    k6_pay2 v0 v2 v6 v10 v14 v20 v24 (ix2 p q) = ∑ k : Fin 128, k6_pay1 v0 v2 v6 v10 v14 v20 (ix2 p k) * v24 (ix2 k q) := by
  unfold k6_pay2
  exact blockProduct_apply _ _ p q

/-! ## The blocks the ten points read

The printed index maps, decided once over the grid: at point t the blocks of h, of the carried activation and of the
two outputs are block (t, 0), and the five small arrays are always block (0, 0), which is the whole array. A block's
coordinate in its array is index × size + 1 × the coordinate inside the block. -/

theorem zero_offsets : (![0, 0] : Fin 2 → Nat) = fun _ => 0 := funext fun a => by fin_cases a <;> rfl

theorem block_indices : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0
    ∧ win6_8.index t (0 : Fin 2) = t.val ∧ win6_8.index t (1 : Fin 2) = 0 :=
  (by decide +kernel : ∀ t : Fin grid6.N, _)

/-- Block t of h: entry y of the block is entry i of the array, whenever i is row 10000·t + (y's row), same column. -/
theorem hblock_apply (c : Dev nD) (t : Fin cfg6.N) (y : S10000x128.Idx) (i : S100000x128.Idx)
    (hi0 : (i 0).val = 10000 * t.val + (y 0).val) (hi1 : (i 1).val = (y 1).val) :
    (iblk6 V c 0 t : Vec Ideal S10000x128 .f32) y = (V c main_v142 : S100000x128.Idx → Elt Ideal .f32) i := by
  obtain ⟨e0, e1, -⟩ := block_indices t
  unfold iblk6
  rw [View.read_apply]
  show V c main_v142 _ = V c main_v142 _
  congr 1
  funext a
  apply Fin.ext
  match a with
  | ⟨0, _⟩ => show win6_0.index t 0 * 10000 + 1 * (y 0).val = (i 0).val; rw [e0, hi0]; omega
  | ⟨1, _⟩ => show win6_0.index t 1 * 128 + 1 * (y 1).val = (i 1).val; rw [e1, hi1]; omega

/-- Block t of the carried activation, likewise. -/
theorem sblock_apply (c : Dev nD) (t : Fin cfg6.N) (y : S10000x128.Idx) (i : S100000x128.Idx)
    (hi0 : (i 0).val = 10000 * t.val + (y 0).val) (hi1 : (i 1).val = (y 1).val) :
    (iblk6 V c 1 t : Vec Ideal S10000x128 .f32) y = (V c main_v124_0 : S100000x128.Idx → Elt Ideal .f32) i := by
  obtain ⟨-, -, e0, e1, -⟩ := block_indices t
  unfold iblk6
  rw [View.read_apply]
  show V c main_v124_0 _ = V c main_v124_0 _
  congr 1
  funext a
  apply Fin.ext
  match a with
  | ⟨0, _⟩ => show win6_1.index t 0 * 10000 + 1 * (y 0).val = (i 0).val; rw [e0, hi0]; omega
  | ⟨1, _⟩ => show win6_1.index t 1 * 128 + 1 * (y 1).val = (i 1).val; rw [e1, hi1]; omega

/-- The block of the one-row mean at any point is that row. -/
theorem meanblock_eq (c : Dev nD) (t : Fin cfg6.N) : (iblk6 V c 2 t : Vec Ideal S1x128 .f32) = V c main_v161 := by
  obtain ⟨-, -, -, -, e0, e1, -⟩ := block_indices t
  funext y
  unfold iblk6
  rw [View.read_apply]
  show V c main_v161 _ = V c main_v161 _
  congr 1
  funext a
  apply Fin.ext
  match a with
  | ⟨0, _⟩ => show win6_2.index t 0 * 1 + 1 * (y 0).val = (y 0).val; rw [e0]; omega
  | ⟨1, _⟩ => show win6_2.index t 1 * 128 + 1 * (y 1).val = (y 1).val; rw [e1]; omega

/-- The block of the one-row inverse standard deviation at any point is that row. -/
theorem invstdblock_eq (c : Dev nD) (t : Fin cfg6.N) : (iblk6 V c 3 t : Vec Ideal S1x128 .f32) = V c main_v162 := by
  obtain ⟨-, -, -, -, -, -, e0, e1, -⟩ := block_indices t
  funext y
  unfold iblk6
  rw [View.read_apply]
  show V c main_v162 _ = V c main_v162 _
  congr 1
  funext a
  apply Fin.ext
  match a with
  | ⟨0, _⟩ => show win6_3.index t 0 * 1 + 1 * (y 0).val = (y 0).val; rw [e0]; omega
  | ⟨1, _⟩ => show win6_3.index t 1 * 128 + 1 * (y 1).val = (y 1).val; rw [e1]; omega

/-- The block of the one-row scale at any point is that row. -/
theorem gblock_eq (c : Dev nD) (t : Fin cfg6.N) : (iblk6 V c 4 t : Vec Ideal S1x128 .f32) = V c main_v163 := by
  obtain ⟨-, -, -, -, -, -, -, -, e0, e1, -⟩ := block_indices t
  funext y
  unfold iblk6
  rw [View.read_apply]
  show V c main_v163 _ = V c main_v163 _
  congr 1
  funext a
  apply Fin.ext
  match a with
  | ⟨0, _⟩ => show win6_4.index t 0 * 1 + 1 * (y 0).val = (y 0).val; rw [e0]; omega
  | ⟨1, _⟩ => show win6_4.index t 1 * 128 + 1 * (y 1).val = (y 1).val; rw [e1]; omega

/-- The block of the one-row shift at any point is that row. -/
theorem bblock_eq (c : Dev nD) (t : Fin cfg6.N) : (iblk6 V c 5 t : Vec Ideal S1x128 .f32) = V c main_v164 := by
  obtain ⟨-, -, -, -, -, -, -, -, -, -, e0, e1, -⟩ := block_indices t
  funext y
  unfold iblk6
  rw [View.read_apply]
  show V c main_v164 _ = V c main_v164 _
  congr 1
  funext a
  apply Fin.ext
  match a with
  | ⟨0, _⟩ => show win6_5.index t 0 * 1 + 1 * (y 0).val = (y 0).val; rw [e0]; omega
  | ⟨1, _⟩ => show win6_5.index t 1 * 128 + 1 * (y 1).val = (y 1).val; rw [e1]; omega

/-- The block of the next layer's weight at any point is that weight. -/
theorem wblock_eq (c : Dev nD) (t : Fin cfg6.N) : (iblk6 V c 6 t : Vec Ideal S128x128 .f32) = V c main_arg8 := by
  obtain ⟨-, -, -, -, -, -, -, -, -, -, -, -, e0, e1, -⟩ := block_indices t
  funext y
  unfold iblk6
  rw [View.read_apply]
  show V c main_arg8 _ = V c main_arg8 _
  congr 1
  funext a
  apply Fin.ext
  match a with
  | ⟨0, _⟩ => show win6_6.index t 0 * 128 + 1 * (y 0).val = (y 0).val; rw [e0]; omega
  | ⟨1, _⟩ => show win6_6.index t 1 * 128 + 1 * (y 1).val = (y 1).val; rw [e1]; omega

/-! ## One point's stored values are rows of the whole-array functions

Stated over variables: blocks v0 and v20 holding rows 10000·n … of h and of the carried activation, the one-row
operands being the four vectors' reshapes. Every entry of the stored value depends on the same row of the two blocks
only, so it is the whole-array function's entry in row 10000·n + (the block's row). -/

theorem pay1_rows (h skip : Cert.Stage.Act) (mean invstd g b : Cert.Stage.Vc)
    (v0 : Vec Ideal S10000x128 .f32) (v2 v6 v10 v14 : Vec Ideal S1x128 .f32) (v20 : Vec Ideal S10000x128 .f32) (n : Nat)
    (h0 : ∀ (y : S10000x128.Idx) (i : S100000x128.Idx), (i 0).val = 10000 * n + (y 0).val → (i 1).val = (y 1).val → v0 y = h i)
    (h20 : ∀ (y : S10000x128.Idx) (i : S100000x128.Idx), (i 0).val = 10000 * n + (y 0).val → (i 1).val = (y 1).val → v20 y = skip i)
    (h2 : v2 = shapeCast S1x128 mean shapeCasts_S128_S1x128) (h6 : v6 = shapeCast S1x128 invstd shapeCasts_S128_S1x128)
    (h10 : v10 = shapeCast S1x128 g shapeCasts_S128_S1x128) (h14 : v14 = shapeCast S1x128 b shapeCasts_S128_S1x128)
    (y : S10000x128.Idx) (i : S100000x128.Idx) (hi0 : (i 0).val = 10000 * n + (y 0).val) (hi1 : (i 1).val = (y 1).val) :
    k6_pay1 v0 v2 v6 v10 v14 v20 y = Cert.Stage.bnReluRes h skip mean invstd g b i := by
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  have hx : v0 (ix2 p q) = h (ix2 r q') := h0 _ _ hi0 hi1
  have hs : v20 (ix2 p q) = skip (ix2 r q') := h20 _ _ hi0 hi1
  obtain rfl : q' = q := Fin.ext hi1
  subst h2 h6 h10 h14
  rw [pay1_apply, bnReluRes_apply, hx, hs]
  simp only [oneRow_apply]

theorem pay2_rows (h skip : Cert.Stage.Act) (mean invstd g b : Cert.Stage.Vc) (w : Cert.Stage.Wt)
    (v0 : Vec Ideal S10000x128 .f32) (v2 v6 v10 v14 : Vec Ideal S1x128 .f32) (v20 : Vec Ideal S10000x128 .f32) (n : Nat)
    (h0 : ∀ (y : S10000x128.Idx) (i : S100000x128.Idx), (i 0).val = 10000 * n + (y 0).val → (i 1).val = (y 1).val → v0 y = h i)
    (h20 : ∀ (y : S10000x128.Idx) (i : S100000x128.Idx), (i 0).val = 10000 * n + (y 0).val → (i 1).val = (y 1).val → v20 y = skip i)
    (h2 : v2 = shapeCast S1x128 mean shapeCasts_S128_S1x128) (h6 : v6 = shapeCast S1x128 invstd shapeCasts_S128_S1x128)
    (h10 : v10 = shapeCast S1x128 g shapeCasts_S128_S1x128) (h14 : v14 = shapeCast S1x128 b shapeCasts_S128_S1x128)
    (y : S10000x128.Idx) (i : S100000x128.Idx) (hi0 : (i 0).val = 10000 * n + (y 0).val) (hi1 : (i 1).val = (y 1).val) :
    k6_pay2 v0 v2 v6 v10 v14 v20 w y = Cert.Stage.lin (Cert.Stage.bnReluRes h skip mean invstd g b) w i := by
  obtain ⟨p, q, rfl⟩ : ∃ (p : Fin 10000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hi1
  rw [pay2_apply, lin_apply]
  refine Finset.sum_congr rfl fun k _ => ?_
  rw [pay1_rows h skip mean invstd g b v0 v2 v6 v10 v14 v20 n h0 h20 h2 h6 h10 h14 (ix2 p k) (ix2 r k) hi0 rfl]

/-! ## From the ten blocks to the arrays -/

/-- What point t writes back into the first output is block t of the whole-array function. -/
theorem flushed7_eq (c : Dev nD) (mean invstd g b : Cert.Stage.Vc)
    (hm : V c main_v161 = shapeCast S1x128 mean shapeCasts_S128_S1x128)
    (hi : V c main_v162 = shapeCast S1x128 invstd shapeCasts_S128_S1x128)
    (hg : V c main_v163 = shapeCast S1x128 g shapeCasts_S128_S1x128)
    (hb : V c main_v164 = shapeCast S1x128 b shapeCasts_S128_S1x128) (t : Fin cfg6.N) :
    (dat6 (F := Ideal) V c).flushed 7 t
      = ((cfg6.win 7).blk t).view.read (Elt Ideal) (Cert.Stage.bnReluRes (V c main_v142) (V c main_v124_0) mean invstd g b) := by
  show (cfg6.win 7).cut (grid6.coords t) ((dat6 V c).after 7 t) = _
  rw [after6_7]
  unfold out6_7
  rw [View.canon_unit_zero zero_offsets]
  simp only [View.ld_unit_zero (S := S10000x128) zero_offsets, View.ld_unit_zero (S := S128x128) zero_offsets, View.ld_unit_zero (S := S1x128) zero_offsets]
  obtain ⟨-, -, -, -, -, -, -, -, -, -, -, -, -, -, e0, e1, -⟩ := block_indices t
  funext y
  refine pay1_rows (V c main_v142) (V c main_v124_0) mean invstd g b _ _ _ _ _ _ t.val (hblock_apply V c t) (sblock_apply V c t)
    ((meanblock_eq V c t).trans hm) ((invstdblock_eq V c t).trans hi) ((gblock_eq V c t).trans hg) ((bblock_eq V c t).trans hb) y _ ?_ ?_
  · show win6_7.index t 0 * 10000 + 1 * (y 0).val = 10000 * t.val + (y 0).val; rw [e0]; omega
  · show win6_7.index t 1 * 128 + 1 * (y 1).val = (y 1).val; rw [e1]; omega

/-- What point t writes back into the second output is block t of the whole-array function. -/
theorem flushed8_eq (c : Dev nD) (mean invstd g b : Cert.Stage.Vc)
    (hm : V c main_v161 = shapeCast S1x128 mean shapeCasts_S128_S1x128)
    (hi : V c main_v162 = shapeCast S1x128 invstd shapeCasts_S128_S1x128)
    (hg : V c main_v163 = shapeCast S1x128 g shapeCasts_S128_S1x128)
    (hb : V c main_v164 = shapeCast S1x128 b shapeCasts_S128_S1x128) (t : Fin cfg6.N) :
    (dat6 (F := Ideal) V c).flushed 8 t
      = ((cfg6.win 8).blk t).view.read (Elt Ideal)
          (Cert.Stage.lin (Cert.Stage.bnReluRes (V c main_v142) (V c main_v124_0) mean invstd g b) (V c main_arg8)) := by
  show (cfg6.win 8).cut (grid6.coords t) ((dat6 V c).after 8 t) = _
  rw [after6_8]
  unfold out6_8
  rw [View.canon_unit_zero zero_offsets]
  simp only [View.ld_unit_zero (S := S10000x128) zero_offsets, View.ld_unit_zero (S := S128x128) zero_offsets, View.ld_unit_zero (S := S1x128) zero_offsets]
  rw [wblock_eq]
  obtain ⟨-, -, -, -, -, -, -, -, -, -, -, -, -, -, -, -, e0, e1⟩ := block_indices t
  funext y
  refine pay2_rows (V c main_v142) (V c main_v124_0) mean invstd g b (V c main_arg8) _ _ _ _ _ _ t.val (hblock_apply V c t) (sblock_apply V c t)
    ((meanblock_eq V c t).trans hm) ((invstdblock_eq V c t).trans hi) ((gblock_eq V c t).trans hg) ((bblock_eq V c t).trans hb) y _ ?_ ?_
  · show win6_8.index t 0 * 10000 + 1 * (y 0).val = 10000 * t.val + (y 0).val; rw [e0]; omega
  · show win6_8.index t 1 * 128 + 1 * (y 1).val = (y 1).val; rw [e1]; omega

/-- An index of the first output is in point t's block iff each coordinate is in the block's range on its axis. -/
theorem mem_blk7 (t : Fin cfg6.N) (i : S100000x128.Idx) :
    i ∈ ((cfg6.win 7).blk t).view.set ↔ ∀ a : Fin 2, win6_7.index t a * S10000x128.size a ≤ (i a).val ∧ (i a).val < win6_7.index t a * S10000x128.size a + S10000x128.size a := by
  show i ∈ ((View.whole main_v165_0).slice (win6_7.rect t)).set ↔ _
  rw [View.set_slice_whole, Rect.mem_set_unit]
  exact Iff.rfl

/-- The same of the second output. -/
theorem mem_blk8 (t : Fin cfg6.N) (i : S100000x128.Idx) :
    i ∈ ((cfg6.win 8).blk t).view.set ↔ ∀ a : Fin 2, win6_8.index t a * S10000x128.size a ≤ (i a).val ∧ (i a).val < win6_8.index t a * S10000x128.size a + S10000x128.size a := by
  show i ∈ ((View.whole main_v165_1).slice (win6_8.rect t)).set ↔ _
  rw [View.set_slice_whole, Rect.mem_set_unit]
  exact Iff.rfl

/-- Row r lies in the block of point r / 10000, which writes back. -/
theorem cover7 (i : S100000x128.Idx) : ∃ t : Fin cfg6.N, (cfg6.win 7).flush t = true ∧ i ∈ ((cfg6.win 7).blk t).view.set := by
  have hi0 : (i 0).val < 100000 := (i 0).isLt
  have hi1 : (i 1).val < 128 := (i 1).isLt
  have hN : cfg6.N = 10 := N_6
  obtain ⟨t, ht⟩ : ∃ t : Fin cfg6.N, t.val = (i 0).val / 10000 := ⟨⟨(i 0).val / 10000, by omega⟩, rfl⟩
  obtain ⟨-, -, -, -, -, -, -, -, -, -, -, -, -, -, e0, e1, -⟩ := block_indices t
  refine ⟨t, flush6_7 t, ?_⟩
  rw [mem_blk7]
  intro a
  match a with
  | ⟨0, _⟩ => show win6_7.index t 0 * 10000 ≤ (i 0).val ∧ (i 0).val < win6_7.index t 0 * 10000 + 10000; rw [e0, ht]; omega
  | ⟨1, _⟩ => show win6_7.index t 1 * 128 ≤ (i 1).val ∧ (i 1).val < win6_7.index t 1 * 128 + 128; rw [e1]; omega

theorem cover8 (i : S100000x128.Idx) : ∃ t : Fin cfg6.N, (cfg6.win 8).flush t = true ∧ i ∈ ((cfg6.win 8).blk t).view.set := by
  have hi0 : (i 0).val < 100000 := (i 0).isLt
  have hi1 : (i 1).val < 128 := (i 1).isLt
  have hN : cfg6.N = 10 := N_6
  obtain ⟨t, ht⟩ : ∃ t : Fin cfg6.N, t.val = (i 0).val / 10000 := ⟨⟨(i 0).val / 10000, by omega⟩, rfl⟩
  obtain ⟨-, -, -, -, -, -, -, -, -, -, -, -, -, -, -, -, e0, e1⟩ := block_indices t
  refine ⟨t, flush6_8 t, ?_⟩
  rw [mem_blk8]
  intro a
  match a with
  | ⟨0, _⟩ => show win6_8.index t 0 * 10000 ≤ (i 0).val ∧ (i 0).val < win6_8.index t 0 * 10000 + 10000; rw [e0, ht]; omega
  | ⟨1, _⟩ => show win6_8.index t 1 * 128 ≤ (i 1).val ∧ (i 1).val < win6_8.index t 1 * 128 + 128; rw [e1]; omega

/-- The first output array: max((h − mean)·invstd·g + b, 0) + skip, the four vectors entering as one-row arrays. -/
theorem out_eq (c : Dev nD) (mean invstd g b : Cert.Stage.Vc)
    (hm : V c main_v161 = shapeCast S1x128 mean shapeCasts_S128_S1x128)
    (hi : V c main_v162 = shapeCast S1x128 invstd shapeCasts_S128_S1x128)
    (hg : V c main_v163 = shapeCast S1x128 g shapeCasts_S128_S1x128)
    (hb : V c main_v164 = shapeCast S1x128 b shapeCasts_S128_S1x128) :
    (dat6 (F := Ideal) V c).arrAt 7 cfg6.N = Cert.Stage.bnReluRes (V c main_v142) (V c main_v124_0) mean invstd g b :=
  (dat6 (F := Ideal) V c).arrAt_eq_of_cover 7 (Cert.Stage.bnReluRes (V c main_v142) (V c main_v124_0) mean invstd g b)
    (fun t _ => flushed7_eq V c mean invstd g b hm hi hg hb t) cover7

/-- The second output array: the first one times the next layer's weight. -/
theorem lin_eq (c : Dev nD) (mean invstd g b : Cert.Stage.Vc)
    (hm : V c main_v161 = shapeCast S1x128 mean shapeCasts_S128_S1x128)
    (hi : V c main_v162 = shapeCast S1x128 invstd shapeCasts_S128_S1x128)
    (hg : V c main_v163 = shapeCast S1x128 g shapeCasts_S128_S1x128)
    (hb : V c main_v164 = shapeCast S1x128 b shapeCasts_S128_S1x128) :
    (dat6 (F := Ideal) V c).arrAt 8 cfg6.N
      = Cert.Stage.lin (Cert.Stage.bnReluRes (V c main_v142) (V c main_v124_0) mean invstd g b) (V c main_arg8) :=
  (dat6 (F := Ideal) V c).arrAt_eq_of_cover 8
    (Cert.Stage.lin (Cert.Stage.bnReluRes (V c main_v142) (V c main_v124_0) mean invstd g b) (V c main_arg8))
    (fun t _ => flushed8_eq V c mean invstd g b hm hi hg hb t) cover8

end Cert.KernelIdeal.RegionBn6

end
-- ==== Proof.KernelValue.lean ====
/-
  The kernel's @main read from the launch to the return. The buffers' contents at the boundaries between stretches of
  host operations and regions are a fold from the launch memory; for every buffer that something later reads, what it
  holds at each boundary is a stage expression in the thirteen argument arrays: a stretch's results by its operations,
  a region's outputs by the region's whole-array value, and everything else carried unchanged. At the last boundary
  the result buffer holds the network of the arguments.
-/
import proofs.«430702_j48747878810191_4_alg».proof.Proof.Gen.KernelIdeal.Frame
import proofs.«430702_j48747878810191_4_alg».proof.Proof.KernelHost
import proofs.«430702_j48747878810191_4_alg».proof.Proof.Region0
import proofs.«430702_j48747878810191_4_alg».proof.Proof.RegionVar1
import proofs.«430702_j48747878810191_4_alg».proof.Proof.RegionVar3
import proofs.«430702_j48747878810191_4_alg».proof.Proof.RegionVar5
import proofs.«430702_j48747878810191_4_alg».proof.Proof.RegionBn2
import proofs.«430702_j48747878810191_4_alg».proof.Proof.RegionBn4
import proofs.«430702_j48747878810191_4_alg».proof.Proof.RegionBn6

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat Cfg Window)
open Cert.Stage (Act Wt Vc)

variable (m : (ℓ : Loc nD τ sig) → Buf (Elt Ideal) ℓ) (ρ : Dev nD → PrngReg) (c : Dev nD)

/-! ## The arguments as launched, and the network's intermediate arrays as functions of them -/

abbrev A0 : Act := m ((c : Thread nD τ).loc main_arg0)
abbrev A1 : FVec Ideal S1600000 .f32 := m ((c : Thread nD τ).loc main_arg1)
abbrev A2 : Wt := m ((c : Thread nD τ).loc main_arg2)
abbrev A3 : Vc := m ((c : Thread nD τ).loc main_arg3)
abbrev A4 : Wt := m ((c : Thread nD τ).loc main_arg4)
abbrev A5 : Vc := m ((c : Thread nD τ).loc main_arg5)
abbrev A6 : FVec Ideal S3x128x128 .f32 := m ((c : Thread nD τ).loc main_arg6)
abbrev A7 : FVec Ideal S3x128 .f32 := m ((c : Thread nD τ).loc main_arg7)
abbrev A8 : Wt := m ((c : Thread nD τ).loc main_arg8)
abbrev A9 : Vc := m ((c : Thread nD τ).loc main_arg9)
abbrev A10 : FVec Ideal S3x128 .f32 := m ((c : Thread nD τ).loc main_arg10)
abbrev A11 : FVec Ideal S3x128 .f32 := m ((c : Thread nD τ).loc main_arg11)
abbrev A12 : IVec S2x1600000 32 := m ((c : Thread nD τ).loc main_arg12)

/-- The activation before the first convolution. -/
def S0 : Act := Cert.Stage.hidden0 (A0 m c) (A2 m c) (A3 m c) (A4 m c) (A5 m c)
/-- The first convolution's result. -/
def G0 : Act := Cert.Stage.conv (S0 m c) (Cert.Stage.weightAt0 (A6 m c)) (Cert.Stage.rowAt0 (A7 m c)) (A12 m c) (A1 m c)
/-- The activation after the first normalisation layer. -/
def S1 : Act := Cert.Stage.hidden1 (A0 m c) (A1 m c) (A2 m c) (A3 m c) (A4 m c) (A5 m c) (A6 m c) (A7 m c) (A10 m c) (A11 m c) (A12 m c)
def G1 : Act := Cert.Stage.conv (S1 m c) (Cert.Stage.weightAt1 (A6 m c)) (Cert.Stage.rowAt1 (A7 m c)) (A12 m c) (A1 m c)
def S2 : Act := Cert.Stage.hidden2 (A0 m c) (A1 m c) (A2 m c) (A3 m c) (A4 m c) (A5 m c) (A6 m c) (A7 m c) (A10 m c) (A11 m c) (A12 m c)
def G2 : Act := Cert.Stage.conv (S2 m c) (Cert.Stage.weightAt2 (A6 m c)) (Cert.Stage.rowAt2 (A7 m c)) (A12 m c) (A1 m c)
def S3 : Act := Cert.Stage.hidden3 (A0 m c) (A1 m c) (A2 m c) (A3 m c) (A4 m c) (A5 m c) (A6 m c) (A7 m c) (A10 m c) (A11 m c) (A12 m c)
/-- The edges' sources, destinations and normalisation. -/
def SRC : Cert.Stage.EdgeIx := Cert.Stage.srcOf (A12 m c)
def DST : Cert.Stage.EdgeIx := Cert.Stage.dstOf (A12 m c)
def NRM : Cert.Stage.Edge := Cert.Stage.normOf (SRC m c) (DST m c) (Cert.Stage.weightsOf (A1 m c))

theorem S1_eq : S1 m c = Cert.Stage.layer (G0 m c) (S0 m c) (Cert.Stage.rowAt0 (A10 m c)) (Cert.Stage.rowAt0 (A11 m c)) := rfl
theorem S2_eq : S2 m c = Cert.Stage.layer (G1 m c) (S1 m c) (Cert.Stage.rowAt1 (A10 m c)) (Cert.Stage.rowAt1 (A11 m c)) := rfl
theorem S3_eq : S3 m c = Cert.Stage.layer (G2 m c) (S2 m c) (Cert.Stage.rowAt2 (A10 m c)) (Cert.Stage.rowAt2 (A11 m c)) := rfl
theorem G0_eq : G0 m c = Cert.Stage.aggOf (Cert.Stage.lin (S0 m c) (Cert.Stage.weightAt0 (A6 m c))) (Cert.Stage.rowAt0 (A7 m c)) (SRC m c) (DST m c) (NRM m c) := rfl
theorem G1_eq : G1 m c = Cert.Stage.aggOf (Cert.Stage.lin (S1 m c) (Cert.Stage.weightAt1 (A6 m c))) (Cert.Stage.rowAt1 (A7 m c)) (SRC m c) (DST m c) (NRM m c) := rfl
theorem G2_eq : G2 m c = Cert.Stage.aggOf (Cert.Stage.lin (S2 m c) (Cert.Stage.weightAt2 (A6 m c))) (Cert.Stage.rowAt2 (A7 m c)) (SRC m c) (DST m c) (NRM m c) := rfl
theorem network_eq : Cert.Stage.network (A0 m c) (A1 m c) (A2 m c) (A3 m c) (A4 m c) (A5 m c) (A6 m c) (A7 m c) (A8 m c) (A9 m c) (A10 m c) (A11 m c) (A12 m c) = Cert.Stage.aggOf (Cert.Stage.lin (S3 m c) (A8 m c)) (A9 m c) (SRC m c) (DST m c) (NRM m c) := rfl

/-! ## Boundary by boundary -/

theorem F0_arg0 : W0 m ρ c (Proc.devRef .tc main_arg0) = (A0 m c) :=
  rfl
theorem F0_arg1 : W0 m ρ c (Proc.devRef .tc main_arg1) = (A1 m c) :=
  rfl
theorem F0_arg2 : W0 m ρ c (Proc.devRef .tc main_arg2) = (A2 m c) :=
  rfl
theorem F0_arg3 : W0 m ρ c (Proc.devRef .tc main_arg3) = (A3 m c) :=
  rfl
theorem F0_arg4 : W0 m ρ c (Proc.devRef .tc main_arg4) = (A4 m c) :=
  rfl
theorem F0_arg5 : W0 m ρ c (Proc.devRef .tc main_arg5) = (A5 m c) :=
  rfl
theorem F0_arg6 : W0 m ρ c (Proc.devRef .tc main_arg6) = (A6 m c) :=
  rfl
theorem F0_arg7 : W0 m ρ c (Proc.devRef .tc main_arg7) = (A7 m c) :=
  rfl
theorem F0_arg8 : W0 m ρ c (Proc.devRef .tc main_arg8) = (A8 m c) :=
  rfl
theorem F0_arg9 : W0 m ρ c (Proc.devRef .tc main_arg9) = (A9 m c) :=
  rfl
theorem F0_arg10 : W0 m ρ c (Proc.devRef .tc main_arg10) = (A10 m c) :=
  rfl
theorem F0_arg11 : W0 m ρ c (Proc.devRef .tc main_arg11) = (A11 m c) :=
  rfl
theorem F0_arg12 : W0 m ρ c (Proc.devRef .tc main_arg12) = (A12 m c) :=
  rfl
theorem F1_v1 : W1 m ρ c (Proc.devRef .tc main_v1) = Cert.Stage.weightAt0 (A6 m c) :=
  Host.h0_v1 (W0 m ρ c)
theorem F1_v2 : W1 m ρ c (Proc.devRef .tc main_v2) = shapeCast S1x128 (A3 m c) shapeCasts_S128_S1x128 :=
  Host.h0_v2 (W0 m ρ c)
theorem F1_v3 : W1 m ρ c (Proc.devRef .tc main_v3) = shapeCast S1x128 (A5 m c) shapeCasts_S128_S1x128 :=
  Host.h0_v3 (W0 m ρ c)
theorem F1_arg0 : W1 m ρ c (Proc.devRef .tc main_arg0) = (A0 m c) :=
  (Host.h0_keep_arg0 (W0 m ρ c)).trans (F0_arg0 m ρ c)
theorem F1_arg1 : W1 m ρ c (Proc.devRef .tc main_arg1) = (A1 m c) :=
  (Host.h0_keep_arg1 (W0 m ρ c)).trans (F0_arg1 m ρ c)
theorem F1_arg2 : W1 m ρ c (Proc.devRef .tc main_arg2) = (A2 m c) :=
  (Host.h0_keep_arg2 (W0 m ρ c)).trans (F0_arg2 m ρ c)
theorem F1_arg4 : W1 m ρ c (Proc.devRef .tc main_arg4) = (A4 m c) :=
  (Host.h0_keep_arg4 (W0 m ρ c)).trans (F0_arg4 m ρ c)
theorem F1_arg6 : W1 m ρ c (Proc.devRef .tc main_arg6) = (A6 m c) :=
  (Host.h0_keep_arg6 (W0 m ρ c)).trans (F0_arg6 m ρ c)
theorem F1_arg7 : W1 m ρ c (Proc.devRef .tc main_arg7) = (A7 m c) :=
  (Host.h0_keep_arg7 (W0 m ρ c)).trans (F0_arg7 m ρ c)
theorem F1_arg8 : W1 m ρ c (Proc.devRef .tc main_arg8) = (A8 m c) :=
  (Host.h0_keep_arg8 (W0 m ρ c)).trans (F0_arg8 m ρ c)
theorem F1_arg9 : W1 m ρ c (Proc.devRef .tc main_arg9) = (A9 m c) :=
  (Host.h0_keep_arg9 (W0 m ρ c)).trans (F0_arg9 m ρ c)
theorem F1_arg10 : W1 m ρ c (Proc.devRef .tc main_arg10) = (A10 m c) :=
  (Host.h0_keep_arg10 (W0 m ρ c)).trans (F0_arg10 m ρ c)
theorem F1_arg11 : W1 m ρ c (Proc.devRef .tc main_arg11) = (A11 m c) :=
  (Host.h0_keep_arg11 (W0 m ρ c)).trans (F0_arg11 m ρ c)
theorem F1_arg12 : W1 m ρ c (Proc.devRef .tc main_arg12) = (A12 m c) :=
  (Host.h0_keep_arg12 (W0 m ρ c)).trans (F0_arg12 m ρ c)
theorem V1_v1 : V1 m ρ c main_v1 = Cert.Stage.weightAt0 (A6 m c) :=
  F1_v1 m ρ c
theorem V1_v2 : V1 m ρ c main_v2 = shapeCast S1x128 (A3 m c) shapeCasts_S128_S1x128 :=
  F1_v2 m ρ c
theorem V1_v3 : V1 m ρ c main_v3 = shapeCast S1x128 (A5 m c) shapeCasts_S128_S1x128 :=
  F1_v3 m ρ c
theorem V1_arg0 : V1 m ρ c main_arg0 = (A0 m c) :=
  F1_arg0 m ρ c
theorem V1_arg2 : V1 m ρ c main_arg2 = (A2 m c) :=
  F1_arg2 m ρ c
theorem V1_arg4 : V1 m ρ c main_arg4 = (A4 m c) :=
  F1_arg4 m ρ c
theorem F2_v4_0 : W2 m ρ c (Proc.devRef .tc main_v4_0) = (S0 m c) :=
  (W2_arr m ρ c 6).trans ((Region0.skip_eq (V1 m ρ) c (A3 m c) (A5 m c) (V1_v2 m ρ c) (V1_v3 m ρ c)).trans (by rw [V1_arg0 m ρ c, V1_arg2 m ρ c, V1_arg4 m ρ c]; try rfl))
theorem F2_v4_1 : W2 m ρ c (Proc.devRef .tc main_v4_1) = Cert.Stage.lin (S0 m c) (Cert.Stage.weightAt0 (A6 m c)) :=
  (W2_arr m ρ c 7).trans ((Region0.lin_eq (V1 m ρ) c (A3 m c) (A5 m c) (V1_v2 m ρ c) (V1_v3 m ρ c)).trans (by rw [V1_arg0 m ρ c, V1_arg2 m ρ c, V1_arg4 m ρ c, V1_v1 m ρ c]; try rfl))
theorem F2_arg1 : W2 m ρ c (Proc.devRef .tc main_arg1) = (A1 m c) :=
  (W2_of_ne m ρ c main_arg1 (by decide)).trans (F1_arg1 m ρ c)
theorem F2_arg6 : W2 m ρ c (Proc.devRef .tc main_arg6) = (A6 m c) :=
  (W2_of_ne m ρ c main_arg6 (by decide)).trans (F1_arg6 m ρ c)
theorem F2_arg7 : W2 m ρ c (Proc.devRef .tc main_arg7) = (A7 m c) :=
  (W2_of_ne m ρ c main_arg7 (by decide)).trans (F1_arg7 m ρ c)
theorem F2_arg8 : W2 m ρ c (Proc.devRef .tc main_arg8) = (A8 m c) :=
  (W2_of_ne m ρ c main_arg8 (by decide)).trans (F1_arg8 m ρ c)
theorem F2_arg9 : W2 m ρ c (Proc.devRef .tc main_arg9) = (A9 m c) :=
  (W2_of_ne m ρ c main_arg9 (by decide)).trans (F1_arg9 m ρ c)
theorem F2_arg10 : W2 m ρ c (Proc.devRef .tc main_arg10) = (A10 m c) :=
  (W2_of_ne m ρ c main_arg10 (by decide)).trans (F1_arg10 m ρ c)
theorem F2_arg11 : W2 m ρ c (Proc.devRef .tc main_arg11) = (A11 m c) :=
  (W2_of_ne m ρ c main_arg11 (by decide)).trans (F1_arg11 m ρ c)
theorem F2_arg12 : W2 m ρ c (Proc.devRef .tc main_arg12) = (A12 m c) :=
  (W2_of_ne m ρ c main_arg12 (by decide)).trans (F1_arg12 m ρ c)
theorem F5_v8 : W5 m ρ c (Proc.devRef .tc main_v8) = (SRC m c) :=
  (Host.h1_v8 (W2 m ρ c)).trans (by rw [F2_arg12 m ρ c]; try rfl)
theorem F5_v11 : W5 m ρ c (Proc.devRef .tc main_v11) = (DST m c) :=
  (Host.h1_v11 (W2 m ρ c)).trans (by rw [F2_arg12 m ρ c]; try rfl)
theorem F5_v38 : W5 m ρ c (Proc.devRef .tc main_v38) = (NRM m c) :=
  (Host.h1_v38 (W2 m ρ c)).trans (by rw [F2_arg12 m ρ c, F2_arg1 m ρ c]; try rfl)
theorem F5_v56 : W5 m ρ c (Proc.devRef .tc main_v56) = (G0 m c) :=
  (Host.h1_v56 (W2 m ρ c)).trans (by rw [F2_v4_1 m ρ c, F2_arg7 m ρ c, F2_arg12 m ρ c, F2_arg1 m ρ c]; try rfl)
theorem F5_v59 : W5 m ρ c (Proc.devRef .tc main_v59) = Cert.Stage.colMean (G0 m c) :=
  (Host.h1_v59 (W2 m ρ c)).trans (by rw [F2_v4_1 m ρ c, F2_arg7 m ρ c, F2_arg12 m ρ c, F2_arg1 m ρ c]; try rfl)
theorem F5_v60 : W5 m ρ c (Proc.devRef .tc main_v60) = shapeCast S1x128 (Cert.Stage.colMean (G0 m c)) shapeCasts_S128_S1x128 :=
  (Host.h1_v60 (W2 m ρ c)).trans (by rw [F2_v4_1 m ρ c, F2_arg7 m ρ c, F2_arg12 m ρ c, F2_arg1 m ρ c]; try rfl)
theorem F5_v4_0 : W5 m ρ c (Proc.devRef .tc main_v4_0) = (S0 m c) :=
  (Host.h1_keep_v4_0 (W2 m ρ c)).trans (F2_v4_0 m ρ c)
theorem F5_arg6 : W5 m ρ c (Proc.devRef .tc main_arg6) = (A6 m c) :=
  (Host.h1_keep_arg6 (W2 m ρ c)).trans (F2_arg6 m ρ c)
theorem F5_arg7 : W5 m ρ c (Proc.devRef .tc main_arg7) = (A7 m c) :=
  (Host.h1_keep_arg7 (W2 m ρ c)).trans (F2_arg7 m ρ c)
theorem F5_arg8 : W5 m ρ c (Proc.devRef .tc main_arg8) = (A8 m c) :=
  (Host.h1_keep_arg8 (W2 m ρ c)).trans (F2_arg8 m ρ c)
theorem F5_arg9 : W5 m ρ c (Proc.devRef .tc main_arg9) = (A9 m c) :=
  (Host.h1_keep_arg9 (W2 m ρ c)).trans (F2_arg9 m ρ c)
theorem F5_arg10 : W5 m ρ c (Proc.devRef .tc main_arg10) = (A10 m c) :=
  (Host.h1_keep_arg10 (W2 m ρ c)).trans (F2_arg10 m ρ c)
theorem F5_arg11 : W5 m ρ c (Proc.devRef .tc main_arg11) = (A11 m c) :=
  (Host.h1_keep_arg11 (W2 m ρ c)).trans (F2_arg11 m ρ c)
theorem V5_v56 : V5 m ρ c main_v56 = (G0 m c) :=
  F5_v56 m ρ c
theorem V5_v60 : V5 m ρ c main_v60 = shapeCast S1x128 (Cert.Stage.colMean (G0 m c)) shapeCasts_S128_S1x128 :=
  F5_v60 m ρ c

/-! ### Layer 0 -/

/-- The variance over the rows of the aggregation's result, read off the variance region's tiles. -/
theorem FV6 : Cert.KStageF.varFinish (F := Ideal) (W6 m ρ c (Proc.devRef .tc main_v61)) = Cert.Stage.colVar (G0 m c) (Cert.Stage.colMean (G0 m c)) :=
  (congrArg (Cert.KStageF.varFinish (F := Ideal)) (W6_arr m ρ c 2)).trans ((RegionVar1.var_eq (V5 m ρ) c (Cert.Stage.colMean (G0 m c)) (V5_v60 m ρ c)).trans (by rw [V5_v56 m ρ c]))
theorem F6_v59 : W6 m ρ c (Proc.devRef .tc main_v59) = Cert.Stage.colMean (G0 m c) :=
  (W6_of_ne m ρ c main_v59 (by decide)).trans (F5_v59 m ρ c)
theorem F6_v4_0 : W6 m ρ c (Proc.devRef .tc main_v4_0) = (S0 m c) :=
  (W6_of_ne m ρ c main_v4_0 (by decide)).trans (F5_v4_0 m ρ c)
theorem F6_v8 : W6 m ρ c (Proc.devRef .tc main_v8) = (SRC m c) :=
  (W6_of_ne m ρ c main_v8 (by decide)).trans (F5_v8 m ρ c)
theorem F6_v11 : W6 m ρ c (Proc.devRef .tc main_v11) = (DST m c) :=
  (W6_of_ne m ρ c main_v11 (by decide)).trans (F5_v11 m ρ c)
theorem F6_v38 : W6 m ρ c (Proc.devRef .tc main_v38) = (NRM m c) :=
  (W6_of_ne m ρ c main_v38 (by decide)).trans (F5_v38 m ρ c)
theorem F6_arg6 : W6 m ρ c (Proc.devRef .tc main_arg6) = (A6 m c) :=
  (W6_of_ne m ρ c main_arg6 (by decide)).trans (F5_arg6 m ρ c)
theorem F6_arg7 : W6 m ρ c (Proc.devRef .tc main_arg7) = (A7 m c) :=
  (W6_of_ne m ρ c main_arg7 (by decide)).trans (F5_arg7 m ρ c)
theorem F6_arg8 : W6 m ρ c (Proc.devRef .tc main_arg8) = (A8 m c) :=
  (W6_of_ne m ρ c main_arg8 (by decide)).trans (F5_arg8 m ρ c)
theorem F6_arg9 : W6 m ρ c (Proc.devRef .tc main_arg9) = (A9 m c) :=
  (W6_of_ne m ρ c main_arg9 (by decide)).trans (F5_arg9 m ρ c)
theorem F6_arg10 : W6 m ρ c (Proc.devRef .tc main_arg10) = (A10 m c) :=
  (W6_of_ne m ρ c main_arg10 (by decide)).trans (F5_arg10 m ρ c)
theorem F6_arg11 : W6 m ρ c (Proc.devRef .tc main_arg11) = (A11 m c) :=
  (W6_of_ne m ρ c main_arg11 (by decide)).trans (F5_arg11 m ρ c)
theorem F6_v56 : W6 m ρ c (Proc.devRef .tc main_v56) = (G0 m c) :=
  (W6_arr m ρ c 0).trans (((dat1 (V5 m ρ) c).arrAt_in 0 rfl _).trans ((A_eq1 (V5 m ρ) c 0).trans (F5_v56 m ρ c)))
theorem F7_v69 : W7 m ρ c (Proc.devRef .tc main_v69) = Cert.Stage.weightAt1 (A6 m c) :=
  (Host.h2_v69 (W6 m ρ c)).trans (by rw [F6_arg6 m ρ c]; try rfl)
theorem F7_v77 : W7 m ρ c (Proc.devRef .tc main_v77) = shapeCast S1x128 (Cert.Stage.colMean (G0 m c)) shapeCasts_S128_S1x128 :=
  (Host.h2_v77 (W6 m ρ c)).trans (by rw [F6_v59 m ρ c]; try rfl)
theorem F7_v78 : W7 m ρ c (Proc.devRef .tc main_v78) = shapeCast S1x128 (Cert.Stage.invstdOf (Cert.Stage.colVar (G0 m c) (Cert.Stage.colMean (G0 m c)))) shapeCasts_S128_S1x128 :=
  (Host.h2_v78 (W6 m ρ c)).trans (by rw [FV6 m ρ c]; try rfl)
theorem F7_v79 : W7 m ρ c (Proc.devRef .tc main_v79) = shapeCast S1x128 (Cert.Stage.rowAt0 (A10 m c)) shapeCasts_S128_S1x128 :=
  (Host.h2_v79 (W6 m ρ c)).trans (by rw [F6_arg10 m ρ c]; try rfl)
theorem F7_v80 : W7 m ρ c (Proc.devRef .tc main_v80) = shapeCast S1x128 (Cert.Stage.rowAt0 (A11 m c)) shapeCasts_S128_S1x128 :=
  (Host.h2_v80 (W6 m ρ c)).trans (by rw [F6_arg11 m ρ c]; try rfl)
theorem F7_v56 : W7 m ρ c (Proc.devRef .tc main_v56) = (G0 m c) :=
  (Host.h2_keep_v56 (W6 m ρ c)).trans (F6_v56 m ρ c)
theorem F7_v4_0 : W7 m ρ c (Proc.devRef .tc main_v4_0) = (S0 m c) :=
  (Host.h2_keep_v4_0 (W6 m ρ c)).trans (F6_v4_0 m ρ c)
theorem F7_v8 : W7 m ρ c (Proc.devRef .tc main_v8) = (SRC m c) :=
  (Host.h2_keep_v8 (W6 m ρ c)).trans (F6_v8 m ρ c)
theorem F7_v11 : W7 m ρ c (Proc.devRef .tc main_v11) = (DST m c) :=
  (Host.h2_keep_v11 (W6 m ρ c)).trans (F6_v11 m ρ c)
theorem F7_v38 : W7 m ρ c (Proc.devRef .tc main_v38) = (NRM m c) :=
  (Host.h2_keep_v38 (W6 m ρ c)).trans (F6_v38 m ρ c)
theorem F7_arg6 : W7 m ρ c (Proc.devRef .tc main_arg6) = (A6 m c) :=
  (Host.h2_keep_arg6 (W6 m ρ c)).trans (F6_arg6 m ρ c)
theorem F7_arg7 : W7 m ρ c (Proc.devRef .tc main_arg7) = (A7 m c) :=
  (Host.h2_keep_arg7 (W6 m ρ c)).trans (F6_arg7 m ρ c)
theorem F7_arg8 : W7 m ρ c (Proc.devRef .tc main_arg8) = (A8 m c) :=
  (Host.h2_keep_arg8 (W6 m ρ c)).trans (F6_arg8 m ρ c)
theorem F7_arg9 : W7 m ρ c (Proc.devRef .tc main_arg9) = (A9 m c) :=
  (Host.h2_keep_arg9 (W6 m ρ c)).trans (F6_arg9 m ρ c)
theorem F7_arg10 : W7 m ρ c (Proc.devRef .tc main_arg10) = (A10 m c) :=
  (Host.h2_keep_arg10 (W6 m ρ c)).trans (F6_arg10 m ρ c)
theorem F7_arg11 : W7 m ρ c (Proc.devRef .tc main_arg11) = (A11 m c) :=
  (Host.h2_keep_arg11 (W6 m ρ c)).trans (F6_arg11 m ρ c)
theorem V7_v56 : V7 m ρ c main_v56 = (G0 m c) :=
  F7_v56 m ρ c
theorem V7_v4_0 : V7 m ρ c main_v4_0 = (S0 m c) :=
  F7_v4_0 m ρ c
theorem V7_v77 : V7 m ρ c main_v77 = shapeCast S1x128 (Cert.Stage.colMean (G0 m c)) shapeCasts_S128_S1x128 :=
  F7_v77 m ρ c
theorem V7_v78 : V7 m ρ c main_v78 = shapeCast S1x128 (Cert.Stage.invstdOf (Cert.Stage.colVar (G0 m c) (Cert.Stage.colMean (G0 m c)))) shapeCasts_S128_S1x128 :=
  F7_v78 m ρ c
theorem V7_v79 : V7 m ρ c main_v79 = shapeCast S1x128 (Cert.Stage.rowAt0 (A10 m c)) shapeCasts_S128_S1x128 :=
  F7_v79 m ρ c
theorem V7_v80 : V7 m ρ c main_v80 = shapeCast S1x128 (Cert.Stage.rowAt0 (A11 m c)) shapeCasts_S128_S1x128 :=
  F7_v80 m ρ c
theorem V7_v69 : V7 m ρ c main_v69 = Cert.Stage.weightAt1 (A6 m c) :=
  F7_v69 m ρ c
theorem F8_v81_0 : W8 m ρ c (Proc.devRef .tc main_v81_0) = (S1 m c) :=
  (W8_arr m ρ c 7).trans ((RegionBn2.out_eq (V7 m ρ) c (Cert.Stage.colMean (G0 m c)) (Cert.Stage.invstdOf (Cert.Stage.colVar (G0 m c) (Cert.Stage.colMean (G0 m c)))) (Cert.Stage.rowAt0 (A10 m c)) (Cert.Stage.rowAt0 (A11 m c)) (V7_v77 m ρ c) (V7_v78 m ρ c) (V7_v79 m ρ c) (V7_v80 m ρ c)).trans (by rw [V7_v56 m ρ c, V7_v4_0 m ρ c]; try rfl))
theorem F8_v81_1 : W8 m ρ c (Proc.devRef .tc main_v81_1) = Cert.Stage.lin (S1 m c) (Cert.Stage.weightAt1 (A6 m c)) :=
  (W8_arr m ρ c 8).trans ((RegionBn2.lin_eq (V7 m ρ) c (Cert.Stage.colMean (G0 m c)) (Cert.Stage.invstdOf (Cert.Stage.colVar (G0 m c) (Cert.Stage.colMean (G0 m c)))) (Cert.Stage.rowAt0 (A10 m c)) (Cert.Stage.rowAt0 (A11 m c)) (V7_v77 m ρ c) (V7_v78 m ρ c) (V7_v79 m ρ c) (V7_v80 m ρ c)).trans (by rw [V7_v56 m ρ c, V7_v4_0 m ρ c, V7_v69 m ρ c]; try rfl))
theorem F8_v8 : W8 m ρ c (Proc.devRef .tc main_v8) = (SRC m c) :=
  (W8_of_ne m ρ c main_v8 (by decide)).trans (F7_v8 m ρ c)
theorem F8_v11 : W8 m ρ c (Proc.devRef .tc main_v11) = (DST m c) :=
  (W8_of_ne m ρ c main_v11 (by decide)).trans (F7_v11 m ρ c)
theorem F8_v38 : W8 m ρ c (Proc.devRef .tc main_v38) = (NRM m c) :=
  (W8_of_ne m ρ c main_v38 (by decide)).trans (F7_v38 m ρ c)
theorem F8_arg6 : W8 m ρ c (Proc.devRef .tc main_arg6) = (A6 m c) :=
  (W8_of_ne m ρ c main_arg6 (by decide)).trans (F7_arg6 m ρ c)
theorem F8_arg7 : W8 m ρ c (Proc.devRef .tc main_arg7) = (A7 m c) :=
  (W8_of_ne m ρ c main_arg7 (by decide)).trans (F7_arg7 m ρ c)
theorem F8_arg8 : W8 m ρ c (Proc.devRef .tc main_arg8) = (A8 m c) :=
  (W8_of_ne m ρ c main_arg8 (by decide)).trans (F7_arg8 m ρ c)
theorem F8_arg9 : W8 m ρ c (Proc.devRef .tc main_arg9) = (A9 m c) :=
  (W8_of_ne m ρ c main_arg9 (by decide)).trans (F7_arg9 m ρ c)
theorem F8_arg10 : W8 m ρ c (Proc.devRef .tc main_arg10) = (A10 m c) :=
  (W8_of_ne m ρ c main_arg10 (by decide)).trans (F7_arg10 m ρ c)
theorem F8_arg11 : W8 m ρ c (Proc.devRef .tc main_arg11) = (A11 m c) :=
  (W8_of_ne m ρ c main_arg11 (by decide)).trans (F7_arg11 m ρ c)
theorem F9_v99 : W9 m ρ c (Proc.devRef .tc main_v99) = (G1 m c) :=
  (Host.h3_v99 (W8 m ρ c)).trans (by rw [F8_v81_1 m ρ c, F8_arg7 m ρ c, F8_v8 m ρ c, F8_v11 m ρ c, F8_v38 m ρ c]; try rfl)
theorem F9_v102 : W9 m ρ c (Proc.devRef .tc main_v102) = Cert.Stage.colMean (G1 m c) :=
  (Host.h3_v102 (W8 m ρ c)).trans (by rw [F8_v81_1 m ρ c, F8_arg7 m ρ c, F8_v8 m ρ c, F8_v11 m ρ c, F8_v38 m ρ c]; try rfl)
theorem F9_v103 : W9 m ρ c (Proc.devRef .tc main_v103) = shapeCast S1x128 (Cert.Stage.colMean (G1 m c)) shapeCasts_S128_S1x128 :=
  (Host.h3_v103 (W8 m ρ c)).trans (by rw [F8_v81_1 m ρ c, F8_arg7 m ρ c, F8_v8 m ρ c, F8_v11 m ρ c, F8_v38 m ρ c]; try rfl)
theorem F9_v81_0 : W9 m ρ c (Proc.devRef .tc main_v81_0) = (S1 m c) :=
  (Host.h3_keep_v81_0 (W8 m ρ c)).trans (F8_v81_0 m ρ c)
theorem F9_v8 : W9 m ρ c (Proc.devRef .tc main_v8) = (SRC m c) :=
  (Host.h3_keep_v8 (W8 m ρ c)).trans (F8_v8 m ρ c)
theorem F9_v11 : W9 m ρ c (Proc.devRef .tc main_v11) = (DST m c) :=
  (Host.h3_keep_v11 (W8 m ρ c)).trans (F8_v11 m ρ c)
theorem F9_v38 : W9 m ρ c (Proc.devRef .tc main_v38) = (NRM m c) :=
  (Host.h3_keep_v38 (W8 m ρ c)).trans (F8_v38 m ρ c)
theorem F9_arg6 : W9 m ρ c (Proc.devRef .tc main_arg6) = (A6 m c) :=
  (Host.h3_keep_arg6 (W8 m ρ c)).trans (F8_arg6 m ρ c)
theorem F9_arg7 : W9 m ρ c (Proc.devRef .tc main_arg7) = (A7 m c) :=
  (Host.h3_keep_arg7 (W8 m ρ c)).trans (F8_arg7 m ρ c)
theorem F9_arg8 : W9 m ρ c (Proc.devRef .tc main_arg8) = (A8 m c) :=
  (Host.h3_keep_arg8 (W8 m ρ c)).trans (F8_arg8 m ρ c)
theorem F9_arg9 : W9 m ρ c (Proc.devRef .tc main_arg9) = (A9 m c) :=
  (Host.h3_keep_arg9 (W8 m ρ c)).trans (F8_arg9 m ρ c)
theorem F9_arg10 : W9 m ρ c (Proc.devRef .tc main_arg10) = (A10 m c) :=
  (Host.h3_keep_arg10 (W8 m ρ c)).trans (F8_arg10 m ρ c)
theorem F9_arg11 : W9 m ρ c (Proc.devRef .tc main_arg11) = (A11 m c) :=
  (Host.h3_keep_arg11 (W8 m ρ c)).trans (F8_arg11 m ρ c)
theorem V9_v99 : V9 m ρ c main_v99 = (G1 m c) :=
  F9_v99 m ρ c
theorem V9_v103 : V9 m ρ c main_v103 = shapeCast S1x128 (Cert.Stage.colMean (G1 m c)) shapeCasts_S128_S1x128 :=
  F9_v103 m ρ c

/-! ### Layer 1 -/

/-- The variance over the rows of the aggregation's result, read off the variance region's tiles. -/
theorem FV10 : Cert.KStageF.varFinish (F := Ideal) (W10 m ρ c (Proc.devRef .tc main_v104)) = Cert.Stage.colVar (G1 m c) (Cert.Stage.colMean (G1 m c)) :=
  (congrArg (Cert.KStageF.varFinish (F := Ideal)) (W10_arr m ρ c 2)).trans ((RegionVar3.var_eq (V9 m ρ) c (Cert.Stage.colMean (G1 m c)) (V9_v103 m ρ c)).trans (by rw [V9_v99 m ρ c]))
theorem F10_v102 : W10 m ρ c (Proc.devRef .tc main_v102) = Cert.Stage.colMean (G1 m c) :=
  (W10_of_ne m ρ c main_v102 (by decide)).trans (F9_v102 m ρ c)
theorem F10_v81_0 : W10 m ρ c (Proc.devRef .tc main_v81_0) = (S1 m c) :=
  (W10_of_ne m ρ c main_v81_0 (by decide)).trans (F9_v81_0 m ρ c)
theorem F10_v8 : W10 m ρ c (Proc.devRef .tc main_v8) = (SRC m c) :=
  (W10_of_ne m ρ c main_v8 (by decide)).trans (F9_v8 m ρ c)
theorem F10_v11 : W10 m ρ c (Proc.devRef .tc main_v11) = (DST m c) :=
  (W10_of_ne m ρ c main_v11 (by decide)).trans (F9_v11 m ρ c)
theorem F10_v38 : W10 m ρ c (Proc.devRef .tc main_v38) = (NRM m c) :=
  (W10_of_ne m ρ c main_v38 (by decide)).trans (F9_v38 m ρ c)
theorem F10_arg6 : W10 m ρ c (Proc.devRef .tc main_arg6) = (A6 m c) :=
  (W10_of_ne m ρ c main_arg6 (by decide)).trans (F9_arg6 m ρ c)
theorem F10_arg7 : W10 m ρ c (Proc.devRef .tc main_arg7) = (A7 m c) :=
  (W10_of_ne m ρ c main_arg7 (by decide)).trans (F9_arg7 m ρ c)
theorem F10_arg8 : W10 m ρ c (Proc.devRef .tc main_arg8) = (A8 m c) :=
  (W10_of_ne m ρ c main_arg8 (by decide)).trans (F9_arg8 m ρ c)
theorem F10_arg9 : W10 m ρ c (Proc.devRef .tc main_arg9) = (A9 m c) :=
  (W10_of_ne m ρ c main_arg9 (by decide)).trans (F9_arg9 m ρ c)
theorem F10_arg10 : W10 m ρ c (Proc.devRef .tc main_arg10) = (A10 m c) :=
  (W10_of_ne m ρ c main_arg10 (by decide)).trans (F9_arg10 m ρ c)
theorem F10_arg11 : W10 m ρ c (Proc.devRef .tc main_arg11) = (A11 m c) :=
  (W10_of_ne m ρ c main_arg11 (by decide)).trans (F9_arg11 m ρ c)
theorem F10_v99 : W10 m ρ c (Proc.devRef .tc main_v99) = (G1 m c) :=
  (W10_arr m ρ c 0).trans (((dat3 (V9 m ρ) c).arrAt_in 0 rfl _).trans ((A_eq3 (V9 m ρ) c 0).trans (F9_v99 m ρ c)))
theorem F11_v112 : W11 m ρ c (Proc.devRef .tc main_v112) = Cert.Stage.weightAt2 (A6 m c) :=
  (Host.h4_v112 (W10 m ρ c)).trans (by rw [F10_arg6 m ρ c]; try rfl)
theorem F11_v120 : W11 m ρ c (Proc.devRef .tc main_v120) = shapeCast S1x128 (Cert.Stage.colMean (G1 m c)) shapeCasts_S128_S1x128 :=
  (Host.h4_v120 (W10 m ρ c)).trans (by rw [F10_v102 m ρ c]; try rfl)
theorem F11_v121 : W11 m ρ c (Proc.devRef .tc main_v121) = shapeCast S1x128 (Cert.Stage.invstdOf (Cert.Stage.colVar (G1 m c) (Cert.Stage.colMean (G1 m c)))) shapeCasts_S128_S1x128 :=
  (Host.h4_v121 (W10 m ρ c)).trans (by rw [FV10 m ρ c]; try rfl)
theorem F11_v122 : W11 m ρ c (Proc.devRef .tc main_v122) = shapeCast S1x128 (Cert.Stage.rowAt1 (A10 m c)) shapeCasts_S128_S1x128 :=
  (Host.h4_v122 (W10 m ρ c)).trans (by rw [F10_arg10 m ρ c]; try rfl)
theorem F11_v123 : W11 m ρ c (Proc.devRef .tc main_v123) = shapeCast S1x128 (Cert.Stage.rowAt1 (A11 m c)) shapeCasts_S128_S1x128 :=
  (Host.h4_v123 (W10 m ρ c)).trans (by rw [F10_arg11 m ρ c]; try rfl)
theorem F11_v99 : W11 m ρ c (Proc.devRef .tc main_v99) = (G1 m c) :=
  (Host.h4_keep_v99 (W10 m ρ c)).trans (F10_v99 m ρ c)
theorem F11_v81_0 : W11 m ρ c (Proc.devRef .tc main_v81_0) = (S1 m c) :=
  (Host.h4_keep_v81_0 (W10 m ρ c)).trans (F10_v81_0 m ρ c)
theorem F11_v8 : W11 m ρ c (Proc.devRef .tc main_v8) = (SRC m c) :=
  (Host.h4_keep_v8 (W10 m ρ c)).trans (F10_v8 m ρ c)
theorem F11_v11 : W11 m ρ c (Proc.devRef .tc main_v11) = (DST m c) :=
  (Host.h4_keep_v11 (W10 m ρ c)).trans (F10_v11 m ρ c)
theorem F11_v38 : W11 m ρ c (Proc.devRef .tc main_v38) = (NRM m c) :=
  (Host.h4_keep_v38 (W10 m ρ c)).trans (F10_v38 m ρ c)
theorem F11_arg7 : W11 m ρ c (Proc.devRef .tc main_arg7) = (A7 m c) :=
  (Host.h4_keep_arg7 (W10 m ρ c)).trans (F10_arg7 m ρ c)
theorem F11_arg8 : W11 m ρ c (Proc.devRef .tc main_arg8) = (A8 m c) :=
  (Host.h4_keep_arg8 (W10 m ρ c)).trans (F10_arg8 m ρ c)
theorem F11_arg9 : W11 m ρ c (Proc.devRef .tc main_arg9) = (A9 m c) :=
  (Host.h4_keep_arg9 (W10 m ρ c)).trans (F10_arg9 m ρ c)
theorem F11_arg10 : W11 m ρ c (Proc.devRef .tc main_arg10) = (A10 m c) :=
  (Host.h4_keep_arg10 (W10 m ρ c)).trans (F10_arg10 m ρ c)
theorem F11_arg11 : W11 m ρ c (Proc.devRef .tc main_arg11) = (A11 m c) :=
  (Host.h4_keep_arg11 (W10 m ρ c)).trans (F10_arg11 m ρ c)
theorem V11_v99 : V11 m ρ c main_v99 = (G1 m c) :=
  F11_v99 m ρ c
theorem V11_v81_0 : V11 m ρ c main_v81_0 = (S1 m c) :=
  F11_v81_0 m ρ c
theorem V11_v120 : V11 m ρ c main_v120 = shapeCast S1x128 (Cert.Stage.colMean (G1 m c)) shapeCasts_S128_S1x128 :=
  F11_v120 m ρ c
theorem V11_v121 : V11 m ρ c main_v121 = shapeCast S1x128 (Cert.Stage.invstdOf (Cert.Stage.colVar (G1 m c) (Cert.Stage.colMean (G1 m c)))) shapeCasts_S128_S1x128 :=
  F11_v121 m ρ c
theorem V11_v122 : V11 m ρ c main_v122 = shapeCast S1x128 (Cert.Stage.rowAt1 (A10 m c)) shapeCasts_S128_S1x128 :=
  F11_v122 m ρ c
theorem V11_v123 : V11 m ρ c main_v123 = shapeCast S1x128 (Cert.Stage.rowAt1 (A11 m c)) shapeCasts_S128_S1x128 :=
  F11_v123 m ρ c
theorem V11_v112 : V11 m ρ c main_v112 = Cert.Stage.weightAt2 (A6 m c) :=
  F11_v112 m ρ c
theorem F12_v124_0 : W12 m ρ c (Proc.devRef .tc main_v124_0) = (S2 m c) :=
  (W12_arr m ρ c 7).trans ((RegionBn4.out_eq (V11 m ρ) c (Cert.Stage.colMean (G1 m c)) (Cert.Stage.invstdOf (Cert.Stage.colVar (G1 m c) (Cert.Stage.colMean (G1 m c)))) (Cert.Stage.rowAt1 (A10 m c)) (Cert.Stage.rowAt1 (A11 m c)) (V11_v120 m ρ c) (V11_v121 m ρ c) (V11_v122 m ρ c) (V11_v123 m ρ c)).trans (by rw [V11_v99 m ρ c, V11_v81_0 m ρ c]; try rfl))
theorem F12_v124_1 : W12 m ρ c (Proc.devRef .tc main_v124_1) = Cert.Stage.lin (S2 m c) (Cert.Stage.weightAt2 (A6 m c)) :=
  (W12_arr m ρ c 8).trans ((RegionBn4.lin_eq (V11 m ρ) c (Cert.Stage.colMean (G1 m c)) (Cert.Stage.invstdOf (Cert.Stage.colVar (G1 m c) (Cert.Stage.colMean (G1 m c)))) (Cert.Stage.rowAt1 (A10 m c)) (Cert.Stage.rowAt1 (A11 m c)) (V11_v120 m ρ c) (V11_v121 m ρ c) (V11_v122 m ρ c) (V11_v123 m ρ c)).trans (by rw [V11_v99 m ρ c, V11_v81_0 m ρ c, V11_v112 m ρ c]; try rfl))
theorem F12_v8 : W12 m ρ c (Proc.devRef .tc main_v8) = (SRC m c) :=
  (W12_of_ne m ρ c main_v8 (by decide)).trans (F11_v8 m ρ c)
theorem F12_v11 : W12 m ρ c (Proc.devRef .tc main_v11) = (DST m c) :=
  (W12_of_ne m ρ c main_v11 (by decide)).trans (F11_v11 m ρ c)
theorem F12_v38 : W12 m ρ c (Proc.devRef .tc main_v38) = (NRM m c) :=
  (W12_of_ne m ρ c main_v38 (by decide)).trans (F11_v38 m ρ c)
theorem F12_arg7 : W12 m ρ c (Proc.devRef .tc main_arg7) = (A7 m c) :=
  (W12_of_ne m ρ c main_arg7 (by decide)).trans (F11_arg7 m ρ c)
theorem F12_arg8 : W12 m ρ c (Proc.devRef .tc main_arg8) = (A8 m c) :=
  (W12_of_ne m ρ c main_arg8 (by decide)).trans (F11_arg8 m ρ c)
theorem F12_arg9 : W12 m ρ c (Proc.devRef .tc main_arg9) = (A9 m c) :=
  (W12_of_ne m ρ c main_arg9 (by decide)).trans (F11_arg9 m ρ c)
theorem F12_arg10 : W12 m ρ c (Proc.devRef .tc main_arg10) = (A10 m c) :=
  (W12_of_ne m ρ c main_arg10 (by decide)).trans (F11_arg10 m ρ c)
theorem F12_arg11 : W12 m ρ c (Proc.devRef .tc main_arg11) = (A11 m c) :=
  (W12_of_ne m ρ c main_arg11 (by decide)).trans (F11_arg11 m ρ c)
theorem F13_v142 : W13 m ρ c (Proc.devRef .tc main_v142) = (G2 m c) :=
  (Host.h5_v142 (W12 m ρ c)).trans (by rw [F12_v124_1 m ρ c, F12_arg7 m ρ c, F12_v8 m ρ c, F12_v11 m ρ c, F12_v38 m ρ c]; try rfl)
theorem F13_v145 : W13 m ρ c (Proc.devRef .tc main_v145) = Cert.Stage.colMean (G2 m c) :=
  (Host.h5_v145 (W12 m ρ c)).trans (by rw [F12_v124_1 m ρ c, F12_arg7 m ρ c, F12_v8 m ρ c, F12_v11 m ρ c, F12_v38 m ρ c]; try rfl)
theorem F13_v146 : W13 m ρ c (Proc.devRef .tc main_v146) = shapeCast S1x128 (Cert.Stage.colMean (G2 m c)) shapeCasts_S128_S1x128 :=
  (Host.h5_v146 (W12 m ρ c)).trans (by rw [F12_v124_1 m ρ c, F12_arg7 m ρ c, F12_v8 m ρ c, F12_v11 m ρ c, F12_v38 m ρ c]; try rfl)
theorem F13_v124_0 : W13 m ρ c (Proc.devRef .tc main_v124_0) = (S2 m c) :=
  (Host.h5_keep_v124_0 (W12 m ρ c)).trans (F12_v124_0 m ρ c)
theorem F13_v8 : W13 m ρ c (Proc.devRef .tc main_v8) = (SRC m c) :=
  (Host.h5_keep_v8 (W12 m ρ c)).trans (F12_v8 m ρ c)
theorem F13_v11 : W13 m ρ c (Proc.devRef .tc main_v11) = (DST m c) :=
  (Host.h5_keep_v11 (W12 m ρ c)).trans (F12_v11 m ρ c)
theorem F13_v38 : W13 m ρ c (Proc.devRef .tc main_v38) = (NRM m c) :=
  (Host.h5_keep_v38 (W12 m ρ c)).trans (F12_v38 m ρ c)
theorem F13_arg8 : W13 m ρ c (Proc.devRef .tc main_arg8) = (A8 m c) :=
  (Host.h5_keep_arg8 (W12 m ρ c)).trans (F12_arg8 m ρ c)
theorem F13_arg9 : W13 m ρ c (Proc.devRef .tc main_arg9) = (A9 m c) :=
  (Host.h5_keep_arg9 (W12 m ρ c)).trans (F12_arg9 m ρ c)
theorem F13_arg10 : W13 m ρ c (Proc.devRef .tc main_arg10) = (A10 m c) :=
  (Host.h5_keep_arg10 (W12 m ρ c)).trans (F12_arg10 m ρ c)
theorem F13_arg11 : W13 m ρ c (Proc.devRef .tc main_arg11) = (A11 m c) :=
  (Host.h5_keep_arg11 (W12 m ρ c)).trans (F12_arg11 m ρ c)
theorem V13_v142 : V13 m ρ c main_v142 = (G2 m c) :=
  F13_v142 m ρ c
theorem V13_v146 : V13 m ρ c main_v146 = shapeCast S1x128 (Cert.Stage.colMean (G2 m c)) shapeCasts_S128_S1x128 :=
  F13_v146 m ρ c

/-! ### Layer 2 -/

/-- The variance over the rows of the aggregation's result, read off the variance region's tiles. -/
theorem FV14 : Cert.KStageF.varFinish (F := Ideal) (W14 m ρ c (Proc.devRef .tc main_v147)) = Cert.Stage.colVar (G2 m c) (Cert.Stage.colMean (G2 m c)) :=
  (congrArg (Cert.KStageF.varFinish (F := Ideal)) (W14_arr m ρ c 2)).trans ((RegionVar5.var_eq (V13 m ρ) c (Cert.Stage.colMean (G2 m c)) (V13_v146 m ρ c)).trans (by rw [V13_v142 m ρ c]))
theorem F14_v145 : W14 m ρ c (Proc.devRef .tc main_v145) = Cert.Stage.colMean (G2 m c) :=
  (W14_of_ne m ρ c main_v145 (by decide)).trans (F13_v145 m ρ c)
theorem F14_v124_0 : W14 m ρ c (Proc.devRef .tc main_v124_0) = (S2 m c) :=
  (W14_of_ne m ρ c main_v124_0 (by decide)).trans (F13_v124_0 m ρ c)
theorem F14_v8 : W14 m ρ c (Proc.devRef .tc main_v8) = (SRC m c) :=
  (W14_of_ne m ρ c main_v8 (by decide)).trans (F13_v8 m ρ c)
theorem F14_v11 : W14 m ρ c (Proc.devRef .tc main_v11) = (DST m c) :=
  (W14_of_ne m ρ c main_v11 (by decide)).trans (F13_v11 m ρ c)
theorem F14_v38 : W14 m ρ c (Proc.devRef .tc main_v38) = (NRM m c) :=
  (W14_of_ne m ρ c main_v38 (by decide)).trans (F13_v38 m ρ c)
theorem F14_arg8 : W14 m ρ c (Proc.devRef .tc main_arg8) = (A8 m c) :=
  (W14_of_ne m ρ c main_arg8 (by decide)).trans (F13_arg8 m ρ c)
theorem F14_arg9 : W14 m ρ c (Proc.devRef .tc main_arg9) = (A9 m c) :=
  (W14_of_ne m ρ c main_arg9 (by decide)).trans (F13_arg9 m ρ c)
theorem F14_arg10 : W14 m ρ c (Proc.devRef .tc main_arg10) = (A10 m c) :=
  (W14_of_ne m ρ c main_arg10 (by decide)).trans (F13_arg10 m ρ c)
theorem F14_arg11 : W14 m ρ c (Proc.devRef .tc main_arg11) = (A11 m c) :=
  (W14_of_ne m ρ c main_arg11 (by decide)).trans (F13_arg11 m ρ c)
theorem F14_v142 : W14 m ρ c (Proc.devRef .tc main_v142) = (G2 m c) :=
  (W14_arr m ρ c 0).trans (((dat5 (V13 m ρ) c).arrAt_in 0 rfl _).trans ((A_eq5 (V13 m ρ) c 0).trans (F13_v142 m ρ c)))
theorem F15_v161 : W15 m ρ c (Proc.devRef .tc main_v161) = shapeCast S1x128 (Cert.Stage.colMean (G2 m c)) shapeCasts_S128_S1x128 :=
  (Host.h6_v161 (W14 m ρ c)).trans (by rw [F14_v145 m ρ c]; try rfl)
theorem F15_v162 : W15 m ρ c (Proc.devRef .tc main_v162) = shapeCast S1x128 (Cert.Stage.invstdOf (Cert.Stage.colVar (G2 m c) (Cert.Stage.colMean (G2 m c)))) shapeCasts_S128_S1x128 :=
  (Host.h6_v162 (W14 m ρ c)).trans (by rw [FV14 m ρ c]; try rfl)
theorem F15_v163 : W15 m ρ c (Proc.devRef .tc main_v163) = shapeCast S1x128 (Cert.Stage.rowAt2 (A10 m c)) shapeCasts_S128_S1x128 :=
  (Host.h6_v163 (W14 m ρ c)).trans (by rw [F14_arg10 m ρ c]; try rfl)
theorem F15_v164 : W15 m ρ c (Proc.devRef .tc main_v164) = shapeCast S1x128 (Cert.Stage.rowAt2 (A11 m c)) shapeCasts_S128_S1x128 :=
  (Host.h6_v164 (W14 m ρ c)).trans (by rw [F14_arg11 m ρ c]; try rfl)
theorem F15_v142 : W15 m ρ c (Proc.devRef .tc main_v142) = (G2 m c) :=
  (Host.h6_keep_v142 (W14 m ρ c)).trans (F14_v142 m ρ c)
theorem F15_v124_0 : W15 m ρ c (Proc.devRef .tc main_v124_0) = (S2 m c) :=
  (Host.h6_keep_v124_0 (W14 m ρ c)).trans (F14_v124_0 m ρ c)
theorem F15_v8 : W15 m ρ c (Proc.devRef .tc main_v8) = (SRC m c) :=
  (Host.h6_keep_v8 (W14 m ρ c)).trans (F14_v8 m ρ c)
theorem F15_v11 : W15 m ρ c (Proc.devRef .tc main_v11) = (DST m c) :=
  (Host.h6_keep_v11 (W14 m ρ c)).trans (F14_v11 m ρ c)
theorem F15_v38 : W15 m ρ c (Proc.devRef .tc main_v38) = (NRM m c) :=
  (Host.h6_keep_v38 (W14 m ρ c)).trans (F14_v38 m ρ c)
theorem F15_arg8 : W15 m ρ c (Proc.devRef .tc main_arg8) = (A8 m c) :=
  (Host.h6_keep_arg8 (W14 m ρ c)).trans (F14_arg8 m ρ c)
theorem F15_arg9 : W15 m ρ c (Proc.devRef .tc main_arg9) = (A9 m c) :=
  (Host.h6_keep_arg9 (W14 m ρ c)).trans (F14_arg9 m ρ c)
theorem V15_v142 : V15 m ρ c main_v142 = (G2 m c) :=
  F15_v142 m ρ c
theorem V15_v124_0 : V15 m ρ c main_v124_0 = (S2 m c) :=
  F15_v124_0 m ρ c
theorem V15_v161 : V15 m ρ c main_v161 = shapeCast S1x128 (Cert.Stage.colMean (G2 m c)) shapeCasts_S128_S1x128 :=
  F15_v161 m ρ c
theorem V15_v162 : V15 m ρ c main_v162 = shapeCast S1x128 (Cert.Stage.invstdOf (Cert.Stage.colVar (G2 m c) (Cert.Stage.colMean (G2 m c)))) shapeCasts_S128_S1x128 :=
  F15_v162 m ρ c
theorem V15_v163 : V15 m ρ c main_v163 = shapeCast S1x128 (Cert.Stage.rowAt2 (A10 m c)) shapeCasts_S128_S1x128 :=
  F15_v163 m ρ c
theorem V15_v164 : V15 m ρ c main_v164 = shapeCast S1x128 (Cert.Stage.rowAt2 (A11 m c)) shapeCasts_S128_S1x128 :=
  F15_v164 m ρ c
theorem V15_arg8 : V15 m ρ c main_arg8 = (A8 m c) :=
  F15_arg8 m ρ c
theorem F16_v165_0 : W16 m ρ c (Proc.devRef .tc main_v165_0) = (S3 m c) :=
  (W16_arr m ρ c 7).trans ((RegionBn6.out_eq (V15 m ρ) c (Cert.Stage.colMean (G2 m c)) (Cert.Stage.invstdOf (Cert.Stage.colVar (G2 m c) (Cert.Stage.colMean (G2 m c)))) (Cert.Stage.rowAt2 (A10 m c)) (Cert.Stage.rowAt2 (A11 m c)) (V15_v161 m ρ c) (V15_v162 m ρ c) (V15_v163 m ρ c) (V15_v164 m ρ c)).trans (by rw [V15_v142 m ρ c, V15_v124_0 m ρ c]; try rfl))
theorem F16_v165_1 : W16 m ρ c (Proc.devRef .tc main_v165_1) = Cert.Stage.lin (S3 m c) (A8 m c) :=
  (W16_arr m ρ c 8).trans ((RegionBn6.lin_eq (V15 m ρ) c (Cert.Stage.colMean (G2 m c)) (Cert.Stage.invstdOf (Cert.Stage.colVar (G2 m c) (Cert.Stage.colMean (G2 m c)))) (Cert.Stage.rowAt2 (A10 m c)) (Cert.Stage.rowAt2 (A11 m c)) (V15_v161 m ρ c) (V15_v162 m ρ c) (V15_v163 m ρ c) (V15_v164 m ρ c)).trans (by rw [V15_v142 m ρ c, V15_v124_0 m ρ c, V15_arg8 m ρ c]; try rfl))
theorem F16_v8 : W16 m ρ c (Proc.devRef .tc main_v8) = (SRC m c) :=
  (W16_of_ne m ρ c main_v8 (by decide)).trans (F15_v8 m ρ c)
theorem F16_v11 : W16 m ρ c (Proc.devRef .tc main_v11) = (DST m c) :=
  (W16_of_ne m ρ c main_v11 (by decide)).trans (F15_v11 m ρ c)
theorem F16_v38 : W16 m ρ c (Proc.devRef .tc main_v38) = (NRM m c) :=
  (W16_of_ne m ρ c main_v38 (by decide)).trans (F15_v38 m ρ c)
theorem F16_arg9 : W16 m ρ c (Proc.devRef .tc main_arg9) = (A9 m c) :=
  (W16_of_ne m ρ c main_arg9 (by decide)).trans (F15_arg9 m ρ c)

/-! ## The result -/

/-- At the last boundary the result buffer holds the network of the thirteen argument arrays. -/
theorem result_eq : W17 m ρ c (Proc.devRef .tc main_v181) = Cert.Stage.network (A0 m c) (A1 m c) (A2 m c) (A3 m c) (A4 m c) (A5 m c) (A6 m c) (A7 m c) (A8 m c) (A9 m c) (A10 m c) (A11 m c) (A12 m c) :=
  (Host.h7_v181 (W16 m ρ c)).trans (by rw [F16_v165_1 m ρ c, F16_arg9 m ρ c, F16_v8 m ρ c, F16_v11 m ρ c, F16_v38 m ρ c, network_eq m c]; try rfl)

end Cert.KernelIdeal.KValue

end
-- ==== Proof.RefStages.lean ====
/-
  The reference's @main read one stage at a time: what each list of operations leaves in the buffer the next stage
  reads, as a stage function of what the list found in the buffers it reads, from ANY contents W.
-/
import proofs.«430702_j48747878810191_4_alg».proof.Proof.RefOps
import proofs.«430702_j48747878810191_4_alg».proof.Proof.Stages

noncomputable section

namespace Cert.ReferenceIdeal.RefStages

open Cert.ReferenceIdeal Cert.ReferenceIdeal.Gen Cert.ReferenceIdeal.Chunks Idealize.ShloMosaic Idealize.ShloMosaic.TcCoe Idealize.SL.Sem Idealize.ShloMosaic.StableHlo

/-- The two layers before the first convolution. -/
theorem pre (W : Valuation τ sig (Elt Ideal)) :
    after (c0 (F := Ideal)) W (Proc.devRef .tc main_v8) = Cert.Stage.preSkip (W (Proc.devRef .tc main_arg0)) (W (Proc.devRef .tc main_arg2)) (W (Proc.devRef .tc main_arg3)) (W (Proc.devRef .tc main_arg4)) (W (Proc.devRef .tc main_arg5)) := by
  after_results_simp
  rfl
/-- The edges' sources with the self-loops appended. -/
theorem prep_src (W : Valuation τ sig (Elt Ideal)) :
    after (c1 (F := Ideal)) W (Proc.devRef .tc main_v12) = Cert.Stage.srcOf (W (Proc.devRef .tc main_arg12)) := by
  after_results_simp
  rfl
/-- The edges' destinations with the self-loops appended. -/
theorem prep_dst (W : Valuation τ sig (Elt Ideal)) :
    after (c1 (F := Ideal)) W (Proc.devRef .tc main_v15) = Cert.Stage.dstOf (W (Proc.devRef .tc main_arg12)) := by
  after_results_simp
  rfl
/-- The edge weights with the self-loops' ones appended. -/
theorem prep_w (W : Valuation τ sig (Elt Ideal)) :
    after (c1 (F := Ideal)) W (Proc.devRef .tc main_v17) = Cert.Stage.weightsOf (W (Proc.devRef .tc main_arg1)) := by
  after_results_simp
  rfl
/-- Layer 0's weight. -/
theorem prep_w0 (W : Valuation τ sig (Elt Ideal)) :
    after (c1 (F := Ideal)) W (Proc.devRef .tc main_v19) = Cert.Stage.weightAt0 (W (Proc.devRef .tc main_arg6)) := by
  after_results_simp
  rfl
/-- Layer 0's bias. -/
theorem prep_b0 (W : Valuation τ sig (Elt Ideal)) :
    after (c1 (F := Ideal)) W (Proc.devRef .tc main_v21) = Cert.Stage.rowAt0 (W (Proc.devRef .tc main_arg7)) := by
  after_results_simp
  rfl
/-- The first linear map. -/
theorem lin0 (W : Valuation τ sig (Elt Ideal)) :
    after (c2 (F := Ideal)) W (Proc.devRef .tc main_v22) = Cert.Stage.lin (W (Proc.devRef .tc main_v8)) (W (Proc.devRef .tc main_v19)) := by
  after_results_simp
  rfl
/-- The same from any contents at any float family: the operations composed are the stage function's body, term for term. -/
theorem norm1F {F : FTy → Type} [FloatOps F] (W : Valuation τ sig (Elt F)) :
    after (c3 (F := F)) W (Proc.devRef .tc main_v47) = Cert.StageF.normOf (W (Proc.devRef .tc main_v12)) (W (Proc.devRef .tc main_v15)) (W (Proc.devRef .tc main_v17)) := by
  after_results_simp
  rfl
/-- The edges' normalisation, computed before the first aggregation. -/
theorem norm1 (W : Valuation τ sig (Elt Ideal)) :
    after (c3 (F := Ideal)) W (Proc.devRef .tc main_v47) = Cert.Stage.normOf (W (Proc.devRef .tc main_v12)) (W (Proc.devRef .tc main_v15)) (W (Proc.devRef .tc main_v17)) := by
  exact norm1F W
/-- The first aggregation. -/
theorem agg0 (W : Valuation τ sig (Elt Ideal)) :
    after (c5 (F := Ideal)) (after (c4 (F := Ideal)) W) (Proc.devRef .tc main_v63) = Cert.Stage.aggOf (W (Proc.devRef .tc main_v22)) (W (Proc.devRef .tc main_v21)) (W (Proc.devRef .tc main_v12)) (W (Proc.devRef .tc main_v15)) (W (Proc.devRef .tc main_v47)) := by
  after_results_simp
  rfl
/-- The first normalisation layer. -/
theorem bn0 (W : Valuation τ sig (Elt Ideal)) :
    after (c6 (F := Ideal)) W (Proc.devRef .tc main_v94) = Cert.Stage.layer (W (Proc.devRef .tc main_v63)) (W (Proc.devRef .tc main_v8)) (Cert.Stage.rowAt0 (W (Proc.devRef .tc main_arg10))) (Cert.Stage.rowAt0 (W (Proc.devRef .tc main_arg11))) := by
  after_results_simp
  rfl
/-- The second linear map. -/
theorem lin1 (W : Valuation τ sig (Elt Ideal)) :
    after (c7 (F := Ideal)) W (Proc.devRef .tc main_v99) = Cert.Stage.lin (W (Proc.devRef .tc main_v94)) (Cert.Stage.weightAt1 (W (Proc.devRef .tc main_arg6))) := by
  after_results_simp
  rfl
/-- Layer 1's bias. -/
theorem bias1 (W : Valuation τ sig (Elt Ideal)) :
    after (c7 (F := Ideal)) W (Proc.devRef .tc main_v98) = Cert.Stage.rowAt1 (W (Proc.devRef .tc main_arg7)) := by
  after_results_simp
  rfl
/-- The same from any contents at any float family: the operations composed are the stage function's body, term for term. -/
theorem norm2F {F : FTy → Type} [FloatOps F] (W : Valuation τ sig (Elt F)) :
    after (c9 (F := F)) (after (c8 (F := F)) W) (Proc.devRef .tc main_v124) = Cert.StageF.normOf (W (Proc.devRef .tc main_v12)) (W (Proc.devRef .tc main_v15)) (W (Proc.devRef .tc main_v17)) := by
  after_results_simp
  rfl
/-- The edges' normalisation, computed again before the second aggregation. -/
theorem norm2 (W : Valuation τ sig (Elt Ideal)) :
    after (c9 (F := Ideal)) (after (c8 (F := Ideal)) W) (Proc.devRef .tc main_v124) = Cert.Stage.normOf (W (Proc.devRef .tc main_v12)) (W (Proc.devRef .tc main_v15)) (W (Proc.devRef .tc main_v17)) := by
  exact norm2F W
/-- The second aggregation. -/
theorem agg1 (W : Valuation τ sig (Elt Ideal)) :
    after (c10 (F := Ideal)) W (Proc.devRef .tc main_v140) = Cert.Stage.aggOf (W (Proc.devRef .tc main_v99)) (W (Proc.devRef .tc main_v98)) (W (Proc.devRef .tc main_v12)) (W (Proc.devRef .tc main_v15)) (W (Proc.devRef .tc main_v124)) := by
  after_results_simp
  rfl
/-- The second normalisation layer. -/
theorem bn1 (W : Valuation τ sig (Elt Ideal)) :
    after (c12 (F := Ideal)) (after (c11 (F := Ideal)) W) (Proc.devRef .tc main_v171) = Cert.Stage.layer (W (Proc.devRef .tc main_v140)) (W (Proc.devRef .tc main_v94)) (Cert.Stage.rowAt1 (W (Proc.devRef .tc main_arg10))) (Cert.Stage.rowAt1 (W (Proc.devRef .tc main_arg11))) := by
  after_results_simp
  rfl
/-- The third linear map. -/
theorem lin2 (W : Valuation τ sig (Elt Ideal)) :
    after (c13 (F := Ideal)) W (Proc.devRef .tc main_v176) = Cert.Stage.lin (W (Proc.devRef .tc main_v171)) (Cert.Stage.weightAt2 (W (Proc.devRef .tc main_arg6))) := by
  after_results_simp
  rfl
/-- Layer 2's bias. -/
theorem bias2 (W : Valuation τ sig (Elt Ideal)) :
    after (c13 (F := Ideal)) W (Proc.devRef .tc main_v175) = Cert.Stage.rowAt2 (W (Proc.devRef .tc main_arg7)) := by
  after_results_simp
  rfl
/-- The same from any contents at any float family: the operations composed are the stage function's body, term for term. -/
theorem norm3F {F : FTy → Type} [FloatOps F] (W : Valuation τ sig (Elt F)) :
    after (c15 (F := F)) (after (c14 (F := F)) W) (Proc.devRef .tc main_v201) = Cert.StageF.normOf (W (Proc.devRef .tc main_v12)) (W (Proc.devRef .tc main_v15)) (W (Proc.devRef .tc main_v17)) := by
  after_results_simp
  rfl
/-- The edges' normalisation, a third time. -/
theorem norm3 (W : Valuation τ sig (Elt Ideal)) :
    after (c15 (F := Ideal)) (after (c14 (F := Ideal)) W) (Proc.devRef .tc main_v201) = Cert.Stage.normOf (W (Proc.devRef .tc main_v12)) (W (Proc.devRef .tc main_v15)) (W (Proc.devRef .tc main_v17)) := by
  exact norm3F W
/-- The third aggregation. -/
theorem agg2 (W : Valuation τ sig (Elt Ideal)) :
    after (c16 (F := Ideal)) W (Proc.devRef .tc main_v217) = Cert.Stage.aggOf (W (Proc.devRef .tc main_v176)) (W (Proc.devRef .tc main_v175)) (W (Proc.devRef .tc main_v12)) (W (Proc.devRef .tc main_v15)) (W (Proc.devRef .tc main_v201)) := by
  after_results_simp
  rfl
/-- The third normalisation layer. -/
theorem bn2 (W : Valuation τ sig (Elt Ideal)) :
    after (c17 (F := Ideal)) W (Proc.devRef .tc main_v248) = Cert.Stage.layer (W (Proc.devRef .tc main_v217)) (W (Proc.devRef .tc main_v171)) (Cert.Stage.rowAt2 (W (Proc.devRef .tc main_arg10))) (Cert.Stage.rowAt2 (W (Proc.devRef .tc main_arg11))) := by
  after_results_simp
  rfl
/-- The last linear map. -/
theorem lin3 (W : Valuation τ sig (Elt Ideal)) :
    after (c18 (F := Ideal)) W (Proc.devRef .tc main_v249) = Cert.Stage.lin (W (Proc.devRef .tc main_v248)) (W (Proc.devRef .tc main_arg8)) := by
  after_results_simp
  rfl
/-- The same from any contents at any float family: the operations composed are the stage function's body, term for term. -/
theorem norm4F {F : FTy → Type} [FloatOps F] (W : Valuation τ sig (Elt F)) :
    after (c19 (F := F)) (after (c18 (F := F)) W) (Proc.devRef .tc main_v274) = Cert.StageF.normOf (W (Proc.devRef .tc main_v12)) (W (Proc.devRef .tc main_v15)) (W (Proc.devRef .tc main_v17)) := by
  after_results_simp
  rfl
/-- The edges' normalisation, a fourth time (its first constant is the last operation of the list before). -/
theorem norm4 (W : Valuation τ sig (Elt Ideal)) :
    after (c19 (F := Ideal)) (after (c18 (F := Ideal)) W) (Proc.devRef .tc main_v274) = Cert.Stage.normOf (W (Proc.devRef .tc main_v12)) (W (Proc.devRef .tc main_v15)) (W (Proc.devRef .tc main_v17)) := by
  exact norm4F W
/-- The last aggregation: the result. -/
theorem agg3 (W : Valuation τ sig (Elt Ideal)) :
    after (c20 (F := Ideal)) W (Proc.devRef .tc main_v290) = Cert.Stage.aggOf (W (Proc.devRef .tc main_v249)) (W (Proc.devRef .tc main_arg9)) (W (Proc.devRef .tc main_v12)) (W (Proc.devRef .tc main_v15)) (W (Proc.devRef .tc main_v274)) := by
  after_results_simp
  rfl

end Cert.ReferenceIdeal.RefStages

end
-- ==== Proof.RefValue.lean ====
/-
  The reference's @main as a whole: from any contents V of the buffers, the result buffer ends at the network applied
  to V's argument arrays, and no operation writes an argument. The stages compose because every list leaves
  unchanged every buffer it does not write: a later stage reads what an earlier one left.
-/
import proofs.«430702_j48747878810191_4_alg».proof.Proof.RefOps
import proofs.«430702_j48747878810191_4_alg».proof.Proof.Stages
import proofs.«430702_j48747878810191_4_alg».proof.Proof.RefStages
import Idealize.ShloMosaic.Lib.Pipeline.Frame

noncomputable section

namespace Cert.ReferenceIdeal.RefValue

open Cert.ReferenceIdeal Cert.ReferenceIdeal.Gen Cert.ReferenceIdeal.Chunks Idealize.ShloMosaic Idealize.ShloMosaic.TcCoe Idealize.SL.Sem Idealize.ShloMosaic.StableHlo

/-- A written reference, as a device buffer, is among the device buffers of any list of references holding it. -/
theorem sub_of_mem {y : Ref sig .tc} {L : List (Ref sig .tc)} (h : y ∈ L) :
    ({Proc.devRef (τ := τ) .tc y} : Finset (DevRef τ sig)) ⊆ (L.map (Proc.devRef (τ := τ) .tc)).toFinset :=
  Finset.singleton_subset_iff.mpr (List.mem_toFinset.mpr (List.mem_map_of_mem h))

/-- The references list 0 writes, in order. -/
noncomputable def wrote0 : List (Ref sig .tc) := [main_v0, main_v1, main_v2, main_v3, main_call0_cst, main_call0_v0, main_v4, main_v5, main_v6, main_v7, main_v8]
theorem c0_writes : (c0 (F := Ideal)).Forall fun op => op.writes ⊆ ((wrote0).map (Proc.devRef (τ := τ) .tc)).toFinset :=
  ⟨sub_of_mem (y := main_v0) (by decide), sub_of_mem (y := main_v1) (by decide), sub_of_mem (y := main_v2) (by decide), sub_of_mem (y := main_v3) (by decide), sub_of_mem (y := main_call0_cst) (by decide), sub_of_mem (y := main_call0_v0) (by decide), sub_of_mem (y := main_v4) (by decide), sub_of_mem (y := main_v5) (by decide), sub_of_mem (y := main_v6) (by decide), sub_of_mem (y := main_v7) (by decide), sub_of_mem (y := main_v8) (by decide)⟩
theorem keep0 (r : Ref sig .tc) (hr : r ∉ wrote0) (W : Valuation τ sig (Elt Ideal)) :
    after (c0 (F := Ideal)) W (Proc.devRef .tc r) = W (Proc.devRef .tc r) :=
  after_of_writes_sub _ W c0_writes hr

/-- The references list 1 writes, in order. -/
noncomputable def wrote1 : List (Ref sig .tc) := [main_v9, main_v10, main_v11, main_v12, main_v13, main_v14, main_v15, main_cst, main_v16, main_v17, main_v18, main_v19, main_v20, main_v21]
theorem c1_writes : (c1 (F := Ideal)).Forall fun op => op.writes ⊆ ((wrote1).map (Proc.devRef (τ := τ) .tc)).toFinset :=
  ⟨sub_of_mem (y := main_v9) (by decide), sub_of_mem (y := main_v10) (by decide), sub_of_mem (y := main_v11) (by decide), sub_of_mem (y := main_v12) (by decide), sub_of_mem (y := main_v13) (by decide), sub_of_mem (y := main_v14) (by decide), sub_of_mem (y := main_v15) (by decide), sub_of_mem (y := main_cst) (by decide), sub_of_mem (y := main_v16) (by decide), sub_of_mem (y := main_v17) (by decide), sub_of_mem (y := main_v18) (by decide), sub_of_mem (y := main_v19) (by decide), sub_of_mem (y := main_v20) (by decide), sub_of_mem (y := main_v21) (by decide)⟩
theorem keep1 (r : Ref sig .tc) (hr : r ∉ wrote1) (W : Valuation τ sig (Elt Ideal)) :
    after (c1 (F := Ideal)) W (Proc.devRef .tc r) = W (Proc.devRef .tc r) :=
  after_of_writes_sub _ W c1_writes hr

/-- The references list 2 writes, in order. -/
noncomputable def wrote2 : List (Ref sig .tc) := [main_v22]
theorem c2_writes : (c2 (F := Ideal)).Forall fun op => op.writes ⊆ ((wrote2).map (Proc.devRef (τ := τ) .tc)).toFinset :=
  sub_of_mem (y := main_v22) (by decide)
theorem keep2 (r : Ref sig .tc) (hr : r ∉ wrote2) (W : Valuation τ sig (Elt Ideal)) :
    after (c2 (F := Ideal)) W (Proc.devRef .tc r) = W (Proc.devRef .tc r) :=
  after_of_writes_sub _ W c2_writes hr

/-- The references list 3 writes, in order. -/
noncomputable def wrote3 : List (Ref sig .tc) := [main_cst_0, main_v23, main_v24, main_v25, main_cst_1, main_v26, main_v27, main_cst_2, main_v28, main_v29, main_v30, main_cst_3, main_call1_v0, main_call1_v1, main_v31, main_c, main_v32, main_v33, main_c_4, main_v34, main_v35, main_v36, main_v37, main_v38, main_v39, main_c_5, main_v40, main_v41, main_c_6, main_v42, main_v43, main_v44, main_v45, main_v46, main_v47]
theorem c3_writes : (c3 (F := Ideal)).Forall fun op => op.writes ⊆ ((wrote3).map (Proc.devRef (τ := τ) .tc)).toFinset :=
  ⟨sub_of_mem (y := main_cst_0) (by decide), sub_of_mem (y := main_v23) (by decide), sub_of_mem (y := main_v24) (by decide), sub_of_mem (y := main_v25) (by decide), sub_of_mem (y := main_cst_1) (by decide), sub_of_mem (y := main_v26) (by decide), sub_of_mem (y := main_v27) (by decide), sub_of_mem (y := main_cst_2) (by decide), sub_of_mem (y := main_v28) (by decide), sub_of_mem (y := main_v29) (by decide), sub_of_mem (y := main_v30) (by decide), sub_of_mem (y := main_cst_3) (by decide), sub_of_mem (y := main_call1_v0) (by decide), sub_of_mem (y := main_call1_v1) (by decide), sub_of_mem (y := main_v31) (by decide), sub_of_mem (y := main_c) (by decide), sub_of_mem (y := main_v32) (by decide), sub_of_mem (y := main_v33) (by decide), sub_of_mem (y := main_c_4) (by decide), sub_of_mem (y := main_v34) (by decide), sub_of_mem (y := main_v35) (by decide), sub_of_mem (y := main_v36) (by decide), sub_of_mem (y := main_v37) (by decide), sub_of_mem (y := main_v38) (by decide), sub_of_mem (y := main_v39) (by decide), sub_of_mem (y := main_c_5) (by decide), sub_of_mem (y := main_v40) (by decide), sub_of_mem (y := main_v41) (by decide), sub_of_mem (y := main_c_6) (by decide), sub_of_mem (y := main_v42) (by decide), sub_of_mem (y := main_v43) (by decide), sub_of_mem (y := main_v44) (by decide), sub_of_mem (y := main_v45) (by decide), sub_of_mem (y := main_v46) (by decide), sub_of_mem (y := main_v47) (by decide)⟩
theorem keep3 (r : Ref sig .tc) (hr : r ∉ wrote3) (W : Valuation τ sig (Elt Ideal)) :
    after (c3 (F := Ideal)) W (Proc.devRef .tc r) = W (Proc.devRef .tc r) :=
  after_of_writes_sub _ W c3_writes hr

/-- The references list 4 writes, in order. -/
noncomputable def wrote4 : List (Ref sig .tc) := [main_c_7, main_v48, main_v49]
theorem c4_writes : (c4 (F := Ideal)).Forall fun op => op.writes ⊆ ((wrote4).map (Proc.devRef (τ := τ) .tc)).toFinset :=
  ⟨sub_of_mem (y := main_c_7) (by decide), sub_of_mem (y := main_v48) (by decide), sub_of_mem (y := main_v49) (by decide)⟩
theorem keep4 (r : Ref sig .tc) (hr : r ∉ wrote4) (W : Valuation τ sig (Elt Ideal)) :
    after (c4 (F := Ideal)) W (Proc.devRef .tc r) = W (Proc.devRef .tc r) :=
  after_of_writes_sub _ W c4_writes hr

/-- The references list 5 writes, in order. -/
noncomputable def wrote5 : List (Ref sig .tc) := [main_c_8, main_v50, main_v51, main_v52, main_v53, main_v54, main_v55, main_v56, main_v57, main_cst_9, main_v58, main_v59, main_v60, main_v61, main_v62, main_v63]
theorem c5_writes : (c5 (F := Ideal)).Forall fun op => op.writes ⊆ ((wrote5).map (Proc.devRef (τ := τ) .tc)).toFinset :=
  ⟨sub_of_mem (y := main_c_8) (by decide), sub_of_mem (y := main_v50) (by decide), sub_of_mem (y := main_v51) (by decide), sub_of_mem (y := main_v52) (by decide), sub_of_mem (y := main_v53) (by decide), sub_of_mem (y := main_v54) (by decide), sub_of_mem (y := main_v55) (by decide), sub_of_mem (y := main_v56) (by decide), sub_of_mem (y := main_v57) (by decide), sub_of_mem (y := main_cst_9) (by decide), sub_of_mem (y := main_v58) (by decide), sub_of_mem (y := main_v59) (by decide), sub_of_mem (y := main_v60) (by decide), sub_of_mem (y := main_v61) (by decide), sub_of_mem (y := main_v62) (by decide), sub_of_mem (y := main_v63) (by decide)⟩
theorem keep5 (r : Ref sig .tc) (hr : r ∉ wrote5) (W : Valuation τ sig (Elt Ideal)) :
    after (c5 (F := Ideal)) W (Proc.devRef .tc r) = W (Proc.devRef .tc r) :=
  after_of_writes_sub _ W c5_writes hr

/-- The references list 6 writes, in order. -/
noncomputable def wrote6 : List (Ref sig .tc) := [main_v64, main_v65, main_v66, main_v67, main_cst_10, main_v68, main_cst_11, main_v69, main_v70, main_v71, main_v72, main_v73, main_v74, main_cst_12, main_v75, main_cst_13, main_v76, main_v77, main_v78, main_v79, main_v80, main_cst_14, main_v81, main_v82, main_v83, main_v84, main_v85, main_v86, main_v87, main_v88, main_v89, main_v90, main_v91, main_v92, main_call2_cst, main_call2_v0, main_v93, main_v94]
theorem c6_writes : (c6 (F := Ideal)).Forall fun op => op.writes ⊆ ((wrote6).map (Proc.devRef (τ := τ) .tc)).toFinset :=
  ⟨sub_of_mem (y := main_v64) (by decide), sub_of_mem (y := main_v65) (by decide), sub_of_mem (y := main_v66) (by decide), sub_of_mem (y := main_v67) (by decide), sub_of_mem (y := main_cst_10) (by decide), sub_of_mem (y := main_v68) (by decide), sub_of_mem (y := main_cst_11) (by decide), sub_of_mem (y := main_v69) (by decide), sub_of_mem (y := main_v70) (by decide), sub_of_mem (y := main_v71) (by decide), sub_of_mem (y := main_v72) (by decide), sub_of_mem (y := main_v73) (by decide), sub_of_mem (y := main_v74) (by decide), sub_of_mem (y := main_cst_12) (by decide), sub_of_mem (y := main_v75) (by decide), sub_of_mem (y := main_cst_13) (by decide), sub_of_mem (y := main_v76) (by decide), sub_of_mem (y := main_v77) (by decide), sub_of_mem (y := main_v78) (by decide), sub_of_mem (y := main_v79) (by decide), sub_of_mem (y := main_v80) (by decide), sub_of_mem (y := main_cst_14) (by decide), sub_of_mem (y := main_v81) (by decide), sub_of_mem (y := main_v82) (by decide), sub_of_mem (y := main_v83) (by decide), sub_of_mem (y := main_v84) (by decide), sub_of_mem (y := main_v85) (by decide), sub_of_mem (y := main_v86) (by decide), sub_of_mem (y := main_v87) (by decide), sub_of_mem (y := main_v88) (by decide), sub_of_mem (y := main_v89) (by decide), sub_of_mem (y := main_v90) (by decide), sub_of_mem (y := main_v91) (by decide), sub_of_mem (y := main_v92) (by decide), sub_of_mem (y := main_call2_cst) (by decide), sub_of_mem (y := main_call2_v0) (by decide), sub_of_mem (y := main_v93) (by decide), sub_of_mem (y := main_v94) (by decide)⟩
theorem keep6 (r : Ref sig .tc) (hr : r ∉ wrote6) (W : Valuation τ sig (Elt Ideal)) :
    after (c6 (F := Ideal)) W (Proc.devRef .tc r) = W (Proc.devRef .tc r) :=
  after_of_writes_sub _ W c6_writes hr

/-- The references list 7 writes, in order. -/
noncomputable def wrote7 : List (Ref sig .tc) := [main_v95, main_v96, main_v97, main_v98, main_v99]
theorem c7_writes : (c7 (F := Ideal)).Forall fun op => op.writes ⊆ ((wrote7).map (Proc.devRef (τ := τ) .tc)).toFinset :=
  ⟨sub_of_mem (y := main_v95) (by decide), sub_of_mem (y := main_v96) (by decide), sub_of_mem (y := main_v97) (by decide), sub_of_mem (y := main_v98) (by decide), sub_of_mem (y := main_v99) (by decide)⟩
theorem keep7 (r : Ref sig .tc) (hr : r ∉ wrote7) (W : Valuation τ sig (Elt Ideal)) :
    after (c7 (F := Ideal)) W (Proc.devRef .tc r) = W (Proc.devRef .tc r) :=
  after_of_writes_sub _ W c7_writes hr

/-- The references list 8 writes, in order. -/
noncomputable def wrote8 : List (Ref sig .tc) := [main_cst_15, main_v100, main_v101]
theorem c8_writes : (c8 (F := Ideal)).Forall fun op => op.writes ⊆ ((wrote8).map (Proc.devRef (τ := τ) .tc)).toFinset :=
  ⟨sub_of_mem (y := main_cst_15) (by decide), sub_of_mem (y := main_v100) (by decide), sub_of_mem (y := main_v101) (by decide)⟩
theorem keep8 (r : Ref sig .tc) (hr : r ∉ wrote8) (W : Valuation τ sig (Elt Ideal)) :
    after (c8 (F := Ideal)) W (Proc.devRef .tc r) = W (Proc.devRef .tc r) :=
  after_of_writes_sub _ W c8_writes hr

/-- The references list 9 writes, in order. -/
noncomputable def wrote9 : List (Ref sig .tc) := [main_v102, main_cst_16, main_v103, main_v104, main_cst_17, main_v105, main_v106, main_v107, main_cst_18, main_call3_v0, main_call3_v1, main_v108, main_c_19, main_v109, main_v110, main_c_20, main_v111, main_v112, main_v113, main_v114, main_v115, main_v116, main_c_21, main_v117, main_v118, main_c_22, main_v119, main_v120, main_v121, main_v122, main_v123, main_v124]
theorem c9_writes : (c9 (F := Ideal)).Forall fun op => op.writes ⊆ ((wrote9).map (Proc.devRef (τ := τ) .tc)).toFinset :=
  ⟨sub_of_mem (y := main_v102) (by decide), sub_of_mem (y := main_cst_16) (by decide), sub_of_mem (y := main_v103) (by decide), sub_of_mem (y := main_v104) (by decide), sub_of_mem (y := main_cst_17) (by decide), sub_of_mem (y := main_v105) (by decide), sub_of_mem (y := main_v106) (by decide), sub_of_mem (y := main_v107) (by decide), sub_of_mem (y := main_cst_18) (by decide), sub_of_mem (y := main_call3_v0) (by decide), sub_of_mem (y := main_call3_v1) (by decide), sub_of_mem (y := main_v108) (by decide), sub_of_mem (y := main_c_19) (by decide), sub_of_mem (y := main_v109) (by decide), sub_of_mem (y := main_v110) (by decide), sub_of_mem (y := main_c_20) (by decide), sub_of_mem (y := main_v111) (by decide), sub_of_mem (y := main_v112) (by decide), sub_of_mem (y := main_v113) (by decide), sub_of_mem (y := main_v114) (by decide), sub_of_mem (y := main_v115) (by decide), sub_of_mem (y := main_v116) (by decide), sub_of_mem (y := main_c_21) (by decide), sub_of_mem (y := main_v117) (by decide), sub_of_mem (y := main_v118) (by decide), sub_of_mem (y := main_c_22) (by decide), sub_of_mem (y := main_v119) (by decide), sub_of_mem (y := main_v120) (by decide), sub_of_mem (y := main_v121) (by decide), sub_of_mem (y := main_v122) (by decide), sub_of_mem (y := main_v123) (by decide), sub_of_mem (y := main_v124) (by decide)⟩
theorem keep9 (r : Ref sig .tc) (hr : r ∉ wrote9) (W : Valuation τ sig (Elt Ideal)) :
    after (c9 (F := Ideal)) W (Proc.devRef .tc r) = W (Proc.devRef .tc r) :=
  after_of_writes_sub _ W c9_writes hr

/-- The references list 10 writes, in order. -/
noncomputable def wrote10 : List (Ref sig .tc) := [main_c_23, main_v125, main_v126, main_c_24, main_v127, main_v128, main_v129, main_v130, main_v131, main_v132, main_v133, main_v134, main_cst_25, main_v135, main_v136, main_v137, main_v138, main_v139, main_v140]
theorem c10_writes : (c10 (F := Ideal)).Forall fun op => op.writes ⊆ ((wrote10).map (Proc.devRef (τ := τ) .tc)).toFinset :=
  ⟨sub_of_mem (y := main_c_23) (by decide), sub_of_mem (y := main_v125) (by decide), sub_of_mem (y := main_v126) (by decide), sub_of_mem (y := main_c_24) (by decide), sub_of_mem (y := main_v127) (by decide), sub_of_mem (y := main_v128) (by decide), sub_of_mem (y := main_v129) (by decide), sub_of_mem (y := main_v130) (by decide), sub_of_mem (y := main_v131) (by decide), sub_of_mem (y := main_v132) (by decide), sub_of_mem (y := main_v133) (by decide), sub_of_mem (y := main_v134) (by decide), sub_of_mem (y := main_cst_25) (by decide), sub_of_mem (y := main_v135) (by decide), sub_of_mem (y := main_v136) (by decide), sub_of_mem (y := main_v137) (by decide), sub_of_mem (y := main_v138) (by decide), sub_of_mem (y := main_v139) (by decide), sub_of_mem (y := main_v140) (by decide)⟩
theorem keep10 (r : Ref sig .tc) (hr : r ∉ wrote10) (W : Valuation τ sig (Elt Ideal)) :
    after (c10 (F := Ideal)) W (Proc.devRef .tc r) = W (Proc.devRef .tc r) :=
  after_of_writes_sub _ W c10_writes hr

/-- The references list 11 writes, in order. -/
noncomputable def wrote11 : List (Ref sig .tc) := [main_v141, main_v142, main_v143, main_v144, main_cst_26, main_v145, main_cst_27, main_v146, main_v147, main_v148, main_v149]
theorem c11_writes : (c11 (F := Ideal)).Forall fun op => op.writes ⊆ ((wrote11).map (Proc.devRef (τ := τ) .tc)).toFinset :=
  ⟨sub_of_mem (y := main_v141) (by decide), sub_of_mem (y := main_v142) (by decide), sub_of_mem (y := main_v143) (by decide), sub_of_mem (y := main_v144) (by decide), sub_of_mem (y := main_cst_26) (by decide), sub_of_mem (y := main_v145) (by decide), sub_of_mem (y := main_cst_27) (by decide), sub_of_mem (y := main_v146) (by decide), sub_of_mem (y := main_v147) (by decide), sub_of_mem (y := main_v148) (by decide), sub_of_mem (y := main_v149) (by decide)⟩
theorem keep11 (r : Ref sig .tc) (hr : r ∉ wrote11) (W : Valuation τ sig (Elt Ideal)) :
    after (c11 (F := Ideal)) W (Proc.devRef .tc r) = W (Proc.devRef .tc r) :=
  after_of_writes_sub _ W c11_writes hr

/-- The references list 12 writes, in order. -/
noncomputable def wrote12 : List (Ref sig .tc) := [main_v150, main_v151, main_cst_28, main_v152, main_cst_29, main_v153, main_v154, main_v155, main_v156, main_v157, main_cst_30, main_v158, main_v159, main_v160, main_v161, main_v162, main_v163, main_v164, main_v165, main_v166, main_v167, main_v168, main_v169, main_call4_cst, main_call4_v0, main_v170, main_v171]
theorem c12_writes : (c12 (F := Ideal)).Forall fun op => op.writes ⊆ ((wrote12).map (Proc.devRef (τ := τ) .tc)).toFinset :=
  ⟨sub_of_mem (y := main_v150) (by decide), sub_of_mem (y := main_v151) (by decide), sub_of_mem (y := main_cst_28) (by decide), sub_of_mem (y := main_v152) (by decide), sub_of_mem (y := main_cst_29) (by decide), sub_of_mem (y := main_v153) (by decide), sub_of_mem (y := main_v154) (by decide), sub_of_mem (y := main_v155) (by decide), sub_of_mem (y := main_v156) (by decide), sub_of_mem (y := main_v157) (by decide), sub_of_mem (y := main_cst_30) (by decide), sub_of_mem (y := main_v158) (by decide), sub_of_mem (y := main_v159) (by decide), sub_of_mem (y := main_v160) (by decide), sub_of_mem (y := main_v161) (by decide), sub_of_mem (y := main_v162) (by decide), sub_of_mem (y := main_v163) (by decide), sub_of_mem (y := main_v164) (by decide), sub_of_mem (y := main_v165) (by decide), sub_of_mem (y := main_v166) (by decide), sub_of_mem (y := main_v167) (by decide), sub_of_mem (y := main_v168) (by decide), sub_of_mem (y := main_v169) (by decide), sub_of_mem (y := main_call4_cst) (by decide), sub_of_mem (y := main_call4_v0) (by decide), sub_of_mem (y := main_v170) (by decide), sub_of_mem (y := main_v171) (by decide)⟩
theorem keep12 (r : Ref sig .tc) (hr : r ∉ wrote12) (W : Valuation τ sig (Elt Ideal)) :
    after (c12 (F := Ideal)) W (Proc.devRef .tc r) = W (Proc.devRef .tc r) :=
  after_of_writes_sub _ W c12_writes hr

/-- The references list 13 writes, in order. -/
noncomputable def wrote13 : List (Ref sig .tc) := [main_v172, main_v173, main_v174, main_v175, main_v176]
theorem c13_writes : (c13 (F := Ideal)).Forall fun op => op.writes ⊆ ((wrote13).map (Proc.devRef (τ := τ) .tc)).toFinset :=
  ⟨sub_of_mem (y := main_v172) (by decide), sub_of_mem (y := main_v173) (by decide), sub_of_mem (y := main_v174) (by decide), sub_of_mem (y := main_v175) (by decide), sub_of_mem (y := main_v176) (by decide)⟩
theorem keep13 (r : Ref sig .tc) (hr : r ∉ wrote13) (W : Valuation τ sig (Elt Ideal)) :
    after (c13 (F := Ideal)) W (Proc.devRef .tc r) = W (Proc.devRef .tc r) :=
  after_of_writes_sub _ W c13_writes hr

/-- The references list 14 writes, in order. -/
noncomputable def wrote14 : List (Ref sig .tc) := [main_cst_31, main_v177, main_v178, main_v179, main_cst_32, main_v180, main_v181, main_cst_33, main_v182, main_v183, main_v184, main_cst_34, main_call5_v0, main_call5_v1, main_v185, main_c_35, main_v186, main_v187, main_c_36, main_v188, main_v189, main_v190, main_v191, main_v192, main_v193, main_c_37, main_v194, main_v195, main_c_38, main_v196, main_v197, main_v198]
theorem c14_writes : (c14 (F := Ideal)).Forall fun op => op.writes ⊆ ((wrote14).map (Proc.devRef (τ := τ) .tc)).toFinset :=
  ⟨sub_of_mem (y := main_cst_31) (by decide), sub_of_mem (y := main_v177) (by decide), sub_of_mem (y := main_v178) (by decide), sub_of_mem (y := main_v179) (by decide), sub_of_mem (y := main_cst_32) (by decide), sub_of_mem (y := main_v180) (by decide), sub_of_mem (y := main_v181) (by decide), sub_of_mem (y := main_cst_33) (by decide), sub_of_mem (y := main_v182) (by decide), sub_of_mem (y := main_v183) (by decide), sub_of_mem (y := main_v184) (by decide), sub_of_mem (y := main_cst_34) (by decide), sub_of_mem (y := main_call5_v0) (by decide), sub_of_mem (y := main_call5_v1) (by decide), sub_of_mem (y := main_v185) (by decide), sub_of_mem (y := main_c_35) (by decide), sub_of_mem (y := main_v186) (by decide), sub_of_mem (y := main_v187) (by decide), sub_of_mem (y := main_c_36) (by decide), sub_of_mem (y := main_v188) (by decide), sub_of_mem (y := main_v189) (by decide), sub_of_mem (y := main_v190) (by decide), sub_of_mem (y := main_v191) (by decide), sub_of_mem (y := main_v192) (by decide), sub_of_mem (y := main_v193) (by decide), sub_of_mem (y := main_c_37) (by decide), sub_of_mem (y := main_v194) (by decide), sub_of_mem (y := main_v195) (by decide), sub_of_mem (y := main_c_38) (by decide), sub_of_mem (y := main_v196) (by decide), sub_of_mem (y := main_v197) (by decide), sub_of_mem (y := main_v198) (by decide)⟩
theorem keep14 (r : Ref sig .tc) (hr : r ∉ wrote14) (W : Valuation τ sig (Elt Ideal)) :
    after (c14 (F := Ideal)) W (Proc.devRef .tc r) = W (Proc.devRef .tc r) :=
  after_of_writes_sub _ W c14_writes hr

/-- The references list 15 writes, in order. -/
noncomputable def wrote15 : List (Ref sig .tc) := [main_v199, main_v200, main_v201]
theorem c15_writes : (c15 (F := Ideal)).Forall fun op => op.writes ⊆ ((wrote15).map (Proc.devRef (τ := τ) .tc)).toFinset :=
  ⟨sub_of_mem (y := main_v199) (by decide), sub_of_mem (y := main_v200) (by decide), sub_of_mem (y := main_v201) (by decide)⟩
theorem keep15 (r : Ref sig .tc) (hr : r ∉ wrote15) (W : Valuation τ sig (Elt Ideal)) :
    after (c15 (F := Ideal)) W (Proc.devRef .tc r) = W (Proc.devRef .tc r) :=
  after_of_writes_sub _ W c15_writes hr

/-- The references list 16 writes, in order. -/
noncomputable def wrote16 : List (Ref sig .tc) := [main_c_39, main_v202, main_v203, main_c_40, main_v204, main_v205, main_v206, main_v207, main_v208, main_v209, main_v210, main_v211, main_cst_41, main_v212, main_v213, main_v214, main_v215, main_v216, main_v217]
theorem c16_writes : (c16 (F := Ideal)).Forall fun op => op.writes ⊆ ((wrote16).map (Proc.devRef (τ := τ) .tc)).toFinset :=
  ⟨sub_of_mem (y := main_c_39) (by decide), sub_of_mem (y := main_v202) (by decide), sub_of_mem (y := main_v203) (by decide), sub_of_mem (y := main_c_40) (by decide), sub_of_mem (y := main_v204) (by decide), sub_of_mem (y := main_v205) (by decide), sub_of_mem (y := main_v206) (by decide), sub_of_mem (y := main_v207) (by decide), sub_of_mem (y := main_v208) (by decide), sub_of_mem (y := main_v209) (by decide), sub_of_mem (y := main_v210) (by decide), sub_of_mem (y := main_v211) (by decide), sub_of_mem (y := main_cst_41) (by decide), sub_of_mem (y := main_v212) (by decide), sub_of_mem (y := main_v213) (by decide), sub_of_mem (y := main_v214) (by decide), sub_of_mem (y := main_v215) (by decide), sub_of_mem (y := main_v216) (by decide), sub_of_mem (y := main_v217) (by decide)⟩
theorem keep16 (r : Ref sig .tc) (hr : r ∉ wrote16) (W : Valuation τ sig (Elt Ideal)) :
    after (c16 (F := Ideal)) W (Proc.devRef .tc r) = W (Proc.devRef .tc r) :=
  after_of_writes_sub _ W c16_writes hr

/-- The references list 17 writes, in order. -/
noncomputable def wrote17 : List (Ref sig .tc) := [main_v218, main_v219, main_v220, main_v221, main_cst_42, main_v222, main_cst_43, main_v223, main_v224, main_v225, main_v226, main_v227, main_v228, main_cst_44, main_v229, main_cst_45, main_v230, main_v231, main_v232, main_v233, main_v234, main_cst_46, main_v235, main_v236, main_v237, main_v238, main_v239, main_v240, main_v241, main_v242, main_v243, main_v244, main_v245, main_v246, main_call6_cst, main_call6_v0, main_v247, main_v248]
theorem c17_writes : (c17 (F := Ideal)).Forall fun op => op.writes ⊆ ((wrote17).map (Proc.devRef (τ := τ) .tc)).toFinset :=
  ⟨sub_of_mem (y := main_v218) (by decide), sub_of_mem (y := main_v219) (by decide), sub_of_mem (y := main_v220) (by decide), sub_of_mem (y := main_v221) (by decide), sub_of_mem (y := main_cst_42) (by decide), sub_of_mem (y := main_v222) (by decide), sub_of_mem (y := main_cst_43) (by decide), sub_of_mem (y := main_v223) (by decide), sub_of_mem (y := main_v224) (by decide), sub_of_mem (y := main_v225) (by decide), sub_of_mem (y := main_v226) (by decide), sub_of_mem (y := main_v227) (by decide), sub_of_mem (y := main_v228) (by decide), sub_of_mem (y := main_cst_44) (by decide), sub_of_mem (y := main_v229) (by decide), sub_of_mem (y := main_cst_45) (by decide), sub_of_mem (y := main_v230) (by decide), sub_of_mem (y := main_v231) (by decide), sub_of_mem (y := main_v232) (by decide), sub_of_mem (y := main_v233) (by decide), sub_of_mem (y := main_v234) (by decide), sub_of_mem (y := main_cst_46) (by decide), sub_of_mem (y := main_v235) (by decide), sub_of_mem (y := main_v236) (by decide), sub_of_mem (y := main_v237) (by decide), sub_of_mem (y := main_v238) (by decide), sub_of_mem (y := main_v239) (by decide), sub_of_mem (y := main_v240) (by decide), sub_of_mem (y := main_v241) (by decide), sub_of_mem (y := main_v242) (by decide), sub_of_mem (y := main_v243) (by decide), sub_of_mem (y := main_v244) (by decide), sub_of_mem (y := main_v245) (by decide), sub_of_mem (y := main_v246) (by decide), sub_of_mem (y := main_call6_cst) (by decide), sub_of_mem (y := main_call6_v0) (by decide), sub_of_mem (y := main_v247) (by decide), sub_of_mem (y := main_v248) (by decide)⟩
theorem keep17 (r : Ref sig .tc) (hr : r ∉ wrote17) (W : Valuation τ sig (Elt Ideal)) :
    after (c17 (F := Ideal)) W (Proc.devRef .tc r) = W (Proc.devRef .tc r) :=
  after_of_writes_sub _ W c17_writes hr

/-- The references list 18 writes, in order. -/
noncomputable def wrote18 : List (Ref sig .tc) := [main_v249, main_cst_47]
theorem c18_writes : (c18 (F := Ideal)).Forall fun op => op.writes ⊆ ((wrote18).map (Proc.devRef (τ := τ) .tc)).toFinset :=
  ⟨sub_of_mem (y := main_v249) (by decide), sub_of_mem (y := main_cst_47) (by decide)⟩
theorem keep18 (r : Ref sig .tc) (hr : r ∉ wrote18) (W : Valuation τ sig (Elt Ideal)) :
    after (c18 (F := Ideal)) W (Proc.devRef .tc r) = W (Proc.devRef .tc r) :=
  after_of_writes_sub _ W c18_writes hr

/-- The references list 19 writes, in order. -/
noncomputable def wrote19 : List (Ref sig .tc) := [main_v250, main_v251, main_v252, main_cst_48, main_v253, main_v254, main_cst_49, main_v255, main_v256, main_v257, main_cst_50, main_call7_v0, main_call7_v1, main_v258, main_c_51, main_v259, main_v260, main_c_52, main_v261, main_v262, main_v263, main_v264, main_v265, main_v266, main_c_53, main_v267, main_v268, main_c_54, main_v269, main_v270, main_v271, main_v272, main_v273, main_v274]
theorem c19_writes : (c19 (F := Ideal)).Forall fun op => op.writes ⊆ ((wrote19).map (Proc.devRef (τ := τ) .tc)).toFinset :=
  ⟨sub_of_mem (y := main_v250) (by decide), sub_of_mem (y := main_v251) (by decide), sub_of_mem (y := main_v252) (by decide), sub_of_mem (y := main_cst_48) (by decide), sub_of_mem (y := main_v253) (by decide), sub_of_mem (y := main_v254) (by decide), sub_of_mem (y := main_cst_49) (by decide), sub_of_mem (y := main_v255) (by decide), sub_of_mem (y := main_v256) (by decide), sub_of_mem (y := main_v257) (by decide), sub_of_mem (y := main_cst_50) (by decide), sub_of_mem (y := main_call7_v0) (by decide), sub_of_mem (y := main_call7_v1) (by decide), sub_of_mem (y := main_v258) (by decide), sub_of_mem (y := main_c_51) (by decide), sub_of_mem (y := main_v259) (by decide), sub_of_mem (y := main_v260) (by decide), sub_of_mem (y := main_c_52) (by decide), sub_of_mem (y := main_v261) (by decide), sub_of_mem (y := main_v262) (by decide), sub_of_mem (y := main_v263) (by decide), sub_of_mem (y := main_v264) (by decide), sub_of_mem (y := main_v265) (by decide), sub_of_mem (y := main_v266) (by decide), sub_of_mem (y := main_c_53) (by decide), sub_of_mem (y := main_v267) (by decide), sub_of_mem (y := main_v268) (by decide), sub_of_mem (y := main_c_54) (by decide), sub_of_mem (y := main_v269) (by decide), sub_of_mem (y := main_v270) (by decide), sub_of_mem (y := main_v271) (by decide), sub_of_mem (y := main_v272) (by decide), sub_of_mem (y := main_v273) (by decide), sub_of_mem (y := main_v274) (by decide)⟩
theorem keep19 (r : Ref sig .tc) (hr : r ∉ wrote19) (W : Valuation τ sig (Elt Ideal)) :
    after (c19 (F := Ideal)) W (Proc.devRef .tc r) = W (Proc.devRef .tc r) :=
  after_of_writes_sub _ W c19_writes hr

/-- The references list 20 writes, in order. -/
noncomputable def wrote20 : List (Ref sig .tc) := [main_c_55, main_v275, main_v276, main_c_56, main_v277, main_v278, main_v279, main_v280, main_v281, main_v282, main_v283, main_v284, main_cst_57, main_v285, main_v286, main_v287, main_v288, main_v289, main_v290]
theorem c20_writes : (c20 (F := Ideal)).Forall fun op => op.writes ⊆ ((wrote20).map (Proc.devRef (τ := τ) .tc)).toFinset :=
  ⟨sub_of_mem (y := main_c_55) (by decide), sub_of_mem (y := main_v275) (by decide), sub_of_mem (y := main_v276) (by decide), sub_of_mem (y := main_c_56) (by decide), sub_of_mem (y := main_v277) (by decide), sub_of_mem (y := main_v278) (by decide), sub_of_mem (y := main_v279) (by decide), sub_of_mem (y := main_v280) (by decide), sub_of_mem (y := main_v281) (by decide), sub_of_mem (y := main_v282) (by decide), sub_of_mem (y := main_v283) (by decide), sub_of_mem (y := main_v284) (by decide), sub_of_mem (y := main_cst_57) (by decide), sub_of_mem (y := main_v285) (by decide), sub_of_mem (y := main_v286) (by decide), sub_of_mem (y := main_v287) (by decide), sub_of_mem (y := main_v288) (by decide), sub_of_mem (y := main_v289) (by decide), sub_of_mem (y := main_v290) (by decide)⟩
theorem keep20 (r : Ref sig .tc) (hr : r ∉ wrote20) (W : Valuation τ sig (Elt Ideal)) :
    after (c20 (F := Ideal)) W (Proc.devRef .tc r) = W (Proc.devRef .tc r) :=
  after_of_writes_sub _ W c20_writes hr

/-- The whole program's fold is the twenty-one lists' folds, one after the other. -/
theorem ops_after (V : Valuation τ sig (Elt Ideal)) :
    after (ops (F := Ideal)) V = after (c20 (F := Ideal)) (after (c19 (F := Ideal)) (after (c18 (F := Ideal)) (after (c17 (F := Ideal)) (after (c16 (F := Ideal)) (after (c15 (F := Ideal)) (after (c14 (F := Ideal)) (after (c13 (F := Ideal)) (after (c12 (F := Ideal)) (after (c11 (F := Ideal)) (after (c10 (F := Ideal)) (after (c9 (F := Ideal)) (after (c8 (F := Ideal)) (after (c7 (F := Ideal)) (after (c6 (F := Ideal)) (after (c5 (F := Ideal)) (after (c4 (F := Ideal)) (after (c3 (F := Ideal)) (after (c2 (F := Ideal)) (after (c1 (F := Ideal)) (after (c0 (F := Ideal)) (V))))))))))))))))))))) := by
  unfold ops P0 P1 P2 P3 P4 P5
  simp only [after_append]

/-- A reference no list writes holds after the whole program what it held before. -/
theorem keep_all (r : Ref sig .tc)
    (h0 : r ∉ wrote0) (h1 : r ∉ wrote1) (h2 : r ∉ wrote2) (h3 : r ∉ wrote3) (h4 : r ∉ wrote4) (h5 : r ∉ wrote5) (h6 : r ∉ wrote6) (h7 : r ∉ wrote7) (h8 : r ∉ wrote8) (h9 : r ∉ wrote9) (h10 : r ∉ wrote10) (h11 : r ∉ wrote11) (h12 : r ∉ wrote12) (h13 : r ∉ wrote13) (h14 : r ∉ wrote14) (h15 : r ∉ wrote15) (h16 : r ∉ wrote16) (h17 : r ∉ wrote17) (h18 : r ∉ wrote18) (h19 : r ∉ wrote19) (h20 : r ∉ wrote20)
    (V : Valuation τ sig (Elt Ideal)) : after (ops (F := Ideal)) V (Proc.devRef .tc r) = V (Proc.devRef .tc r) := by
  rw [ops_after, keep20 r h20, keep19 r h19, keep18 r h18, keep17 r h17, keep16 r h16, keep15 r h15, keep14 r h14, keep13 r h13, keep12 r h12, keep11 r h11, keep10 r h10, keep9 r h9, keep8 r h8, keep7 r h7, keep6 r h6, keep5 r h5, keep4 r h4, keep3 r h3, keep2 r h2, keep1 r h1, keep0 r h0]

/-- The composition, over NAMED contents: R(k+1) is what list k leaves from Rk. Every stage reads what an earlier
    stage left and the lists in between kept; the three graph arrays are written once, by list 1, and the four
    normalisations are the same function of them. -/
theorem value_of (V R1 R2 R3 R4 R5 R6 R7 R8 R9 R10 R11 R12 R13 R14 R15 R16 R17 R18 R19 R20 R21 : Valuation τ sig (Elt Ideal))
    (e1 : after (c0 (F := Ideal)) V = R1)
    (e2 : after (c1 (F := Ideal)) R1 = R2)
    (e3 : after (c2 (F := Ideal)) R2 = R3)
    (e4 : after (c3 (F := Ideal)) R3 = R4)
    (e5 : after (c4 (F := Ideal)) R4 = R5)
    (e6 : after (c5 (F := Ideal)) R5 = R6)
    (e7 : after (c6 (F := Ideal)) R6 = R7)
    (e8 : after (c7 (F := Ideal)) R7 = R8)
    (e9 : after (c8 (F := Ideal)) R8 = R9)
    (e10 : after (c9 (F := Ideal)) R9 = R10)
    (e11 : after (c10 (F := Ideal)) R10 = R11)
    (e12 : after (c11 (F := Ideal)) R11 = R12)
    (e13 : after (c12 (F := Ideal)) R12 = R13)
    (e14 : after (c13 (F := Ideal)) R13 = R14)
    (e15 : after (c14 (F := Ideal)) R14 = R15)
    (e16 : after (c15 (F := Ideal)) R15 = R16)
    (e17 : after (c16 (F := Ideal)) R16 = R17)
    (e18 : after (c17 (F := Ideal)) R17 = R18)
    (e19 : after (c18 (F := Ideal)) R18 = R19)
    (e20 : after (c19 (F := Ideal)) R19 = R20)
    (e21 : after (c20 (F := Ideal)) R20 = R21) :
    R21 (Proc.devRef .tc main_v290) = Cert.Stage.network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  generalize hA0 : V (Proc.devRef .tc main_arg0) = x
  generalize hA1 : V (Proc.devRef .tc main_arg1) = ew
  generalize hA2 : V (Proc.devRef .tc main_arg2) = w1
  generalize hA3 : V (Proc.devRef .tc main_arg3) = b1
  generalize hA4 : V (Proc.devRef .tc main_arg4) = w2
  generalize hA5 : V (Proc.devRef .tc main_arg5) = b2
  generalize hA6 : V (Proc.devRef .tc main_arg6) = cw
  generalize hA7 : V (Proc.devRef .tc main_arg7) = cb
  generalize hA8 : V (Proc.devRef .tc main_arg8) = lw
  generalize hA9 : V (Proc.devRef .tc main_arg9) = lb
  generalize hA10 : V (Proc.devRef .tc main_arg10) = g
  generalize hA11 : V (Proc.devRef .tc main_arg11) = b
  generalize hA12 : V (Proc.devRef .tc main_arg12) = ei
  -- list k leaves what it does not write
  have K1 : ∀ r, r ∉ wrote0 → R1 (no_index (Proc.devRef .tc r)) = V (Proc.devRef .tc r) := fun r hr => by rw [← e1]; exact keep0 r hr V
  have K2 : ∀ r, r ∉ wrote1 → R2 (no_index (Proc.devRef .tc r)) = R1 (Proc.devRef .tc r) := fun r hr => by rw [← e2]; exact keep1 r hr R1
  have K3 : ∀ r, r ∉ wrote2 → R3 (no_index (Proc.devRef .tc r)) = R2 (Proc.devRef .tc r) := fun r hr => by rw [← e3]; exact keep2 r hr R2
  have K4 : ∀ r, r ∉ wrote3 → R4 (no_index (Proc.devRef .tc r)) = R3 (Proc.devRef .tc r) := fun r hr => by rw [← e4]; exact keep3 r hr R3
  have K5 : ∀ r, r ∉ wrote4 → R5 (no_index (Proc.devRef .tc r)) = R4 (Proc.devRef .tc r) := fun r hr => by rw [← e5]; exact keep4 r hr R4
  have K6 : ∀ r, r ∉ wrote5 → R6 (no_index (Proc.devRef .tc r)) = R5 (Proc.devRef .tc r) := fun r hr => by rw [← e6]; exact keep5 r hr R5
  have K7 : ∀ r, r ∉ wrote6 → R7 (no_index (Proc.devRef .tc r)) = R6 (Proc.devRef .tc r) := fun r hr => by rw [← e7]; exact keep6 r hr R6
  have K8 : ∀ r, r ∉ wrote7 → R8 (no_index (Proc.devRef .tc r)) = R7 (Proc.devRef .tc r) := fun r hr => by rw [← e8]; exact keep7 r hr R7
  have K9 : ∀ r, r ∉ wrote8 → R9 (no_index (Proc.devRef .tc r)) = R8 (Proc.devRef .tc r) := fun r hr => by rw [← e9]; exact keep8 r hr R8
  have K10 : ∀ r, r ∉ wrote9 → R10 (no_index (Proc.devRef .tc r)) = R9 (Proc.devRef .tc r) := fun r hr => by rw [← e10]; exact keep9 r hr R9
  have K11 : ∀ r, r ∉ wrote10 → R11 (no_index (Proc.devRef .tc r)) = R10 (Proc.devRef .tc r) := fun r hr => by rw [← e11]; exact keep10 r hr R10
  have K12 : ∀ r, r ∉ wrote11 → R12 (no_index (Proc.devRef .tc r)) = R11 (Proc.devRef .tc r) := fun r hr => by rw [← e12]; exact keep11 r hr R11
  have K13 : ∀ r, r ∉ wrote12 → R13 (no_index (Proc.devRef .tc r)) = R12 (Proc.devRef .tc r) := fun r hr => by rw [← e13]; exact keep12 r hr R12
  have K14 : ∀ r, r ∉ wrote13 → R14 (no_index (Proc.devRef .tc r)) = R13 (Proc.devRef .tc r) := fun r hr => by rw [← e14]; exact keep13 r hr R13
  have K15 : ∀ r, r ∉ wrote14 → R15 (no_index (Proc.devRef .tc r)) = R14 (Proc.devRef .tc r) := fun r hr => by rw [← e15]; exact keep14 r hr R14
  have K16 : ∀ r, r ∉ wrote15 → R16 (no_index (Proc.devRef .tc r)) = R15 (Proc.devRef .tc r) := fun r hr => by rw [← e16]; exact keep15 r hr R15
  have K17 : ∀ r, r ∉ wrote16 → R17 (no_index (Proc.devRef .tc r)) = R16 (Proc.devRef .tc r) := fun r hr => by rw [← e17]; exact keep16 r hr R16
  have K18 : ∀ r, r ∉ wrote17 → R18 (no_index (Proc.devRef .tc r)) = R17 (Proc.devRef .tc r) := fun r hr => by rw [← e18]; exact keep17 r hr R17
  have K19 : ∀ r, r ∉ wrote18 → R19 (no_index (Proc.devRef .tc r)) = R18 (Proc.devRef .tc r) := fun r hr => by rw [← e19]; exact keep18 r hr R18
  have K20 : ∀ r, r ∉ wrote19 → R20 (no_index (Proc.devRef .tc r)) = R19 (Proc.devRef .tc r) := fun r hr => by rw [← e20]; exact keep19 r hr R19
  -- every stage, over the named contents
  have S_pre := RefStages.pre V; rw [e1] at S_pre
  have S_src := RefStages.prep_src R1; rw [e2] at S_src
  have S_dst := RefStages.prep_dst R1; rw [e2] at S_dst
  have S_w := RefStages.prep_w R1; rw [e2] at S_w
  have S_w0 := RefStages.prep_w0 R1; rw [e2] at S_w0
  have S_b0 := RefStages.prep_b0 R1; rw [e2] at S_b0
  have S_lin0 := RefStages.lin0 R2; rw [e3] at S_lin0
  have S_norm1 := RefStages.norm1 R3; rw [e4] at S_norm1
  have S_agg0 := RefStages.agg0 R4; rw [e5, e6] at S_agg0
  have S_bn0 := RefStages.bn0 R6; rw [e7] at S_bn0
  have S_lin1 := RefStages.lin1 R7; rw [e8] at S_lin1
  have S_bias1 := RefStages.bias1 R7; rw [e8] at S_bias1
  have S_norm2 := RefStages.norm2 R8; rw [e9, e10] at S_norm2
  have S_agg1 := RefStages.agg1 R10; rw [e11] at S_agg1
  have S_bn1 := RefStages.bn1 R11; rw [e12, e13] at S_bn1
  have S_lin2 := RefStages.lin2 R13; rw [e14] at S_lin2
  have S_bias2 := RefStages.bias2 R13; rw [e14] at S_bias2
  have S_norm3 := RefStages.norm3 R14; rw [e15, e16] at S_norm3
  have S_agg2 := RefStages.agg2 R16; rw [e17] at S_agg2
  have S_bn2 := RefStages.bn2 R17; rw [e18] at S_bn2
  have S_lin3 := RefStages.lin3 R18; rw [e19] at S_lin3
  have S_norm4 := RefStages.norm4 R18; rw [e19, e20] at S_norm4
  have S_agg3 := RefStages.agg3 R20; rw [e21] at S_agg3
  -- the three graph arrays, written once
  have Gs : R2 (Proc.devRef .tc main_v12) = Cert.Stage.srcOf ei := by simp (disch := decide) only [S_src, K1, hA12]
  have Gd : R2 (Proc.devRef .tc main_v15) = Cert.Stage.dstOf ei := by simp (disch := decide) only [S_dst, K1, hA12]
  have Gw : R2 (Proc.devRef .tc main_v17) = Cert.Stage.weightsOf ew := by simp (disch := decide) only [S_w, K1, hA1]
  -- the activation before the first convolution
  have H0 : R1 (Proc.devRef .tc main_v8) = Cert.Stage.hidden0 x w1 b1 w2 b2 := by
    rw [Cert.Stage.hidden0]; simp only [S_pre, hA0, hA1, hA2, hA3, hA4, hA5, hA6, hA7, hA8, hA9, hA10, hA11, hA12]
  -- the three hidden activations, each from the one before
  have H1 : R7 (Proc.devRef .tc main_v94) = Cert.Stage.hidden1 x ew w1 b1 w2 b2 cw cb g b ei := by
    rw [Cert.Stage.hidden1, Cert.Stage.conv]
    simp (disch := decide) only [S_bn0, S_agg0, S_norm1, S_lin0, S_w0, S_b0, K1, K2, K3, K4, K5, K6, K7, K8, K9, K10, K11, K12, K13, K14, K15, K16, K17, K18, K19, K20, H0, Gs, Gd, Gw, hA0, hA1, hA2, hA3, hA4, hA5, hA6, hA7, hA8, hA9, hA10, hA11, hA12]
  have H2 : R13 (Proc.devRef .tc main_v171) = Cert.Stage.hidden2 x ew w1 b1 w2 b2 cw cb g b ei := by
    rw [Cert.Stage.hidden2, Cert.Stage.conv]
    simp (disch := decide) only [S_bn1, S_agg1, S_norm2, S_lin1, S_bias1, K1, K2, K3, K4, K5, K6, K7, K8, K9, K10, K11, K12, K13, K14, K15, K16, K17, K18, K19, K20, H1, Gs, Gd, Gw, hA0, hA1, hA2, hA3, hA4, hA5, hA6, hA7, hA8, hA9, hA10, hA11, hA12]
  have H3 : R18 (Proc.devRef .tc main_v248) = Cert.Stage.hidden3 x ew w1 b1 w2 b2 cw cb g b ei := by
    rw [Cert.Stage.hidden3, Cert.Stage.conv]
    simp (disch := decide) only [S_bn2, S_agg2, S_norm3, S_lin2, S_bias2, K1, K2, K3, K4, K5, K6, K7, K8, K9, K10, K11, K12, K13, K14, K15, K16, K17, K18, K19, K20, H2, Gs, Gd, Gw, hA0, hA1, hA2, hA3, hA4, hA5, hA6, hA7, hA8, hA9, hA10, hA11, hA12]
  -- the result: the fourth convolution
  rw [Cert.Stage.network, Cert.Stage.conv]
  simp (disch := decide) only [S_agg3, S_norm4, S_lin3, K1, K2, K3, K4, K5, K6, K7, K8, K9, K10, K11, K12, K13, K14, K15, K16, K17, K18, K19, K20, H3, Gs, Gd, Gw, hA0, hA1, hA2, hA3, hA4, hA5, hA6, hA7, hA8, hA9, hA10, hA11, hA12]

/-- The result: the network of the thirteen argument arrays. -/
theorem value (V : Valuation τ sig (Elt Ideal)) :
    after (ops (F := Ideal)) V (Proc.devRef .tc main_v290)
      = Cert.Stage.network (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_after]
  exact value_of V _ _ _ _ _ _ _ _ _ _ _ _ _ _ _ _ _ _ _ _ _ rfl rfl rfl rfl rfl rfl rfl rfl rfl rfl rfl rfl rfl rfl rfl rfl rfl rfl rfl rfl rfl

theorem arg0_kept (V : Valuation τ sig (Elt Ideal)) : after (ops (F := Ideal)) V (Proc.devRef .tc main_arg0) = V (Proc.devRef .tc main_arg0) := by
  exact keep_all main_arg0 (by decide) (by decide) (by decide) (by decide) (by decide) (by decide) (by decide) (by decide) (by decide) (by decide) (by decide) (by decide) (by decide) (by decide) (by decide) (by decide) (by decide) (by decide) (by decide) (by decide) (by decide) V
theorem arg1_kept (V : Valuation τ sig (Elt Ideal)) : after (ops (F := Ideal)) V (Proc.devRef .tc main_arg1) = V (Proc.devRef .tc main_arg1) := by
  exact keep_all main_arg1 (by decide) (by decide) (by decide) (by decide) (by decide) (by decide) (by decide) (by decide) (by decide) (by decide) (by decide) (by decide) (by decide) (by decide) (by decide) (by decide) (by decide) (by decide) (by decide) (by decide) (by decide) V
theorem arg2_kept (V : Valuation τ sig (Elt Ideal)) : after (ops (F := Ideal)) V (Proc.devRef .tc main_arg2) = V (Proc.devRef .tc main_arg2) := by
  exact keep_all main_arg2 (by decide) (by decide) (by decide) (by decide) (by decide) (by decide) (by decide) (by decide) (by decide) (by decide) (by decide) (by decide) (by decide) (by decide) (by decide) (by decide) (by decide) (by decide) (by decide) (by decide) (by decide) V
theorem arg3_kept (V : Valuation τ sig (Elt Ideal)) : after (ops (F := Ideal)) V (Proc.devRef .tc main_arg3) = V (Proc.devRef .tc main_arg3) := by
  exact keep_all main_arg3 (by decide) (by decide) (by decide) (by decide) (by decide) (by decide) (by decide) (by decide) (by decide) (by decide) (by decide) (by decide) (by decide) (by decide) (by decide) (by decide) (by decide) (by decide) (by decide) (by decide) (by decide) V
theorem arg4_kept (V : Valuation τ sig (Elt Ideal)) : after (ops (F := Ideal)) V (Proc.devRef .tc main_arg4) = V (Proc.devRef .tc main_arg4) := by
  exact keep_all main_arg4 (by decide) (by decide) (by decide) (by decide) (by decide) (by decide) (by decide) (by decide) (by decide) (by decide) (by decide) (by decide) (by decide) (by decide) (by decide) (by decide) (by decide) (by decide) (by decide) (by decide) (by decide) V
theorem arg5_kept (V : Valuation τ sig (Elt Ideal)) : after (ops (F := Ideal)) V (Proc.devRef .tc main_arg5) = V (Proc.devRef .tc main_arg5) := by
  exact keep_all main_arg5 (by decide) (by decide) (by decide) (by decide) (by decide) (by decide) (by decide) (by decide) (by decide) (by decide) (by decide) (by decide) (by decide) (by decide) (by decide) (by decide) (by decide) (by decide) (by decide) (by decide) (by decide) V
theorem arg6_kept (V : Valuation τ sig (Elt Ideal)) : after (ops (F := Ideal)) V (Proc.devRef .tc main_arg6) = V (Proc.devRef .tc main_arg6) := by
  exact keep_all main_arg6 (by decide) (by decide) (by decide) (by decide) (by decide) (by decide) (by decide) (by decide) (by decide) (by decide) (by decide) (by decide) (by decide) (by decide) (by decide) (by decide) (by decide) (by decide) (by decide) (by decide) (by decide) V
theorem arg7_kept (V : Valuation τ sig (Elt Ideal)) : after (ops (F := Ideal)) V (Proc.devRef .tc main_arg7) = V (Proc.devRef .tc main_arg7) := by
  exact keep_all main_arg7 (by decide) (by decide) (by decide) (by decide) (by decide) (by decide) (by decide) (by decide) (by decide) (by decide) (by decide) (by decide) (by decide) (by decide) (by decide) (by decide) (by decide) (by decide) (by decide) (by decide) (by decide) V
theorem arg8_kept (V : Valuation τ sig (Elt Ideal)) : after (ops (F := Ideal)) V (Proc.devRef .tc main_arg8) = V (Proc.devRef .tc main_arg8) := by
  exact keep_all main_arg8 (by decide) (by decide) (by decide) (by decide) (by decide) (by decide) (by decide) (by decide) (by decide) (by decide) (by decide) (by decide) (by decide) (by decide) (by decide) (by decide) (by decide) (by decide) (by decide) (by decide) (by decide) V
theorem arg9_kept (V : Valuation τ sig (Elt Ideal)) : after (ops (F := Ideal)) V (Proc.devRef .tc main_arg9) = V (Proc.devRef .tc main_arg9) := by
  exact keep_all main_arg9 (by decide) (by decide) (by decide) (by decide) (by decide) (by decide) (by decide) (by decide) (by decide) (by decide) (by decide) (by decide) (by decide) (by decide) (by decide) (by decide) (by decide) (by decide) (by decide) (by decide) (by decide) V
theorem arg10_kept (V : Valuation τ sig (Elt Ideal)) : after (ops (F := Ideal)) V (Proc.devRef .tc main_arg10) = V (Proc.devRef .tc main_arg10) := by
  exact keep_all main_arg10 (by decide) (by decide) (by decide) (by decide) (by decide) (by decide) (by decide) (by decide) (by decide) (by decide) (by decide) (by decide) (by decide) (by decide) (by decide) (by decide) (by decide) (by decide) (by decide) (by decide) (by decide) V
theorem arg11_kept (V : Valuation τ sig (Elt Ideal)) : after (ops (F := Ideal)) V (Proc.devRef .tc main_arg11) = V (Proc.devRef .tc main_arg11) := by
  exact keep_all main_arg11 (by decide) (by decide) (by decide) (by decide) (by decide) (by decide) (by decide) (by decide) (by decide) (by decide) (by decide) (by decide) (by decide) (by decide) (by decide) (by decide) (by decide) (by decide) (by decide) (by decide) (by decide) V
theorem arg12_kept (V : Valuation τ sig (Elt Ideal)) : after (ops (F := Ideal)) V (Proc.devRef .tc main_arg12) = V (Proc.devRef .tc main_arg12) := by
  exact keep_all main_arg12 (by decide) (by decide) (by decide) (by decide) (by decide) (by decide) (by decide) (by decide) (by decide) (by decide) (by decide) (by decide) (by decide) (by decide) (by decide) (by decide) (by decide) (by decide) (by decide) (by decide) (by decide) V

end Cert.ReferenceIdeal.RefValue

end
-- ==== Proof.lean ====
/-
  The kernel and the reference compute one network: two affine layers, then three graph convolutions each followed by a
  normalisation over the 100000 rows, a clipped residual step and the next linear map, then a last convolution.
  The kernel runs the dense parts in seven regions over blocks of 10000 rows (the affine layers and the first linear
  map; per layer the column sums of squares, block by block, and the normalisation with the next linear map) and the
  graph parts on the host; the reference runs everything on the host. At the exact extended reals each region's
  blocks are the blocks of ONE function of whole arrays, the very function the reference's host operations compute
  (a product into a zero accumulator is the host's product; a one-row array laid along the rows is the vector laid
  along the rows), the ten block sums of squares add up to the sum over all rows (a sum regrouped: no finiteness is
  used), and the graph operations are the same operations of the same operands on both sides. So both result arrays
  are `Cert.Stage.network` of the thirteen argument arrays, which agree. The ideal pass rewrote nothing, so the
  idealization claim is `True`; the three frames are the generated frame proofs and the reference's run.
-/
import proofs.«430702_j48747878810191_4_alg».proof.Defs
import proofs.«430702_j48747878810191_4_alg».proof.Proof.Gen.Kernel
import proofs.«430702_j48747878810191_4_alg».proof.Proof.Gen.Kernel.Skeleton
import proofs.«430702_j48747878810191_4_alg».proof.Proof.Gen.Kernel.Launch
import proofs.«430702_j48747878810191_4_alg».proof.Proof.Gen.Kernel.Points
import proofs.«430702_j48747878810191_4_alg».proof.Proof.Gen.Kernel.Frame
import proofs.«430702_j48747878810191_4_alg».proof.Proof.Gen.KernelIdeal
import proofs.«430702_j48747878810191_4_alg».proof.Proof.Gen.KernelIdeal.Skeleton
import proofs.«430702_j48747878810191_4_alg».proof.Proof.Gen.KernelIdeal.Launch
import proofs.«430702_j48747878810191_4_alg».proof.Proof.Gen.KernelIdeal.Points
import proofs.«430702_j48747878810191_4_alg».proof.Proof.Gen.KernelIdeal.Frame
import proofs.«430702_j48747878810191_4_alg».proof.Proof.Gen.ReferenceIdeal
import proofs.«430702_j48747878810191_4_alg».proof.Proof.Gen.Pre_finite_inputs
import proofs.«430702_j48747878810191_4_alg».proof.Proof.KernelRun
import proofs.«430702_j48747878810191_4_alg».proof.Proof.KernelValue
import proofs.«430702_j48747878810191_4_alg».proof.Proof.RefOps
import proofs.«430702_j48747878810191_4_alg».proof.Proof.RefValue
import Idealize.ShloMosaic.Adequacy
import Idealize.ShloMosaic.Init

noncomputable section

namespace Cert.Proof

open Idealize.ShloMosaic Idealize.ShloMosaic.TcCoe Idealize.SL.Sem

/-- The network of equal arguments is equal. -/
theorem network_congr {a0 b0 : Cert.Stage.Act} {a1 b1 : FVec Ideal Cert.ReferenceIdeal.S1600000 .f32} {a2 b2 : Cert.Stage.Wt} {a3 b3 : Cert.Stage.Vc} {a4 b4 : Cert.Stage.Wt} {a5 b5 : Cert.Stage.Vc} {a6 b6 : FVec Ideal Cert.ReferenceIdeal.S3x128x128 .f32} {a7 b7 : FVec Ideal Cert.ReferenceIdeal.S3x128 .f32} {a8 b8 : Cert.Stage.Wt} {a9 b9 : Cert.Stage.Vc} {a10 b10 : FVec Ideal Cert.ReferenceIdeal.S3x128 .f32} {a11 b11 : FVec Ideal Cert.ReferenceIdeal.S3x128 .f32} {a12 b12 : IVec Cert.ReferenceIdeal.S2x1600000 32}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) :
    Cert.Stage.network a0 a1 a2 a3 a4 a5 a6 a7 a8 a9 a10 a11 a12 = Cert.Stage.network b0 b1 b2 b3 b4 b5 b6 b7 b8 b9 b10 b11 b12 := by
  rw [h0, h1, h2, h3, h4, h5, h6, h7, h8, h9, h10, h11, h12]

/-- The reference's run: every weakly fair execution terminates without a fault, the result array ends at the network
    of the argument arrays as launched, and the arguments end unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v290)
          = Cert.Stage.network (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) :=
  (θ_run (Cert.ReferenceIdeal.defs (F := Ideal)) _ _).mono (fun r h c =>
    ⟨(h c Cert.ReferenceIdeal.main_v290).trans (Cert.ReferenceIdeal.RefValue.value _),
     (h c Cert.ReferenceIdeal.main_arg0).trans (Cert.ReferenceIdeal.RefValue.arg0_kept _),
     (h c Cert.ReferenceIdeal.main_arg1).trans (Cert.ReferenceIdeal.RefValue.arg1_kept _),
     (h c Cert.ReferenceIdeal.main_arg2).trans (Cert.ReferenceIdeal.RefValue.arg2_kept _),
     (h c Cert.ReferenceIdeal.main_arg3).trans (Cert.ReferenceIdeal.RefValue.arg3_kept _),
     (h c Cert.ReferenceIdeal.main_arg4).trans (Cert.ReferenceIdeal.RefValue.arg4_kept _),
     (h c Cert.ReferenceIdeal.main_arg5).trans (Cert.ReferenceIdeal.RefValue.arg5_kept _),
     (h c Cert.ReferenceIdeal.main_arg6).trans (Cert.ReferenceIdeal.RefValue.arg6_kept _),
     (h c Cert.ReferenceIdeal.main_arg7).trans (Cert.ReferenceIdeal.RefValue.arg7_kept _),
     (h c Cert.ReferenceIdeal.main_arg8).trans (Cert.ReferenceIdeal.RefValue.arg8_kept _),
     (h c Cert.ReferenceIdeal.main_arg9).trans (Cert.ReferenceIdeal.RefValue.arg9_kept _),
     (h c Cert.ReferenceIdeal.main_arg10).trans (Cert.ReferenceIdeal.RefValue.arg10_kept _),
     (h c Cert.ReferenceIdeal.main_arg11).trans (Cert.ReferenceIdeal.RefValue.arg11_kept _),
     (h c Cert.ReferenceIdeal.main_arg12).trans (Cert.ReferenceIdeal.RefValue.arg12_kept _)⟩)
    (Cert.ReferenceIdeal.Chunks.run_after (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run (Cert.ReferenceIdeal.defs (F := Ideal)) _ _).mono (fun _ h c => (h c).2) (ref_run m ρ)

/-- The ideal pass rewrote no operation. -/
theorem preserves : Cert.preserves_Kernel_KernelIdeal := trivial

/-- Both programs end with the network of the arguments in their result arrays, and the arguments agree. -/
theorem algebraic : Cert.algebraic_KernelIdeal_ReferenceIdeal := by
  intro m ρ m' ρ' _ hagree
  refine ⟨fun c => Cert.Stage.network (Cert.KernelIdeal.KValue.A0 m c) (Cert.KernelIdeal.KValue.A1 m c) (Cert.KernelIdeal.KValue.A2 m c) (Cert.KernelIdeal.KValue.A3 m c) (Cert.KernelIdeal.KValue.A4 m c) (Cert.KernelIdeal.KValue.A5 m c) (Cert.KernelIdeal.KValue.A6 m c) (Cert.KernelIdeal.KValue.A7 m c) (Cert.KernelIdeal.KValue.A8 m c) (Cert.KernelIdeal.KValue.A9 m c) (Cert.KernelIdeal.KValue.A10 m c) (Cert.KernelIdeal.KValue.A11 m c) (Cert.KernelIdeal.KValue.A12 m c), ?_, ?_⟩
  · exact (θ_run (Cert.KernelIdeal.defs (F := Ideal)) _ _).mono
      (fun r h c => ⟨(h c).1.trans (Cert.KernelIdeal.KValue.result_eq m ρ c), (h c).2⟩)
      (Cert.KernelIdeal.ResultRun.run_result (F := Ideal) m ρ)
  · exact (θ_run (Cert.ReferenceIdeal.defs (F := Ideal)) _ _).mono
      (fun r h c => ⟨(h c).1.trans (network_congr (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2), (h c).2⟩)
      (ref_run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
